-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x1024 : Shape := ⟨2, ![512, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel

variable [Facts]

def fn {F : FTy → Type} [FloatOps F] (main_arg0 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  main_v3
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Kernel.lean ====
abbrev S512x1024 : Shape := ⟨2, ![512, 1024]⟩
abbrev S1024x512 : Shape := ⟨2, ![1024, 512]⟩
abbrev S128x512 : Shape := ⟨2, ![128, 512]⟩
abbrev S_ : Shape := ⟨0, ![]⟩
abbrev S4 : Shape := ⟨1, ![4]⟩
abbrev S512x512 : Shape := ⟨2, ![512, 512]⟩
abbrev S1 : Shape := ⟨1, ![1]⟩
abbrev S32x512 : Shape := ⟨2, ![32, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .local _ .vmem, ⟨0, _⟩ => ⟨S128x512, .f32⟩
  | .local _ .vmem, ⟨1, _⟩ => ⟨S128x512, .f32⟩
  | _, _ => ⟨S512x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32 : BitVec 32 := 128#32
  let v18 : BitVec 32 := Scalar.muli v13 c128_i32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c512_i32 : BitVec 32 := 512#32
  let v19 : BitVec 32 := Scalar.muli v9 c512_i32
  ![v18.toNat, v19.toNat]
def k0_off2 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_11 : BitVec 32 := 512#32
  let v22 : BitVec 32 := Scalar.muli v5 c512_i32_11
  let c0_i32 : BitVec 32 := 0#32
  ![v22.toNat, 0]
def k0_off3 (d0 : Dev nD) : Fin 2 → Nat :=
  let c0_i32_12 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_10 : BitVec 32 := 512#32
  let v21 : BitVec 32 := Scalar.muli v5 c512_i32_10
  ![0, v21.toNat]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v26 : BitVec 32 := Scalar.muli v2 c4_i32_14
  let v27 : BitVec 32 := Scalar.addi c0_i32_15 v26
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v28 : BitVec 32 := Scalar.muli v9 c2_i32_16
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v30 : BitVec 32 := Scalar.muli v8 c1_i32_17
  let v31 : BitVec 32 := Scalar.addi v29 v30
  v31.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v32 : BitVec 32 := Scalar.muli v10 c4_i32_19
  let v33 : BitVec 32 := Scalar.addi c0_i32_20 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v34 : BitVec 32 := Scalar.muli v5 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v42 : BitVec 32 := Scalar.muli v11 c1_i32_27
  let v43 : BitVec 32 := Scalar.addi v41 v42
  v43.toNat
def k0_dev4 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v45 : BitVec 32 := Scalar.muli v2 c4_i32_30
  let v46 : BitVec 32 := Scalar.addi c0_i32_31 v45
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_32 : BitVec 32 := 2#32
  let v47 : BitVec 32 := Scalar.muli v9 c2_i32_32
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v49 : BitVec 32 := Scalar.muli v8 c1_i32_33
  let v50 : BitVec 32 := Scalar.addi v48 v49
  v50.toNat
def k0_dev5 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v57 : BitVec 32 := Scalar.muli v2 c4_i32_40
  let v58 : BitVec 32 := Scalar.addi c0_i32_41 v57
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_42 : BitVec 32 := 2#32
  let v59 : BitVec 32 := Scalar.muli v9 c2_i32_42
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v61 : BitVec 32 := Scalar.muli v8 c1_i32_43
  let v62 : BitVec 32 := Scalar.addi v60 v61
  v62.toNat
def k0_dev6 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v69 : BitVec 32 := Scalar.muli v2 c4_i32_49
  let v70 : BitVec 32 := Scalar.addi c0_i32_50 v69
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v71 : BitVec 32 := Scalar.muli v9 c2_i32_51
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v73 : BitVec 32 := Scalar.muli v8 c1_i32_52
  let v74 : BitVec 32 := Scalar.addi v72 v73
  v74.toNat
def k0_dev7 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v81 : BitVec 32 := Scalar.muli v2 c4_i32_58
  let v82 : BitVec 32 := Scalar.addi c0_i32_59 v81
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_60 : BitVec 32 := 2#32
  let v83 : BitVec 32 := Scalar.muli v9 c2_i32_60
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v85 : BitVec 32 := Scalar.muli v8 c1_i32_61
  let v86 : BitVec 32 := Scalar.addi v84 v85
  v86.toNat
def k0_off4 (d0 : Dev nD) (c0_i32_70 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_68 : BitVec 32 := 512#32
  let v96 : BitVec 32 := Scalar.muli v5 c512_i32_68
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_9 v8
  let v17 : BitVec 32 := Scalar.addi v15 v16
  let c128_i32_69 : BitVec 32 := 128#32
  let v97 : BitVec 32 := Scalar.muli v17 c128_i32_69
  let v98 : BitVec 32 := Scalar.addi v96 v97
  let v99 : BitVec 32 := Scalar.addi v98 c0_i32_70
  let c0_i32_77 : BitVec 32 := 0#32
  ![v99.toNat, 0]
def k0_off5 (d0 : Dev nD) (c0_i32_66 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_9 v8
  let v17 : BitVec 32 := Scalar.addi v15 v16
  let c128_i32_65 : BitVec 32 := 128#32
  let v93 : BitVec 32 := Scalar.muli v17 c128_i32_65
  let v94 : BitVec 32 := Scalar.addi v93 c0_i32_66
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c512_i32_67 : BitVec 32 := 512#32
  let v95 : BitVec 32 := Scalar.muli v9 c512_i32_67
  ![v94.toNat, v95.toNat]
def k0_dev8 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v100 : BitVec 32 := Scalar.muli v2 c4_i32_73
  let v101 : BitVec 32 := Scalar.addi c0_i32_74 v100
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_75 : BitVec 32 := 2#32
  let v102 : BitVec 32 := Scalar.muli v9 c2_i32_75
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v104 : BitVec 32 := Scalar.muli v8 c1_i32_76
  let v105 : BitVec 32 := Scalar.addi v103 v104
  v105.toNat
def k0_dev9 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v119 : BitVec 32 := Scalar.muli v2 c4_i32_86
  let v120 : BitVec 32 := Scalar.addi c0_i32_87 v119
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_88 : BitVec 32 := 2#32
  let v121 : BitVec 32 := Scalar.muli v9 c2_i32_88
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v123 : BitVec 32 := Scalar.muli v8 c1_i32_89
  let v124 : BitVec 32 := Scalar.addi v122 v123
  v124.toNat
def k0_dev10 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v138 : BitVec 32 := Scalar.muli v2 c4_i32_99
  let v139 : BitVec 32 := Scalar.addi c0_i32_100 v138
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_101 : BitVec 32 := 2#32
  let v140 : BitVec 32 := Scalar.muli v9 c2_i32_101
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v142 : BitVec 32 := Scalar.muli v8 c1_i32_102
  let v143 : BitVec 32 := Scalar.addi v141 v142
  v143.toNat
def k0_dev11 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v157 : BitVec 32 := Scalar.muli v2 c4_i32_112
  let v158 : BitVec 32 := Scalar.addi c0_i32_113 v157
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_114 : BitVec 32 := 2#32
  let v159 : BitVec 32 := Scalar.muli v9 c2_i32_114
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v161 : BitVec 32 := Scalar.muli v8 c1_i32_115
  let v162 : BitVec 32 := Scalar.addi v160 v161
  v162.toNat
def k0_off6 (d0 : Dev nD) (c0_i32_129 : BitVec 32) : Fin 2 → Nat :=
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c512_i32_127 : BitVec 32 := 512#32
  let v179 : BitVec 32 := Scalar.muli v9 c512_i32_127
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c128_i32_128 : BitVec 32 := 128#32
  let v180 : BitVec 32 := Scalar.muli v13 c128_i32_128
  let v181 : BitVec 32 := Scalar.addi v179 v180
  let v182 : BitVec 32 := Scalar.addi v181 c0_i32_129
  let c0_i32_136 : BitVec 32 := 0#32
  ![v182.toNat, 0]
def k0_dev12 (d0 : Dev nD) : Nat :=
  let c0_i32_133 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_132 : BitVec 32 := 4#32
  let v183 : BitVec 32 := Scalar.muli v10 c4_i32_132
  let v184 : BitVec 32 := Scalar.addi c0_i32_133 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_134 : BitVec 32 := 2#32
  let v185 : BitVec 32 := Scalar.muli v5 c2_i32_134
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v187 : BitVec 32 := Scalar.muli v8 c1_i32_135
  let v188 : BitVec 32 := Scalar.addi v186 v187
  v188.toNat
def k0_dev13 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_141 : BitVec 32 := 4#32
  let v195 : BitVec 32 := Scalar.muli v2 c4_i32_141
  let v196 : BitVec 32 := Scalar.addi c0_i32_142 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v197 : BitVec 32 := Scalar.muli v5 c2_i32_143
  let v198 : BitVec 32 := Scalar.addi v196 v197
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_144 : BitVec 32 := 1#32
  let v199 : BitVec 32 := Scalar.muli v11 c1_i32_144
  let v200 : BitVec 32 := Scalar.addi v198 v199
  v200.toNat
def k0_dev14 (d0 : Dev nD) : Nat :=
  let c0_i32_168 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_167 : BitVec 32 := 4#32
  let v225 : BitVec 32 := Scalar.muli v10 c4_i32_167
  let v226 : BitVec 32 := Scalar.addi c0_i32_168 v225
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v227 : BitVec 32 := Scalar.muli v5 c2_i32_169
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v229 : BitVec 32 := Scalar.muli v8 c1_i32_170
  let v230 : BitVec 32 := Scalar.addi v228 v229
  v230.toNat
def k0_dev15 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v237 : BitVec 32 := Scalar.muli v2 c4_i32_176
  let v238 : BitVec 32 := Scalar.addi c0_i32_177 v237
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_178 : BitVec 32 := 2#32
  let v239 : BitVec 32 := Scalar.muli v5 c2_i32_178
  let v240 : BitVec 32 := Scalar.addi v238 v239
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_179 : BitVec 32 := 1#32
  let v241 : BitVec 32 := Scalar.muli v11 c1_i32_179
  let v242 : BitVec 32 := Scalar.addi v240 v241
  v242.toNat
def k0_dev16 (d0 : Dev nD) : Nat :=
  let c0_i32_203 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_202 : BitVec 32 := 4#32
  let v267 : BitVec 32 := Scalar.muli v10 c4_i32_202
  let v268 : BitVec 32 := Scalar.addi c0_i32_203 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v269 : BitVec 32 := Scalar.muli v5 c2_i32_204
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_205 : BitVec 32 := 1#32
  let v271 : BitVec 32 := Scalar.muli v8 c1_i32_205
  let v272 : BitVec 32 := Scalar.addi v270 v271
  v272.toNat
def k0_dev17 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v279 : BitVec 32 := Scalar.muli v2 c4_i32_211
  let v280 : BitVec 32 := Scalar.addi c0_i32_212 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v281 : BitVec 32 := Scalar.muli v5 c2_i32_213
  let v282 : BitVec 32 := Scalar.addi v280 v281
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_214 : BitVec 32 := 1#32
  let v283 : BitVec 32 := Scalar.muli v11 c1_i32_214
  let v284 : BitVec 32 := Scalar.addi v282 v283
  v284.toNat
def k0_dev18 (d0 : Dev nD) : Nat :=
  let c0_i32_238 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_237 : BitVec 32 := 4#32
  let v309 : BitVec 32 := Scalar.muli v10 c4_i32_237
  let v310 : BitVec 32 := Scalar.addi c0_i32_238 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_239 : BitVec 32 := 2#32
  let v311 : BitVec 32 := Scalar.muli v5 c2_i32_239
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v313 : BitVec 32 := Scalar.muli v8 c1_i32_240
  let v314 : BitVec 32 := Scalar.addi v312 v313
  v314.toNat
def k0_dev19 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v321 : BitVec 32 := Scalar.muli v2 c4_i32_246
  let v322 : BitVec 32 := Scalar.addi c0_i32_247 v321
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v323 : BitVec 32 := Scalar.muli v5 c2_i32_248
  let v324 : BitVec 32 := Scalar.addi v322 v323
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_249 : BitVec 32 := 1#32
  let v325 : BitVec 32 := Scalar.muli v11 c1_i32_249
  let v326 : BitVec 32 := Scalar.addi v324 v325
  v326.toNat

class Facts₀ : Prop where
  hamt_1 : (1#32 : BitVec 32).msb = false
  hamt_3 : (3#32 : BitVec 32).msb = false
  inb_S4_S1_0 : ∀ a, (![0] : Fin 1 → Nat) a + S1.size a ≤ S4.size a
  squeezes_S1_S_ : S1.Squeezes S_
  inb_S128x512_S32x512_0_0 : ∀ a, (![0, 0] : Fin 2 → Nat) a + S32x512.size a ≤ S128x512.size a
  inb_S4_S1_1 : ∀ a, (![1] : Fin 1 → Nat) a + S1.size a ≤ S4.size a
  inb_S128x512_S32x512_32_0 : ∀ a, (![32, 0] : Fin 2 → Nat) a + S32x512.size a ≤ S128x512.size a
  inb_S4_S1_2 : ∀ a, (![2] : Fin 1 → Nat) a + S1.size a ≤ S4.size a
  inb_S128x512_S32x512_64_0 : ∀ a, (![64, 0] : Fin 2 → Nat) a + S32x512.size a ≤ S128x512.size a
  inb_S4_S1_3 : ∀ a, (![3] : Fin 1 → Nat) a + S1.size a ≤ S4.size a
  inb_S128x512_S32x512_96_0 : ∀ a, (![96, 0] : Fin 2 → Nat) a + S32x512.size a ≤ S128x512.size a
  hcc0_scratch2 : 0 + S_.numel ≤ 38
  hcc0_scratch3 : 1 + S_.numel ≤ 38
  hcc0_scratch4 : 2 + S4.numel ≤ 38
  hcc0_scratch5 : 6 + S4.numel ≤ 38
  hcc0_scratch6 : 10 + S4.numel ≤ 38
  hcc0_scratch7 : 14 + S4.numel ≤ 38
  hcc0_scratch8 : 18 + S4.numel ≤ 38
  hcc0_scratch9 : 22 + S4.numel ≤ 38
  hcc0_scratch10 : 26 + S4.numel ≤ 38
  hcc0_scratch11 : 30 + S4.numel ≤ 38
  hcc0_scratch12 : 34 + S4.numel ≤ 38
  k0_off1_inb : ∀ d0 : Dev nD, ∀ a, (k0_off1 d0) a + S128x512.size a ≤ S512x1024.size a
  k0_off2_inb : ∀ d0 : Dev nD, ∀ a, (k0_off2 d0) a + S512x512.size a ≤ S1024x512.size a
  k0_off3_inb : ∀ d0 : Dev nD, ∀ a, (k0_off3 d0) a + S512x512.size a ≤ S512x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off4_inb : ∀ d0 : Dev nD, ∀ (r : Fin 4), ∀ a, (k0_off4 d0 (BitVec.ofNat 32 (32 * r.val))) a + S32x512.size a ≤ S1024x512.size a
  k0_off5_inb : ∀ d0 : Dev nD, ∀ (r : Fin 4), ∀ a, (k0_off5 d0 (BitVec.ofNat 32 (32 * r.val))) a + S32x512.size a ≤ S512x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off6_inb : ∀ d0 : Dev nD, ∀ (r : Fin 4), ∀ a, (k0_off6 d0 (BitVec.ofNat 32 (32 * r.val))) a + S32x512.size a ≤ S1024x512.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S4 := SemArray.consecutive 2 S4 hcc0_scratch4
abbrev cc0_scratch5 : DmaSems sig S4 := SemArray.consecutive 6 S4 hcc0_scratch5
abbrev cc0_scratch6 : DmaSems sig S4 := SemArray.consecutive 10 S4 hcc0_scratch6
abbrev cc0_scratch7 : DmaSems sig S4 := SemArray.consecutive 14 S4 hcc0_scratch7
abbrev cc0_scratch8 : DmaSems sig S4 := SemArray.consecutive 18 S4 hcc0_scratch8
abbrev cc0_scratch9 : DmaSems sig S4 := SemArray.consecutive 22 S4 hcc0_scratch9
abbrev cc0_scratch10 : DmaSems sig S4 := SemArray.consecutive 26 S4 hcc0_scratch10
abbrev cc0_scratch11 : DmaSems sig S4 := SemArray.consecutive 30 S4 hcc0_scratch11
abbrev cc0_scratch12 : DmaSems sig S4 := SemArray.consecutive 34 S4 hcc0_scratch12

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.A2A.Proto.lean ====
/-
  An all-to-all over a 2 x 2 x 2 mesh, device `c = 4x + 2y + z`. Device `c` holds rows `[512y, 512y+512)` of a
  1024 x 1024 array and must end with columns `[512y, 512y+512)` of it. The half of the result it already has is one
  local copy. The other half is held by the devices across the `y` axis; it arrives in four quarters of 128 rows:
  quarter `q = 2x + z` is staged by the y-peer, sent here in four chunks of 32 rows into a landing buffer, and from
  there copied into the result and forwarded to the x-peer and the z-peer; quarter `3 - q` is sent by the y-peer
  straight into the result; the two remaining quarters are what the x-peer and the z-peer forward.
  This module fixes the protocol: the peers, the views every copy goes through, the semaphore cells, what each
  buffer holds at the end (`StageF`, `LandF`, `OutF`: pure functions of the initial memory), the schedule of the
  cells (one round each: the barrier cell three one-unit duties, one from each neighbour; every DMA cell one duty of
  its copy's credit, whose payload is the elements the copy wrote, at their final contents, or the source share it
  read), what a device owes at launch, and the levels that order the waits.
-/
import proofs.«900624_g7700000000000625_dist_a2a_v7x_xyz2x2x2_y_m512_n512_f32_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds of this protocol (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The three neighbours: across y, across x, across z -/

def yp (c : Dev nD) : Dev nD := ⟨k0_dev1 c, k0_dev1_lt c⟩
def xp (c : Dev nD) : Dev nD := ⟨k0_dev2 c, k0_dev2_lt c⟩
def zp (c : Dev nD) : Dev nD := ⟨k0_dev3 c, k0_dev3_lt c⟩

theorem yp_yp (c : Dev nD) : yp (yp c) = c := by revert c; decide +kernel
theorem xp_xp (c : Dev nD) : xp (xp c) = c := by revert c; decide +kernel
theorem zp_zp (c : Dev nD) : zp (zp c) = c := by revert c; decide +kernel
theorem yp_val (c : Dev nD) : (yp c).val = (4 * (c.val / 4) + (c.val % 2) + 2) - 2 * ((c.val / 2) % 2) := k0_dev1_eq c
theorem xp_val (c : Dev nD) : (xp c).val = (2 * ((c.val / 2) % 2) + (c.val % 2) + 4) - 4 * (c.val / 4) := k0_dev2_eq c
theorem zp_val (c : Dev nD) : (zp c).val = (4 * (c.val / 4) + 2 * ((c.val / 2) % 2) + 1) - (c.val % 2) := k0_dev3_eq c

/-- The kernel's `device_id` chains: the barrier signals name the three neighbours; the chunked sends across y
    (staged quarter, then direct quarter) name the y-peer; the forwards name the x-peer and the z-peer in turn. -/
theorem dev_y (c : Dev nD) :
    (⟨k0_dev4 c, k0_dev4_lt c⟩ : Dev nD) = yp c ∧ (⟨k0_dev5 c, k0_dev5_lt c⟩ : Dev nD) = yp c ∧ (⟨k0_dev6 c, k0_dev6_lt c⟩ : Dev nD) = yp c
    ∧ (⟨k0_dev7 c, k0_dev7_lt c⟩ : Dev nD) = yp c ∧ (⟨k0_dev8 c, k0_dev8_lt c⟩ : Dev nD) = yp c ∧ (⟨k0_dev9 c, k0_dev9_lt c⟩ : Dev nD) = yp c
    ∧ (⟨k0_dev10 c, k0_dev10_lt c⟩ : Dev nD) = yp c ∧ (⟨k0_dev11 c, k0_dev11_lt c⟩ : Dev nD) = yp c := by
  refine ⟨Fin.ext ?_, Fin.ext ?_, Fin.ext ?_, Fin.ext ?_, Fin.ext ?_, Fin.ext ?_, Fin.ext ?_, Fin.ext ?_⟩ <;> simp only [yp]
  · rw [k0_dev4_eq, k0_dev1_eq]
  · rw [k0_dev5_eq, k0_dev1_eq]
  · rw [k0_dev6_eq, k0_dev1_eq]
  · rw [k0_dev7_eq, k0_dev1_eq]
  · rw [k0_dev8_eq, k0_dev1_eq]
  · rw [k0_dev9_eq, k0_dev1_eq]
  · rw [k0_dev10_eq, k0_dev1_eq]
  · rw [k0_dev11_eq, k0_dev1_eq]
theorem dev_x (c : Dev nD) :
    (⟨k0_dev12 c, k0_dev12_lt c⟩ : Dev nD) = xp c ∧ (⟨k0_dev14 c, k0_dev14_lt c⟩ : Dev nD) = xp c
    ∧ (⟨k0_dev16 c, k0_dev16_lt c⟩ : Dev nD) = xp c ∧ (⟨k0_dev18 c, k0_dev18_lt c⟩ : Dev nD) = xp c := by
  refine ⟨Fin.ext ?_, Fin.ext ?_, Fin.ext ?_, Fin.ext ?_⟩ <;> simp only [xp]
  · rw [k0_dev12_eq, k0_dev2_eq]
  · rw [k0_dev14_eq, k0_dev2_eq]
  · rw [k0_dev16_eq, k0_dev2_eq]
  · rw [k0_dev18_eq, k0_dev2_eq]
theorem dev_z (c : Dev nD) :
    (⟨k0_dev13 c, k0_dev13_lt c⟩ : Dev nD) = zp c ∧ (⟨k0_dev15 c, k0_dev15_lt c⟩ : Dev nD) = zp c
    ∧ (⟨k0_dev17 c, k0_dev17_lt c⟩ : Dev nD) = zp c ∧ (⟨k0_dev19 c, k0_dev19_lt c⟩ : Dev nD) = zp c := by
  refine ⟨Fin.ext ?_, Fin.ext ?_, Fin.ext ?_, Fin.ext ?_⟩ <;> simp only [zp]
  · rw [k0_dev13_eq, k0_dev3_eq]
  · rw [k0_dev15_eq, k0_dev3_eq]
  · rw [k0_dev17_eq, k0_dev3_eq]
  · rw [k0_dev19_eq, k0_dev3_eq]

/-! ## The views the copies go through -/

abbrev xM : Memref sig .tc .hbm S512x1024 .f32 := Memref.whole main_arg0
abbrev oM : Memref sig .tc .hbm S1024x512 .f32 := Memref.whole main_v1
/-- The staging buffer (the quarter this device sends across y) and the landing buffer (the quarter it receives). -/
abbrev sM : Memref sig .tc .vmem S128x512 .f32 := Memref.whole cc0_scratch0
abbrev lM : Memref sig .tc .vmem S128x512 .f32 := Memref.whole cc0_scratch1

/-- The quarter `q` of the other column half of this device's rows: what it stages. -/
def xStage (c : Dev nD) : Memref sig .tc .hbm S128x512 .f32 :=
  xM.slice (Rect.unit (s := S512x1024) (k0_off1 c) S128x512.size (k0_off1_inb c)) (fun _ => rfl)
/-- Its own column half of its rows, and where that goes in the result. -/
def xLocal (c : Dev nD) : Memref sig .tc .hbm S512x512 .f32 :=
  xM.slice (Rect.unit (s := S512x1024) (k0_off3 c) S512x512.size (k0_off3_inb c)) (fun _ => rfl)
def oLocal (c : Dev nD) : Memref sig .tc .hbm S512x512 .f32 :=
  oM.slice (Rect.unit (s := S1024x512) (k0_off2 c) S512x512.size (k0_off2_inb c)) (fun _ => rfl)

/-- Chunk `k` of a 128-row buffer: rows `[32k, 32k+32)`. -/
def chOff (k : Fin 4) : Fin 2 → Nat := ![32 * k.val, 0]
theorem chOff_inb (k : Fin 4) : ∀ a, chOff k a + S32x512.size a ≤ S128x512.size a := by revert k; decide
def sCh (k : Fin 4) : Memref sig .tc .vmem S32x512 .f32 :=
  sM.slice (Rect.unit (s := S128x512) (chOff k) S32x512.size (chOff_inb k)) (fun _ => rfl)
def lCh (k : Fin 4) : Memref sig .tc .vmem S32x512 .f32 :=
  lM.slice (Rect.unit (s := S128x512) (chOff k) S32x512.size (chOff_inb k)) (fun _ => rfl)

/-- Chunk `k` of the quarter `3 - q` device `c` sends directly: its source in `c`'s rows, and its place in the
    result of the device it is sent to (computed from `c`'s own coordinates). -/
def xD (c : Dev nD) (k : Fin 4) : Memref sig .tc .hbm S32x512 .f32 :=
  xM.slice (Rect.unit (s := S512x1024) (k0_off5 c (BitVec.ofNat 32 (32 * k.val))) S32x512.size (k0_off5_inb c k)) (fun _ => rfl)
def oD (c : Dev nD) (k : Fin 4) : Memref sig .tc .hbm S32x512 .f32 :=
  oM.slice (Rect.unit (s := S1024x512) (k0_off4 c (BitVec.ofNat 32 (32 * k.val))) S32x512.size (k0_off4_inb c k)) (fun _ => rfl)
/-- Where chunk `k` of what device `c` has landed goes in a result — its own, its x-peer's and its z-peer's alike. -/
def oF (c : Dev nD) (k : Fin 4) : Memref sig .tc .hbm S32x512 .f32 :=
  oM.slice (Rect.unit (s := S1024x512) (k0_off6 c (BitVec.ofNat 32 (32 * k.val))) S32x512.size (k0_off6_inb c k)) (fun _ => rfl)

/-! ## The cells -/

abbrev dsem (i : Fin 38) : DmaSem sig := i
abbrev barS : Sem sig := (SemArray.scalar (sig.barrier 0 rfl) : Sems sig S_).sem

abbrev dcell (c : Dev nD) (i : Fin 38) : GSem nD τ sig := ((c : Thread nD τ), .dma (dsem i))
abbrev bcell (c : Dev nD) : GSem nD τ sig := ((c : Thread nD τ), .reg barS)

/-- The DMA semaphores by what they count: 0 the local half, 1 the staging copy, then by chunk `k`:
    the landing-to-result copy, the staged send across y (its departure, its arrival), the direct send across y,
    the forward across x, the forward across z. -/
abbrev iLocal : Fin 38 := 0
abbrev iStage : Fin 38 := 1
def iLand (k : Fin 4) : Fin 38 := ⟨2 + k.val, by omega⟩
def iYs (k : Fin 4) : Fin 38 := ⟨6 + k.val, by omega⟩
def iYr (k : Fin 4) : Fin 38 := ⟨10 + k.val, by omega⟩
def iDs (k : Fin 4) : Fin 38 := ⟨14 + k.val, by omega⟩
def iDr (k : Fin 4) : Fin 38 := ⟨18 + k.val, by omega⟩
def iXs (k : Fin 4) : Fin 38 := ⟨22 + k.val, by omega⟩
def iXr (k : Fin 4) : Fin 38 := ⟨26 + k.val, by omega⟩
def iZs (k : Fin 4) : Fin 38 := ⟨30 + k.val, by omega⟩
def iZr (k : Fin 4) : Fin 38 := ⟨34 + k.val, by omega⟩

/-- What a copy credits: the credit of its destination view. -/
abbrev A512 : ℕ := (oLocal 0).view.dmaCredit
abbrev A128 : ℕ := (sM : Memref sig .tc .vmem S128x512 .f32).view.dmaCredit
abbrev AL : ℕ := (lCh 0).view.dmaCredit
abbrev AO : ℕ := (oF 0 0).view.dmaCredit
theorem A512_pos : 0 < A512 := View.dmaCredit_pos _ (by decide)
theorem A128_pos : 0 < A128 := View.dmaCredit_pos _ (by decide)
theorem AL_pos : 0 < AL := View.dmaCredit_pos _ (by decide)
theorem AO_pos : 0 < AO := View.dmaCredit_pos _ (by decide)

def amt (i : Fin 38) : ℕ := if i.val = 0 then A512 else if i.val = 1 then A128 else if 6 ≤ i.val ∧ i.val < 14 then AL else AO
theorem amt_pos (i : Fin 38) : 0 < amt i := by
  unfold amt; split_ifs
  · exact A512_pos
  · exact A128_pos
  · exact AL_pos
  · exact AO_pos

/-! ## What the buffers hold at the end -/

/-- Device `c`'s rows, as launched. -/
def Xc (c : Dev nD) : (main_arg0 : Ref sig .tc).ty.Contents (Elt F) := m ((c : Thread nD τ).loc main_arg0)
/-- What it stages: its quarter `q` of the other column half. -/
def StageF (c : Dev nD) : (cc0_scratch0 : Ref sig .tc).ty.Contents (Elt F) := (xStage c).view.read (Elt F) (Xc m c)
/-- What lands with it: what its y-peer staged. -/
def LandF (c : Dev nD) : (cc0_scratch1 : Ref sig .tc).ty.Contents (Elt F) := StageF m (yp c)

/-- Which device's rows quarter `qq` of the far half of `c`'s result comes from: its own staged quarter and the
    opposite one from its y-peer; the x-peer's from the x-peer's y-peer; the z-peer's from the z-peer's y-peer. -/
def srcQ (c : Dev nD) (qq : ℕ) : Dev nD :=
  if qq = 2 * (c.val / 4) + c.val % 2 ∨ qq = 3 - (2 * (c.val / 4) + c.val % 2) then yp c
  else if qq = 2 * (1 - c.val / 4) + c.val % 2 then yp (xp c) else yp (zp c)

theorem row_lt (r : ℕ) : r % 512 < 512 := Nat.mod_lt _ (by decide)
theorem col_lt (c : Dev nD) (i : S1024x512.Idx) : 512 * ((c.val / 2) % 2) + (i 1).val < 1024 := by
  have h1 : (i 1).val < 512 := (i 1).isLt
  have h2 : (c.val / 2) % 2 < 2 := Nat.mod_lt _ (by decide)
  omega

/-- The result: row `r`, column `j` is row `r % 512`, column `512y + j` of the rows of the device that held it:
    this device for its own half, `srcQ` of the quarter for the other. -/
def OutF (c : Dev nD) : (main_v1 : Ref sig .tc).ty.Contents (Elt F) := fun i =>
  if (i 0).val / 512 = (c.val / 2) % 2 then
    Xc m c (ValueIdx.ix2 ⟨(i 0).val % 512, row_lt _⟩ ⟨512 * ((c.val / 2) % 2) + (i 1).val, col_lt c i⟩)
  else
    Xc m (srcQ c ((i 0).val % 512 / 128)) (ValueIdx.ix2 ⟨(i 0).val % 512, row_lt _⟩ ⟨512 * ((c.val / 2) % 2) + (i 1).val, col_lt c i⟩)

/-! ## Points-to through a view, on a device -/

/-- Share `q` of the elements of view `M` on device `c`, holding `f`. -/
def pts {sp : Space} {s : Shape} (c : Dev nD) (M : Memref sig .tc sp s .f32) (q : PosShare TreeShare)
    (f : Buf (Elt F) (M.view.loc (c : Thread nD τ))) : sProp 𝕄 :=
  M.view.loc (c : Thread nD τ) ↦[M.view.set]{q} f

omit [FloatOps F] in
instance pts_storable {sp : Space} {s : Shape} (c : Dev nD) (M : Memref sig .tc sp s .f32) (q : PosShare TreeShare)
    (f : Buf (Elt F) (M.view.loc (c : Thread nD τ))) : BI.Storable (upEmb : UEmb _ 𝕄) (pts (F := F) c M q f) := by
  unfold pts; infer_instance

/-- Four chunks side by side. -/
def sep4 (P : Fin 4 → sProp 𝕄) : sProp 𝕄 := iprop(P 0 ∗ P 1 ∗ P 2 ∗ P 3)

omit [FloatOps F] in
instance sep4_storable (P : Fin 4 → sProp 𝕄) [∀ k, BI.Storable (upEmb : UEmb _ 𝕄) (P k)] :
    BI.Storable (upEmb : UEmb _ 𝕄) (sep4 (F := F) P) := by unfold sep4; infer_instance

/-! ## The shares the readers of one source hold -/

/-- The three readers of a landed chunk: the forward across x, the forward across z, the copy into the result. -/
abbrev qX : PosShare TreeShare := fullShare.left
abbrev qZ : PosShare TreeShare := fullShare.right.left
abbrev qL : PosShare TreeShare := fullShare.right.right
/-- The four chunked readers of the staging buffer. -/
def q4 (k : Fin 4) : PosShare TreeShare :=
  match k with
  | ⟨0, _⟩ => fullShare.left.left | ⟨1, _⟩ => fullShare.left.right | ⟨2, _⟩ => fullShare.right.left | ⟨_ + 3, _⟩ => fullShare.right.right
/-- The readers of the argument rows: the local half, the staging copy, the four direct sends. -/
abbrev qXL : PosShare TreeShare := fullShare.left
abbrev qXS : PosShare TreeShare := fullShare.right.left
def qXD (k : Fin 4) : PosShare TreeShare :=
  match k with
  | ⟨0, _⟩ => fullShare.right.right.left.left | ⟨1, _⟩ => fullShare.right.right.left.right
  | ⟨2, _⟩ => fullShare.right.right.right.left | ⟨_ + 3, _⟩ => fullShare.right.right.right.right

/-! ## The schedule -/

/-- What a neighbour's entry signal hands device `c`: the elements of that neighbour's buffers `c` will write —
    from the y-peer (duty 0) its landing buffer by chunks and the quarter of its result `c` sends directly; from the
    x-peer (duty 1) and the z-peer (duty 2) the quarter of their result `c` forwards to. -/
def barPay (c : Dev nD) (d : Fin 3) : sProp 𝕄 :=
  match d with
  | ⟨0, _⟩ => iprop(sep4 (fun k => iprop(∃ f, pts (yp c) (lCh k) fullShare f)) ∗ sep4 (fun k => iprop(∃ f, pts (yp c) (oD c k) fullShare f)))
  | ⟨1, _⟩ => sep4 (fun k => iprop(∃ f, pts (xp c) (oF c k) fullShare f))
  | ⟨_ + 2, _⟩ => sep4 (fun k => iprop(∃ f, pts (zp c) (oF c k) fullShare f))

/-- What the completion counted on a DMA semaphore of device `c` hands it: the elements the copy wrote, at their
    final contents, and (for a copy it issued itself) the share of the source the copy read. By kind: -/
def localPay (c : Dev nD) : sProp 𝕄 := iprop(pts c (oLocal c) fullShare (OutF m c) ∗ pts c (xLocal c) qXL (Xc m c))
def stagePay (c : Dev nD) : sProp 𝕄 := iprop(pts c sM fullShare (StageF m c) ∗ pts c (xStage c) qXS (Xc m c))
def landPay (c : Dev nD) (k : Fin 4) : sProp 𝕄 := iprop(pts c (oF c k) fullShare (OutF m c) ∗ pts c (lCh k) qL (LandF m c))
def ysPay (c : Dev nD) (k : Fin 4) : sProp 𝕄 := pts c (sCh k) (q4 k) (StageF m c)
def yrPay (c : Dev nD) (k : Fin 4) : sProp 𝕄 := pts c (lCh k) fullShare (LandF m c)
def dsPay (c : Dev nD) (k : Fin 4) : sProp 𝕄 := pts c (xD c k) (qXD k) (Xc m c)
def drPay (c : Dev nD) (k : Fin 4) : sProp 𝕄 := pts c (oD (yp c) k) fullShare (OutF m c)
def xsPay (c : Dev nD) (k : Fin 4) : sProp 𝕄 := pts c (lCh k) qX (LandF m c)
def xrPay (c : Dev nD) (k : Fin 4) : sProp 𝕄 := pts c (oF (xp c) k) fullShare (OutF m c)
def zsPay (c : Dev nD) (k : Fin 4) : sProp 𝕄 := pts c (lCh k) qZ (LandF m c)
def zrPay (c : Dev nD) (k : Fin 4) : sProp 𝕄 := pts c (oF (zp c) k) fullShare (OutF m c)

/-- The table, semaphore by semaphore. -/
def dmaPay (c : Dev nD) (i : Fin 38) : sProp 𝕄 :=
  match i with
  | ⟨0, _⟩ => localPay m c
  | ⟨1, _⟩ => stagePay m c
  | ⟨2, _⟩ => landPay m c 0
  | ⟨3, _⟩ => landPay m c 1
  | ⟨4, _⟩ => landPay m c 2
  | ⟨5, _⟩ => landPay m c 3
  | ⟨6, _⟩ => ysPay m c 0
  | ⟨7, _⟩ => ysPay m c 1
  | ⟨8, _⟩ => ysPay m c 2
  | ⟨9, _⟩ => ysPay m c 3
  | ⟨10, _⟩ => yrPay m c 0
  | ⟨11, _⟩ => yrPay m c 1
  | ⟨12, _⟩ => yrPay m c 2
  | ⟨13, _⟩ => yrPay m c 3
  | ⟨14, _⟩ => dsPay m c 0
  | ⟨15, _⟩ => dsPay m c 1
  | ⟨16, _⟩ => dsPay m c 2
  | ⟨17, _⟩ => dsPay m c 3
  | ⟨18, _⟩ => drPay m c 0
  | ⟨19, _⟩ => drPay m c 1
  | ⟨20, _⟩ => drPay m c 2
  | ⟨21, _⟩ => drPay m c 3
  | ⟨22, _⟩ => xsPay m c 0
  | ⟨23, _⟩ => xsPay m c 1
  | ⟨24, _⟩ => xsPay m c 2
  | ⟨25, _⟩ => xsPay m c 3
  | ⟨26, _⟩ => xrPay m c 0
  | ⟨27, _⟩ => xrPay m c 1
  | ⟨28, _⟩ => xrPay m c 2
  | ⟨29, _⟩ => xrPay m c 3
  | ⟨30, _⟩ => zsPay m c 0
  | ⟨31, _⟩ => zsPay m c 1
  | ⟨32, _⟩ => zsPay m c 2
  | ⟨33, _⟩ => zsPay m c 3
  | ⟨34, _⟩ => zrPay m c 0
  | ⟨35, _⟩ => zrPay m c 1
  | ⟨36, _⟩ => zrPay m c 2
  | ⟨37, _⟩ => zrPay m c 3
  | ⟨_ + 38, h⟩ => absurd h (by omega)

/-- One round, round 0, on every TensorCore cell: a barrier cell three duties of one unit; a DMA cell the duty `0`
    of its copy's credit. -/
def sched : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma i => amt i
  payload g _ d := match g.2 with | .reg _ => barPay g.1.1 d | .dma i => dmaPay m g.1.1 i
  amount_pos g _ _ _ := by
    cases g.2 with
    | reg _ => exact Nat.one_pos
    | dma i => exact amt_pos i

end Cert.KernelIdeal.A2A

end
-- ==== Proof.A2A.Ghost.lean ====
/-
  The ghost state of the all-to-all: that every payload of the schedule can be kept inside a cell's invariant; what a
  device owes at launch, listed in the order it pays (three entry signals, four staged and four direct chunks across
  y, then per landed chunk a forward across x and one across z), so that each payment peels the last summand; the
  levels (barrier below the staged arrivals below every other arrival); the records every device shares (all cells'
  invariants, all cells at round 0); a cell's resources before its copy is issued, while it is in flight and once it
  is waited for; and the body's pre- and postcondition.
-/
import proofs.«900624_g7700000000000625_dist_a2a_v7x_xyz2x2x2_y_m512_n512_f32_1_alg».proof.Proof.A2A.Proto

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads are storable -/

omit [FloatOps F] in
instance barPay_storable (c : Dev nD) (d : Fin 3) : BI.Storable (upEmb : UEmb _ 𝕄) (barPay (F := F) c d) := by
  unfold barPay; split <;> infer_instance

instance localPay_storable (c : Dev nD) : BI.Storable (upEmb : UEmb _ 𝕄) (localPay m c) := by
  unfold localPay
  haveI h0 := pts_storable (F := F) c (oLocal c) fullShare (OutF m c)
  haveI h1 := pts_storable (F := F) c (xLocal c) qXL (Xc m c)
  infer_instance
instance stagePay_storable (c : Dev nD) : BI.Storable (upEmb : UEmb _ 𝕄) (stagePay m c) := by
  unfold stagePay
  haveI h0 := pts_storable (F := F) c sM fullShare (StageF m c)
  haveI h1 := pts_storable (F := F) c (xStage c) qXS (Xc m c)
  infer_instance
instance landPay_storable (c : Dev nD) (k : Fin 4) : BI.Storable (upEmb : UEmb _ 𝕄) (landPay m c k) := by
  unfold landPay
  haveI h0 := pts_storable (F := F) c (oF c k) fullShare (OutF m c)
  haveI h1 := pts_storable (F := F) c (lCh k) qL (LandF m c)
  infer_instance
instance ysPay_storable (c : Dev nD) (k : Fin 4) : BI.Storable (upEmb : UEmb _ 𝕄) (ysPay m c k) := by
  unfold ysPay
  haveI h0 := pts_storable (F := F) c (sCh k) (q4 k) (StageF m c)
  infer_instance
instance yrPay_storable (c : Dev nD) (k : Fin 4) : BI.Storable (upEmb : UEmb _ 𝕄) (yrPay m c k) := by
  unfold yrPay
  haveI h0 := pts_storable (F := F) c (lCh k) fullShare (LandF m c)
  infer_instance
instance dsPay_storable (c : Dev nD) (k : Fin 4) : BI.Storable (upEmb : UEmb _ 𝕄) (dsPay m c k) := by
  unfold dsPay
  haveI h0 := pts_storable (F := F) c (xD c k) (qXD k) (Xc m c)
  infer_instance
instance drPay_storable (c : Dev nD) (k : Fin 4) : BI.Storable (upEmb : UEmb _ 𝕄) (drPay m c k) := by
  unfold drPay
  haveI h0 := pts_storable (F := F) c (oD (yp c) k) fullShare (OutF m c)
  infer_instance
instance xsPay_storable (c : Dev nD) (k : Fin 4) : BI.Storable (upEmb : UEmb _ 𝕄) (xsPay m c k) := by
  unfold xsPay
  haveI h0 := pts_storable (F := F) c (lCh k) qX (LandF m c)
  infer_instance
instance xrPay_storable (c : Dev nD) (k : Fin 4) : BI.Storable (upEmb : UEmb _ 𝕄) (xrPay m c k) := by
  unfold xrPay
  haveI h0 := pts_storable (F := F) c (oF (xp c) k) fullShare (OutF m c)
  infer_instance
instance zsPay_storable (c : Dev nD) (k : Fin 4) : BI.Storable (upEmb : UEmb _ 𝕄) (zsPay m c k) := by
  unfold zsPay
  haveI h0 := pts_storable (F := F) c (lCh k) qZ (LandF m c)
  infer_instance
instance zrPay_storable (c : Dev nD) (k : Fin 4) : BI.Storable (upEmb : UEmb _ 𝕄) (zrPay m c k) := by
  unfold zrPay
  haveI h0 := pts_storable (F := F) c (oF (zp c) k) fullShare (OutF m c)
  infer_instance

instance dmaPay_storable (c : Dev nD) (i : Fin 38) : BI.Storable (upEmb : UEmb _ 𝕄) (dmaPay m c i) := by
  unfold dmaPay
  split <;> first | infer_instance | (exact absurd ‹_› (by omega))

instance sched_payload_storable (g : GSem nD τ sig) (r : ℕ) (d : Fin 3) :
    BI.Storable (upEmb : UEmb _ 𝕄) ((sched m).payload g r d) := by
  show BI.Storable upEmb (match g.2 with | .reg _ => barPay g.1.1 d | .dma i => dmaPay m g.1.1 i)
  split <;> infer_instance

/-! ## What a device owes, in the order it pays -/

/-- The payments of device `c`, in program order: the cell paid and the amount. -/
def pays (c : Dev nD) : List (GSem nD τ sig × ℕ) :=
  [ (bcell (yp c), 1), (bcell (xp c), 1), (bcell (zp c), 1),
    (dcell (yp c) (iYr 0), AL), (dcell (yp c) (iYr 1), AL), (dcell (yp c) (iYr 2), AL), (dcell (yp c) (iYr 3), AL),
    (dcell (yp c) (iDr 0), AO), (dcell (yp c) (iDr 1), AO), (dcell (yp c) (iDr 2), AO), (dcell (yp c) (iDr 3), AO),
    (dcell (xp c) (iXr 0), AO), (dcell (zp c) (iZr 0), AO), (dcell (xp c) (iXr 1), AO), (dcell (zp c) (iZr 1), AO),
    (dcell (xp c) (iXr 2), AO), (dcell (zp c) (iZr 2), AO), (dcell (xp c) (iXr 3), AO), (dcell (zp c) (iZr 3), AO) ]

/-- The tallies of a list of payments, the first payment the LAST summand. -/
def owedFrom (l : List (GSem nD τ sig × ℕ)) : CellTallies nD τ sig Unit := l.foldr (fun p acc => acc + tallyAt p.1 () p.2) 0
theorem owedFrom_cons (p : GSem nD τ sig × ℕ) (l : List (GSem nD τ sig × ℕ)) : owedFrom (p :: l) = owedFrom l + tallyAt p.1 () p.2 := rfl
theorem owedFrom_nil : owedFrom ([] : List (GSem nD τ sig × ℕ)) = 0 := rfl

/-- What `c` still owes after its first `n` payments. -/
def owedAfter (c : Dev nD) (n : ℕ) : CellTallies nD τ sig Unit := owedFrom ((pays c).drop n)
abbrev O₀ (c : Dev nD) : CellTallies nD τ sig Unit := owedAfter c 0

/-! ## Levels -/

def L (g : GSem nD τ sig) : Finset Unit := if g.1.2 = .tc then {()} else ∅
/-- Barrier cells at 1, the staged arrivals at 2, the direct and the forwarded arrivals at 3, every other cell at 0. -/
def lv (g : GSem nD τ sig) (_ : Unit) : ℕ :=
  match g.2 with
  | .reg _ => 1
  | .dma i => if 10 ≤ i.val ∧ i.val < 14 then 2 else if (18 ≤ i.val ∧ i.val < 22) ∨ (26 ≤ i.val ∧ i.val < 30) ∨ 34 ≤ i.val then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells, indexed: the 38 DMA cells, then the barrier cell -/

def csem (i : Fin 39) : SemLoc sig := if h : i.val < 38 then .dma (dsem ⟨i.val, h⟩) else .reg barS
abbrev kcell (ck : Dev nD × Fin 39) : GSem nD τ sig := ((ck.1 : Thread nD τ), csem ck.2)
def di (i : Fin 38) : Fin 39 := ⟨i.val, by omega⟩
abbrev bi : Fin 39 := ⟨38, by omega⟩
theorem kcell_d (c : Dev nD) (i : Fin 38) : kcell (c, di i) = dcell c i := by
  unfold kcell csem di; simp only [i.isLt, dite_true]
theorem kcell_b (c : Dev nD) : kcell (c, bi) = bcell c := by
  unfold kcell csem; simp only [show ¬ (38 < 38) by decide, dite_false]

/-- What every device shares, under the names `K` the launch allocated the invariants at. -/
def records (K : Dev nD × Fin 39 → ℕ) : sProp 𝕄 :=
  iprop((bigSep Finset.univ fun ck : Dev nD × Fin 39 => cellInv ER (sched m) (K ck) (kcell ck))
    ∗ bigSep Finset.univ fun ck : Dev nD × Fin 39 => reached ER (kcell ck) 0)

instance records_persistent (K : Dev nD × Fin 39 → ℕ) : BI.Persistent (records m K) := by unfold records; infer_instance

theorem inv_at (K : Dev nD × Fin 39 → ℕ) (ck : Dev nD × Fin 39) :
    (bigSep Finset.univ fun ck : Dev nD × Fin 39 => (cellInv ER (sched m) (K ck) (kcell ck) : sProp 𝕄)) ⊢ cellInv ER (sched m) (K ck) (kcell ck) :=
  bigSep_elim (Finset.mem_univ ck)
omit [FloatOps F] in
theorem reached_at (ck : Dev nD × Fin 39) :
    (bigSep Finset.univ fun ck : Dev nD × Fin 39 => (reached ER (kcell ck) 0 : sProp 𝕄)) ⊢ reached ER (kcell ck) 0 :=
  bigSep_elim (Finset.mem_univ ck)

theorem inv_d (K : Dev nD × Fin 39 → ℕ) (c : Dev nD) (i : Fin 38) : records m K ⊢ cellInv ER (sched m) (K (c, di i)) (dcell c i) := by
  unfold records; rw [← kcell_d]; iintro ⟨HI, -⟩; iapply (inv_at m K (c, di i)); iexact HI
theorem inv_b (K : Dev nD × Fin 39 → ℕ) (c : Dev nD) : records m K ⊢ cellInv ER (sched m) (K (c, bi)) (bcell c) := by
  unfold records; rw [← kcell_b]; iintro ⟨HI, -⟩; iapply (inv_at m K (c, bi)); iexact HI
theorem reached_d (K : Dev nD × Fin 39 → ℕ) (c : Dev nD) (i : Fin 38) : records m K ⊢ reached ER (dcell c i) 0 := by
  unfold records; rw [← kcell_d]; iintro ⟨-, HR⟩; iapply (reached_at (F := F) (c, di i)); iexact HR
theorem reached_b (K : Dev nD × Fin 39 → ℕ) (c : Dev nD) : records m K ⊢ reached ER (bcell c) 0 := by
  unfold records; rw [← kcell_b]; iintro ⟨-, HR⟩; iapply (reached_at (F := F) (c, bi)); iexact HR

/-! ## A DMA cell's resources, stage by stage -/

/-- Before the copy it counts is issued (a copy this device issues): its position and the duty's token. -/
def fresh (c : Dev nD) (i : Fin 38) : sProp 𝕄 := iprop(atPos ER (dcell c i) 0 ∅ 0 ∗ dutyTok ER (dcell c i) 0 0)
/-- While the copy is in flight (or, for an arrival, from launch): its position and the credit for the amount. -/
def flying (c : Dev nD) (i : Fin 38) : sProp 𝕄 := iprop(atPos ER (dcell c i) 0 ∅ 0 ∗ cred (tallyAt (dcell c i) () (amt i)))
/-- The token with which device `c` pays the arrival counted on semaphore `i` of device `p`. -/
def arrTok (p : Dev nD) (i : Fin 38) : sProp 𝕄 := dutyTok ER (dcell p i) 0 0
/-- Once waited for and closed: the counter back at zero. -/
def done (c : Dev nD) (i : Fin 38) : sProp 𝕄 := semVal (dcell c i) 0

/-- The linear ghost state device `c` starts from. -/
def lin₀ (c : Dev nD) : sProp 𝕄 :=
  iprop(atPos ER (bcell c) 0 ∅ 0 ∗ cred (tallyAt (bcell c) () 3)
    ∗ dutyTok ER (bcell (yp c)) 0 0 ∗ dutyTok ER (bcell (xp c)) 0 1 ∗ dutyTok ER (bcell (zp c)) 0 2
    ∗ fresh c iLocal ∗ fresh c iStage
    ∗ sep4 (fun k => fresh c (iLand k)) ∗ sep4 (fun k => fresh c (iYs k)) ∗ sep4 (fun k => fresh c (iDs k))
    ∗ sep4 (fun k => fresh c (iXs k)) ∗ sep4 (fun k => fresh c (iZs k))
    ∗ sep4 (fun k => iprop(flying c (iYr k) ∗ arrTok (yp c) (iYr k))) ∗ sep4 (fun k => iprop(flying c (iDr k) ∗ arrTok (yp c) (iDr k)))
    ∗ sep4 (fun k => iprop(flying c (iXr k) ∗ arrTok (xp c) (iXr k))) ∗ sep4 (fun k => iprop(flying c (iZr k) ∗ arrTok (zp c) (iZr k))))

/-- What the core owes, at some record of its waits. -/
def owesAny (c : Dev nD) (O : CellTallies nD τ sig Unit) : sProp 𝕄 := iprop(∃ W : Waits sig Unit, owes (c : Thread nD τ) O W)

/-- Before the body: the records, the linear ghost state, the levels, and the four buffers — the argument rows as
    launched, the result and the two scratch buffers at any contents. -/
def Φ₀ (c : Dev nD) : sProp 𝕄 :=
  iprop((∃ K, records m K ∗ lin₀ c) ∗ levAts L lv
    ∗ pts c xM fullShare (Xc m c) ∗ (∃ f, pts c oM fullShare f) ∗ (∃ f, pts c sM fullShare f) ∗ (∃ f, pts c lM fullShare f))
/-- After it: the argument rows unchanged, the result at `OutF`, every DMA counter back at zero, the scratch buffers. -/
def Φ₁ (c : Dev nD) : sProp 𝕄 :=
  iprop(pts c xM fullShare (Xc m c) ∗ pts c oM fullShare (OutF m c) ∗ (bigSep Finset.univ fun i : Fin 38 => done c i)
    ∗ (∃ f, pts c sM fullShare f) ∗ (∃ f, pts c lM fullShare f))

abbrev 𝒱₀ : Variants := Variants.none

/-- The pipeline's proof data: no window; the invariant before and after the one point; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

end Cert.KernelIdeal.A2A

end
-- ==== Proof.A2A.Sched.lean ====
/-
  The schedule read at each kind of cell: which duties round 0 has, their amounts, what the round expects in all,
  each duty's payload, and what a wait for the whole round hands over. No cell has a duty after round 0.
-/
import proofs.«900624_g7700000000000625_dist_a2a_v7x_xyz2x2x2_y_m512_n512_f32_1_alg».proof.Proof.A2A.Ghost

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

theorem duties_b : (sched m).duties (bcell c) 0 = Finset.univ := by dsimp only [sched]; exact if_pos ⟨rfl, rfl⟩
theorem duties_d (i : Fin 38) : (sched m).duties (dcell c i) 0 = {0} := by dsimp only [sched]; exact if_pos ⟨rfl, rfl⟩
theorem duties_later (g : GSem nD τ sig) : ∀ r, 1 ≤ r → (sched m).duties g r = ∅ :=
  fun r hr => by dsimp only [sched]; rw [if_neg fun h => by omega]
theorem not_unitless (g : GSem nD τ sig) : ¬ (sched m).unitless g := fun h => h

theorem amount_b (d : Fin 3) : (sched m).amount (bcell c) 0 d = 1 := rfl
theorem amount_d (i : Fin 38) (d : Fin 3) : (sched m).amount (dcell c i) 0 d = amt i := rfl
theorem payload_b (d : Fin 3) : (sched m).payload (bcell c) 0 d = barPay c d := rfl
theorem payload_d (i : Fin 38) (d : Fin 3) : (sched m).payload (dcell c i) 0 d = dmaPay m c i := rfl

theorem expect_b : (sched m).expect (bcell c) 0 = 3 := by
  unfold Schedule.expect Schedule.amountOf
  rw [duties_b, Finset.sum_congr rfl fun d _ => amount_b m c d, Finset.sum_const, Finset.card_univ, Fintype.card_fin, smul_eq_mul]
theorem expect_d (i : Fin 38) : (sched m).expect (dcell c i) 0 = amt i := by
  unfold Schedule.expect Schedule.amountOf; rw [duties_d, Finset.sum_singleton, amount_d]

/-- The whole of the barrier cell's round: the three neighbours' payloads. -/
theorem rest_b : bigSep ((sched m).duties (bcell c) 0 \ ∅) (fun d => (sched m).payload (bcell c) 0 d)
    = iprop(barPay c 0 ∗ barPay c 1 ∗ barPay c 2) := by
  rw [Finset.sdiff_empty, duties_b, bigSep_univ_eq_bigSepL [0, 1, 2] (by decide) (by decide), bigSepL_cons_cons, bigSepL_cons_cons, bigSepL_singleton]
  rfl
/-- The whole of a DMA cell's round: its one payload. -/
theorem rest_d (i : Fin 38) : bigSep ((sched m).duties (dcell c i) 0 \ ∅) (fun d => (sched m).payload (dcell c i) 0 d) = dmaPay m c i := by
  rw [Finset.sdiff_empty, duties_d, bigSep_singleton, payload_d]

end Sched

end Cert.KernelIdeal.A2A

end
-- ==== Proof.A2A.Steps.lean ====
/-
  The five kinds of step the body takes, each stated once over this protocol's cells: an entry signal to a
  neighbour (paying one duty of the neighbour's barrier cell, with the elements it hands over); the wait for the three
  entry signals (the three neighbours' payloads come with it); a local copy and an addressed send (the duty tokens
  spent, the source share lent, the destination's elements handed to the cell that will count the landing, the
  copy's credit received); and the wait for a copy's semaphore, which returns the cell's payload and closes the cell,
  its counter back at zero.
-/
import proofs.«900624_g7700000000000625_dist_a2a_v7x_xyz2x2x2_y_m512_n512_f32_1_alg».proof.Proof.A2A.Sched

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × Fin 39 → ℕ) (c : Dev nD)

/-- An entry signal to neighbour `p`, paying duty `d` of its barrier cell. -/
theorem step_signal {α : Type} {Q : α → sProp 𝕄} (p : Dev nD) (d : Fin 3) (O : CellTallies nD τ sig Unit) (W : Waits sig Unit) {k' : ℕ} (hk' : 1 = k')
    {k : PUnit → Prog (TpuEff nD τ sig (Elt F) Λ₀ .tc) α} :
    iprop(records m K ∗ owes (c : Thread nD τ) (O + tallyAt (bcell p) () 1) W ∗ dutyTok ER (bcell p) 0 d ∗ barPay p d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS k') k) Q) := by
  subst hk'
  iintro ⟨#HR, HO, Ht, Hp⟩
  iapply (Rounds.wp_signal 𝒱₀ ER (sched m) (c : Thread nD τ) none (dst := (p : Thread nD τ)) (κ := K (p, bi)) (d := d)
      (by rw [duties_b]; exact Finset.mem_univ _) (amount_b m p d) () O rfl) $$ [HO Ht Hp]
  isplitr; · iapply (inv_b m K p); iexact HR
  isplitl [HO]; · iexact HO
  isplitl [Ht]; · iexact Ht
  isplitl [Hp]; · rw [payload_b]; iexact Hp
  iapply (reached_b m K p); iexact HR

/-- The wait for the three entry signals. -/
theorem step_barwait {α : Type} {Q : α → sProp 𝕄} (O : CellTallies nD τ sig Unit) (W : Waits sig Unit) {k' : ℕ} (hk' : 3 = k')
    {k : PUnit → Prog (TpuEff nD τ sig (Elt F) Λ₀ .tc) α} :
    iprop(records m K ∗ cred (tallyAt (bcell c) () 3) ∗ owes (c : Thread nD τ) O W ∗ MayWait (c : Thread nD τ) (.reg barS) () O ∗ atPos ER (bcell c) 0 ∅ 0)
      ⊢ iprop(((owes (c : Thread nD τ) O (insert (SemLoc.reg barS, ()) W) ∗ atPos ER (bcell c) 1 ∅ 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, Hm, Ha⟩ Hk
  iapply (Rounds.wp_wait_rest_token 𝒱₀ ER (sched m) (c : Thread nD τ) none (κ := K (c, bi))
      (wpE_semWait_eq 𝒱₀ (c : Thread nD τ) none Set.univ) (Set.mem_univ _) () (O := O) (W := W) (R := 0) (m := 0) (T := ∅)
      (by rw [expect_b])) $$ [Hc HO Hm Ha]
  · isplitr; · iapply (inv_b m K c); iexact HR
    isplitl [Hc]; · iexact Hc
    isplitl [HO]; · iexact HO
    isplitl [Hm]; · iexact Hm
    iexact Ha
  iintro ⟨HO, Ha, -, Hpay⟩
  ihave Hp := (Entails.of_eq (rest_b m c)) $$ Hpay
  iapply Hk
  isplitl [HO]; · iexact HO
  isplitl [Ha]; · iexact Ha
  iexact Hp

/-- The wait for the copy counted on DMA semaphore `i`: the cell's payload, and the cell closed. -/
theorem step_wait {α : Type} {Q : α → sProp 𝕄} (i : Fin 38) (O : CellTallies nD τ sig Unit) (W : Waits sig Unit) {sp sp' : Space} {s : Shape}
    {src : Memref sig .tc sp s .f32} {dst : Memref sig .tc sp' s .f32} {hsrc : src.view.WordExact} {hdst : dst.view.WordExact}
    (hamt : dst.view.dmaCredit = amt i) {k : PUnit → Prog (TpuEff nD τ sig (Elt F) Λ₀ .tc) α} :
    iprop(records m K ∗ flying c i ∗ owes (c : Thread nD τ) O W ∗ MayWait (c : Thread nD τ) (.dma (dsem i)) () O)
      ⊢ iprop(((owes (c : Thread nD τ) O (insert (SemLoc.dma (dsem i), ()) W) ∗ dmaPay m c i ∗ done c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem i) src dst hsrc hdst) k) Q) := by
  unfold flying
  rw [← hamt]
  iintro ⟨#HR, ⟨Ha, Hc⟩, HO, Hm⟩ Hk
  iapply (Rounds.wp_wait_rest_token 𝒱₀ ER (sched m) (c : Thread nD τ) none (κ := K (c, di i))
      (wpE_waitDma2_eq 𝒱₀ (c : Thread nD τ) none Set.univ) (Set.mem_univ _) () (O := O) (W := W) (R := 0) (m := 0) (T := ∅)
      (by rw [Nat.zero_add, expect_d, hamt])) $$ [Hc HO Hm Ha]
  · isplitr; · iapply (inv_d m K c i); iexact HR
    isplitl [Hc]; · iexact Hc
    isplitl [HO]; · iexact HO
    isplitl [Hm]; · iexact Hm
    iexact Ha
  iintro ⟨HO, Ha, -, Hpay⟩
  ihave Hp := (Entails.of_eq (rest_d m c i)) $$ Hpay
  imod (Rounds.cell_close ER (sched m) (Set.mem_univ (K (c, di i))) (not_unitless m (dcell c i)) (R := 0 + 1) (duties_later m (dcell c i))) $$ [Ha] with Hz
  · isplitr; · iapply (inv_d m K c i); iexact HR
    iexact Ha
  iapply Hk
  isplitl [HO]; · iexact HO
  isplitl [Hp]; · iexact Hp
  unfold done; iexact Hz

/-- A local copy counted on DMA semaphore `i`. -/
theorem step_copy {α : Type} {Q : α → sProp 𝕄} (i : Fin 38) {sp sp' : Space} {s : Shape} {src : Memref sig .tc sp s .f32} {dst : Memref sig .tc sp' s .f32}
    {hsrc : src.view.WordExact} {hdst : dst.view.WordExact} {hsem : DmaTarget.Typed (nD := nD) sp (.dma (dsem i)) (DmaTarget.here dst : DmaTarget nD τ sig .tc sp' s .f32)}
    (q : PosShare TreeShare) (fs : Buf (Elt F) (src.view.loc (c : Thread nD τ))) (fd : Buf (Elt F) (dst.view.loc (c : Thread nD τ)))
    (hamt : dst.view.dmaCredit = amt i)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ dmaPay m c i)
    {k : PUnit → Prog (TpuEff nD τ sig (Elt F) Λ₀ .tc) α} :
    iprop(records m K ∗ fresh c i ∗ (src.view.loc (c : Thread nD τ) ↦[src.view.set]{q} fs) ∗ (dst.view.loc (c : Thread nD τ) ↦[dst.view.set]{fullShare} fd))
      ⊢ iprop((flying c i -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (DmaTarget.here dst : DmaTarget nD τ sig .tc sp' s .f32) (.dma (dsem i)) hsrc hdst hsem) k) Q) := by
  unfold fresh flying
  iintro ⟨#HR, ⟨Ha, Ht⟩, Hs, Hd⟩ Hk
  iapply (Rounds.wp_copy_pointsTo 𝒱₀ ER (sched m) (c : Thread nD τ) none (κ := K (c, di i)) (r := 0) (d := 0) (src := src) (dst := dst) (q := q) (fs := fs) (fd := fd)
      (by rw [duties_d]; exact Finset.mem_singleton_self _) () (amt i) (show dst.view.amount (.dma (dsem i)) = amt i from hamt) (amount_d m c i 0) (by rw [payload_d]; exact hpay)) $$ [Hs Hd Ht]
  · isplitr; · iapply (inv_d m K c i); iexact HR
    isplitl [Hs]; · iexact Hs
    isplitl [Hd]; · iexact Hd
    isplitl [Ht]; · iexact Ht
    iapply (reached_d m K c i); iexact HR
  iintro Hc
  iapply Hk
  isplitl [Ha]; · iexact Ha
  iexact Hc

/-- An addressed send to device `p` (named `n` in the program), its departure counted on this device's semaphore `i`,
    its arrival on `p`'s semaphore `j`. -/
theorem step_send {α : Type} {Q : α → sProp 𝕄} (p n : Dev nD) (hn : n = p) (i j : Fin 38) (O : CellTallies nD τ sig Unit) (W : Waits sig Unit)
    {sp sp' : Space} {s : Shape} {src : Memref sig .tc sp s .f32} {dst : Memref sig .tc sp' s .f32}
    {hsc : dst.view.ref.isScScratch = false} {hsrc : src.view.WordExact} {hdst : dst.view.WordExact}
    {hsem : DmaTarget.Typed sp (.dma (dsem j)) (.remote (Dev.tc n : Thread nD τ) dst (.dma (dsem i)) hsc)}
    (q : PosShare TreeShare) (fs : Buf (Elt F) (src.view.loc (c : Thread nD τ))) (fd : Buf (Elt F) (dst.view.loc (p : Thread nD τ)))
    (hamt : dst.view.dmaCredit = amt i) (hamt' : amt j = amt i)
    (hpay₁ : (src.view.loc (c : Thread nD τ) ↦[src.view.set]{q} fs) ⊢ dmaPay m c i)
    (hpay₂ : (dst.view.loc (p : Thread nD τ) ↦[dst.view.set]{fullShare} (dst.view.write (Elt F) fd (src.view.read (Elt F) fs) Finset.univ)) ⊢ dmaPay m p j)
    {k : PUnit → Prog (TpuEff nD τ sig (Elt F) Λ₀ .tc) α} :
    iprop(records m K ∗ fresh c i ∗ arrTok p j ∗ (src.view.loc (c : Thread nD τ) ↦[src.view.set]{q} fs) ∗ (dst.view.loc (p : Thread nD τ) ↦[dst.view.set]{fullShare} fd)
        ∗ owes (c : Thread nD τ) (O + tallyAt (dcell p j) () (amt j)) W)
      ⊢ iprop(((flying c i ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (dsem i)) hsc) (.dma (dsem j)) hsrc hdst hsem) k) Q) := by
  subst hn
  unfold fresh flying arrTok
  iintro ⟨#HR, ⟨Ha, Ht⟩, Htj, Hs, Hd, HO⟩ Hk
  iapply (Rounds.wp_send_pointsTo 𝒱₀ ER (sched m) (c : Thread nD τ) none (κ₁ := K (c, di i)) (κ₂ := K (n, di j))
      (r₁ := 0) (r₂ := 0) (d₁ := 0) (d₂ := 0) (c' := (n : Thread nD τ)) (src := src) (dst := dst) (q := q) (fs := fs) (fd := fd)
      (by rw [duties_d]; exact Finset.mem_singleton_self _) (by rw [duties_d]; exact Finset.mem_singleton_self _)
      () () (amt i) (show dst.view.amount (.dma (dsem j)) = amt i from hamt) (amount_d m c i 0) ((amount_d m n j 0).trans hamt') (O₀ := O + tallyAt (dcell n j) () (amt j)) O (by rw [hamt']) (W := W)
      (by rw [payload_d]; exact hpay₁) (by rw [payload_d]; exact hpay₂)) $$ [Hs Hd HO Ht Htj]
  · isplitr; · iapply (inv_d m K c i); iexact HR
    isplitr; · iapply (inv_d m K n j); iexact HR
    isplitl [Hs]; · iexact Hs
    isplitl [Hd]; · iexact Hd
    isplitl [HO]; · iexact HO
    isplitl [Ht]; · iexact Ht
    isplitr; · iapply (reached_d m K c i); iexact HR
    isplitl [Htj]; · iexact Htj
    iapply (reached_d m K n j); iexact HR
  iintro ⟨Hc, HO⟩
  iapply Hk
  isplitl [Ha Hc]
  · isplitl [Ha]; · iexact Ha
    iexact Hc
  iexact HO

end Steps

end Cert.KernelIdeal.A2A

end
-- ==== Proof.A2A.Values.lean ====
/-
  What each copy writes. Every copy moves a rectangle of rows from one buffer to another; written through its
  destination view over ANY earlier contents, the elements under that view are the elements of the final contents
  (`StageF`, `LandF`, `OutF`): an index equation per copy kind, from the closed forms of the printed offsets. And the
  final result, when every device's rows are its row block of one whole array, is that device's column block of it.
-/
import proofs.«900624_g7700000000000625_dist_a2a_v7x_xyz2x2x2_y_m512_n512_f32_1_alg».proof.Proof.A2A.Ghost
import Idealize.ShloMosaic.Lib.Pipeline.Value
import Idealize.ShloMosaic.Lib.Layout

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Written through a destination view on every index with what a source view reads, over any earlier contents, the
    destination's elements hold the contents `G` as soon as the source reads, index by index, what the destination reads
    of `G`. -/
private theorem pts_written {sp sp' : Space} {s : Shape} (c : Dev nD) (D : Memref sig .tc sp s .f32)
    (Sv : View sig .tc sp' s .f32) (fd G : Buf (Elt F) (D.view.loc (c : Thread nD τ))) (fs : Sv.ty.Contents (Elt F))
    (h : ∀ y : s.Idx, Sv.read (Elt F) fs y = D.view.read (Elt F) G y) :
    (pts c D fullShare (D.view.write (Elt F) fd (Sv.read (Elt F) fs) Finset.univ) : sProp 𝕄) = pts c D fullShare G := by
  unfold pts
  refine pointsTo_congr fun i hi => ?_
  obtain ⟨y, rfl⟩ := View.exists_emb_of_mem_set _ hi
  rw [View.write_emb_of_mem _ _ (Finset.mem_univ y), h y, View.read_apply, cast_cast, cast_eq]

/-- The result at an index with coordinates `i0`, `i1` of the half a device already holds: its own rows at row
    `i0 % 512`, column `512y + i1` (`j0`, `j1` the coordinates of that index). -/
private theorem OutF_near (c : Dev nD) (i : S1024x512.Idx) (j : S512x1024.Idx) (i0 i1 j0 j1 : ℕ)
    (hi0 : (i 0).val = i0) (hi1 : (i 1).val = i1) (hj0 : (j 0).val = j0) (hj1 : (j 1).val = j1)
    (h : i0 / 512 = (c.val / 2) % 2) (h0 : j0 = i0 % 512) (h1 : j1 = 512 * ((c.val / 2) % 2) + i1) :
    OutF m c i = Xc m c j := by
  subst hi0 hi1 hj0 hj1
  unfold OutF
  rw [if_pos h]
  exact congrArg (Xc m c) (Shape.idx_ext₂ h0.symm h1.symm)

/-- The result at an index of the other half: the rows of the device `srcQ` names for the quarter. -/
private theorem OutF_far (c d : Dev nD) (i : S1024x512.Idx) (j : S512x1024.Idx) (i0 i1 j0 j1 : ℕ)
    (hi0 : (i 0).val = i0) (hi1 : (i 1).val = i1) (hj0 : (j 0).val = j0) (hj1 : (j 1).val = j1)
    (h : i0 / 512 ≠ (c.val / 2) % 2) (hd : srcQ c (i0 % 512 / 128) = d)
    (h0 : j0 = i0 % 512) (h1 : j1 = 512 * ((c.val / 2) % 2) + i1) :
    OutF m c i = Xc m d j := by
  subst hi0 hi1 hj0 hj1
  unfold OutF
  rw [if_neg h, hd]
  exact congrArg (Xc m d) (Shape.idx_ext₂ h0.symm h1.symm)

/-- The staging copy fills the whole staging buffer with the staged quarter. -/
theorem stage_written (c : Dev nD) (fd : Buf (Elt F) ((sM : Memref sig .tc .vmem S128x512 .f32).view.loc (c : Thread nD τ))) :
    (pts c sM fullShare ((sM : Memref sig .tc .vmem S128x512 .f32).view.write (Elt F) fd ((xStage c).view.read (Elt F) (Xc m c)) Finset.univ) : sProp 𝕄)
      = pts c sM fullShare (StageF m c) :=
  pts_written c sM (xStage c).view fd (StageF m c) (Xc m c) fun _ => rfl

/-- The local half. -/
theorem local_written (c : Dev nD) (fd : Buf (Elt F) ((oLocal c).view.loc (c : Thread nD τ))) :
    (pts c (oLocal c) fullShare ((oLocal c).view.write (Elt F) fd ((xLocal c).view.read (Elt F) (Xc m c)) Finset.univ) : sProp 𝕄)
      = pts c (oLocal c) fullShare (OutF m c) := by
  refine pts_written c (oLocal c) (xLocal c).view fd (OutF m c) (Xc m c) fun y => ?_
  show Xc m c ((Rect.unit (s := S512x1024) (k0_off3 c) S512x512.size (k0_off3_inb c)).emb y)
    = OutF m c ((Rect.unit (s := S1024x512) (k0_off2 c) S512x512.size (k0_off2_inb c)).emb y)
  have hy0 : (y 0).val < 512 := (y 0).isLt
  have hy1 : (y 1).val < 512 := (y 1).isLt
  have hY : (c.val / 2) % 2 < 2 := Nat.mod_lt _ (by decide)
  refine (OutF_near m c _ _ (k0_off2 c 0 + 1 * (y 0).val) (k0_off2 c 1 + 1 * (y 1).val)
    (k0_off3 c 0 + 1 * (y 0).val) (k0_off3 c 1 + 1 * (y 1).val) rfl rfl rfl rfl ?_ ?_ ?_).symm
  · simp only [k0_off2_eq, Matrix.cons_val_zero]
    omega
  · simp only [k0_off2_eq, k0_off3_eq, Matrix.cons_val_zero]
    omega
  · simp only [k0_off2_eq, k0_off3_eq, Matrix.cons_val_zero, Matrix.cons_val_one, Matrix.cons_val_fin_one]
    omega

/-! The peers' coordinates, and which device's rows each far quarter comes from. -/

private theorem yp_coords (c : Dev nD) :
    (yp c).val / 4 = c.val / 4 ∧ ((yp c).val / 2) % 2 = 1 - (c.val / 2) % 2 ∧ (yp c).val % 2 = c.val % 2 := by
  revert c; decide +kernel
private theorem xp_coords (c : Dev nD) :
    (xp c).val / 4 = 1 - c.val / 4 ∧ ((xp c).val / 2) % 2 = (c.val / 2) % 2 ∧ (xp c).val % 2 = c.val % 2 := by
  revert c; decide +kernel
private theorem zp_coords (c : Dev nD) :
    (zp c).val / 4 = c.val / 4 ∧ ((zp c).val / 2) % 2 = (c.val / 2) % 2 ∧ (zp c).val % 2 = 1 - c.val % 2 := by
  revert c; decide +kernel

private theorem srcQ_own (c : Dev nD) : srcQ c (2 * (c.val / 4) + c.val % 2) = yp c := by revert c; decide +kernel
private theorem srcQ_direct (c : Dev nD) : srcQ (yp c) (3 - (2 * (c.val / 4) + c.val % 2)) = c := by revert c; decide +kernel
private theorem srcQ_x (c : Dev nD) : srcQ (xp c) (2 * (c.val / 4) + c.val % 2) = yp c := by revert c; decide +kernel
private theorem srcQ_z (c : Dev nD) : srcQ (zp c) (2 * (c.val / 4) + c.val % 2) = yp c := by revert c; decide +kernel

/-- A staged chunk sent across y lands as the y-peer's landed contents. -/
theorem y_written (c : Dev nD) (k : Fin 4) (fd : Buf (Elt F) ((lCh k).view.loc ((yp c : Dev nD) : Thread nD τ))) :
    (pts (yp c) (lCh k) fullShare ((lCh k).view.write (Elt F) fd ((sCh k).view.read (Elt F) (StageF m c)) Finset.univ) : sProp 𝕄)
      = yrPay m (yp c) k := by
  unfold yrPay LandF
  rw [yp_yp]
  exact pts_written (yp c) (lCh k) (sCh k).view fd (StageF m c) (StageF m c) fun _ => rfl

/-- Chunk `k` of what device `c` has landed, read at a local index, is the element of the result of any device `d`
    with `c`'s y-coordinate whose quarter `2x + z` (of `c`) comes from `c`'s y-peer, at `c`'s landing offset. -/
private theorem land_at (c d : Dev nD) (k : Fin 4) (hY : (d.val / 2) % 2 = (c.val / 2) % 2)
    (hs : srcQ d (2 * (c.val / 4) + c.val % 2) = yp c) (y : S32x512.Idx) :
    (lCh k).view.read (Elt F) (LandF m c) y = (oF c k).view.read (Elt F) (OutF m d) y := by
  show Xc m (yp c) ((Rect.unit (s := S512x1024) (k0_off1 (yp c)) S128x512.size (k0_off1_inb (yp c))).emb
      ((Rect.unit (s := S128x512) (chOff k) S32x512.size (chOff_inb k)).emb y))
    = OutF m d ((Rect.unit (s := S1024x512) (k0_off6 c (BitVec.ofNat 32 (32 * k.val))) S32x512.size (k0_off6_inb c k)).emb y)
  have hy0 : (y 0).val < 32 := (y 0).isLt
  have hy1 : (y 1).val < 512 := (y 1).isLt
  have hc : c.val < 8 := c.isLt
  have hk : k.val < 4 := k.isLt
  obtain ⟨p1, p2, p3⟩ := yp_coords c
  refine (OutF_far m d (yp c) _ _
    (k0_off6 c (BitVec.ofNat 32 (32 * k.val)) 0 + 1 * (y 0).val) (k0_off6 c (BitVec.ofNat 32 (32 * k.val)) 1 + 1 * (y 1).val)
    (k0_off1 (yp c) 0 + 1 * (chOff k 0 + 1 * (y 0).val)) (k0_off1 (yp c) 1 + 1 * (chOff k 1 + 1 * (y 1).val))
    rfl rfl rfl rfl ?_ ?_ ?_ ?_).symm
  · simp only [k0_off6_eq, Matrix.cons_val_zero]
    omega
  · refine Eq.trans (congrArg (srcQ d) ?_) hs
    simp only [k0_off6_eq, Matrix.cons_val_zero]
    omega
  · simp only [k0_off6_eq, k0_off1_eq, chOff, Matrix.cons_val_zero]
    omega
  · simp only [k0_off6_eq, k0_off1_eq, chOff, Matrix.cons_val_zero, Matrix.cons_val_one, Matrix.cons_val_fin_one]
    omega

/-- A landed chunk copied into this device's own result. -/
theorem land_written (c : Dev nD) (k : Fin 4) (fd : Buf (Elt F) ((oF c k).view.loc (c : Thread nD τ))) :
    (pts c (oF c k) fullShare ((oF c k).view.write (Elt F) fd ((lCh k).view.read (Elt F) (LandF m c)) Finset.univ) : sProp 𝕄)
      = pts c (oF c k) fullShare (OutF m c) :=
  pts_written c (oF c k) (lCh k).view fd (OutF m c) (LandF m c) (land_at m c c k rfl (srcQ_own c))

/-- A chunk sent directly across y lands in the y-peer's result. -/
theorem d_written (c : Dev nD) (k : Fin 4) (fd : Buf (Elt F) ((oD c k).view.loc ((yp c : Dev nD) : Thread nD τ))) :
    (pts (yp c) (oD c k) fullShare ((oD c k).view.write (Elt F) fd ((xD c k).view.read (Elt F) (Xc m c)) Finset.univ) : sProp 𝕄)
      = drPay m (yp c) k := by
  unfold drPay
  rw [yp_yp]
  refine pts_written (yp c) (oD c k) (xD c k).view fd (OutF m (yp c)) (Xc m c) fun y => ?_
  show Xc m c ((Rect.unit (s := S512x1024) (k0_off5 c (BitVec.ofNat 32 (32 * k.val))) S32x512.size (k0_off5_inb c k)).emb y)
    = OutF m (yp c) ((Rect.unit (s := S1024x512) (k0_off4 c (BitVec.ofNat 32 (32 * k.val))) S32x512.size (k0_off4_inb c k)).emb y)
  have hy0 : (y 0).val < 32 := (y 0).isLt
  have hy1 : (y 1).val < 512 := (y 1).isLt
  have hc : c.val < 8 := c.isLt
  have hk : k.val < 4 := k.isLt
  obtain ⟨p1, p2, p3⟩ := yp_coords c
  refine (OutF_far m (yp c) c _ _
    (k0_off4 c (BitVec.ofNat 32 (32 * k.val)) 0 + 1 * (y 0).val) (k0_off4 c (BitVec.ofNat 32 (32 * k.val)) 1 + 1 * (y 1).val)
    (k0_off5 c (BitVec.ofNat 32 (32 * k.val)) 0 + 1 * (y 0).val) (k0_off5 c (BitVec.ofNat 32 (32 * k.val)) 1 + 1 * (y 1).val)
    rfl rfl rfl rfl ?_ ?_ ?_ ?_).symm
  · simp only [k0_off4_eq, Matrix.cons_val_zero]
    omega
  · refine Eq.trans (congrArg (srcQ (yp c)) ?_) (srcQ_direct c)
    simp only [k0_off4_eq, Matrix.cons_val_zero]
    omega
  · simp only [k0_off4_eq, k0_off5_eq, Matrix.cons_val_zero]
    omega
  · simp only [k0_off4_eq, k0_off5_eq, Matrix.cons_val_zero, Matrix.cons_val_one, Matrix.cons_val_fin_one]
    omega

/-- A landed chunk forwarded across x, and across z. -/
theorem xf_written (c : Dev nD) (k : Fin 4) (fd : Buf (Elt F) ((oF c k).view.loc ((xp c : Dev nD) : Thread nD τ))) :
    (pts (xp c) (oF c k) fullShare ((oF c k).view.write (Elt F) fd ((lCh k).view.read (Elt F) (LandF m c)) Finset.univ) : sProp 𝕄)
      = xrPay m (xp c) k := by
  unfold xrPay
  rw [xp_xp]
  exact pts_written (xp c) (oF c k) (lCh k).view fd (OutF m (xp c)) (LandF m c) (land_at m c (xp c) k (xp_coords c).2.1 (srcQ_x c))
theorem zf_written (c : Dev nD) (k : Fin 4) (fd : Buf (Elt F) ((oF c k).view.loc ((zp c : Dev nD) : Thread nD τ))) :
    (pts (zp c) (oF c k) fullShare ((oF c k).view.write (Elt F) fd ((lCh k).view.read (Elt F) (LandF m c)) Finset.univ) : sProp 𝕄)
      = zrPay m (zp c) k := by
  unfold zrPay
  rw [zp_zp]
  exact pts_written (zp c) (oF c k) (lCh k).view fd (OutF m (zp c)) (LandF m c) (land_at m c (zp c) k (zp_coords c).2.1 (srcQ_z c))

/-- Every device a far quarter can come from sits across y. -/
private theorem srcQ_y (c : Dev nD) (qq : ℕ) : ((srcQ c qq).val / 2) % 2 = 1 - (c.val / 2) % 2 := by
  unfold srcQ
  split_ifs
  · exact (yp_coords c).2.1
  · rw [(yp_coords (xp c)).2.1, (xp_coords c).2.1]
  · rw [(yp_coords (zp c)).2.1, (zp_coords c).2.1]

/-- A device's block coordinate along a dimension cut along the mesh's y axis is its y-coordinate. -/
private theorem meshLin_y (n : ℕ) : Layout.meshLin [2, 2, 2] n [1] = (n / 2) % 2 := by
  simp [Layout.meshLin, Layout.meshCoord, Layout.cutSize]

/-- A device's rows, when they are its row block of `X`, at an index: `X` at row `512y` further. -/
private theorem Xc_at (X : (⟨2, ![1024, 1024]⟩ : Shape).Idx → Elt F .f32)
    (hX : ∀ c : Dev nD, Xc m c = Layout.blockN ⟨2, ![512, 1024]⟩ ⟨2, ![1024, 1024]⟩ (Layout.meshBlock [2, 2, 2] ![[1], []] c) X)
    (d : Dev nD) (j : S512x1024.Idx) (t : (⟨2, ![1024, 1024]⟩ : Shape).Idx)
    (h0 : (t 0).val = 512 * ((d.val / 2) % 2) + (j 0).val) (h1 : (t 1).val = (j 1).val) : Xc m d j = X t := by
  rw [hX d, Layout.blockN_apply]
  refine congrArg X (Shape.idx_ext₂ ?_ ?_)
  · rw [h0]
    show Layout.meshLin [2, 2, 2] d.val [1] * 512 + (j 0).val = _
    rw [meshLin_y]
    omega
  · rw [h1]
    show Layout.meshLin [2, 2, 2] d.val [] * 1024 + (j 1).val = _
    show 0 * 1024 + (j 1).val = _
    omega

/-- The value of the result: if every device's rows are its row block (along the mesh's y axis) of one whole
    1024 x 1024 array `X`, its result is its column block of `X`. -/
theorem OutF_block (X : (⟨2, ![1024, 1024]⟩ : Shape).Idx → Elt F .f32)
    (hX : ∀ c : Dev nD, Xc m c = Layout.blockN ⟨2, ![512, 1024]⟩ ⟨2, ![1024, 1024]⟩ (Layout.meshBlock [2, 2, 2] ![[1], []] c) X) (c : Dev nD) :
    OutF m c = Layout.blockN ⟨2, ![1024, 512]⟩ ⟨2, ![1024, 1024]⟩ (Layout.meshBlock [2, 2, 2] ![[], [1]] c) X := by
  funext i
  rw [Layout.blockN_apply]
  have hi0 : (i 0).val < 1024 := (i 0).isLt
  have hY : (c.val / 2) % 2 < 2 := Nat.mod_lt _ (by decide)
  have ht0 : ∀ h, ((Layout.TilesN.idx (S := ⟨2, ![1024, 512]⟩) (T := ⟨2, ![1024, 1024]⟩) h (Layout.meshBlock [2, 2, 2] ![[], [1]] c) i) 0).val = (i 0).val := by
    intro h
    show Layout.meshLin [2, 2, 2] c.val [] * 1024 + (i 0).val = _
    show 0 * 1024 + (i 0).val = _
    omega
  have ht1 : ∀ h, ((Layout.TilesN.idx (S := ⟨2, ![1024, 512]⟩) (T := ⟨2, ![1024, 1024]⟩) h (Layout.meshBlock [2, 2, 2] ![[], [1]] c) i) 1).val
      = 512 * ((c.val / 2) % 2) + (i 1).val := by
    intro h
    show Layout.meshLin [2, 2, 2] c.val [1] * 512 + (i 1).val = _
    rw [meshLin_y]
    omega
  unfold OutF
  split_ifs with h
  · refine Xc_at m X hX c _ _ ?_ ?_
    · rw [ht0]
      show (i 0).val = 512 * ((c.val / 2) % 2) + (i 0).val % 512
      omega
    · rw [ht1]
  · refine Xc_at m X hX _ _ _ ?_ ?_
    · rw [ht0, srcQ_y]
      show (i 0).val = 512 * (1 - (c.val / 2) % 2) + (i 0).val % 512
      omega
    · rw [ht1]

end Cert.KernelIdeal.A2A

end
-- ==== Proof.A2A.LaunchDefs.lean ====
/-
  The initial linear state of a device, in the two parts the launch delivers it in: the positions and duty tokens
  dealt with the cells' invariants, and the credit for what the other devices owe its cells.
-/
import proofs.«900624_g7700000000000625_dist_a2a_v7x_xyz2x2x2_y_m512_n512_f32_1_alg».proof.Proof.A2A.Ghost

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Positions and tokens: the part of `lin₀` that is ghost state. -/
def ghostLin (c : Dev nD) : sProp 𝕄 :=
  iprop(atPos ER (bcell c) 0 ∅ 0
    ∗ dutyTok ER (bcell (yp c)) 0 0 ∗ dutyTok ER (bcell (xp c)) 0 1 ∗ dutyTok ER (bcell (zp c)) 0 2
    ∗ fresh c iLocal ∗ fresh c iStage
    ∗ sep4 (fun k => fresh c (iLand k)) ∗ sep4 (fun k => fresh c (iYs k)) ∗ sep4 (fun k => fresh c (iDs k))
    ∗ sep4 (fun k => fresh c (iXs k)) ∗ sep4 (fun k => fresh c (iZs k))
    ∗ sep4 (fun k => iprop(atPos ER (dcell c (iYr k)) 0 ∅ 0 ∗ arrTok (yp c) (iYr k))) ∗ sep4 (fun k => iprop(atPos ER (dcell c (iDr k)) 0 ∅ 0 ∗ arrTok (yp c) (iDr k)))
    ∗ sep4 (fun k => iprop(atPos ER (dcell c (iXr k)) 0 ∅ 0 ∗ arrTok (xp c) (iXr k))) ∗ sep4 (fun k => iprop(atPos ER (dcell c (iZr k)) 0 ∅ 0 ∗ arrTok (zp c) (iZr k))))

/-- The credit a device holds at launch: three units on its barrier cell, a chunk's credit on each arrival cell. -/
def credsOf (c : Dev nD) : sProp 𝕄 :=
  iprop(cred (tallyAt (bcell c) () 3)
    ∗ sep4 (fun k => cred (tallyAt (dcell c (iYr k)) () (amt (iYr k)))) ∗ sep4 (fun k => cred (tallyAt (dcell c (iDr k)) () (amt (iDr k))))
    ∗ sep4 (fun k => cred (tallyAt (dcell c (iXr k)) () (amt (iXr k)))) ∗ sep4 (fun k => cred (tallyAt (dcell c (iZr k)) () (amt (iZr k)))))

end Cert.KernelIdeal.A2A

end
-- ==== Proof.A2A.Credit.lean ====
/-
  What the levels allow and what the launch credits. A device waits on its barrier cell and on its staging copy while
  it still owes every arrival; on the staged arrival of chunk `k` while it still owes the forwards of chunks `k` and
  later; on everything else owing nothing. And summed over the devices that owe them, a device's barrier cell is
  credited three units and each of its arrival cells one chunk's credit.
-/
import proofs.«900624_g7700000000000625_dist_a2a_v7x_xyz2x2x2_y_m512_n512_f32_1_alg».proof.Proof.A2A.LaunchDefs

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A positive tally of a list of payments is at one of the cells paid. -/
theorem owedFrom_pos (l : List (GSem nD τ sig × ℕ)) {g : GSem nD τ sig} {u : Unit} (h : 0 < owedFrom l g u) : ∃ p ∈ l, g = p.1 := by
  induction l with
  | nil =>
    rw [owedFrom_nil, Pi.zero_apply, Finsupp.zero_apply] at h
    exact absurd h (Nat.lt_irrefl 0)
  | cons p l ih =>
    rw [owedFrom_cons, Pi.add_apply, Finsupp.add_apply, tallyAt_apply] at h
    by_cases hg : g = p.1 ∧ u = ()
    · exact ⟨p, List.mem_cons_self, hg.1⟩
    · rw [if_neg hg, Nat.add_zero] at h
      obtain ⟨q, hq, e⟩ := ih h
      exact ⟨q, List.mem_cons_of_mem _ hq, e⟩

omit [FloatOps F] in
/-- A cut at level `b`: the cell waited on sits at or below it, every payment still to make goes to a TensorCore cell
    strictly above it. -/
private theorem mayWait_cut (c : Dev nD) (sm : SemLoc sig) (b : ℕ) (l : List (GSem nD τ sig × ℕ))
    (hW : lv ((c : Thread nD τ), sm) () ≤ b) (hl : ∀ p ∈ l, p.1.1.2 = .tc ∧ b < lv p.1 ()) :
    (levAts L lv : sProp 𝕄) ⊢ MayWait (c : Thread nD τ) sm () (owedFrom l) :=
  MayOwe.of_cut (L := L) (lev := lv) b
    (fun p hp => by rw [Finset.mem_singleton.mp hp, L_tc]; exact Finset.mem_singleton_self _)
    (fun g u hg => by
      obtain ⟨p, hp, rfl⟩ := owedFrom_pos l hg
      have hL : L p.1 = {()} := if_pos (hl p hp).1
      rw [hL]; exact Finset.mem_singleton_self _)
    (fun p hp => by rw [Finset.mem_singleton.mp hp]; exact hW)
    (fun g u hg => by
      obtain ⟨p, hp, rfl⟩ := owedFrom_pos l hg
      exact (hl p hp).2)

/-- Every entry of a literal tail of the payments is a TensorCore cell above the cut: entry by entry, the level read
    off the semaphore number. -/
local macro "pays_above" : tactic =>
  `(tactic| (
    intro p hp
    simp only [pays, List.drop_succ_cons, List.drop_zero, List.mem_cons, List.mem_nil_iff, _root_.or_false] at hp
    repeat (first
      | (rcases hp with h1 | hp
         subst h1
         first | exact ⟨rfl, (by decide : _ < 2)⟩ | exact ⟨rfl, (by decide : _ < 3)⟩)
      | (subst hp
         first | exact ⟨rfl, (by decide : _ < 2)⟩ | exact ⟨rfl, (by decide : _ < 3)⟩))))

omit [FloatOps F] in
/-- At its barrier wait a device owes the sixteen arrivals: all above the barrier cells. -/
theorem mayWait_bar (c : Dev nD) : (levAts L lv : sProp 𝕄) ⊢ MayWait (c : Thread nD τ) (.reg barS) () (owedAfter c 3) :=
  mayWait_cut c (.reg barS) 1 ((pays c).drop 3) (Nat.le_refl 1) (by pays_above)
omit [FloatOps F] in
/-- The same at the wait for its staging copy. -/
theorem mayWait_stage (c : Dev nD) : (levAts L lv : sProp 𝕄) ⊢ MayWait (c : Thread nD τ) (.dma (dsem iStage)) () (owedAfter c 3) :=
  mayWait_cut c (.dma (dsem iStage)) 0 ((pays c).drop 3) (Nat.le_refl 0) (by pays_above)
omit [FloatOps F] in
/-- At the wait for the staged arrival of chunk `k` it owes the forwards of chunks `k` and later: above the staged arrivals. -/
theorem mayWait_yr (c : Dev nD) (k : Fin 4) : (levAts L lv : sProp 𝕄) ⊢ MayWait (c : Thread nD τ) (.dma (dsem (iYr k))) () (owedAfter c (11 + 2 * k.val)) := by
  fin_cases k
  · exact mayWait_cut c (.dma (dsem (iYr 0))) 2 ((pays c).drop 11) (Nat.le_refl 2) (by pays_above)
  · exact mayWait_cut c (.dma (dsem (iYr 1))) 2 ((pays c).drop 13) (Nat.le_refl 2) (by pays_above)
  · exact mayWait_cut c (.dma (dsem (iYr 2))) 2 ((pays c).drop 15) (Nat.le_refl 2) (by pays_above)
  · exact mayWait_cut c (.dma (dsem (iYr 3))) 2 ((pays c).drop 17) (Nat.le_refl 2) (by pays_above)
/-- After its nineteen payments it owes nothing. -/
theorem owedAfter_all (c : Dev nD) : owedAfter c 19 = 0 := rfl

omit [FloatOps F] in
/-- Three units on one cell are one credit of three. -/
private theorem cred_three (g : GSem nD τ sig) :
    iprop(cred (tallyAt g () 1) ∗ cred (tallyAt g () 1) ∗ cred (tallyAt g () 1)) ⊢ (cred (tallyAt g () 3) : sProp 𝕄) :=
  (sep_mono_right (cred_add _ _).2).trans (((cred_add _ _).2).trans (Entails.of_eq (by rw [tallyAt_add, tallyAt_add])))

omit [FloatOps F] in
/-- When every device's first payment goes to semaphore `sm` of its neighbour under an involution `f`, device `c` is
    credited that payment on its own `sm` (by `f c`), beside the credit for the payments that follow. -/
private theorem launchCred_peel (f : Dev nD → Dev nD) (hf : ∀ c, f (f c) = c) (sm : SemLoc sig) (n : ℕ)
    (l : Dev nD → List (GSem nD τ sig × ℕ)) (c : Dev nD) (R : sProp 𝕄) :
    iprop(Pipeline.launchCred (fun d => owedFrom ((((f d : Thread nD τ), sm), n) :: l d)) c ∗ R)
      ⊢ iprop(Pipeline.launchCred (fun d => owedFrom (l d)) c ∗ cred (tallyAt ((c : Thread nD τ), sm) () n) ∗ R) := by
  have h : (Pipeline.launchCred (fun d => owedFrom (l d) + tallyAt ((f d : Thread nD τ), sm) () n) c : sProp 𝕄)
      = iprop(Pipeline.launchCred (fun d => owedFrom (l d)) c ∗ Pipeline.launchCred (fun d => tallyAt ((f d : Thread nD τ), sm) () n) c) :=
    Pipeline.launchCred_add _ _ c
  have h' : (Pipeline.launchCred (fun d => owedFrom ((((f d : Thread nD τ), sm), n) :: l d)) c : sProp 𝕄)
      ⊢ iprop(Pipeline.launchCred (fun d => owedFrom (l d)) c ∗ cred (tallyAt ((c : Thread nD τ), sm) () n)) :=
    (Entails.of_eq h).trans (sep_mono_right (Pipeline.launchCred_tallyAt sm f f hf hf () n c))
  refine (sep_mono_left h').trans ?_
  iintro ⟨⟨HA, HB⟩, HR⟩
  isplitl [HA]; · iexact HA
  isplitl [HB]; · iexact HB
  iexact HR

private theorem amt_yr (k : Fin 4) : amt (iYr k) = AL := by fin_cases k <;> rfl
private theorem amt_dr (k : Fin 4) : amt (iDr k) = AO := by fin_cases k <;> rfl
private theorem amt_xr (k : Fin 4) : amt (iXr k) = AO := by fin_cases k <;> rfl
private theorem amt_zr (k : Fin 4) : amt (iZr k) = AO := by fin_cases k <;> rfl

omit [FloatOps F] in
/-- The launch credit of device `c`, from what every device owes at launch. -/
theorem creds (c : Dev nD) : (Pipeline.launchCred O₀ c : sProp 𝕄) ⊢ credsOf c := by
  have h0 : (Pipeline.launchCred O₀ c : sProp 𝕄) ⊢ iprop(Pipeline.launchCred (fun d => owedFrom (pays d)) c ∗ emp) := by
    show (Pipeline.launchCred (fun d => owedFrom (pays d)) c : sProp 𝕄) ⊢ _
    iintro H; isplitl; · iexact H
    iempintro
  refine h0.trans ?_
  simp only [pays]
  -- the three entry signals
  refine (launchCred_peel yp yp_yp _ _ _ c _).trans ?_
  refine (launchCred_peel xp xp_xp _ _ _ c _).trans ?_
  refine (launchCred_peel zp zp_zp _ _ _ c _).trans ?_
  -- the staged and the direct chunks across y
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  -- per landed chunk a forward across x and one across z
  refine (launchCred_peel xp xp_xp _ _ _ c _).trans ?_
  refine (launchCred_peel zp zp_zp _ _ _ c _).trans ?_
  refine (launchCred_peel xp xp_xp _ _ _ c _).trans ?_
  refine (launchCred_peel zp zp_zp _ _ _ c _).trans ?_
  refine (launchCred_peel xp xp_xp _ _ _ c _).trans ?_
  refine (launchCred_peel zp zp_zp _ _ _ c _).trans ?_
  refine (launchCred_peel xp xp_xp _ _ _ c _).trans ?_
  refine (launchCred_peel zp zp_zp _ _ _ c _).trans ?_
  unfold credsOf sep4
  simp only [amt_yr, amt_dr, amt_xr, amt_zr]
  iintro ⟨-, Z3, X3, Z2, X2, Z1, X1, Z0, X0, D3, D2, D1, D0, Y3, Y2, Y1, Y0, Bz, Bx, By, -⟩
  isplitl [Bz Bx By]
  · iapply (cred_three (F := F) (bcell c))
    isplitl [Bz]; · iexact Bz
    isplitl [Bx]; · iexact Bx
    iexact By
  isplitl [Y0 Y1 Y2 Y3]
  · isplitl [Y0]; · iexact Y0
    isplitl [Y1]; · iexact Y1
    isplitl [Y2]; · iexact Y2
    iexact Y3
  isplitl [D0 D1 D2 D3]
  · isplitl [D0]; · iexact D0
    isplitl [D1]; · iexact D1
    isplitl [D2]; · iexact D2
    iexact D3
  isplitl [X0 X1 X2 X3]
  · isplitl [X0]; · iexact X0
    isplitl [X1]; · iexact X1
    isplitl [X2]; · iexact X2
    iexact X3
  · isplitl [Z0]; · iexact Z0
    isplitl [Z1]; · iexact Z1
    isplitl [Z2]; · iexact Z2
    iexact Z3

end Cert.KernelIdeal.A2A

end
-- ==== Proof.A2A.BodySteps.lean ====
/-
  The body's steps at this protocol's copies: for each kind of copy — the staging copy, the local half, a staged chunk
  across y, a direct chunk across y, a landed chunk forwarded across x or z or copied into the result — what is spent
  and what is received, over the chunk index `k`; and what a device still owes before and after each payment.
-/
import proofs.«900624_g7700000000000625_dist_a2a_v7x_xyz2x2x2_y_m512_n512_f32_1_alg».proof.Proof.Gen.KernelIdeal.Skeleton
import proofs.«900624_g7700000000000625_dist_a2a_v7x_xyz2x2x2_y_m512_n512_f32_1_alg».proof.Proof.A2A.Steps
import proofs.«900624_g7700000000000625_dist_a2a_v7x_xyz2x2x2_y_m512_n512_f32_1_alg».proof.Proof.A2A.Values
import proofs.«900624_g7700000000000625_dist_a2a_v7x_xyz2x2x2_y_m512_n512_f32_1_alg».proof.Proof.A2A.Credit

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (K : Dev nD × Fin 39 → ℕ) (c : Dev nD)

/-! ## The tables at a chunk -/

theorem amt_land (k : Fin 4) : amt (iLand k) = AO := by fin_cases k <;> rfl
theorem dmaPay_land (k : Fin 4) : dmaPay m c (iLand k) = landPay m c k := by fin_cases k <;> rfl
theorem amt_ys (k : Fin 4) : amt (iYs k) = AL := by fin_cases k <;> rfl
theorem dmaPay_ys (k : Fin 4) : dmaPay m c (iYs k) = ysPay m c k := by fin_cases k <;> rfl
theorem amt_yr (k : Fin 4) : amt (iYr k) = AL := by fin_cases k <;> rfl
theorem dmaPay_yr (k : Fin 4) : dmaPay m c (iYr k) = yrPay m c k := by fin_cases k <;> rfl
theorem amt_ds (k : Fin 4) : amt (iDs k) = AO := by fin_cases k <;> rfl
theorem dmaPay_ds (k : Fin 4) : dmaPay m c (iDs k) = dsPay m c k := by fin_cases k <;> rfl
theorem amt_dr (k : Fin 4) : amt (iDr k) = AO := by fin_cases k <;> rfl
theorem dmaPay_dr (k : Fin 4) : dmaPay m c (iDr k) = drPay m c k := by fin_cases k <;> rfl
theorem amt_xs (k : Fin 4) : amt (iXs k) = AO := by fin_cases k <;> rfl
theorem dmaPay_xs (k : Fin 4) : dmaPay m c (iXs k) = xsPay m c k := by fin_cases k <;> rfl
theorem amt_xr (k : Fin 4) : amt (iXr k) = AO := by fin_cases k <;> rfl
theorem dmaPay_xr (k : Fin 4) : dmaPay m c (iXr k) = xrPay m c k := by fin_cases k <;> rfl
theorem amt_zs (k : Fin 4) : amt (iZs k) = AO := by fin_cases k <;> rfl
theorem dmaPay_zs (k : Fin 4) : dmaPay m c (iZs k) = zsPay m c k := by fin_cases k <;> rfl
theorem amt_zr (k : Fin 4) : amt (iZr k) = AO := by fin_cases k <;> rfl
theorem dmaPay_zr (k : Fin 4) : dmaPay m c (iZr k) = zrPay m c k := by fin_cases k <;> rfl
theorem amt_local : amt iLocal = A512 := rfl
theorem amt_stage : amt iStage = A128 := rfl
theorem dmaPay_local : dmaPay m c iLocal = localPay m c := rfl
theorem dmaPay_stage : dmaPay m c iStage = stagePay m c := rfl

/-! ## What is owed, payment by payment -/

omit [FloatOps F] in
theorem owed_0 : owedAfter c 0 = owedAfter c 1 + tallyAt (bcell (yp c)) () 1 := rfl
omit [FloatOps F] in
theorem owed_1 : owedAfter c 1 = owedAfter c 2 + tallyAt (bcell (xp c)) () 1 := rfl
omit [FloatOps F] in
theorem owed_2 : owedAfter c 2 = owedAfter c 3 + tallyAt (bcell (zp c)) () 1 := rfl
omit [FloatOps F] in
theorem owed_y (k : Fin 4) : owedAfter c (3 + k.val) = owedAfter c (4 + k.val) + tallyAt (dcell (yp c) (iYr k)) () AL := by fin_cases k <;> rfl
omit [FloatOps F] in
theorem owed_d (k : Fin 4) : owedAfter c (7 + k.val) = owedAfter c (8 + k.val) + tallyAt (dcell (yp c) (iDr k)) () AO := by fin_cases k <;> rfl
omit [FloatOps F] in
theorem owed_x (k : Fin 4) : owedAfter c (11 + 2 * k.val) = owedAfter c (12 + 2 * k.val) + tallyAt (dcell (xp c) (iXr k)) () AO := by fin_cases k <;> rfl
omit [FloatOps F] in
theorem owed_z (k : Fin 4) : owedAfter c (12 + 2 * k.val) = owedAfter c (13 + 2 * k.val) + tallyAt (dcell (zp c) (iZr k)) () AO := by fin_cases k <;> rfl

/-! ## The sends -/

/-- A staged chunk sent across y. -/
theorem ysend_step {α : Type} {Q : α → sProp 𝕄} (k : Fin 4) (n : Dev nD) (hn : n = yp c) (O₀ O : CellTallies nD τ sig Unit)
    (hO : O₀ = O + tallyAt (dcell (yp c) (iYr k)) () AL) (W : Waits sig Unit)
    (fd : Buf (Elt F) ((lCh k).view.loc ((yp c : Dev nD) : Thread nD τ)))
    {hsc : (lCh k).view.ref.isScScratch = false} {hsrc : (sCh k).view.WordExact} {hdst : (lCh k).view.WordExact}
    {hsem : DmaTarget.Typed _ (.dma (dsem (iYr k))) (.remote (Dev.tc n : Thread nD τ) (lCh k) (.dma (dsem (iYs k))) hsc)} {kont : PUnit → Prog (TpuEff nD τ sig (Elt F) Λ₀ .tc) α} :
    iprop(records m K ∗ fresh c (iYs k) ∗ arrTok (yp c) (iYr k) ∗ pts c (sCh k) (q4 k) (StageF m c) ∗ pts (yp c) (lCh k) fullShare fd
        ∗ owes (c : Thread nD τ) O₀ W)
      ⊢ iprop(((flying c (iYs k) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sCh k) (.remote (Dev.tc n : Thread nD τ) (lCh k) (.dma (dsem (iYs k))) hsc) (.dma (dsem (iYr k))) hsrc hdst hsem) kont) Q) := by
  subst hO
  rw [← amt_yr k]
  unfold pts
  exact step_send m K c (yp c) n hn (iYs k) (iYr k) O W (src := sCh k) (dst := lCh k) (q4 k) (StageF m c) fd
    ((show (lCh k).view.dmaCredit = AL from rfl).trans (amt_ys k).symm) ((amt_yr k).trans (amt_ys k).symm)
    (by rw [dmaPay_ys]; unfold ysPay pts; exact Entails.refl _)
    (by rw [dmaPay_yr]; exact Entails.of_eq (by have h := y_written m c k fd; unfold pts at h; exact h))

/-- A chunk of the opposite quarter sent directly across y. -/
theorem dsend_step {α : Type} {Q : α → sProp 𝕄} (k : Fin 4) (n : Dev nD) (hn : n = yp c) (O₀ O : CellTallies nD τ sig Unit)
    (hO : O₀ = O + tallyAt (dcell (yp c) (iDr k)) () AO) (W : Waits sig Unit)
    (fd : Buf (Elt F) ((oD c k).view.loc ((yp c : Dev nD) : Thread nD τ)))
    {hsc : (oD c k).view.ref.isScScratch = false} {hsrc : (xD c k).view.WordExact} {hdst : (oD c k).view.WordExact}
    {hsem : DmaTarget.Typed _ (.dma (dsem (iDr k))) (.remote (Dev.tc n : Thread nD τ) (oD c k) (.dma (dsem (iDs k))) hsc)} {kont : PUnit → Prog (TpuEff nD τ sig (Elt F) Λ₀ .tc) α} :
    iprop(records m K ∗ fresh c (iDs k) ∗ arrTok (yp c) (iDr k) ∗ pts c (xD c k) (qXD k) (Xc m c) ∗ pts (yp c) (oD c k) fullShare fd
        ∗ owes (c : Thread nD τ) O₀ W)
      ⊢ iprop(((flying c (iDs k) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xD c k) (.remote (Dev.tc n : Thread nD τ) (oD c k) (.dma (dsem (iDs k))) hsc) (.dma (dsem (iDr k))) hsrc hdst hsem) kont) Q) := by
  subst hO
  rw [← amt_dr k]
  unfold pts
  exact step_send m K c (yp c) n hn (iDs k) (iDr k) O W (src := xD c k) (dst := oD c k) (qXD k) (Xc m c) fd
    ((show (oD c k).view.dmaCredit = AO from rfl).trans (amt_ds k).symm) ((amt_dr k).trans (amt_ds k).symm)
    (by rw [dmaPay_ds]; unfold dsPay pts; exact Entails.refl _)
    (by rw [dmaPay_dr]; exact Entails.of_eq (by have h := d_written m c k fd; unfold pts at h; exact h))

/-- A landed chunk forwarded across x. -/
theorem xfwd_step {α : Type} {Q : α → sProp 𝕄} (k : Fin 4) (n : Dev nD) (hn : n = xp c) (O₀ O : CellTallies nD τ sig Unit)
    (hO : O₀ = O + tallyAt (dcell (xp c) (iXr k)) () AO) (W : Waits sig Unit)
    (fd : Buf (Elt F) ((oF c k).view.loc ((xp c : Dev nD) : Thread nD τ)))
    {hsc : (oF c k).view.ref.isScScratch = false} {hsrc : (lCh k).view.WordExact} {hdst : (oF c k).view.WordExact}
    {hsem : DmaTarget.Typed _ (.dma (dsem (iXr k))) (.remote (Dev.tc n : Thread nD τ) (oF c k) (.dma (dsem (iXs k))) hsc)} {kont : PUnit → Prog (TpuEff nD τ sig (Elt F) Λ₀ .tc) α} :
    iprop(records m K ∗ fresh c (iXs k) ∗ arrTok (xp c) (iXr k) ∗ pts c (lCh k) (qX) (LandF m c) ∗ pts (xp c) (oF c k) fullShare fd
        ∗ owes (c : Thread nD τ) O₀ W)
      ⊢ iprop(((flying c (iXs k) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (lCh k) (.remote (Dev.tc n : Thread nD τ) (oF c k) (.dma (dsem (iXs k))) hsc) (.dma (dsem (iXr k))) hsrc hdst hsem) kont) Q) := by
  subst hO
  rw [← amt_xr k]
  unfold pts
  exact step_send m K c (xp c) n hn (iXs k) (iXr k) O W (src := lCh k) (dst := oF c k) (qX) (LandF m c) fd
    ((show (oF c k).view.dmaCredit = AO from rfl).trans (amt_xs k).symm) ((amt_xr k).trans (amt_xs k).symm)
    (by rw [dmaPay_xs]; unfold xsPay pts; exact Entails.refl _)
    (by rw [dmaPay_xr]; exact Entails.of_eq (by have h := xf_written m c k fd; unfold pts at h; exact h))

/-- A landed chunk forwarded across z. -/
theorem zfwd_step {α : Type} {Q : α → sProp 𝕄} (k : Fin 4) (n : Dev nD) (hn : n = zp c) (O₀ O : CellTallies nD τ sig Unit)
    (hO : O₀ = O + tallyAt (dcell (zp c) (iZr k)) () AO) (W : Waits sig Unit)
    (fd : Buf (Elt F) ((oF c k).view.loc ((zp c : Dev nD) : Thread nD τ)))
    {hsc : (oF c k).view.ref.isScScratch = false} {hsrc : (lCh k).view.WordExact} {hdst : (oF c k).view.WordExact}
    {hsem : DmaTarget.Typed _ (.dma (dsem (iZr k))) (.remote (Dev.tc n : Thread nD τ) (oF c k) (.dma (dsem (iZs k))) hsc)} {kont : PUnit → Prog (TpuEff nD τ sig (Elt F) Λ₀ .tc) α} :
    iprop(records m K ∗ fresh c (iZs k) ∗ arrTok (zp c) (iZr k) ∗ pts c (lCh k) (qZ) (LandF m c) ∗ pts (zp c) (oF c k) fullShare fd
        ∗ owes (c : Thread nD τ) O₀ W)
      ⊢ iprop(((flying c (iZs k) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (lCh k) (.remote (Dev.tc n : Thread nD τ) (oF c k) (.dma (dsem (iZs k))) hsc) (.dma (dsem (iZr k))) hsrc hdst hsem) kont) Q) := by
  subst hO
  rw [← amt_zr k]
  unfold pts
  exact step_send m K c (zp c) n hn (iZs k) (iZr k) O W (src := lCh k) (dst := oF c k) (qZ) (LandF m c) fd
    ((show (oF c k).view.dmaCredit = AO from rfl).trans (amt_zs k).symm) ((amt_zr k).trans (amt_zs k).symm)
    (by rw [dmaPay_zs]; unfold zsPay pts; exact Entails.refl _)
    (by rw [dmaPay_zr]; exact Entails.of_eq (by have h := zf_written m c k fd; unfold pts at h; exact h))

/-! ## The local copies -/

/-- A landed chunk copied into this device's result. -/
theorem landcp_step {α : Type} {Q : α → sProp 𝕄} (k : Fin 4) (fd : Buf (Elt F) ((oF c k).view.loc (c : Thread nD τ)))
    {hsrc : (lCh k).view.WordExact} {hdst : (oF c k).view.WordExact}
    {hsem : DmaTarget.Typed (nD := nD) _ (.dma (dsem (iLand k))) (DmaTarget.here (oF c k) : DmaTarget nD τ sig .tc _ _ .f32)} {kont : PUnit → Prog (TpuEff nD τ sig (Elt F) Λ₀ .tc) α} :
    iprop(records m K ∗ fresh c (iLand k) ∗ pts c (lCh k) qL (LandF m c) ∗ pts c (oF c k) fullShare fd)
      ⊢ iprop((flying c (iLand k) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (lCh k) (DmaTarget.here (oF c k) : DmaTarget nD τ sig .tc _ _ .f32) (.dma (dsem (iLand k))) hsrc hdst hsem) kont) Q) := by
  unfold pts
  exact step_copy m K c (iLand k) (src := lCh k) (dst := oF c k) qL (LandF m c) fd ((show (oF c k).view.dmaCredit = AO from rfl).trans (amt_land k).symm)
    (by rw [dmaPay_land]; unfold landPay
        have h := land_written m c k fd
        unfold pts at h ⊢
        rw [h])

/-- The staging copy. -/
theorem stagecp_step {α : Type} {Q : α → sProp 𝕄} (fd : Buf (Elt F) ((sM : Memref sig .tc .vmem S128x512 .f32).view.loc (c : Thread nD τ)))
    {hsrc : (xStage c).view.WordExact} {hdst : (sM : Memref sig .tc .vmem S128x512 .f32).view.WordExact}
    {hsem : DmaTarget.Typed (nD := nD) _ (.dma (dsem iStage)) (DmaTarget.here (sM : Memref sig .tc .vmem S128x512 .f32) : DmaTarget nD τ sig .tc _ _ .f32)} {kont : PUnit → Prog (TpuEff nD τ sig (Elt F) Λ₀ .tc) α} :
    iprop(records m K ∗ fresh c iStage ∗ pts c (xStage c) qXS (Xc m c) ∗ pts c sM fullShare fd)
      ⊢ iprop((flying c iStage -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (xStage c) (DmaTarget.here (sM : Memref sig .tc .vmem S128x512 .f32) : DmaTarget nD τ sig .tc _ _ .f32) (.dma (dsem iStage)) hsrc hdst hsem) kont) Q) := by
  unfold pts
  exact step_copy m K c iStage (src := xStage c) (dst := (sM : Memref sig .tc .vmem S128x512 .f32)) qXS (Xc m c) fd rfl
    (by rw [dmaPay_stage]; unfold stagePay
        have h := stage_written m c fd
        unfold pts at h ⊢
        rw [h])

/-- The local half. -/
theorem localcp_step {α : Type} {Q : α → sProp 𝕄} (fd : Buf (Elt F) ((oLocal c).view.loc (c : Thread nD τ)))
    {hsrc : (xLocal c).view.WordExact} {hdst : (oLocal c).view.WordExact}
    {hsem : DmaTarget.Typed (nD := nD) _ (.dma (dsem iLocal)) (DmaTarget.here (oLocal c) : DmaTarget nD τ sig .tc _ _ .f32)} {kont : PUnit → Prog (TpuEff nD τ sig (Elt F) Λ₀ .tc) α} :
    iprop(records m K ∗ fresh c iLocal ∗ pts c (xLocal c) qXL (Xc m c) ∗ pts c (oLocal c) fullShare fd)
      ⊢ iprop((flying c iLocal -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (xLocal c) (DmaTarget.here (oLocal c) : DmaTarget nD τ sig .tc _ _ .f32) (.dma (dsem iLocal)) hsrc hdst hsem) kont) Q) := by
  unfold pts
  exact step_copy m K c iLocal (src := xLocal c) (dst := oLocal c) qXL (Xc m c) fd rfl
    (by rw [dmaPay_local]; unfold localPay
        have h := local_written m c fd
        unfold pts at h ⊢
        rw [h])

end

end Cert.KernelIdeal.A2A

end
-- ==== Proof.A2A.Regions.lean ====
/-
  Cutting the buffers up and putting them back. The result buffer is the disjoint union of seventeen row ranges:
  the local half, and in the other half four quarters of four chunks each — the landed quarter, the quarter the
  y-peer sends directly, the quarters the x-peer and the z-peer forward. The landing buffer is four chunks. A source
  read by several copies at once is shared among them by shares of ALL its elements, each reader carving the elements
  of its own view out of its share and keeping the rest to put back.
-/
import proofs.«900624_g7700000000000625_dist_a2a_v7x_xyz2x2x2_y_m512_n512_f32_1_alg».proof.Proof.A2A.Ghost
import Idealize.ShloMosaic.Lib.Pipeline.Value

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Points-to identities, as equalities -/

/-- A share of a set of elements is its left half beside its right half. -/
private theorem pt_halves {ℓ : Loc nD τ sig} (S : Finset (Idx ℓ)) (q : PosShare TreeShare) (f : Buf (Elt F) ℓ) :
    (ℓ ↦[S]{q} f : sProp 𝕄) = iprop((ℓ ↦[S]{q.left} f) ∗ ℓ ↦[S]{q.right} f) := by
  have h : (ℓ ↦[S]{q} f : sProp 𝕄) ⊣⊢ iprop((ℓ ↦[S]{q.left} f) ∗ ℓ ↦[S]{q.right} f) :=
    pointsTo_share (PosShare.mem_left_op_right q)
  exact BI.equiv_iff.mp ⟨h.1, h.2⟩

/-- A subset of the elements beside the rest. -/
private theorem pt_carve {ℓ : Loc nD τ sig} {I S : Finset (Idx ℓ)} (h : I ⊆ S) (q : PosShare TreeShare) (f : Buf (Elt F) ℓ) :
    (ℓ ↦[S]{q} f : sProp 𝕄) = iprop((ℓ ↦[I]{q} f) ∗ ℓ ↦[S \ I]{q} f) := by
  have h' : (ℓ ↦[S]{q} f : sProp 𝕄) ⊣⊢ iprop((ℓ ↦[I]{q} f) ∗ ℓ ↦[S \ I]{q} f) := pointsTo_split_subset h
  exact BI.equiv_iff.mp ⟨h'.1, h'.2⟩

private theorem sep_assoc_eq (P Q R : sProp 𝕄) : iprop((P ∗ Q) ∗ R) = iprop(P ∗ Q ∗ R) :=
  BI.equiv_iff.mp ⟨Idealize.SL.BI.sep_assoc, Idealize.SL.BI.sep_assoc'⟩

private theorem bigSep_fin4 (Φ : Fin 4 → sProp 𝕄) : bigSep Finset.univ Φ = sep4 Φ :=
  bigSep_univ_eq_bigSepL [0, 1, 2, 3] (by decide) (by decide) Φ

/-- A set of elements that is the union of pairwise disjoint pieces is its pieces side by side. -/
private theorem pt_pieces {T : Type} [Fintype T] [DecidableEq T] {ℓ : Loc nD τ sig} (S : Finset (Idx ℓ)) (K : T → Finset (Idx ℓ))
    (hd : ∀ t t', t ≠ t' → Disjoint (K t) (K t')) (hsub : ∀ t, K t ⊆ S) (hcov : ∀ i ∈ S, ∃ t, i ∈ K t)
    (q : PosShare TreeShare) (f : Buf (Elt F) ℓ) :
    (ℓ ↦[S]{q} f : sProp 𝕄) = bigSep Finset.univ fun t => ℓ ↦[K t]{q} f := by
  have e : S = Finset.univ.biUnion K := by
    ext i
    simp only [Finset.mem_biUnion, Finset.mem_univ, true_and]
    exact ⟨hcov i, fun ⟨t, ht⟩ => hsub t ht⟩
  rw [e]
  exact pointsTo_biUnion _ K fun t _ t' _ h => hd t t' h

/-! ## The result buffer: the local half and sixteen chunks of 32 rows

The sixteen chunks of the far half, by family — what this device landed, what the y-peer sends directly, what the
x-peer and the z-peer forward — and by chunk number. Every chunk starts at a multiple of 32 rows inside the far
half; two different chunks start at different rows; every multiple of 32 in the far half starts one. -/

private def localSet (c : Dev nD) : Finset S1024x512.Idx := (oLocal c).view.set

private def chunkSet (c : Dev nD) (t : Fin 4 × Fin 4) : Finset S1024x512.Idx :=
  match t.1 with
  | ⟨0, _⟩ => (oF c t.2).view.set
  | ⟨1, _⟩ => (oD (yp c) t.2).view.set
  | ⟨2, _⟩ => (oF (xp c) t.2).view.set
  | ⟨_ + 3, _⟩ => (oF (zp c) t.2).view.set

/-- The printed offsets of the chunks. -/
private def offOf (c : Dev nD) (t : Fin 4 × Fin 4) : Fin 2 → ℕ :=
  match t.1 with
  | ⟨0, _⟩ => k0_off6 c (BitVec.ofNat 32 (32 * t.2.val))
  | ⟨1, _⟩ => k0_off4 (yp c) (BitVec.ofNat 32 (32 * t.2.val))
  | ⟨2, _⟩ => k0_off6 (xp c) (BitVec.ofNat 32 (32 * t.2.val))
  | ⟨_ + 3, _⟩ => k0_off6 (zp c) (BitVec.ofNat 32 (32 * t.2.val))

private theorem offOf_inb : ∀ (c : Dev nD) (j k : Fin 4) (a : Fin 2), offOf c (j, k) a + S32x512.size a ≤ S1024x512.size a := by
  decide +kernel

private theorem offOf_facts : ∀ (c : Dev nD) (j k : Fin 4),
    offOf c (j, k) 1 = 0 ∧ offOf c (j, k) 0 % 32 = 0 ∧ offOf c (j, k) 0 / 512 = 1 - (c.val / 2) % 2 := by
  decide +kernel

private theorem offOf_inj : ∀ (c : Dev nD) (j k j' k' : Fin 4), offOf c (j, k) 0 = offOf c (j', k') 0 → j = j' ∧ k = k' := by
  decide +kernel

private theorem offOf_surj : ∀ (c : Dev nD) (b : Fin 16), ∃ j k : Fin 4, offOf c (j, k) 0 = 512 * (1 - (c.val / 2) % 2) + 32 * b.val := by
  decide +kernel

private theorem off2_facts : ∀ c : Dev nD, k0_off2 c 0 = 512 * ((c.val / 2) % 2) ∧ k0_off2 c 1 = 0 := by
  decide +kernel

private theorem chunkSet_eq (c : Dev nD) (j k : Fin 4) :
    chunkSet c (j, k) = (Rect.unit (s := S1024x512) (offOf c (j, k)) S32x512.size (offOf_inb c j k)).set := by
  match j with
  | ⟨0, _⟩ => exact View.set_slice_whole _ _
  | ⟨1, _⟩ => exact View.set_slice_whole _ _
  | ⟨2, _⟩ => exact View.set_slice_whole _ _
  | ⟨_ + 3, _⟩ => exact View.set_slice_whole _ _

/-- A row lies in the chunk that starts at its multiple of 32. -/
private theorem mem_chunk (c : Dev nD) (j k : Fin 4) (i : S1024x512.Idx) :
    i ∈ chunkSet c (j, k) ↔ (i 0).val / 32 = offOf c (j, k) 0 / 32 := by
  rw [chunkSet_eq, Rect.mem_set_unit, Fin.forall_fin_two]
  obtain ⟨h1, h2, -⟩ := offOf_facts c j k
  have hi : (i 1).val < 512 := (i 1).isLt
  show (offOf c (j, k) 0 ≤ (i 0).val ∧ (i 0).val < offOf c (j, k) 0 + 32)
    ∧ (offOf c (j, k) 1 ≤ (i 1).val ∧ (i 1).val < offOf c (j, k) 1 + 512) ↔ _
  rw [h1]
  omega

/-- A row lies in the local half when it is on this device's side. -/
private theorem mem_local (c : Dev nD) (i : S1024x512.Idx) : i ∈ localSet c ↔ (i 0).val / 512 = (c.val / 2) % 2 := by
  have e : localSet c = (Rect.unit (s := S1024x512) (k0_off2 c) S512x512.size (k0_off2_inb c)).set := View.set_slice_whole _ _
  rw [e, Rect.mem_set_unit, Fin.forall_fin_two]
  obtain ⟨h0, h1⟩ := off2_facts c
  have hi : (i 1).val < 512 := (i 1).isLt
  have hr : (i 0).val < 1024 := (i 0).isLt
  show (k0_off2 c 0 ≤ (i 0).val ∧ (i 0).val < k0_off2 c 0 + 512) ∧ (k0_off2 c 1 ≤ (i 1).val ∧ (i 1).val < k0_off2 c 1 + 512) ↔ _
  rw [h0, h1]
  omega

private theorem chunk_not_local (c : Dev nD) (j k : Fin 4) (i : S1024x512.Idx) (hi : i ∈ chunkSet c (j, k)) : i ∉ localSet c := by
  intro hl
  have h1 := (mem_local c i).mp hl
  have h2 := (mem_chunk c j k i).mp hi
  obtain ⟨-, h3, h4⟩ := offOf_facts c j k
  omega

private theorem chunk_disjoint (c : Dev nD) : ∀ t t' : Fin 4 × Fin 4, t ≠ t' → Disjoint (chunkSet c t) (chunkSet c t') := by
  rintro ⟨j, k⟩ ⟨j', k'⟩ hne
  rw [Finset.disjoint_left]
  intro i hi hi'
  have h1 := (mem_chunk c j k i).mp hi
  have h2 := (mem_chunk c j' k' i).mp hi'
  obtain ⟨-, h3, -⟩ := offOf_facts c j k
  obtain ⟨-, h4, -⟩ := offOf_facts c j' k'
  have e : offOf c (j, k) 0 = offOf c (j', k') 0 := by omega
  obtain ⟨rfl, rfl⟩ := offOf_inj c j k j' k' e
  exact hne rfl

private theorem chunk_cover (c : Dev nD) (i : S1024x512.Idx) (h : i ∉ localSet c) : ∃ t, i ∈ chunkSet c t := by
  have h' : ¬ (i 0).val / 512 = (c.val / 2) % 2 := fun e => h ((mem_local c i).mpr e)
  have hr : (i 0).val < 1024 := (i 0).isLt
  obtain ⟨j, k, hjk⟩ := offOf_surj c ⟨((i 0).val - 512 * (1 - (c.val / 2) % 2)) / 32, by omega⟩
  have hjk' : offOf c (j, k) 0 = 512 * (1 - (c.val / 2) % 2) + 32 * (((i 0).val - 512 * (1 - (c.val / 2) % 2)) / 32) := hjk
  exact ⟨(j, k), (mem_chunk c j k i).mpr (by omega)⟩

/-- The result buffer by the row ranges its writers fill. -/
theorem out_split (c : Dev nD) (f : Buf (Elt F) ((oM : Memref sig .tc .hbm S1024x512 .f32).view.loc (c : Thread nD τ))) :
    (pts c oM fullShare f : sProp 𝕄)
      = iprop(pts c (oLocal c) fullShare f ∗ sep4 (fun k => pts c (oF c k) fullShare f) ∗ sep4 (fun k => pts c (oD (yp c) k) fullShare f)
          ∗ sep4 (fun k => pts c (oF (xp c) k) fullShare f) ∗ sep4 (fun k => pts c (oF (zp c) k) fullShare f)) := by
  have hM : (oM : Memref sig .tc .hbm S1024x512 .f32).view.set = (Finset.univ : Finset S1024x512.Idx) := View.set_whole _
  have h0 : (pts c oM fullShare f : sProp 𝕄)
      = ((oM : Memref sig .tc .hbm S1024x512 .f32).view.loc (c : Thread nD τ) ↦[(Finset.univ : Finset S1024x512.Idx)]{fullShare} f) := by
    unfold pts; rw [hM]
  have h1 := pt_carve (F := F) (ℓ := (oM : Memref sig .tc .hbm S1024x512 .f32).view.loc (c : Thread nD τ))
    (Finset.subset_univ (localSet c)) fullShare f
  have h2 := pt_pieces (F := F) (ℓ := (oM : Memref sig .tc .hbm S1024x512 .f32).view.loc (c : Thread nD τ))
    ((Finset.univ : Finset S1024x512.Idx) \ localSet c) (chunkSet c) (chunk_disjoint c)
    (fun t i hi => Finset.mem_sdiff.mpr ⟨Finset.mem_univ i, chunk_not_local c t.1 t.2 i hi⟩)
    (fun i hi => chunk_cover c i (Finset.mem_sdiff.mp hi).2) fullShare f
  rw [bigSep_univ_prod, bigSep_fin4] at h2
  simp only [bigSep_fin4] at h2
  rw [h0, h1, h2]
  rfl

/-! ## The landing buffer: four chunks of 32 rows -/

private def lSet (k : Fin 4) : Finset S128x512.Idx := (lCh k).view.set

/-- Row `r` of a 128-row buffer lies in chunk `r / 32`. -/
private theorem mem_lSet (k : Fin 4) (i : S128x512.Idx) : i ∈ lSet k ↔ (i 0).val / 32 = k.val := by
  have e : lSet k = (Rect.unit (s := S128x512) (chOff k) S32x512.size (chOff_inb k)).set := View.set_slice_whole _ _
  rw [e, Rect.mem_set_unit, Fin.forall_fin_two]
  have h1 : (i 1).val < 512 := (i 1).isLt
  show (32 * k.val ≤ (i 0).val ∧ (i 0).val < 32 * k.val + 32) ∧ (0 ≤ (i 1).val ∧ (i 1).val < 0 + 512) ↔ _
  omega

/-- The landing buffer by chunks. -/
theorem land_split (c : Dev nD) (f : Buf (Elt F) ((lM : Memref sig .tc .vmem S128x512 .f32).view.loc (c : Thread nD τ))) :
    (pts c lM fullShare f : sProp 𝕄) = sep4 (fun k => pts c (lCh k) fullShare f) := by
  have hd : ∀ t t' : Fin 4, t ≠ t' → Disjoint (lSet t) (lSet t') := by
    intro t t' hne
    rw [Finset.disjoint_left]
    intro i hi hi'
    exact hne (Fin.ext (((mem_lSet t i).mp hi).symm.trans ((mem_lSet t' i).mp hi')))
  have hcov : ∀ i : S128x512.Idx, ∃ k : Fin 4, i ∈ lSet k := fun i =>
    ⟨⟨(i 0).val / 32, by have h0 : (i 0).val < 128 := (i 0).isLt; omega⟩, (mem_lSet _ i).mpr rfl⟩
  have h := pt_pieces (F := F) (ℓ := (lM : Memref sig .tc .vmem S128x512 .f32).view.loc (c : Thread nD τ))
    (lM : Memref sig .tc .vmem S128x512 .f32).view.set lSet hd (fun t => View.set_slice_subset _ _) (fun i _ => hcov i) fullShare f
  rw [bigSep_fin4] at h
  exact h

/-- A landed chunk among its three readers. -/
theorem lch_share (c : Dev nD) (k : Fin 4) (f : Buf (Elt F) ((lCh k).view.loc (c : Thread nD τ))) :
    (pts c (lCh k) fullShare f : sProp 𝕄) = iprop(pts c (lCh k) qX f ∗ pts c (lCh k) qZ f ∗ pts c (lCh k) qL f) := by
  unfold pts
  rw [pt_halves _ fullShare f, pt_halves _ fullShare.right f]

/-- What is left of share `q` of a whole buffer `M` once the elements of its slice `M'` are carved out. -/
def remOf {sp : Space} {s s' : Shape} (c : Dev nD) (M : Memref sig .tc sp s .f32) (M' : Memref sig .tc sp s' .f32)
    (h : M'.view.loc (c : Thread nD τ) = M.view.loc (c : Thread nD τ)) (q : PosShare TreeShare)
    (f : Buf (Elt F) (M.view.loc (c : Thread nD τ))) : sProp 𝕄 :=
  M.view.loc (c : Thread nD τ) ↦[M.view.set \ (h ▸ M'.view.set)]{q} f

/-- A share of a buffer is the same share of a slice of it beside what is left. -/
private theorem carve_slice {sp : Space} {s : Shape} (c : Dev nD) (M : Memref sig .tc sp s .f32) (r : Rect s) (hr : ∀ a, r.stride a = 1)
    (q : PosShare TreeShare) (f : Buf (Elt F) (M.view.loc (c : Thread nD τ))) :
    (pts c M q f : sProp 𝕄) = iprop(pts c (M.slice r hr) q f ∗ remOf c M (M.slice r hr) rfl q f) :=
  pt_carve (ℓ := M.view.loc (c : Thread nD τ)) (I := (M.slice r hr).view.set) (S := M.view.set) (View.set_slice_subset _ _) q f

/-- The staging buffer among its four chunked readers, each holding a share of all of it: its own chunk and the rest. -/
theorem stage_share (c : Dev nD) (f : Buf (Elt F) ((sM : Memref sig .tc .vmem S128x512 .f32).view.loc (c : Thread nD τ))) :
    (pts c sM fullShare f : sProp 𝕄) = sep4 (fun k => iprop(pts c (sCh k) (q4 k) f ∗ remOf c sM (sCh k) rfl (q4 k) f)) := by
  have hs (k : Fin 4) (q : PosShare TreeShare) :
      iprop(pts c (sCh k) q f ∗ remOf c sM (sCh k) rfl q f) = (pts c sM q f : sProp 𝕄) := (carve_slice c sM _ (fun _ => rfl) q f).symm
  unfold sep4
  beta_reduce
  rw [hs 0, hs 1, hs 2, hs 3]
  rw [show q4 0 = fullShare.left.left from rfl, show q4 1 = fullShare.left.right from rfl,
    show q4 2 = fullShare.right.left from rfl, show q4 3 = fullShare.right.right from rfl]
  unfold pts
  rw [pt_halves _ fullShare f, pt_halves _ fullShare.left f, pt_halves _ fullShare.right f]
  exact sep_assoc_eq _ _ _

/-- The argument rows among their six readers: the local half, the staging copy, the four direct chunks. -/
theorem x_share (c : Dev nD) (f : Buf (Elt F) ((xM : Memref sig .tc .hbm S512x1024 .f32).view.loc (c : Thread nD τ))) :
    (pts c xM fullShare f : sProp 𝕄)
      = iprop((pts c (xLocal c) qXL f ∗ remOf c xM (xLocal c) rfl qXL f) ∗ (pts c (xStage c) qXS f ∗ remOf c xM (xStage c) rfl qXS f)
          ∗ sep4 (fun k => iprop(pts c (xD c k) (qXD k) f ∗ remOf c xM (xD c k) rfl (qXD k) f))) := by
  have hL (q : PosShare TreeShare) :
      iprop(pts c (xLocal c) q f ∗ remOf c xM (xLocal c) rfl q f) = (pts c xM q f : sProp 𝕄) := (carve_slice c xM _ (fun _ => rfl) q f).symm
  have hS (q : PosShare TreeShare) :
      iprop(pts c (xStage c) q f ∗ remOf c xM (xStage c) rfl q f) = (pts c xM q f : sProp 𝕄) := (carve_slice c xM _ (fun _ => rfl) q f).symm
  have hD (k : Fin 4) (q : PosShare TreeShare) :
      iprop(pts c (xD c k) q f ∗ remOf c xM (xD c k) rfl q f) = (pts c xM q f : sProp 𝕄) := (carve_slice c xM _ (fun _ => rfl) q f).symm
  unfold sep4
  beta_reduce
  rw [hL, hS, hD 0, hD 1, hD 2, hD 3]
  rw [show qXD 0 = fullShare.right.right.left.left from rfl, show qXD 1 = fullShare.right.right.left.right from rfl,
    show qXD 2 = fullShare.right.right.right.left from rfl, show qXD 3 = fullShare.right.right.right.right from rfl]
  unfold pts
  rw [pt_halves _ fullShare f, pt_halves _ fullShare.right f, pt_halves _ fullShare.right.right f,
    pt_halves _ fullShare.right.right.left f, pt_halves _ fullShare.right.right.right f]
  rw [sep_assoc_eq]

end Cert.KernelIdeal.A2A

end
-- ==== Proof.A2A.Body.lean ====
/-
  One device's body, step by step. The buffers are first cut up: the argument rows shared among their six readers,
  the result cut into its seventeen row ranges, the landing buffer into its four chunks. The staging copy and the
  local half are issued; the three entry signals hand each neighbour the elements of this device's buffers it will
  write; the wait for the neighbours' signals returns theirs. Then the eight chunks across y are sent; as each staged
  chunk lands it is forwarded across x and z and copied into the result; and every copy is waited for, each wait
  returning the elements its copy wrote at their final contents, or the share its copy read. Put back together these
  are the result at its final contents, the argument rows unchanged, and both scratch buffers whole.
-/
import proofs.«900624_g7700000000000625_dist_a2a_v7x_xyz2x2x2_y_m512_n512_f32_1_alg».proof.Proof.Gen.KernelIdeal.Skeleton
import proofs.«900624_g7700000000000625_dist_a2a_v7x_xyz2x2x2_y_m512_n512_f32_1_alg».proof.Proof.A2A.BodySteps
import proofs.«900624_g7700000000000625_dist_a2a_v7x_xyz2x2x2_y_m512_n512_f32_1_alg».proof.Proof.A2A.Regions

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem barPay_0 (c : Dev nD) : (barPay (F := F) c 0)
    = iprop(sep4 (fun k => iprop(∃ f, pts (yp c) (lCh k) fullShare f)) ∗ sep4 (fun k => iprop(∃ f, pts (yp c) (oD c k) fullShare f))) := rfl
omit [FloatOps F] in
theorem barPay_1 (c : Dev nD) : (barPay (F := F) c 1) = sep4 (fun k => iprop(∃ f, pts (xp c) (oF c k) fullShare f)) := rfl
omit [FloatOps F] in
theorem barPay_2 (c : Dev nD) : (barPay (F := F) c 2) = sep4 (fun k => iprop(∃ f, pts (zp c) (oF c k) fullShare f)) := rfl

omit [FloatOps F] in
/-- The thirty-eight DMA counters at zero, one by one, are the family of them. -/
theorem dones_intro (c : Dev nD) :
    iprop(done c (iLocal) ∗ done c (iStage) ∗ done c (iLand 0) ∗ done c (iLand 1) ∗ done c (iLand 2) ∗ done c (iLand 3) ∗ done c (iYs 0) ∗ done c (iYs 1) ∗ done c (iYs 2) ∗ done c (iYs 3) ∗ done c (iYr 0) ∗ done c (iYr 1) ∗ done c (iYr 2) ∗ done c (iYr 3) ∗ done c (iDs 0) ∗ done c (iDs 1) ∗ done c (iDs 2) ∗ done c (iDs 3) ∗ done c (iDr 0) ∗ done c (iDr 1) ∗ done c (iDr 2) ∗ done c (iDr 3) ∗ done c (iXs 0) ∗ done c (iXs 1) ∗ done c (iXs 2) ∗ done c (iXs 3) ∗ done c (iXr 0) ∗ done c (iXr 1) ∗ done c (iXr 2) ∗ done c (iXr 3) ∗ done c (iZs 0) ∗ done c (iZs 1) ∗ done c (iZs 2) ∗ done c (iZs 3) ∗ done c (iZr 0) ∗ done c (iZr 1) ∗ done c (iZr 2) ∗ done c (iZr 3))
      ⊢ (bigSep Finset.univ (fun i : Fin 38 => done c i) : sProp 𝕄) := by
  rw [bigSep_univ_eq_bigSepL [(iLocal : Fin 38), (iStage : Fin 38), (iLand 0 : Fin 38), (iLand 1 : Fin 38), (iLand 2 : Fin 38), (iLand 3 : Fin 38), (iYs 0 : Fin 38), (iYs 1 : Fin 38), (iYs 2 : Fin 38), (iYs 3 : Fin 38), (iYr 0 : Fin 38), (iYr 1 : Fin 38), (iYr 2 : Fin 38), (iYr 3 : Fin 38), (iDs 0 : Fin 38), (iDs 1 : Fin 38), (iDs 2 : Fin 38), (iDs 3 : Fin 38), (iDr 0 : Fin 38), (iDr 1 : Fin 38), (iDr 2 : Fin 38), (iDr 3 : Fin 38), (iXs 0 : Fin 38), (iXs 1 : Fin 38), (iXs 2 : Fin 38), (iXs 3 : Fin 38), (iXr 0 : Fin 38), (iXr 1 : Fin 38), (iXr 2 : Fin 38), (iXr 3 : Fin 38), (iZs 0 : Fin 38), (iZs 1 : Fin 38), (iZs 2 : Fin 38), (iZs 3 : Fin 38), (iZr 0 : Fin 38), (iZr 1 : Fin 38), (iZr 2 : Fin 38), (iZr 3 : Fin 38)] (by decide) (by decide)]
  simp only [bigSepL_cons_cons, bigSepL_singleton]
  exact Entails.refl _

set_option maxRecDepth 65536 in
set_option maxHeartbeats 16000000 in
/-- One device's kernel body: from the records, its initial linear ghost state, the levels and its four buffers,
    owing what it owes at launch, to its rows unchanged, its result at `OutF`, every DMA counter back at zero, owing
    nothing. -/
theorem body_spec (c : Dev nD) (Kt : PUnit → sProp 𝕄) :
    iprop(Φ₀ m c ∗ owesAny c (O₀ c) ∗ (iprop(Φ₁ m c ∗ owesAny c 0) -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9 cc0_scratch10 cc0_scratch11 cc0_scratch12) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold Φ₀ owesAny lin₀ sep4
  iintro ⟨⟨⟨%K, #HR, HaB, HcB, TbY, TbX, TbZ, FLoc, FStg, ⟨FL0, FL1, FL2, FL3⟩, ⟨FYs0, FYs1, FYs2, FYs3⟩, ⟨FDs0, FDs1, FDs2, FDs3⟩, ⟨FXs0, FXs1, FXs2, FXs3⟩, ⟨FZs0, FZs1, FZs2, FZs3⟩, ⟨⟨GYr0, TYr0⟩, ⟨GYr1, TYr1⟩, ⟨GYr2, TYr2⟩, ⟨GYr3, TYr3⟩⟩, ⟨⟨GDr0, TDr0⟩, ⟨GDr1, TDr1⟩, ⟨GDr2, TDr2⟩, ⟨GDr3, TDr3⟩⟩, ⟨⟨GXr0, TXr0⟩, ⟨GXr1, TXr1⟩, ⟨GXr2, TXr2⟩, ⟨GXr3, TXr3⟩⟩, ⟨⟨GZr0, TZr0⟩, ⟨GZr1, TZr1⟩, ⟨GZr2, TZr2⟩, ⟨GZr3, TZr3⟩⟩⟩, #Hlev, Hx, ⟨%fo, Ho⟩, ⟨%fs0, Hs⟩, ⟨%fl, Hl⟩⟩, ⟨%W, HO⟩, Hk⟩
  -- the argument rows among their six readers; the result by row ranges; the landing buffer by chunks
  ihave Hx' := (Entails.of_eq (x_share c (Xc m c))) $$ Hx
  unfold sep4
  icases Hx' with ⟨⟨HxL, RxL⟩, ⟨HxS, RxS⟩, ⟨⟨HxD0, RxD0⟩, ⟨HxD1, RxD1⟩, ⟨HxD2, RxD2⟩, ⟨HxD3, RxD3⟩⟩⟩
  ihave Ho' := (Entails.of_eq (out_split c fo)) $$ Ho
  unfold sep4
  icases Ho' with ⟨HoL, ⟨HoF0, HoF1, HoF2, HoF3⟩, ⟨HoD0, HoD1, HoD2, HoD3⟩, ⟨HoX0, HoX1, HoX2, HoX3⟩, ⟨HoZ0, HoZ1, HoZ2, HoZ3⟩⟩
  ihave Hl' := (Entails.of_eq (land_split c fl)) $$ Hl
  unfold sep4
  icases Hl' with ⟨Hl0, Hl1, Hl2, Hl3⟩
  -- the staging copy and the local half are issued
  iapply (stagecp_step m K c fs0) $$ [FStg HxS Hs]
  · isplitr; · iexact HR
    isplitl [FStg]; · iexact FStg
    isplitl [HxS]; · iexact HxS
    iexact Hs
  iintro GStg
  iapply (localcp_step m K c fo) $$ [FLoc HxL HoL]
  · isplitr; · iexact HR
    isplitl [FLoc]; · iexact FLoc
    isplitl [HxL]; · iexact HxL
    iexact HoL
  iintro GLoc
  -- the three entry signals: to the y-peer this device's landing buffer and the quarter of its result the y-peer sends directly; to the x-peer and the z-peer the quarters they forward into
  iapply (step_signal m K c (yp c) 0 (owedAfter c 1) W (k' := (1#32).toNat) rfl) $$ [HO TbY Hl0 Hl1 Hl2 Hl3 HoD0 HoD1 HoD2 HoD3]
  · isplitr; · iexact HR
    isplitl [HO]; · iexact HO
    isplitl [TbY]; · iexact TbY
    rw [barPay_0, yp_yp]; unfold sep4
    isplitl [Hl0 Hl1 Hl2 Hl3]
    · isplitl [Hl0]; · (iexists fl; iexact Hl0)
      isplitl [Hl1]; · (iexists fl; iexact Hl1)
      isplitl [Hl2]; · (iexists fl; iexact Hl2)
      iexists fl; iexact Hl3
    · isplitl [HoD0]; · (iexists fo; iexact HoD0)
      isplitl [HoD1]; · (iexists fo; iexact HoD1)
      isplitl [HoD2]; · (iexists fo; iexact HoD2)
      iexists fo; iexact HoD3
  iintro HO
  iapply (step_signal m K c (xp c) 1 (owedAfter c 2) W (k' := (1#32).toNat) rfl) $$ [HO TbX HoX0 HoX1 HoX2 HoX3]
  · isplitr; · iexact HR
    isplitl [HO]; · iexact HO
    isplitl [TbX]; · iexact TbX
    rw [barPay_1, xp_xp]; unfold sep4
    isplitl [HoX0]; · (iexists fo; iexact HoX0)
    isplitl [HoX1]; · (iexists fo; iexact HoX1)
    isplitl [HoX2]; · (iexists fo; iexact HoX2)
    iexists fo; iexact HoX3
  iintro HO
  iapply (step_signal m K c (zp c) 2 (owedAfter c 3) W (k' := (1#32).toNat) rfl) $$ [HO TbZ HoZ0 HoZ1 HoZ2 HoZ3]
  · isplitr; · iexact HR
    isplitl [HO]; · iexact HO
    isplitl [TbZ]; · iexact TbZ
    rw [barPay_2, zp_zp]; unfold sep4
    isplitl [HoZ0]; · (iexists fo; iexact HoZ0)
    isplitl [HoZ1]; · (iexists fo; iexact HoZ1)
    isplitl [HoZ2]; · (iexists fo; iexact HoZ2)
    iexists fo; iexact HoZ3
  iintro HO
  -- the wait for the three neighbours: their buffers' elements this device will write
  iapply (step_barwait m K c (owedAfter c 3) W (k' := (3#32).toNat) rfl) $$ [HcB HO HaB]
  · isplitr; · iexact HR
    isplitl [HcB]; · iexact HcB
    isplitl [HO]; · iexact HO
    isplitr; · (iapply (mayWait_bar c); iexact Hlev)
    iexact HaB
  iintro ⟨HO, HaB, HpY, HpX, HpZ⟩
  ihave HpY := (Entails.of_eq (barPay_0 (F := F) c)) $$ HpY
  ihave HpX := (Entails.of_eq (barPay_1 (F := F) c)) $$ HpX
  ihave HpZ := (Entails.of_eq (barPay_2 (F := F) c)) $$ HpZ
  unfold sep4
  icases HpY with ⟨⟨⟨%fy0, PL0⟩, ⟨%fy1, PL1⟩, ⟨%fy2, PL2⟩, ⟨%fy3, PL3⟩⟩, ⟨⟨%gd0, PD0⟩, ⟨%gd1, PD1⟩, ⟨%gd2, PD2⟩, ⟨%gd3, PD3⟩⟩⟩
  icases HpX with ⟨⟨%gx0, PX0⟩, ⟨%gx1, PX1⟩, ⟨%gx2, PX2⟩, ⟨%gx3, PX3⟩⟩
  icases HpZ with ⟨⟨%gz0, PZ0⟩, ⟨%gz1, PZ1⟩, ⟨%gz2, PZ2⟩, ⟨%gz3, PZ3⟩⟩
  -- the staging copy is waited for; the staged quarter is shared among its four chunked sends
  iapply (step_wait m K c (iStage) (owedAfter c 3) _ (dst := (sM : Memref sig .tc .vmem S128x512 .f32)) rfl) $$ [GStg HO]
  · isplitr; · iexact HR
    isplitl [GStg]; · iexact GStg
    isplitl [HO]; · iexact HO
    iapply (mayWait_stage c); iexact Hlev
  iintro ⟨HO, Hp, DStg⟩
  ihave Hp' := (Entails.of_eq (dmaPay_stage m c)) $$ Hp
  unfold stagePay
  icases Hp' with ⟨Hs, HxS⟩
  ihave Hs' := (Entails.of_eq (stage_share c (StageF m c))) $$ Hs
  unfold sep4
  icases Hs' with ⟨⟨HS0, RS0⟩, ⟨HS1, RS1⟩, ⟨HS2, RS2⟩, ⟨HS3, RS3⟩⟩
  -- the four staged chunks, then the four direct chunks, are sent across y
  iapply (ysend_step m K c 0 _ (dev_y c).1 (owedAfter c 3) (owedAfter c 4) rfl _ fy0) $$ [FYs0 TYr0 HS0 PL0 HO]
  · isplitr; · iexact HR
    isplitl [FYs0]; · iexact FYs0
    isplitl [TYr0]; · iexact TYr0
    isplitl [HS0]; · iexact HS0
    isplitl [PL0]; · iexact PL0
    iexact HO
  iintro ⟨GYs0, HO⟩
  iapply (ysend_step m K c 1 _ (dev_y c).2.1 (owedAfter c 4) (owedAfter c 5) rfl _ fy1) $$ [FYs1 TYr1 HS1 PL1 HO]
  · isplitr; · iexact HR
    isplitl [FYs1]; · iexact FYs1
    isplitl [TYr1]; · iexact TYr1
    isplitl [HS1]; · iexact HS1
    isplitl [PL1]; · iexact PL1
    iexact HO
  iintro ⟨GYs1, HO⟩
  iapply (ysend_step m K c 2 _ (dev_y c).2.2.1 (owedAfter c 5) (owedAfter c 6) rfl _ fy2) $$ [FYs2 TYr2 HS2 PL2 HO]
  · isplitr; · iexact HR
    isplitl [FYs2]; · iexact FYs2
    isplitl [TYr2]; · iexact TYr2
    isplitl [HS2]; · iexact HS2
    isplitl [PL2]; · iexact PL2
    iexact HO
  iintro ⟨GYs2, HO⟩
  iapply (ysend_step m K c 3 _ (dev_y c).2.2.2.1 (owedAfter c 6) (owedAfter c 7) rfl _ fy3) $$ [FYs3 TYr3 HS3 PL3 HO]
  · isplitr; · iexact HR
    isplitl [FYs3]; · iexact FYs3
    isplitl [TYr3]; · iexact TYr3
    isplitl [HS3]; · iexact HS3
    isplitl [PL3]; · iexact PL3
    iexact HO
  iintro ⟨GYs3, HO⟩
  iapply (dsend_step m K c 0 _ (dev_y c).2.2.2.2.1 (owedAfter c 7) (owedAfter c 8) rfl _ gd0) $$ [FDs0 TDr0 HxD0 PD0 HO]
  · isplitr; · iexact HR
    isplitl [FDs0]; · iexact FDs0
    isplitl [TDr0]; · iexact TDr0
    isplitl [HxD0]; · iexact HxD0
    isplitl [PD0]; · iexact PD0
    iexact HO
  iintro ⟨GDs0, HO⟩
  iapply (dsend_step m K c 1 _ (dev_y c).2.2.2.2.2.1 (owedAfter c 8) (owedAfter c 9) rfl _ gd1) $$ [FDs1 TDr1 HxD1 PD1 HO]
  · isplitr; · iexact HR
    isplitl [FDs1]; · iexact FDs1
    isplitl [TDr1]; · iexact TDr1
    isplitl [HxD1]; · iexact HxD1
    isplitl [PD1]; · iexact PD1
    iexact HO
  iintro ⟨GDs1, HO⟩
  iapply (dsend_step m K c 2 _ (dev_y c).2.2.2.2.2.2.1 (owedAfter c 9) (owedAfter c 10) rfl _ gd2) $$ [FDs2 TDr2 HxD2 PD2 HO]
  · isplitr; · iexact HR
    isplitl [FDs2]; · iexact FDs2
    isplitl [TDr2]; · iexact TDr2
    isplitl [HxD2]; · iexact HxD2
    isplitl [PD2]; · iexact PD2
    iexact HO
  iintro ⟨GDs2, HO⟩
  iapply (dsend_step m K c 3 _ (dev_y c).2.2.2.2.2.2.2 (owedAfter c 10) (owedAfter c 11) rfl _ gd3) $$ [FDs3 TDr3 HxD3 PD3 HO]
  · isplitr; · iexact HR
    isplitl [FDs3]; · iexact FDs3
    isplitl [TDr3]; · iexact TDr3
    isplitl [HxD3]; · iexact HxD3
    isplitl [PD3]; · iexact PD3
    iexact HO
  iintro ⟨GDs3, HO⟩
  -- chunk 0 has landed: forwarded across x and across z, and copied into the result
  iapply (step_wait m K c (iYr 0) (owedAfter c 11) _ (dst := lCh 0) rfl) $$ [GYr0 HO]
  · isplitr; · iexact HR
    isplitl [GYr0]; · iexact GYr0
    isplitl [HO]; · iexact HO
    iapply (mayWait_yr c 0); iexact Hlev
  iintro ⟨HO, Hp, DYr0⟩
  ihave Hp' := (Entails.of_eq ((dmaPay_yr m c 0).trans (lch_share c 0 (LandF m c)))) $$ Hp
  icases Hp' with ⟨HlX0, HlZ0, HlL0⟩
  iapply (xfwd_step m K c 0 _ (dev_x c).1 (owedAfter c 11) (owedAfter c 12) rfl _ gx0) $$ [FXs0 TXr0 HlX0 PX0 HO]
  · isplitr; · iexact HR
    isplitl [FXs0]; · iexact FXs0
    isplitl [TXr0]; · iexact TXr0
    isplitl [HlX0]; · iexact HlX0
    isplitl [PX0]; · iexact PX0
    iexact HO
  iintro ⟨GXs0, HO⟩
  iapply (zfwd_step m K c 0 _ (dev_z c).1 (owedAfter c 12) (owedAfter c 13) rfl _ gz0) $$ [FZs0 TZr0 HlZ0 PZ0 HO]
  · isplitr; · iexact HR
    isplitl [FZs0]; · iexact FZs0
    isplitl [TZr0]; · iexact TZr0
    isplitl [HlZ0]; · iexact HlZ0
    isplitl [PZ0]; · iexact PZ0
    iexact HO
  iintro ⟨GZs0, HO⟩
  iapply (landcp_step m K c 0 fo) $$ [FL0 HlL0 HoF0]
  · isplitr; · iexact HR
    isplitl [FL0]; · iexact FL0
    isplitl [HlL0]; · iexact HlL0
    iexact HoF0
  iintro GL0
  -- chunk 1 has landed: forwarded across x and across z, and copied into the result
  iapply (step_wait m K c (iYr 1) (owedAfter c 13) _ (dst := lCh 1) rfl) $$ [GYr1 HO]
  · isplitr; · iexact HR
    isplitl [GYr1]; · iexact GYr1
    isplitl [HO]; · iexact HO
    iapply (mayWait_yr c 1); iexact Hlev
  iintro ⟨HO, Hp, DYr1⟩
  ihave Hp' := (Entails.of_eq ((dmaPay_yr m c 1).trans (lch_share c 1 (LandF m c)))) $$ Hp
  icases Hp' with ⟨HlX1, HlZ1, HlL1⟩
  iapply (xfwd_step m K c 1 _ (dev_x c).2.1 (owedAfter c 13) (owedAfter c 14) rfl _ gx1) $$ [FXs1 TXr1 HlX1 PX1 HO]
  · isplitr; · iexact HR
    isplitl [FXs1]; · iexact FXs1
    isplitl [TXr1]; · iexact TXr1
    isplitl [HlX1]; · iexact HlX1
    isplitl [PX1]; · iexact PX1
    iexact HO
  iintro ⟨GXs1, HO⟩
  iapply (zfwd_step m K c 1 _ (dev_z c).2.1 (owedAfter c 14) (owedAfter c 15) rfl _ gz1) $$ [FZs1 TZr1 HlZ1 PZ1 HO]
  · isplitr; · iexact HR
    isplitl [FZs1]; · iexact FZs1
    isplitl [TZr1]; · iexact TZr1
    isplitl [HlZ1]; · iexact HlZ1
    isplitl [PZ1]; · iexact PZ1
    iexact HO
  iintro ⟨GZs1, HO⟩
  iapply (landcp_step m K c 1 fo) $$ [FL1 HlL1 HoF1]
  · isplitr; · iexact HR
    isplitl [FL1]; · iexact FL1
    isplitl [HlL1]; · iexact HlL1
    iexact HoF1
  iintro GL1
  -- chunk 2 has landed: forwarded across x and across z, and copied into the result
  iapply (step_wait m K c (iYr 2) (owedAfter c 15) _ (dst := lCh 2) rfl) $$ [GYr2 HO]
  · isplitr; · iexact HR
    isplitl [GYr2]; · iexact GYr2
    isplitl [HO]; · iexact HO
    iapply (mayWait_yr c 2); iexact Hlev
  iintro ⟨HO, Hp, DYr2⟩
  ihave Hp' := (Entails.of_eq ((dmaPay_yr m c 2).trans (lch_share c 2 (LandF m c)))) $$ Hp
  icases Hp' with ⟨HlX2, HlZ2, HlL2⟩
  iapply (xfwd_step m K c 2 _ (dev_x c).2.2.1 (owedAfter c 15) (owedAfter c 16) rfl _ gx2) $$ [FXs2 TXr2 HlX2 PX2 HO]
  · isplitr; · iexact HR
    isplitl [FXs2]; · iexact FXs2
    isplitl [TXr2]; · iexact TXr2
    isplitl [HlX2]; · iexact HlX2
    isplitl [PX2]; · iexact PX2
    iexact HO
  iintro ⟨GXs2, HO⟩
  iapply (zfwd_step m K c 2 _ (dev_z c).2.2.1 (owedAfter c 16) (owedAfter c 17) rfl _ gz2) $$ [FZs2 TZr2 HlZ2 PZ2 HO]
  · isplitr; · iexact HR
    isplitl [FZs2]; · iexact FZs2
    isplitl [TZr2]; · iexact TZr2
    isplitl [HlZ2]; · iexact HlZ2
    isplitl [PZ2]; · iexact PZ2
    iexact HO
  iintro ⟨GZs2, HO⟩
  iapply (landcp_step m K c 2 fo) $$ [FL2 HlL2 HoF2]
  · isplitr; · iexact HR
    isplitl [FL2]; · iexact FL2
    isplitl [HlL2]; · iexact HlL2
    iexact HoF2
  iintro GL2
  -- chunk 3 has landed: forwarded across x and across z, and copied into the result
  iapply (step_wait m K c (iYr 3) (owedAfter c 17) _ (dst := lCh 3) rfl) $$ [GYr3 HO]
  · isplitr; · iexact HR
    isplitl [GYr3]; · iexact GYr3
    isplitl [HO]; · iexact HO
    iapply (mayWait_yr c 3); iexact Hlev
  iintro ⟨HO, Hp, DYr3⟩
  ihave Hp' := (Entails.of_eq ((dmaPay_yr m c 3).trans (lch_share c 3 (LandF m c)))) $$ Hp
  icases Hp' with ⟨HlX3, HlZ3, HlL3⟩
  iapply (xfwd_step m K c 3 _ (dev_x c).2.2.2 (owedAfter c 17) (owedAfter c 18) rfl _ gx3) $$ [FXs3 TXr3 HlX3 PX3 HO]
  · isplitr; · iexact HR
    isplitl [FXs3]; · iexact FXs3
    isplitl [TXr3]; · iexact TXr3
    isplitl [HlX3]; · iexact HlX3
    isplitl [PX3]; · iexact PX3
    iexact HO
  iintro ⟨GXs3, HO⟩
  iapply (zfwd_step m K c 3 _ (dev_z c).2.2.2 (owedAfter c 18) (owedAfter c 19) rfl _ gz3) $$ [FZs3 TZr3 HlZ3 PZ3 HO]
  · isplitr; · iexact HR
    isplitl [FZs3]; · iexact FZs3
    isplitl [TZr3]; · iexact TZr3
    isplitl [HlZ3]; · iexact HlZ3
    isplitl [PZ3]; · iexact PZ3
    iexact HO
  iintro ⟨GZs3, HO⟩
  iapply (landcp_step m K c 3 fo) $$ [FL3 HlL3 HoF3]
  · isplitr; · iexact HR
    isplitl [FL3]; · iexact FL3
    isplitl [HlL3]; · iexact HlL3
    iexact HoF3
  iintro GL3
  -- every payment made: nothing is owed, and every remaining wait is free
  ihave HO := (show owes (c : Thread nD τ) (owedAfter c 19) _ ⊢ (owes (c : Thread nD τ) 0 _ : sProp 𝕄) from Entails.of_eq (by rw [owedAfter_all c])) $$ HO
  iapply (step_wait m K c (iXr 0) 0 _ (dst := oF c 0) rfl) $$ [GXr0 HO]
  · isplitr; · iexact HR
    isplitl [GXr0]; · iexact GXr0
    isplitl [HO]; · iexact HO
    rw [MayWait_zero]; iempintro
  iintro ⟨HO, PXr0, DXr0⟩
  iapply (step_wait m K c (iZr 0) 0 _ (dst := oF c 0) rfl) $$ [GZr0 HO]
  · isplitr; · iexact HR
    isplitl [GZr0]; · iexact GZr0
    isplitl [HO]; · iexact HO
    rw [MayWait_zero]; iempintro
  iintro ⟨HO, PZr0, DZr0⟩
  iapply (step_wait m K c (iXr 1) 0 _ (dst := oF c 1) rfl) $$ [GXr1 HO]
  · isplitr; · iexact HR
    isplitl [GXr1]; · iexact GXr1
    isplitl [HO]; · iexact HO
    rw [MayWait_zero]; iempintro
  iintro ⟨HO, PXr1, DXr1⟩
  iapply (step_wait m K c (iZr 1) 0 _ (dst := oF c 1) rfl) $$ [GZr1 HO]
  · isplitr; · iexact HR
    isplitl [GZr1]; · iexact GZr1
    isplitl [HO]; · iexact HO
    rw [MayWait_zero]; iempintro
  iintro ⟨HO, PZr1, DZr1⟩
  iapply (step_wait m K c (iXr 2) 0 _ (dst := oF c 2) rfl) $$ [GXr2 HO]
  · isplitr; · iexact HR
    isplitl [GXr2]; · iexact GXr2
    isplitl [HO]; · iexact HO
    rw [MayWait_zero]; iempintro
  iintro ⟨HO, PXr2, DXr2⟩
  iapply (step_wait m K c (iZr 2) 0 _ (dst := oF c 2) rfl) $$ [GZr2 HO]
  · isplitr; · iexact HR
    isplitl [GZr2]; · iexact GZr2
    isplitl [HO]; · iexact HO
    rw [MayWait_zero]; iempintro
  iintro ⟨HO, PZr2, DZr2⟩
  iapply (step_wait m K c (iXr 3) 0 _ (dst := oF c 3) rfl) $$ [GXr3 HO]
  · isplitr; · iexact HR
    isplitl [GXr3]; · iexact GXr3
    isplitl [HO]; · iexact HO
    rw [MayWait_zero]; iempintro
  iintro ⟨HO, PXr3, DXr3⟩
  iapply (step_wait m K c (iZr 3) 0 _ (dst := oF c 3) rfl) $$ [GZr3 HO]
  · isplitr; · iexact HR
    isplitl [GZr3]; · iexact GZr3
    isplitl [HO]; · iexact HO
    rw [MayWait_zero]; iempintro
  iintro ⟨HO, PZr3, DZr3⟩
  iapply (step_wait m K c (iDr 0) 0 _ (dst := oD c 0) rfl) $$ [GDr0 HO]
  · isplitr; · iexact HR
    isplitl [GDr0]; · iexact GDr0
    isplitl [HO]; · iexact HO
    rw [MayWait_zero]; iempintro
  iintro ⟨HO, PDr0, DDr0⟩
  iapply (step_wait m K c (iDr 1) 0 _ (dst := oD c 1) rfl) $$ [GDr1 HO]
  · isplitr; · iexact HR
    isplitl [GDr1]; · iexact GDr1
    isplitl [HO]; · iexact HO
    rw [MayWait_zero]; iempintro
  iintro ⟨HO, PDr1, DDr1⟩
  iapply (step_wait m K c (iDr 2) 0 _ (dst := oD c 2) rfl) $$ [GDr2 HO]
  · isplitr; · iexact HR
    isplitl [GDr2]; · iexact GDr2
    isplitl [HO]; · iexact HO
    rw [MayWait_zero]; iempintro
  iintro ⟨HO, PDr2, DDr2⟩
  iapply (step_wait m K c (iDr 3) 0 _ (dst := oD c 3) rfl) $$ [GDr3 HO]
  · isplitr; · iexact HR
    isplitl [GDr3]; · iexact GDr3
    isplitl [HO]; · iexact HO
    rw [MayWait_zero]; iempintro
  iintro ⟨HO, PDr3, DDr3⟩
  iapply (step_wait m K c (iXs 0) 0 _ (dst := lCh 0) rfl) $$ [GXs0 HO]
  · isplitr; · iexact HR
    isplitl [GXs0]; · iexact GXs0
    isplitl [HO]; · iexact HO
    rw [MayWait_zero]; iempintro
  iintro ⟨HO, PXs0, DXs0⟩
  iapply (step_wait m K c (iZs 0) 0 _ (dst := lCh 0) rfl) $$ [GZs0 HO]
  · isplitr; · iexact HR
    isplitl [GZs0]; · iexact GZs0
    isplitl [HO]; · iexact HO
    rw [MayWait_zero]; iempintro
  iintro ⟨HO, PZs0, DZs0⟩
  iapply (step_wait m K c (iXs 1) 0 _ (dst := lCh 1) rfl) $$ [GXs1 HO]
  · isplitr; · iexact HR
    isplitl [GXs1]; · iexact GXs1
    isplitl [HO]; · iexact HO
    rw [MayWait_zero]; iempintro
  iintro ⟨HO, PXs1, DXs1⟩
  iapply (step_wait m K c (iZs 1) 0 _ (dst := lCh 1) rfl) $$ [GZs1 HO]
  · isplitr; · iexact HR
    isplitl [GZs1]; · iexact GZs1
    isplitl [HO]; · iexact HO
    rw [MayWait_zero]; iempintro
  iintro ⟨HO, PZs1, DZs1⟩
  iapply (step_wait m K c (iXs 2) 0 _ (dst := lCh 2) rfl) $$ [GXs2 HO]
  · isplitr; · iexact HR
    isplitl [GXs2]; · iexact GXs2
    isplitl [HO]; · iexact HO
    rw [MayWait_zero]; iempintro
  iintro ⟨HO, PXs2, DXs2⟩
  iapply (step_wait m K c (iZs 2) 0 _ (dst := lCh 2) rfl) $$ [GZs2 HO]
  · isplitr; · iexact HR
    isplitl [GZs2]; · iexact GZs2
    isplitl [HO]; · iexact HO
    rw [MayWait_zero]; iempintro
  iintro ⟨HO, PZs2, DZs2⟩
  iapply (step_wait m K c (iXs 3) 0 _ (dst := lCh 3) rfl) $$ [GXs3 HO]
  · isplitr; · iexact HR
    isplitl [GXs3]; · iexact GXs3
    isplitl [HO]; · iexact HO
    rw [MayWait_zero]; iempintro
  iintro ⟨HO, PXs3, DXs3⟩
  iapply (step_wait m K c (iZs 3) 0 _ (dst := lCh 3) rfl) $$ [GZs3 HO]
  · isplitr; · iexact HR
    isplitl [GZs3]; · iexact GZs3
    isplitl [HO]; · iexact HO
    rw [MayWait_zero]; iempintro
  iintro ⟨HO, PZs3, DZs3⟩
  iapply (step_wait m K c (iYs 0) 0 _ (dst := sCh 0) rfl) $$ [GYs0 HO]
  · isplitr; · iexact HR
    isplitl [GYs0]; · iexact GYs0
    isplitl [HO]; · iexact HO
    rw [MayWait_zero]; iempintro
  iintro ⟨HO, PYs0, DYs0⟩
  iapply (step_wait m K c (iDs 0) 0 _ (dst := xD c 0) rfl) $$ [GDs0 HO]
  · isplitr; · iexact HR
    isplitl [GDs0]; · iexact GDs0
    isplitl [HO]; · iexact HO
    rw [MayWait_zero]; iempintro
  iintro ⟨HO, PDs0, DDs0⟩
  iapply (step_wait m K c (iLand 0) 0 _ (dst := oF c 0) rfl) $$ [GL0 HO]
  · isplitr; · iexact HR
    isplitl [GL0]; · iexact GL0
    isplitl [HO]; · iexact HO
    rw [MayWait_zero]; iempintro
  iintro ⟨HO, PLd0, DL0⟩
  iapply (step_wait m K c (iYs 1) 0 _ (dst := sCh 1) rfl) $$ [GYs1 HO]
  · isplitr; · iexact HR
    isplitl [GYs1]; · iexact GYs1
    isplitl [HO]; · iexact HO
    rw [MayWait_zero]; iempintro
  iintro ⟨HO, PYs1, DYs1⟩
  iapply (step_wait m K c (iDs 1) 0 _ (dst := xD c 1) rfl) $$ [GDs1 HO]
  · isplitr; · iexact HR
    isplitl [GDs1]; · iexact GDs1
    isplitl [HO]; · iexact HO
    rw [MayWait_zero]; iempintro
  iintro ⟨HO, PDs1, DDs1⟩
  iapply (step_wait m K c (iLand 1) 0 _ (dst := oF c 1) rfl) $$ [GL1 HO]
  · isplitr; · iexact HR
    isplitl [GL1]; · iexact GL1
    isplitl [HO]; · iexact HO
    rw [MayWait_zero]; iempintro
  iintro ⟨HO, PLd1, DL1⟩
  iapply (step_wait m K c (iYs 2) 0 _ (dst := sCh 2) rfl) $$ [GYs2 HO]
  · isplitr; · iexact HR
    isplitl [GYs2]; · iexact GYs2
    isplitl [HO]; · iexact HO
    rw [MayWait_zero]; iempintro
  iintro ⟨HO, PYs2, DYs2⟩
  iapply (step_wait m K c (iDs 2) 0 _ (dst := xD c 2) rfl) $$ [GDs2 HO]
  · isplitr; · iexact HR
    isplitl [GDs2]; · iexact GDs2
    isplitl [HO]; · iexact HO
    rw [MayWait_zero]; iempintro
  iintro ⟨HO, PDs2, DDs2⟩
  iapply (step_wait m K c (iLand 2) 0 _ (dst := oF c 2) rfl) $$ [GL2 HO]
  · isplitr; · iexact HR
    isplitl [GL2]; · iexact GL2
    isplitl [HO]; · iexact HO
    rw [MayWait_zero]; iempintro
  iintro ⟨HO, PLd2, DL2⟩
  iapply (step_wait m K c (iYs 3) 0 _ (dst := sCh 3) rfl) $$ [GYs3 HO]
  · isplitr; · iexact HR
    isplitl [GYs3]; · iexact GYs3
    isplitl [HO]; · iexact HO
    rw [MayWait_zero]; iempintro
  iintro ⟨HO, PYs3, DYs3⟩
  iapply (step_wait m K c (iDs 3) 0 _ (dst := xD c 3) rfl) $$ [GDs3 HO]
  · isplitr; · iexact HR
    isplitl [GDs3]; · iexact GDs3
    isplitl [HO]; · iexact HO
    rw [MayWait_zero]; iempintro
  iintro ⟨HO, PDs3, DDs3⟩
  iapply (step_wait m K c (iLand 3) 0 _ (dst := oF c 3) rfl) $$ [GL3 HO]
  · isplitr; · iexact HR
    isplitl [GL3]; · iexact GL3
    isplitl [HO]; · iexact HO
    rw [MayWait_zero]; iempintro
  iintro ⟨HO, PLd3, DL3⟩
  iapply (step_wait m K c (iLocal) 0 _ (dst := oLocal c) rfl) $$ [GLoc HO]
  · isplitr; · iexact HR
    isplitl [GLoc]; · iexact GLoc
    isplitl [HO]; · iexact HO
    rw [MayWait_zero]; iempintro
  iintro ⟨HO, PLoc, DLoc⟩
  rw [wp_ret]; imodintro
  iapply Hk
  -- what the waits returned, by kind
  ihave PLoc' := (Entails.of_eq (dmaPay_local m c)) $$ PLoc
  ihave PLd0' := (Entails.of_eq (dmaPay_land m c 0)) $$ PLd0
  ihave PLd1' := (Entails.of_eq (dmaPay_land m c 1)) $$ PLd1
  ihave PLd2' := (Entails.of_eq (dmaPay_land m c 2)) $$ PLd2
  ihave PLd3' := (Entails.of_eq (dmaPay_land m c 3)) $$ PLd3
  ihave PXr0' := (Entails.of_eq (dmaPay_xr m c 0)) $$ PXr0
  ihave PXr1' := (Entails.of_eq (dmaPay_xr m c 1)) $$ PXr1
  ihave PXr2' := (Entails.of_eq (dmaPay_xr m c 2)) $$ PXr2
  ihave PXr3' := (Entails.of_eq (dmaPay_xr m c 3)) $$ PXr3
  ihave PZr0' := (Entails.of_eq (dmaPay_zr m c 0)) $$ PZr0
  ihave PZr1' := (Entails.of_eq (dmaPay_zr m c 1)) $$ PZr1
  ihave PZr2' := (Entails.of_eq (dmaPay_zr m c 2)) $$ PZr2
  ihave PZr3' := (Entails.of_eq (dmaPay_zr m c 3)) $$ PZr3
  ihave PDr0' := (Entails.of_eq (dmaPay_dr m c 0)) $$ PDr0
  ihave PDr1' := (Entails.of_eq (dmaPay_dr m c 1)) $$ PDr1
  ihave PDr2' := (Entails.of_eq (dmaPay_dr m c 2)) $$ PDr2
  ihave PDr3' := (Entails.of_eq (dmaPay_dr m c 3)) $$ PDr3
  ihave PXs0' := (Entails.of_eq (dmaPay_xs m c 0)) $$ PXs0
  ihave PXs1' := (Entails.of_eq (dmaPay_xs m c 1)) $$ PXs1
  ihave PXs2' := (Entails.of_eq (dmaPay_xs m c 2)) $$ PXs2
  ihave PXs3' := (Entails.of_eq (dmaPay_xs m c 3)) $$ PXs3
  ihave PZs0' := (Entails.of_eq (dmaPay_zs m c 0)) $$ PZs0
  ihave PZs1' := (Entails.of_eq (dmaPay_zs m c 1)) $$ PZs1
  ihave PZs2' := (Entails.of_eq (dmaPay_zs m c 2)) $$ PZs2
  ihave PZs3' := (Entails.of_eq (dmaPay_zs m c 3)) $$ PZs3
  ihave PYs0' := (Entails.of_eq (dmaPay_ys m c 0)) $$ PYs0
  ihave PYs1' := (Entails.of_eq (dmaPay_ys m c 1)) $$ PYs1
  ihave PYs2' := (Entails.of_eq (dmaPay_ys m c 2)) $$ PYs2
  ihave PYs3' := (Entails.of_eq (dmaPay_ys m c 3)) $$ PYs3
  ihave PDs0' := (Entails.of_eq (dmaPay_ds m c 0)) $$ PDs0
  ihave PDs1' := (Entails.of_eq (dmaPay_ds m c 1)) $$ PDs1
  ihave PDs2' := (Entails.of_eq (dmaPay_ds m c 2)) $$ PDs2
  ihave PDs3' := (Entails.of_eq (dmaPay_ds m c 3)) $$ PDs3
  unfold localPay landPay xrPay zrPay drPay xsPay zsPay ysPay dsPay
  icases PLoc' with ⟨PoL, PxL⟩
  icases PLd0' with ⟨PoF0, PlL0⟩
  icases PLd1' with ⟨PoF1, PlL1⟩
  icases PLd2' with ⟨PoF2, PlL2⟩
  icases PLd3' with ⟨PoF3, PlL3⟩
  unfold Φ₁
  isplitr [HO]
  rotate_left
  · iexists _; iexact HO
  -- the argument rows, every reader's share back
  isplitl [PxL RxL HxS RxS PDs0' RxD0 PDs1' RxD1 PDs2' RxD2 PDs3' RxD3]
  · iapply (Entails.of_eq (x_share c (Xc m c)).symm)
    unfold sep4
    isplitl [PxL RxL]
    · isplitl [PxL]
      · iexact PxL
      · iexact RxL
    isplitl [HxS RxS]
    · isplitl [HxS]
      · iexact HxS
      · iexact RxS
    isplitl [PDs0' RxD0]
    · isplitl [PDs0']
      · iexact PDs0'
      · iexact RxD0
    isplitl [PDs1' RxD1]
    · isplitl [PDs1']
      · iexact PDs1'
      · iexact RxD1
    isplitl [PDs2' RxD2]
    · isplitl [PDs2']
      · iexact PDs2'
      · iexact RxD2
    isplitl [PDs3']
    · iexact PDs3'
    · iexact RxD3
  -- the result, its seventeen row ranges at their final contents
  isplitl [PoL PoF0 PoF1 PoF2 PoF3 PDr0' PDr1' PDr2' PDr3' PXr0' PXr1' PXr2' PXr3' PZr0' PZr1' PZr2' PZr3']
  · iapply (Entails.of_eq (out_split c (OutF m c)).symm)
    unfold sep4
    isplitl [PoL]; · iexact PoL
    isplitl [PoF0 PoF1 PoF2 PoF3]
    · isplitl [PoF0]; · iexact PoF0
      isplitl [PoF1]; · iexact PoF1
      isplitl [PoF2]; · iexact PoF2
      iexact PoF3
    isplitl [PDr0' PDr1' PDr2' PDr3']
    · isplitl [PDr0']; · iexact PDr0'
      isplitl [PDr1']; · iexact PDr1'
      isplitl [PDr2']; · iexact PDr2'
      iexact PDr3'
    isplitl [PXr0' PXr1' PXr2' PXr3']
    · isplitl [PXr0']; · iexact PXr0'
      isplitl [PXr1']; · iexact PXr1'
      isplitl [PXr2']; · iexact PXr2'
      iexact PXr3'
    isplitl [PZr0']; · iexact PZr0'
    isplitl [PZr1']; · iexact PZr1'
    isplitl [PZr2']; · iexact PZr2'
    iexact PZr3'
  -- every DMA counter back at zero
  isplitl [DLoc DStg DL0 DL1 DL2 DL3 DYs0 DYs1 DYs2 DYs3 DYr0 DYr1 DYr2 DYr3 DDs0 DDs1 DDs2 DDs3 DDr0 DDr1 DDr2 DDr3 DXs0 DXs1 DXs2 DXs3 DXr0 DXr1 DXr2 DXr3 DZs0 DZs1 DZs2 DZs3 DZr0 DZr1 DZr2 DZr3]
  · iapply (dones_intro c)
    isplitl [DLoc]; · iexact DLoc
    isplitl [DStg]; · iexact DStg
    isplitl [DL0]; · iexact DL0
    isplitl [DL1]; · iexact DL1
    isplitl [DL2]; · iexact DL2
    isplitl [DL3]; · iexact DL3
    isplitl [DYs0]; · iexact DYs0
    isplitl [DYs1]; · iexact DYs1
    isplitl [DYs2]; · iexact DYs2
    isplitl [DYs3]; · iexact DYs3
    isplitl [DYr0]; · iexact DYr0
    isplitl [DYr1]; · iexact DYr1
    isplitl [DYr2]; · iexact DYr2
    isplitl [DYr3]; · iexact DYr3
    isplitl [DDs0]; · iexact DDs0
    isplitl [DDs1]; · iexact DDs1
    isplitl [DDs2]; · iexact DDs2
    isplitl [DDs3]; · iexact DDs3
    isplitl [DDr0]; · iexact DDr0
    isplitl [DDr1]; · iexact DDr1
    isplitl [DDr2]; · iexact DDr2
    isplitl [DDr3]; · iexact DDr3
    isplitl [DXs0]; · iexact DXs0
    isplitl [DXs1]; · iexact DXs1
    isplitl [DXs2]; · iexact DXs2
    isplitl [DXs3]; · iexact DXs3
    isplitl [DXr0]; · iexact DXr0
    isplitl [DXr1]; · iexact DXr1
    isplitl [DXr2]; · iexact DXr2
    isplitl [DXr3]; · iexact DXr3
    isplitl [DZs0]; · iexact DZs0
    isplitl [DZs1]; · iexact DZs1
    isplitl [DZs2]; · iexact DZs2
    isplitl [DZs3]; · iexact DZs3
    isplitl [DZr0]; · iexact DZr0
    isplitl [DZr1]; · iexact DZr1
    isplitl [DZr2]; · iexact DZr2
    iexact DZr3
  -- the staging buffer and the landing buffer whole again
  isplitl [PYs0' RS0 PYs1' RS1 PYs2' RS2 PYs3' RS3]
  · iexists (StageF m c)
    iapply (Entails.of_eq (stage_share c (StageF m c)).symm)
    unfold sep4
    isplitl [PYs0' RS0]
    · isplitl [PYs0']
      · iexact PYs0'
      · iexact RS0
    isplitl [PYs1' RS1]
    · isplitl [PYs1']
      · iexact PYs1'
      · iexact RS1
    isplitl [PYs2' RS2]
    · isplitl [PYs2']
      · iexact PYs2'
      · iexact RS2
    isplitl [PYs3']
    · iexact PYs3'
    · iexact RS3
  · iexists (LandF m c)
    iapply (Entails.of_eq (land_split c (LandF m c)).symm)
    unfold sep4
    isplitl [PXs0' PZs0' PlL0]
    · iapply (Entails.of_eq (lch_share c 0 (LandF m c)).symm)
      isplitl [PXs0']; · iexact PXs0'
      isplitl [PZs0']; · iexact PZs0'
      iexact PlL0
    isplitl [PXs1' PZs1' PlL1]
    · iapply (Entails.of_eq (lch_share c 1 (LandF m c)).symm)
      isplitl [PXs1']; · iexact PXs1'
      isplitl [PZs1']; · iexact PZs1'
      iexact PlL1
    isplitl [PXs2' PZs2' PlL2]
    · iapply (Entails.of_eq (lch_share c 2 (LandF m c)).symm)
      isplitl [PXs2']; · iexact PXs2'
      isplitl [PZs2']; · iexact PZs2'
      iexact PlL2
    iapply (Entails.of_eq (lch_share c 3 (LandF m c)).symm)
    isplitl [PXs3']; · iexact PXs3'
    isplitl [PZs3']; · iexact PZs3'
    iexact PlL3

end Cert.KernelIdeal.A2A

end
-- ==== Proof.A2A.Launch.lean ====
/-
  The launch: from "each device's body is proved" to the run of the whole program on the eight devices. The cells'
  invariants are allocated for all devices at once (every device pays into three neighbours' cells), the duty tokens
  dealt to the devices that pay them, the launch credit dealt to the cells' owners; at the end each device's rows and
  result are read back from its points-tos.
-/
import proofs.«900624_g7700000000000625_dist_a2a_v7x_xyz2x2x2_y_m512_n512_f32_1_alg».proof.Proof.A2A.Body
import proofs.«900624_g7700000000000625_dist_a2a_v7x_xyz2x2x2_y_m512_n512_f32_1_alg».proof.Proof.A2A.Credit
import Idealize.ShloMosaic.Lib.Pipeline.Launch
import Idealize.ShloMosaic.Lib.Pipeline.Kit

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the run ends in: on every device the result at `OutF` and the argument rows as launched. -/
def QC : PUnit × MemSt nD τ sig (Elt F) → Prop := fun r => ∀ c : Dev nD,
  r.2.mem ((c : Thread nD τ).loc main_v1) = OutF m c ∧ r.2.mem ((c : Thread nD τ).loc main_arg0) = m ((c : Thread nD τ).loc main_arg0)

/-! ## The initial linear state from its two parts -/

omit [FloatOps F] in
/-- Four arrival cells: each position and payer's token, with the cell's credit beside it. -/
private theorem fly4 (c p : Dev nD) (ix : Fin 4 → Fin 38) :
    iprop(sep4 (fun k => iprop(atPos ER (dcell c (ix k)) 0 ∅ 0 ∗ arrTok p (ix k))) ∗ sep4 (fun k => cred (tallyAt (dcell c (ix k)) () (amt (ix k)))))
      ⊢ (sep4 (fun k => iprop(flying c (ix k) ∗ arrTok p (ix k))) : sProp 𝕄) := by
  unfold sep4 flying
  iintro ⟨⟨⟨a0, t0⟩, ⟨a1, t1⟩, ⟨a2, t2⟩, a3, t3⟩, c0, c1, c2, c3⟩
  isplitl [a0 t0 c0]
  · isplitr [t0]
    · isplitl [a0] <;> iassumption
    · iexact t0
  isplitl [a1 t1 c1]
  · isplitr [t1]
    · isplitl [a1] <;> iassumption
    · iexact t1
  isplitl [a2 t2 c2]
  · isplitr [t2]
    · isplitl [a2] <;> iassumption
    · iexact t2
  isplitr [t3]
  · isplitl [a3] <;> iassumption
  · iexact t3

omit [FloatOps F] in
theorem lin₀_intro (c : Dev nD) : iprop(ghostLin c ∗ credsOf c) ⊢ (lin₀ c : sProp 𝕄) := by
  unfold ghostLin credsOf lin₀
  iintro ⟨⟨A, T0, T1, T2, F0, F1, S1, S2, S3, S4, S5, R1, R2, R3, R4⟩, C, Q1, Q2, Q3, Q4⟩
  isplitl [A]; · iexact A
  isplitl [C]; · iexact C
  isplitl [T0]; · iexact T0
  isplitl [T1]; · iexact T1
  isplitl [T2]; · iexact T2
  isplitl [F0]; · iexact F0
  isplitl [F1]; · iexact F1
  isplitl [S1]; · iexact S1
  isplitl [S2]; · iexact S2
  isplitl [S3]; · iexact S3
  isplitl [S4]; · iexact S4
  isplitl [S5]; · iexact S5
  isplitl [R1 Q1]
  · iapply (fly4 (F := F) c (yp c) iYr); isplitl [R1] <;> iassumption
  isplitl [R2 Q2]
  · iapply (fly4 (F := F) c (yp c) iDr); isplitl [R2] <;> iassumption
  isplitl [R3 Q3]
  · iapply (fly4 (F := F) c (xp c) iXr); isplitl [R3] <;> iassumption
  iapply (fly4 (F := F) c (zp c) iZr); isplitl [R4] <;> iassumption

/-! ## The kernel's own semaphores, the cells, the tokens -/

abbrev osem : Fin 38 → SemLoc sig := fun i => .dma (dsem i)

theorem ownSemFacts : Pipeline.OwnSemFacts cfg0.spec osem := by decide

private theorem share_eq (c : Dev nD) (w : Fin cfg0.W) : (dats m 0 c).share w = fullShare := w.elim0

private theorem kcell_injective : Function.Injective (kcell : Dev nD × Fin 39 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    unfold csem at h2
    by_cases hk : k.val < 38 <;> by_cases hk' : k'.val < 38
    · rw [dif_pos hk, dif_pos hk'] at h2
      have h3 : (⟨k.val, hk⟩ : Fin 38) = ⟨k'.val, hk'⟩ := SemLoc.dma.inj h2
      exact Fin.ext (Fin.mk.inj h3)
    · rw [dif_pos hk, dif_neg hk'] at h2; cases h2
    · rw [dif_neg hk, dif_pos hk'] at h2; cases h2
    · exact Fin.ext (by have := k.isLt; have := k'.isLt; omega)
  subst this; rfl
private def allCells : Finset (GSem nD τ sig) := Finset.univ.map ⟨kcell, kcell_injective⟩

/-- The duty tokens as minted, by device: its barrier cell's three, and one for each of its DMA cells. -/
private def tokOf (cj : Dev nD × (Fin 3 ⊕ Fin 38)) : GSem nD τ sig × ℕ × Fin 3 :=
  match cj.2 with
  | .inl d => (bcell cj.1, 0, d)
  | .inr i => (dcell cj.1 i, 0, 0)
private theorem tokOf_injective : Function.Injective (tokOf : Dev nD × (Fin 3 ⊕ Fin 38) → GSem nD τ sig × ℕ × Fin 3) := by
  rintro ⟨c, j⟩ ⟨c', j'⟩ h
  have h1 : c = c' := by
    have := congrArg (fun x : GSem nD τ sig × ℕ × Fin 3 => x.1.1.1) h
    rcases j with d | i <;> rcases j' with d' | i' <;> exact this
  subst h1
  rcases j with d | i <;> rcases j' with d' | i'
  · have : d = d' := congrArg (fun x : GSem nD τ sig × ℕ × Fin 3 => x.2.2) h
    subst this; rfl
  · exact absurd (congrArg (fun x : GSem nD τ sig × ℕ × Fin 3 => x.1.2) h) (fun h' => by cases h')
  · exact absurd (congrArg (fun x : GSem nD τ sig × ℕ × Fin 3 => x.1.2) h) (fun h' => by cases h')
  · have : i = i' := SemLoc.dma.inj (congrArg (fun x : GSem nD τ sig × ℕ × Fin 3 => x.1.2) h)
    subst this; rfl
private def allToks : Finset (GSem nD τ sig × ℕ × Fin 3) := Finset.univ.map ⟨tokOf, tokOf_injective⟩

private def u₀ : UU :=
  (initOf (Pipeline.cells cfgs cellOf_inj) (Pipeline.launchToks cfgs cellOf_inj), initOf allCells allToks)

/-- The duty tokens of device `c`'s own cells. -/
private def toks (c : Dev nD) : sProp 𝕄 :=
  iprop((bigSep Finset.univ fun d : Fin 3 => dutyTok ER (bcell c) 0 d) ∗ bigSep Finset.univ fun i : Fin 38 => dutyTok ER (dcell c i) 0 0)

/-- What the launch element deals device `c`. -/
private def G (c : Dev nD) : sProp 𝕄 :=
  iprop((bigSep Finset.univ fun k : Fin 39 => roundState ER (sched m) (kcell (c, k)) 0)
    ∗ (bigSep Finset.univ fun k : Fin 39 => iprop(atPos ER (kcell (c, k)) 0 ∅ 0 ∗ reached ER (kcell (c, k)) 0)) ∗ toks c)

/-- What the global step makes of it. -/
private def G' (c : Dev nD) : sProp 𝕄 := iprop(∃ K, records m K ∗ ghostLin c)

omit [FloatOps F] in
private theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The 39 cells of a device: its 38 DMA cells, then its barrier cell. -/
private theorem bigSep_fin39 (Φ : Fin 39 → sProp 𝕄) : bigSep Finset.univ Φ = iprop((bigSep Finset.univ fun i : Fin 38 => Φ (di i)) ∗ Φ bi) := by
  rw [bigSep_univ_equiv (finSumFinEquiv : Fin 38 ⊕ Fin 1 ≃ Fin 39) Φ, bigSep_univ_sum, bigSep_univ_of_subsingleton (0 : Fin 1)]
  rfl

private theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 39 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to the devices that pay them -/

omit [FloatOps F] in
/-- The 38 DMA semaphores are the kernel's own; -/
private theorem ownSems0_eq (c : Dev nD) : (Pipeline.ownSems0 (Ix := Unit) (Name := ℕ) (U := UU) (Lvl := ℕ) (Val := Elt F) (τ := τ) osem c : sProp 𝕄)
    = bigSep Finset.univ fun i : Fin 38 => semVal (dcell c i) 0 := rfl
omit [FloatOps F] in
/-- the barrier semaphore the launch's one unscoped semaphore. -/
private theorem unscopedSems0_eq (c : Dev nD) : (unscopedSems0 c : sProp 𝕄) = semVal (bcell c) 0 := by
  unfold unscopedSems0; rw [bigSep_eq_bigSepL_of_eq [SemLoc.reg barS] (by decide) (by decide)]; rfl

omit [FloatOps F] in
private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 39 => semVal (kcell (c, k)) 0 : sProp 𝕄) := by
  rw [ownSems0_eq, unscopedSems0_eq, bigSep_fin39]
  simp only [kcell_d, kcell_b]
  exact .rfl

private theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 39 => semVal (kcell (c, k)) 0) ∗ bigSep Finset.univ fun k : Fin 39 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Who pays a barrier duty: duty 0 the y-neighbour, duty 1 the x-neighbour, duty 2 the z-neighbour. -/
private def bpi (d : Fin 3) : Dev nD → Dev nD :=
  match d with
  | ⟨0, _⟩ => yp
  | ⟨1, _⟩ => xp
  | ⟨_ + 2, _⟩ => zp
private theorem bpi_bpi (d : Fin 3) (c : Dev nD) : bpi d (bpi d c) = c := by
  unfold bpi; split
  · exact yp_yp c
  · exact xp_xp c
  · exact zp_zp c
private def bpie (d : Fin 3) : Dev nD ≃ Dev nD := ⟨bpi d, bpi d, bpi_bpi d, bpi_bpi d⟩

/-- Who pays a DMA cell's duty: the y-neighbour the staged and the direct arrivals, the x-neighbour and the z-neighbour
    the arrivals of their forwards, the device itself every other. -/
private def dpi (i : Fin 38) : Dev nD → Dev nD :=
  if (10 ≤ i.val ∧ i.val < 14) ∨ (18 ≤ i.val ∧ i.val < 22) then yp
  else if 26 ≤ i.val ∧ i.val < 30 then xp
  else if 34 ≤ i.val then zp
  else id
private theorem dpi_dpi (i : Fin 38) (c : Dev nD) : dpi i (dpi i c) = c := by
  unfold dpi; split_ifs
  · exact yp_yp c
  · exact xp_xp c
  · exact zp_zp c
  · rfl
private def dpie (i : Fin 38) : Dev nD ≃ Dev nD := ⟨dpi i, dpi i, dpi_dpi i, dpi_dpi i⟩

/-- The tokens device `c` pays with. -/
private def payToks (c : Dev nD) : sProp 𝕄 :=
  iprop((bigSep Finset.univ fun d : Fin 3 => dutyTok ER (bcell (bpi d c)) 0 d) ∗ bigSep Finset.univ fun i : Fin 38 => dutyTok ER (dcell (dpi i c) i) 0 0)
/-- What stays with device `c`: its positions, and those tokens. -/
private def linear (c : Dev nD) : sProp 𝕄 :=
  iprop((bigSep Finset.univ fun k : Fin 39 => atPos ER (kcell (c, k)) 0 ∅ 0) ∗ payToks c)

omit [FloatOps F] in
/-- The tokens dealt along the three axes: each neighbour relation is an involution of the devices. -/
private theorem toks_around : (bigSep Finset.univ fun c : Dev nD => (toks c : sProp 𝕄)) ⊢ bigSep Finset.univ fun c : Dev nD => payToks c := by
  have hB : (bigSep Finset.univ fun c : Dev nD => bigSep Finset.univ fun d : Fin 3 => (dutyTok ER (bcell c) 0 d : sProp 𝕄))
      = bigSep Finset.univ fun c : Dev nD => bigSep Finset.univ fun d : Fin 3 => (dutyTok ER (bcell (bpi d c)) 0 d : sProp 𝕄) := by
    rw [BI.bigSep_univ_comm (fun (c : Dev nD) (d : Fin 3) => (dutyTok ER (bcell c) 0 d : sProp 𝕄)),
      BI.bigSep_univ_comm (fun (c : Dev nD) (d : Fin 3) => (dutyTok ER (bcell (bpi d c)) 0 d : sProp 𝕄))]
    exact bigSep_congr fun d _ => bigSep_univ_equiv (bpie d) (fun c : Dev nD => (dutyTok ER (bcell c) 0 d : sProp 𝕄))
  have hD : (bigSep Finset.univ fun c : Dev nD => bigSep Finset.univ fun i : Fin 38 => (dutyTok ER (dcell c i) 0 0 : sProp 𝕄))
      = bigSep Finset.univ fun c : Dev nD => bigSep Finset.univ fun i : Fin 38 => (dutyTok ER (dcell (dpi i c) i) 0 0 : sProp 𝕄) := by
    rw [BI.bigSep_univ_comm (fun (c : Dev nD) (i : Fin 38) => (dutyTok ER (dcell c i) 0 0 : sProp 𝕄)),
      BI.bigSep_univ_comm (fun (c : Dev nD) (i : Fin 38) => (dutyTok ER (dcell (dpi i c) i) 0 0 : sProp 𝕄))]
    exact bigSep_congr fun i _ => bigSep_univ_equiv (dpie i) (fun c : Dev nD => (dutyTok ER (dcell c i) 0 0 : sProp 𝕄))
  unfold toks payToks
  rw [bigSep_sep', bigSep_sep', hB, hD]

omit [FloatOps F] in
private theorem bigSep_fin38 (Φ : Fin 38 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37) :=
  bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37] : List (Fin 38)) (by decide) (by decide) Φ

/-- One DMA cell's share of a device's linear state: the cell's position, and the token of the cell this device pays
    at that index. -/
private def cellLin (c : Dev nD) (i : Fin 38) : sProp 𝕄 := iprop(atPos ER (dcell c i) 0 ∅ 0 ∗ dutyTok ER (dcell (dpi i c) i) 0 0)

omit [FloatOps F] in
private theorem lin_list (c : Dev nD) :
    iprop((bigSep Finset.univ fun i : Fin 38 => (atPos ER (dcell c i) 0 ∅ 0 : sProp 𝕄)) ∗ bigSep Finset.univ fun i : Fin 38 => (dutyTok ER (dcell (dpi i c) i) 0 0 : sProp 𝕄))
      ⊢ iprop(cellLin c 0 ∗ cellLin c 1 ∗ cellLin c 2 ∗ cellLin c 3 ∗ cellLin c 4 ∗ cellLin c 5 ∗ cellLin c 6 ∗ cellLin c 7 ∗ cellLin c 8 ∗ cellLin c 9 ∗ cellLin c 10 ∗ cellLin c 11 ∗ cellLin c 12 ∗ cellLin c 13 ∗ cellLin c 14 ∗ cellLin c 15 ∗ cellLin c 16 ∗ cellLin c 17 ∗ cellLin c 18 ∗ cellLin c 19 ∗ cellLin c 20 ∗ cellLin c 21 ∗ cellLin c 22 ∗ cellLin c 23 ∗ cellLin c 24 ∗ cellLin c 25 ∗ cellLin c 26 ∗ cellLin c 27 ∗ cellLin c 28 ∗ cellLin c 29 ∗ cellLin c 30 ∗ cellLin c 31 ∗ cellLin c 32 ∗ cellLin c 33 ∗ cellLin c 34 ∗ cellLin c 35 ∗ cellLin c 36 ∗ cellLin c 37) := by
  rw [← bigSep_sep']; exact Entails.of_eq (bigSep_fin38 (cellLin c))

omit [FloatOps F] in
/-- A device's positions and the tokens it pays with, cell by cell, are its linear ghost state. -/
private theorem lin_intro (c : Dev nD) : linear c ⊢ (ghostLin c : sProp 𝕄) := by
  unfold linear payToks
  rw [bigSep_fin39, bigSep_fin3]
  simp only [kcell_d, kcell_b]
  iintro ⟨⟨HA, HB⟩, ⟨T0, T1, T2⟩, HT⟩
  ihave H := (lin_list (F := F) c) $$ [HA HT]
  · isplitl [HA] <;> iassumption
  icases H with ⟨P0, P1, P2, P3, P4, P5, P6, P7, P8, P9, P10, P11, P12, P13, P14, P15, P16, P17, P18, P19, P20, P21, P22, P23, P24, P25, P26, P27, P28, P29, P30, P31, P32, P33, P34, P35, P36, P37⟩
  unfold ghostLin fresh arrTok sep4 cellLin
  isplitl [HB]; · iexact HB
  isplitl [T0]; · iexact T0
  isplitl [T1]; · iexact T1
  isplitl [T2]; · iexact T2
  isplitl [P0]; · iexact P0
  isplitl [P1]; · iexact P1
  isplitl [P2 P3 P4 P5]
  · isplitl [P2]; · iexact P2
    isplitl [P3]; · iexact P3
    isplitl [P4]; · iexact P4
    iexact P5
  isplitl [P6 P7 P8 P9]
  · isplitl [P6]; · iexact P6
    isplitl [P7]; · iexact P7
    isplitl [P8]; · iexact P8
    iexact P9
  isplitl [P14 P15 P16 P17]
  · isplitl [P14]; · iexact P14
    isplitl [P15]; · iexact P15
    isplitl [P16]; · iexact P16
    iexact P17
  isplitl [P22 P23 P24 P25]
  · isplitl [P22]; · iexact P22
    isplitl [P23]; · iexact P23
    isplitl [P24]; · iexact P24
    iexact P25
  isplitl [P30 P31 P32 P33]
  · isplitl [P30]; · iexact P30
    isplitl [P31]; · iexact P31
    isplitl [P32]; · iexact P32
    iexact P33
  isplitl [P10 P11 P12 P13]
  · isplitl [P10]; · iexact P10
    isplitl [P11]; · iexact P11
    isplitl [P12]; · iexact P12
    iexact P13
  isplitl [P18 P19 P20 P21]
  · isplitl [P18]; · iexact P18
    isplitl [P19]; · iexact P19
    isplitl [P20]; · iexact P20
    iexact P21
  isplitl [P26 P27 P28 P29]
  · isplitl [P26]; · iexact P26
    isplitl [P27]; · iexact P27
    isplitl [P28]; · iexact P28
    iexact P29
  isplitl [P34]; · iexact P34
  isplitl [P35]; · iexact P35
  isplitl [P36]; · iexact P36
  iexact P37

private theorem ghost_intro (K : Dev nD × Fin 39 → ℕ) (c : Dev nD) : iprop(records m K ∗ linear c) ⊢ G' m c := by
  unfold G'
  iintro ⟨#HR, Hl⟩
  iexists K
  isplitr; · iexact HR
  iapply (lin_intro (F := F) c); iexact Hl

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 39 => iprop(∃ κ : ℕ, cellInv ER (sched m) κ (kcell ck))),
    bigSep_congr (s := Finset.univ) (fun (c : Dev nD) _ => bigSep_sep' Finset.univ (fun k : Fin 39 => (atPos ER (kcell (c, k)) 0 ∅ 0 : sProp 𝕄)) (fun k => reached ER (kcell (c, k)) 0)),
    bigSep_sep', ← bigSep_univ_prod (fun ck : Dev nD × Fin 39 => (reached ER (kcell ck) 0 : sProp 𝕄))]
  iintro ⟨HI, ⟨Hat, #HR⟩, Htok⟩
  ihave HK := (BI.bigSep_exists_pi Finset.univ (fun (ck : Dev nD × Fin 39) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 39 => (atPos ER (kcell (c, k)) 0 ∅ 0 : sProp 𝕄)) payToks).symm)
    isplitl [Hat]; · iexact Hat
    iexact Htk

/-- The global step: own and unscoped semaphores of every device at once. -/
private theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

omit [FloatOps F] in
/-- A points-to through the whole of a buffer is the points-to of the buffer. -/
private theorem pts_x (c : Dev nD) (q : PosShare TreeShare) (f : Buf (Elt F) ((c : Thread nD τ).loc main_arg0)) :
    pts c xM q f = (((c : Thread nD τ).loc main_arg0) ↦{q} f : sProp 𝕄) := by
  unfold pts; rw [show (xM : Memref sig .tc .hbm S512x1024 .f32).view.set = Finset.univ from View.set_whole _]
omit [FloatOps F] in
private theorem pts_o (c : Dev nD) (q : PosShare TreeShare) (f : Buf (Elt F) ((c : Thread nD τ).loc main_v1)) :
    pts c oM q f = (((c : Thread nD τ).loc main_v1) ↦{q} f : sProp 𝕄) := by
  unfold pts; rw [show (oM : Memref sig .tc .hbm S1024x512 .f32).view.set = Finset.univ from View.set_whole _]
omit [FloatOps F] in
private theorem pts_s (c : Dev nD) (q : PosShare TreeShare) (f : Buf (Elt F) ((c : Thread nD τ).loc cc0_scratch0)) :
    pts c sM q f = (((c : Thread nD τ).loc cc0_scratch0) ↦{q} f : sProp 𝕄) := by
  unfold pts; rw [show (sM : Memref sig .tc .vmem S128x512 .f32).view.set = Finset.univ from View.set_whole _]
omit [FloatOps F] in
private theorem pts_l (c : Dev nD) (q : PosShare TreeShare) (f : Buf (Elt F) ((c : Thread nD τ).loc cc0_scratch1)) :
    pts c lM q f = (((c : Thread nD τ).loc cc0_scratch1) ↦{q} f : sProp 𝕄) := by
  unfold pts; rw [show (lM : Memref sig .tc .vmem S128x512 .f32).view.set = Finset.univ from View.set_whole _]

/-- What a device enters the region with, besides its scratch buffers. -/
private def start (c : Dev nD) : sProp 𝕄 :=
  iprop((∃ K, records m K ∗ lin₀ c) ∗ levAts L lv ∗ pts c xM fullShare (Xc m c) ∗ (∃ f, pts c oM fullShare f))
/-- What it leaves it with, besides its counters and its scratch buffers. -/
private def fin (c : Dev nD) : sProp 𝕄 := iprop(pts c xM fullShare (Xc m c) ∗ pts c oM fullShare (OutF m c))

private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Ho⟩, Hlev, Hcr, -, ⟨%K, HR, Hg⟩⟩
  ihave Hc := (creds (F := F) c) $$ Hcr
  imodintro
  unfold start
  isplitl
  · isplitl [HR Hg Hc]
    · iexists K
      isplitl [HR]; · iexact HR
      iapply (lin₀_intro (F := F) c); isplitl [Hg] <;> iassumption
    isplitl [Hlev]; · iexact Hlev
    isplitl [Hx]
    · iapply (Entails.of_eq (pts_x c fullShare (Xc m c)).symm); iexact Hx
    iexists (m ((c : Thread nD τ).loc main_v1))
    iapply (Entails.of_eq (pts_o c fullShare (m ((c : Thread nD τ).loc main_v1))).symm); iexact Ho
  · iempintro

private theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨⟨Hg, Hlev, Hx, Ho⟩, -, ⟨%fs, Hs⟩, ⟨%fl, Hl⟩⟩
  isplitl [Hg]; · iexact Hg
  isplitl [Hlev]; · iexact Hlev
  isplitl [Hx]; · iexact Hx
  isplitl [Ho]; · iexact Ho
  isplitl [Hs]
  · iexists fs; iapply (Entails.of_eq (pts_s c fullShare fs).symm); iexact Hs
  iexists fl; iapply (Entails.of_eq (pts_l c fullShare fl).symm); iexact Hl

private theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, scopedRest0_eq, ownSems0_eq]
  unfold Φ₁ fin
  iintro ⟨Hx, Ho, Hd, ⟨%fs, Hs⟩, ⟨%fl, Hl⟩⟩
  isplitl [Hx Ho]
  · isplitl [Hx] <;> iassumption
  isplitl [Hd]; · iexact Hd
  isplitl [Hs]
  · iexists fs; iapply (Entails.of_eq (pts_s c fullShare fs)); iexact Hs
  iexists fl; iapply (Entails.of_eq (pts_l c fullShare fl)); iexact Hl

private theorem waits (c : Dev nD) : (levAts L lv : sProp 𝕄) ⊢ Pipeline.cellsWaits cfgs (dats m) () 0 c :=
  Pipeline.cellsWaits_intro cfgs (dats m) () 0 c fun w s t => w.elim0

private theorem cfg0_N : cfg0.N = 1 := by decide
private def t₀ : Fin cfg0.N := ⟨0, by rw [cfg0_N]; decide⟩
private theorem fin_N (t : Fin cfg0.N) : t = t₀ := by
  obtain ⟨t, ht⟩ := t; have := cfg0_N; exact Fin.ext (by simp only [t₀]; omega)

omit [FloatOps F] in
/-- No window: a `bigSep` over the windows is empty. -/
private theorem bigSep_W (Φ : Fin cfg0.W → sProp 𝕄) : bigSep Finset.univ Φ = iprop(emp) := by
  rw [Finset.univ_eq_empty, BI.bigSep_empty]; rfl

/-- The body obligation on device `c`: the body from the invariant before the one point to the invariant after it. -/
private theorem body_obligation (c : Dev nD) : BodyObligation (dats (F := F) m 0 c) (defs₀ (F := F)) 𝒱₀ () Set.univ := fun t => by
  rw [fin_N t]
  rw [bigSep_W, bigSep_W]
  show iprop(Φ₀ m c ∗ (dats m 0 c).owesAt () t₀.castSucc ∗ emp) ⊢ wp frame (wpE (defs₀ (F := F)) 𝒱₀ c none) Set.univ (bodyAt0 t₀)
    (fun _ => iprop(Φ₁ m c ∗ (dats m 0 c).owesAt () t₀.succ ∗ emp))
  unfold Dat.owesAt Pipeline.owesWithin
  rw [show (dats m 0 c).owed t₀.castSucc = O₀ c from rfl, show (dats m 0 c).owed t₀.succ = 0 from rfl]
  iintro ⟨HΦ, ⟨%W, -, HO⟩, -⟩
  iapply (body_spec m c fun _ => iprop(Φ₁ m c ∗ (∃ W : Waits sig Unit, ⌜(↑W : Set (SemLoc sig × Unit)) ⊆ (dats m 0 c).bound () t₀.succ⌝ ∗ owes (c : Thread nD τ) 0 W) ∗ emp))
  isplitl [HΦ]; · iexact HΦ
  isplitl [HO]
  · unfold owesAny; iexists W; iexact HO
  unfold owesAny
  iintro ⟨H1, %W', HO'⟩
  isplitl [H1]; · iexact H1
  isplitl [HO']
  · iexists W'
    isplitr; · ipureintro; exact fun _ _ => Or.inl trivial
    iexact HO'
  iempintro

/-- What is read off a device's final points-tos. -/
private def QY (c : Dev nD) (s : MemSt nD τ sig (Elt F)) : Prop :=
  s.mem ((c : Thread nD τ).loc main_v1) = OutF m c ∧ s.mem ((c : Thread nD τ).loc main_arg0) = m ((c : Thread nD τ).loc main_arg0)

private theorem read_fin (c : Dev nD) (s' : Phys nD τ sig (Elt F)) :
    iprop(fin m c ∗ (emp : sProp 𝕄) ∗ SI s') ⊢ |={Set.univ}=> iprop(⌜QY m c s'.mem⌝ ∗ SI s') := by
  unfold fin
  rw [pts_x, pts_o]
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

/-! ## The run -/

set_option maxRecDepth 8000 in
/-- At the compiled mesh of eight devices, for any float values, from any memory with zero counters: every weakly fair
    execution of @main terminates, nothing faulting, every device's result at `OutF` and its rows unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fin m) (Z := fun _ => iprop(emp))
    (hX := start_intro m ρ) (hin := phi0_intro m) (hout := phi1_exit m)
    (QY := QY m)
    (hY := read_fin m)
    (hQ := fun s h c => (h c).2.2)

end Cert.KernelIdeal.A2A

end
-- ==== Proof.KA2A.Proto.lean ====
/-
  An all-to-all over a 2 x 2 x 2 mesh, device `c = 4x + 2y + z`. Device `c` holds rows `[512y, 512y+512)` of a
  1024 x 1024 array and must end with columns `[512y, 512y+512)` of it. The half of the result it already has is one
  local copy. The other half is held by the devices across the `y` axis; it arrives in four quarters of 128 rows:
  quarter `q = 2x + z` is staged by the y-peer, sent here in four chunks of 32 rows into a landing buffer, and from
  there copied into the result and forwarded to the x-peer and the z-peer; quarter `3 - q` is sent by the y-peer
  straight into the result; the two remaining quarters are what the x-peer and the z-peer forward.
  This module fixes the protocol: the peers, the views every copy goes through, the semaphore cells, what each
  buffer holds at the end (`StageF`, `LandF`, `OutF`: pure functions of the initial memory), the schedule of the
  cells (one round each: the barrier cell three one-unit duties, one from each neighbour; every DMA cell one duty of
  its copy's credit, whose payload is the elements the copy wrote, at their final contents, or the source share it
  read), what a device owes at launch, and the levels that order the waits.
-/
import proofs.«900624_g7700000000000625_dist_a2a_v7x_xyz2x2x2_y_m512_n512_f32_1_alg».proof.Proof.Gen.Kernel.Frame
import Idealize.ShloMosaic.Lib.Pipeline.Launch
import Idealize.ShloMosaic.Lib.Pipeline.Kit
import Idealize.ShloMosaic.Lib.Tactic
import Idealize.ShloMosaic.Lib.ValueIdx

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds of this protocol (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The three neighbours: across y, across x, across z -/

def yp (c : Dev nD) : Dev nD := ⟨k0_dev1 c, k0_dev1_lt c⟩
def xp (c : Dev nD) : Dev nD := ⟨k0_dev2 c, k0_dev2_lt c⟩
def zp (c : Dev nD) : Dev nD := ⟨k0_dev3 c, k0_dev3_lt c⟩

theorem yp_yp (c : Dev nD) : yp (yp c) = c := by revert c; decide +kernel
theorem xp_xp (c : Dev nD) : xp (xp c) = c := by revert c; decide +kernel
theorem zp_zp (c : Dev nD) : zp (zp c) = c := by revert c; decide +kernel
theorem yp_val (c : Dev nD) : (yp c).val = (4 * (c.val / 4) + (c.val % 2) + 2) - 2 * ((c.val / 2) % 2) := k0_dev1_eq c
theorem xp_val (c : Dev nD) : (xp c).val = (2 * ((c.val / 2) % 2) + (c.val % 2) + 4) - 4 * (c.val / 4) := k0_dev2_eq c
theorem zp_val (c : Dev nD) : (zp c).val = (4 * (c.val / 4) + 2 * ((c.val / 2) % 2) + 1) - (c.val % 2) := k0_dev3_eq c

/-- The kernel's `device_id` chains: the barrier signals name the three neighbours; the chunked sends across y
    (staged quarter, then direct quarter) name the y-peer; the forwards name the x-peer and the z-peer in turn. -/
theorem dev_y (c : Dev nD) :
    (⟨k0_dev4 c, k0_dev4_lt c⟩ : Dev nD) = yp c ∧ (⟨k0_dev5 c, k0_dev5_lt c⟩ : Dev nD) = yp c ∧ (⟨k0_dev6 c, k0_dev6_lt c⟩ : Dev nD) = yp c
    ∧ (⟨k0_dev7 c, k0_dev7_lt c⟩ : Dev nD) = yp c ∧ (⟨k0_dev8 c, k0_dev8_lt c⟩ : Dev nD) = yp c ∧ (⟨k0_dev9 c, k0_dev9_lt c⟩ : Dev nD) = yp c
    ∧ (⟨k0_dev10 c, k0_dev10_lt c⟩ : Dev nD) = yp c ∧ (⟨k0_dev11 c, k0_dev11_lt c⟩ : Dev nD) = yp c := by
  refine ⟨Fin.ext ?_, Fin.ext ?_, Fin.ext ?_, Fin.ext ?_, Fin.ext ?_, Fin.ext ?_, Fin.ext ?_, Fin.ext ?_⟩ <;> simp only [yp]
  · rw [k0_dev4_eq, k0_dev1_eq]
  · rw [k0_dev5_eq, k0_dev1_eq]
  · rw [k0_dev6_eq, k0_dev1_eq]
  · rw [k0_dev7_eq, k0_dev1_eq]
  · rw [k0_dev8_eq, k0_dev1_eq]
  · rw [k0_dev9_eq, k0_dev1_eq]
  · rw [k0_dev10_eq, k0_dev1_eq]
  · rw [k0_dev11_eq, k0_dev1_eq]
theorem dev_x (c : Dev nD) :
    (⟨k0_dev12 c, k0_dev12_lt c⟩ : Dev nD) = xp c ∧ (⟨k0_dev14 c, k0_dev14_lt c⟩ : Dev nD) = xp c
    ∧ (⟨k0_dev16 c, k0_dev16_lt c⟩ : Dev nD) = xp c ∧ (⟨k0_dev18 c, k0_dev18_lt c⟩ : Dev nD) = xp c := by
  refine ⟨Fin.ext ?_, Fin.ext ?_, Fin.ext ?_, Fin.ext ?_⟩ <;> simp only [xp]
  · rw [k0_dev12_eq, k0_dev2_eq]
  · rw [k0_dev14_eq, k0_dev2_eq]
  · rw [k0_dev16_eq, k0_dev2_eq]
  · rw [k0_dev18_eq, k0_dev2_eq]
theorem dev_z (c : Dev nD) :
    (⟨k0_dev13 c, k0_dev13_lt c⟩ : Dev nD) = zp c ∧ (⟨k0_dev15 c, k0_dev15_lt c⟩ : Dev nD) = zp c
    ∧ (⟨k0_dev17 c, k0_dev17_lt c⟩ : Dev nD) = zp c ∧ (⟨k0_dev19 c, k0_dev19_lt c⟩ : Dev nD) = zp c := by
  refine ⟨Fin.ext ?_, Fin.ext ?_, Fin.ext ?_, Fin.ext ?_⟩ <;> simp only [zp]
  · rw [k0_dev13_eq, k0_dev3_eq]
  · rw [k0_dev15_eq, k0_dev3_eq]
  · rw [k0_dev17_eq, k0_dev3_eq]
  · rw [k0_dev19_eq, k0_dev3_eq]

/-! ## The views the copies go through -/

abbrev xM : Memref sig .tc .hbm S512x1024 .f32 := Memref.whole main_arg0
abbrev oM : Memref sig .tc .hbm S1024x512 .f32 := Memref.whole main_v1
/-- The staging buffer (the quarter this device sends across y) and the landing buffer (the quarter it receives). -/
abbrev sM : Memref sig .tc .vmem S128x512 .f32 := Memref.whole cc0_scratch0
abbrev lM : Memref sig .tc .vmem S128x512 .f32 := Memref.whole cc0_scratch1

/-- The quarter `q` of the other column half of this device's rows: what it stages. -/
def xStage (c : Dev nD) : Memref sig .tc .hbm S128x512 .f32 :=
  xM.slice (Rect.unit (s := S512x1024) (k0_off1 c) S128x512.size (k0_off1_inb c)) (fun _ => rfl)
/-- Its own column half of its rows, and where that goes in the result. -/
def xLocal (c : Dev nD) : Memref sig .tc .hbm S512x512 .f32 :=
  xM.slice (Rect.unit (s := S512x1024) (k0_off3 c) S512x512.size (k0_off3_inb c)) (fun _ => rfl)
def oLocal (c : Dev nD) : Memref sig .tc .hbm S512x512 .f32 :=
  oM.slice (Rect.unit (s := S1024x512) (k0_off2 c) S512x512.size (k0_off2_inb c)) (fun _ => rfl)

/-- Chunk `k` of a 128-row buffer: rows `[32k, 32k+32)`. -/
def chOff (k : Fin 4) : Fin 2 → Nat := ![32 * k.val, 0]
theorem chOff_inb (k : Fin 4) : ∀ a, chOff k a + S32x512.size a ≤ S128x512.size a := by revert k; decide
def sCh (k : Fin 4) : Memref sig .tc .vmem S32x512 .f32 :=
  sM.slice (Rect.unit (s := S128x512) (chOff k) S32x512.size (chOff_inb k)) (fun _ => rfl)
def lCh (k : Fin 4) : Memref sig .tc .vmem S32x512 .f32 :=
  lM.slice (Rect.unit (s := S128x512) (chOff k) S32x512.size (chOff_inb k)) (fun _ => rfl)

/-- Chunk `k` of the quarter `3 - q` device `c` sends directly: its source in `c`'s rows, and its place in the
    result of the device it is sent to (computed from `c`'s own coordinates). -/
def xD (c : Dev nD) (k : Fin 4) : Memref sig .tc .hbm S32x512 .f32 :=
  xM.slice (Rect.unit (s := S512x1024) (k0_off5 c (BitVec.ofNat 32 (32 * k.val))) S32x512.size (k0_off5_inb c k)) (fun _ => rfl)
def oD (c : Dev nD) (k : Fin 4) : Memref sig .tc .hbm S32x512 .f32 :=
  oM.slice (Rect.unit (s := S1024x512) (k0_off4 c (BitVec.ofNat 32 (32 * k.val))) S32x512.size (k0_off4_inb c k)) (fun _ => rfl)
/-- Where chunk `k` of what device `c` has landed goes in a result — its own, its x-peer's and its z-peer's alike. -/
def oF (c : Dev nD) (k : Fin 4) : Memref sig .tc .hbm S32x512 .f32 :=
  oM.slice (Rect.unit (s := S1024x512) (k0_off6 c (BitVec.ofNat 32 (32 * k.val))) S32x512.size (k0_off6_inb c k)) (fun _ => rfl)

/-! ## The cells -/

abbrev dsem (i : Fin 38) : DmaSem sig := i
abbrev barS : Sem sig := (SemArray.scalar (sig.barrier 0 rfl) : Sems sig S_).sem

abbrev dcell (c : Dev nD) (i : Fin 38) : GSem nD τ sig := ((c : Thread nD τ), .dma (dsem i))
abbrev bcell (c : Dev nD) : GSem nD τ sig := ((c : Thread nD τ), .reg barS)

/-- The DMA semaphores by what they count: 0 the local half, 1 the staging copy, then by chunk `k`:
    the landing-to-result copy, the staged send across y (its departure, its arrival), the direct send across y,
    the forward across x, the forward across z. -/
abbrev iLocal : Fin 38 := 0
abbrev iStage : Fin 38 := 1
def iLand (k : Fin 4) : Fin 38 := ⟨2 + k.val, by omega⟩
def iYs (k : Fin 4) : Fin 38 := ⟨6 + k.val, by omega⟩
def iYr (k : Fin 4) : Fin 38 := ⟨10 + k.val, by omega⟩
def iDs (k : Fin 4) : Fin 38 := ⟨14 + k.val, by omega⟩
def iDr (k : Fin 4) : Fin 38 := ⟨18 + k.val, by omega⟩
def iXs (k : Fin 4) : Fin 38 := ⟨22 + k.val, by omega⟩
def iXr (k : Fin 4) : Fin 38 := ⟨26 + k.val, by omega⟩
def iZs (k : Fin 4) : Fin 38 := ⟨30 + k.val, by omega⟩
def iZr (k : Fin 4) : Fin 38 := ⟨34 + k.val, by omega⟩

/-- What a copy credits: the credit of its destination view. -/
abbrev A512 : ℕ := (oLocal 0).view.dmaCredit
abbrev A128 : ℕ := (sM : Memref sig .tc .vmem S128x512 .f32).view.dmaCredit
abbrev AL : ℕ := (lCh 0).view.dmaCredit
abbrev AO : ℕ := (oF 0 0).view.dmaCredit
theorem A512_pos : 0 < A512 := View.dmaCredit_pos _ (by decide)
theorem A128_pos : 0 < A128 := View.dmaCredit_pos _ (by decide)
theorem AL_pos : 0 < AL := View.dmaCredit_pos _ (by decide)
theorem AO_pos : 0 < AO := View.dmaCredit_pos _ (by decide)

def amt (i : Fin 38) : ℕ := if i.val = 0 then A512 else if i.val = 1 then A128 else if 6 ≤ i.val ∧ i.val < 14 then AL else AO
theorem amt_pos (i : Fin 38) : 0 < amt i := by
  unfold amt; split_ifs
  · exact A512_pos
  · exact A128_pos
  · exact AL_pos
  · exact AO_pos

/-! ## What the buffers hold at the end -/

/-- Device `c`'s rows, as launched. -/
def Xc (c : Dev nD) : (main_arg0 : Ref sig .tc).ty.Contents (Elt F) := m ((c : Thread nD τ).loc main_arg0)
/-- What it stages: its quarter `q` of the other column half. -/
def StageF (c : Dev nD) : (cc0_scratch0 : Ref sig .tc).ty.Contents (Elt F) := (xStage c).view.read (Elt F) (Xc m c)
/-- What lands with it: what its y-peer staged. -/
def LandF (c : Dev nD) : (cc0_scratch1 : Ref sig .tc).ty.Contents (Elt F) := StageF m (yp c)

/-- Which device's rows quarter `qq` of the far half of `c`'s result comes from: its own staged quarter and the
    opposite one from its y-peer; the x-peer's from the x-peer's y-peer; the z-peer's from the z-peer's y-peer. -/
def srcQ (c : Dev nD) (qq : ℕ) : Dev nD :=
  if qq = 2 * (c.val / 4) + c.val % 2 ∨ qq = 3 - (2 * (c.val / 4) + c.val % 2) then yp c
  else if qq = 2 * (1 - c.val / 4) + c.val % 2 then yp (xp c) else yp (zp c)

theorem row_lt (r : ℕ) : r % 512 < 512 := Nat.mod_lt _ (by decide)
theorem col_lt (c : Dev nD) (i : S1024x512.Idx) : 512 * ((c.val / 2) % 2) + (i 1).val < 1024 := by
  have h1 : (i 1).val < 512 := (i 1).isLt
  have h2 : (c.val / 2) % 2 < 2 := Nat.mod_lt _ (by decide)
  omega

/-- The result: row `r`, column `j` is row `r % 512`, column `512y + j` of the rows of the device that held it:
    this device for its own half, `srcQ` of the quarter for the other. -/
def OutF (c : Dev nD) : (main_v1 : Ref sig .tc).ty.Contents (Elt F) := fun i =>
  if (i 0).val / 512 = (c.val / 2) % 2 then
    Xc m c (ValueIdx.ix2 ⟨(i 0).val % 512, row_lt _⟩ ⟨512 * ((c.val / 2) % 2) + (i 1).val, col_lt c i⟩)
  else
    Xc m (srcQ c ((i 0).val % 512 / 128)) (ValueIdx.ix2 ⟨(i 0).val % 512, row_lt _⟩ ⟨512 * ((c.val / 2) % 2) + (i 1).val, col_lt c i⟩)

/-! ## Points-to through a view, on a device -/

/-- Share `q` of the elements of view `M` on device `c`, holding `f`. -/
def pts {sp : Space} {s : Shape} (c : Dev nD) (M : Memref sig .tc sp s .f32) (q : PosShare TreeShare)
    (f : Buf (Elt F) (M.view.loc (c : Thread nD τ))) : sProp 𝕄 :=
  M.view.loc (c : Thread nD τ) ↦[M.view.set]{q} f

omit [FloatOps F] in
instance pts_storable {sp : Space} {s : Shape} (c : Dev nD) (M : Memref sig .tc sp s .f32) (q : PosShare TreeShare)
    (f : Buf (Elt F) (M.view.loc (c : Thread nD τ))) : BI.Storable (upEmb : UEmb _ 𝕄) (pts (F := F) c M q f) := by
  unfold pts; infer_instance

/-- Four chunks side by side. -/
def sep4 (P : Fin 4 → sProp 𝕄) : sProp 𝕄 := iprop(P 0 ∗ P 1 ∗ P 2 ∗ P 3)

omit [FloatOps F] in
instance sep4_storable (P : Fin 4 → sProp 𝕄) [∀ k, BI.Storable (upEmb : UEmb _ 𝕄) (P k)] :
    BI.Storable (upEmb : UEmb _ 𝕄) (sep4 (F := F) P) := by unfold sep4; infer_instance

/-! ## The shares the readers of one source hold -/

/-- The three readers of a landed chunk: the forward across x, the forward across z, the copy into the result. -/
abbrev qX : PosShare TreeShare := fullShare.left
abbrev qZ : PosShare TreeShare := fullShare.right.left
abbrev qL : PosShare TreeShare := fullShare.right.right
/-- The four chunked readers of the staging buffer. -/
def q4 (k : Fin 4) : PosShare TreeShare :=
  match k with
  | ⟨0, _⟩ => fullShare.left.left | ⟨1, _⟩ => fullShare.left.right | ⟨2, _⟩ => fullShare.right.left | ⟨_ + 3, _⟩ => fullShare.right.right
/-- The readers of the argument rows: the local half, the staging copy, the four direct sends. -/
abbrev qXL : PosShare TreeShare := fullShare.left
abbrev qXS : PosShare TreeShare := fullShare.right.left
def qXD (k : Fin 4) : PosShare TreeShare :=
  match k with
  | ⟨0, _⟩ => fullShare.right.right.left.left | ⟨1, _⟩ => fullShare.right.right.left.right
  | ⟨2, _⟩ => fullShare.right.right.right.left | ⟨_ + 3, _⟩ => fullShare.right.right.right.right

/-! ## The schedule -/

/-- What a neighbour's entry signal hands device `c`: the elements of that neighbour's buffers `c` will write —
    from the y-peer (duty 0) its landing buffer by chunks and the quarter of its result `c` sends directly; from the
    x-peer (duty 1) and the z-peer (duty 2) the quarter of their result `c` forwards to. -/
def barPay (c : Dev nD) (d : Fin 3) : sProp 𝕄 :=
  match d with
  | ⟨0, _⟩ => iprop(sep4 (fun k => iprop(∃ f, pts (yp c) (lCh k) fullShare f)) ∗ sep4 (fun k => iprop(∃ f, pts (yp c) (oD c k) fullShare f)))
  | ⟨1, _⟩ => sep4 (fun k => iprop(∃ f, pts (xp c) (oF c k) fullShare f))
  | ⟨_ + 2, _⟩ => sep4 (fun k => iprop(∃ f, pts (zp c) (oF c k) fullShare f))

/-- What the completion counted on a DMA semaphore of device `c` hands it: the elements the copy wrote, at their
    final contents, and (for a copy it issued itself) the share of the source the copy read. By kind: -/
def localPay (c : Dev nD) : sProp 𝕄 := iprop(pts c (oLocal c) fullShare (OutF m c) ∗ pts c (xLocal c) qXL (Xc m c))
def stagePay (c : Dev nD) : sProp 𝕄 := iprop(pts c sM fullShare (StageF m c) ∗ pts c (xStage c) qXS (Xc m c))
def landPay (c : Dev nD) (k : Fin 4) : sProp 𝕄 := iprop(pts c (oF c k) fullShare (OutF m c) ∗ pts c (lCh k) qL (LandF m c))
def ysPay (c : Dev nD) (k : Fin 4) : sProp 𝕄 := pts c (sCh k) (q4 k) (StageF m c)
def yrPay (c : Dev nD) (k : Fin 4) : sProp 𝕄 := pts c (lCh k) fullShare (LandF m c)
def dsPay (c : Dev nD) (k : Fin 4) : sProp 𝕄 := pts c (xD c k) (qXD k) (Xc m c)
def drPay (c : Dev nD) (k : Fin 4) : sProp 𝕄 := pts c (oD (yp c) k) fullShare (OutF m c)
def xsPay (c : Dev nD) (k : Fin 4) : sProp 𝕄 := pts c (lCh k) qX (LandF m c)
def xrPay (c : Dev nD) (k : Fin 4) : sProp 𝕄 := pts c (oF (xp c) k) fullShare (OutF m c)
def zsPay (c : Dev nD) (k : Fin 4) : sProp 𝕄 := pts c (lCh k) qZ (LandF m c)
def zrPay (c : Dev nD) (k : Fin 4) : sProp 𝕄 := pts c (oF (zp c) k) fullShare (OutF m c)

/-- The table, semaphore by semaphore. -/
def dmaPay (c : Dev nD) (i : Fin 38) : sProp 𝕄 :=
  match i with
  | ⟨0, _⟩ => localPay m c
  | ⟨1, _⟩ => stagePay m c
  | ⟨2, _⟩ => landPay m c 0
  | ⟨3, _⟩ => landPay m c 1
  | ⟨4, _⟩ => landPay m c 2
  | ⟨5, _⟩ => landPay m c 3
  | ⟨6, _⟩ => ysPay m c 0
  | ⟨7, _⟩ => ysPay m c 1
  | ⟨8, _⟩ => ysPay m c 2
  | ⟨9, _⟩ => ysPay m c 3
  | ⟨10, _⟩ => yrPay m c 0
  | ⟨11, _⟩ => yrPay m c 1
  | ⟨12, _⟩ => yrPay m c 2
  | ⟨13, _⟩ => yrPay m c 3
  | ⟨14, _⟩ => dsPay m c 0
  | ⟨15, _⟩ => dsPay m c 1
  | ⟨16, _⟩ => dsPay m c 2
  | ⟨17, _⟩ => dsPay m c 3
  | ⟨18, _⟩ => drPay m c 0
  | ⟨19, _⟩ => drPay m c 1
  | ⟨20, _⟩ => drPay m c 2
  | ⟨21, _⟩ => drPay m c 3
  | ⟨22, _⟩ => xsPay m c 0
  | ⟨23, _⟩ => xsPay m c 1
  | ⟨24, _⟩ => xsPay m c 2
  | ⟨25, _⟩ => xsPay m c 3
  | ⟨26, _⟩ => xrPay m c 0
  | ⟨27, _⟩ => xrPay m c 1
  | ⟨28, _⟩ => xrPay m c 2
  | ⟨29, _⟩ => xrPay m c 3
  | ⟨30, _⟩ => zsPay m c 0
  | ⟨31, _⟩ => zsPay m c 1
  | ⟨32, _⟩ => zsPay m c 2
  | ⟨33, _⟩ => zsPay m c 3
  | ⟨34, _⟩ => zrPay m c 0
  | ⟨35, _⟩ => zrPay m c 1
  | ⟨36, _⟩ => zrPay m c 2
  | ⟨37, _⟩ => zrPay m c 3
  | ⟨_ + 38, h⟩ => absurd h (by omega)

/-- One round, round 0, on every TensorCore cell: a barrier cell three duties of one unit; a DMA cell the duty `0`
    of its copy's credit. -/
def sched : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma i => amt i
  payload g _ d := match g.2 with | .reg _ => barPay g.1.1 d | .dma i => dmaPay m g.1.1 i
  amount_pos g _ _ _ := by
    cases g.2 with
    | reg _ => exact Nat.one_pos
    | dma i => exact amt_pos i

end Cert.Kernel.A2A

end
-- ==== Proof.KA2A.Ghost.lean ====
/-
  The ghost state of the all-to-all: that every payload of the schedule can be kept inside a cell's invariant; what a
  device owes at launch, listed in the order it pays (three entry signals, four staged and four direct chunks across
  y, then per landed chunk a forward across x and one across z), so that each payment peels the last summand; the
  levels (barrier below the staged arrivals below every other arrival); the records every device shares (all cells'
  invariants, all cells at round 0); a cell's resources before its copy is issued, while it is in flight and once it
  is waited for; and the body's pre- and postcondition.
-/
import proofs.«900624_g7700000000000625_dist_a2a_v7x_xyz2x2x2_y_m512_n512_f32_1_alg».proof.Proof.KA2A.Proto

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads are storable -/

omit [FloatOps F] in
instance barPay_storable (c : Dev nD) (d : Fin 3) : BI.Storable (upEmb : UEmb _ 𝕄) (barPay (F := F) c d) := by
  unfold barPay; split <;> infer_instance

instance localPay_storable (c : Dev nD) : BI.Storable (upEmb : UEmb _ 𝕄) (localPay m c) := by
  unfold localPay
  haveI h0 := pts_storable (F := F) c (oLocal c) fullShare (OutF m c)
  haveI h1 := pts_storable (F := F) c (xLocal c) qXL (Xc m c)
  infer_instance
instance stagePay_storable (c : Dev nD) : BI.Storable (upEmb : UEmb _ 𝕄) (stagePay m c) := by
  unfold stagePay
  haveI h0 := pts_storable (F := F) c sM fullShare (StageF m c)
  haveI h1 := pts_storable (F := F) c (xStage c) qXS (Xc m c)
  infer_instance
instance landPay_storable (c : Dev nD) (k : Fin 4) : BI.Storable (upEmb : UEmb _ 𝕄) (landPay m c k) := by
  unfold landPay
  haveI h0 := pts_storable (F := F) c (oF c k) fullShare (OutF m c)
  haveI h1 := pts_storable (F := F) c (lCh k) qL (LandF m c)
  infer_instance
instance ysPay_storable (c : Dev nD) (k : Fin 4) : BI.Storable (upEmb : UEmb _ 𝕄) (ysPay m c k) := by
  unfold ysPay
  haveI h0 := pts_storable (F := F) c (sCh k) (q4 k) (StageF m c)
  infer_instance
instance yrPay_storable (c : Dev nD) (k : Fin 4) : BI.Storable (upEmb : UEmb _ 𝕄) (yrPay m c k) := by
  unfold yrPay
  haveI h0 := pts_storable (F := F) c (lCh k) fullShare (LandF m c)
  infer_instance
instance dsPay_storable (c : Dev nD) (k : Fin 4) : BI.Storable (upEmb : UEmb _ 𝕄) (dsPay m c k) := by
  unfold dsPay
  haveI h0 := pts_storable (F := F) c (xD c k) (qXD k) (Xc m c)
  infer_instance
instance drPay_storable (c : Dev nD) (k : Fin 4) : BI.Storable (upEmb : UEmb _ 𝕄) (drPay m c k) := by
  unfold drPay
  haveI h0 := pts_storable (F := F) c (oD (yp c) k) fullShare (OutF m c)
  infer_instance
instance xsPay_storable (c : Dev nD) (k : Fin 4) : BI.Storable (upEmb : UEmb _ 𝕄) (xsPay m c k) := by
  unfold xsPay
  haveI h0 := pts_storable (F := F) c (lCh k) qX (LandF m c)
  infer_instance
instance xrPay_storable (c : Dev nD) (k : Fin 4) : BI.Storable (upEmb : UEmb _ 𝕄) (xrPay m c k) := by
  unfold xrPay
  haveI h0 := pts_storable (F := F) c (oF (xp c) k) fullShare (OutF m c)
  infer_instance
instance zsPay_storable (c : Dev nD) (k : Fin 4) : BI.Storable (upEmb : UEmb _ 𝕄) (zsPay m c k) := by
  unfold zsPay
  haveI h0 := pts_storable (F := F) c (lCh k) qZ (LandF m c)
  infer_instance
instance zrPay_storable (c : Dev nD) (k : Fin 4) : BI.Storable (upEmb : UEmb _ 𝕄) (zrPay m c k) := by
  unfold zrPay
  haveI h0 := pts_storable (F := F) c (oF (zp c) k) fullShare (OutF m c)
  infer_instance

instance dmaPay_storable (c : Dev nD) (i : Fin 38) : BI.Storable (upEmb : UEmb _ 𝕄) (dmaPay m c i) := by
  unfold dmaPay
  split <;> first | infer_instance | (exact absurd ‹_› (by omega))

instance sched_payload_storable (g : GSem nD τ sig) (r : ℕ) (d : Fin 3) :
    BI.Storable (upEmb : UEmb _ 𝕄) ((sched m).payload g r d) := by
  show BI.Storable upEmb (match g.2 with | .reg _ => barPay g.1.1 d | .dma i => dmaPay m g.1.1 i)
  split <;> infer_instance

/-! ## What a device owes, in the order it pays -/

/-- The payments of device `c`, in program order: the cell paid and the amount. -/
def pays (c : Dev nD) : List (GSem nD τ sig × ℕ) :=
  [ (bcell (yp c), 1), (bcell (xp c), 1), (bcell (zp c), 1),
    (dcell (yp c) (iYr 0), AL), (dcell (yp c) (iYr 1), AL), (dcell (yp c) (iYr 2), AL), (dcell (yp c) (iYr 3), AL),
    (dcell (yp c) (iDr 0), AO), (dcell (yp c) (iDr 1), AO), (dcell (yp c) (iDr 2), AO), (dcell (yp c) (iDr 3), AO),
    (dcell (xp c) (iXr 0), AO), (dcell (zp c) (iZr 0), AO), (dcell (xp c) (iXr 1), AO), (dcell (zp c) (iZr 1), AO),
    (dcell (xp c) (iXr 2), AO), (dcell (zp c) (iZr 2), AO), (dcell (xp c) (iXr 3), AO), (dcell (zp c) (iZr 3), AO) ]

/-- The tallies of a list of payments, the first payment the LAST summand. -/
def owedFrom (l : List (GSem nD τ sig × ℕ)) : CellTallies nD τ sig Unit := l.foldr (fun p acc => acc + tallyAt p.1 () p.2) 0
theorem owedFrom_cons (p : GSem nD τ sig × ℕ) (l : List (GSem nD τ sig × ℕ)) : owedFrom (p :: l) = owedFrom l + tallyAt p.1 () p.2 := rfl
theorem owedFrom_nil : owedFrom ([] : List (GSem nD τ sig × ℕ)) = 0 := rfl

/-- What `c` still owes after its first `n` payments. -/
def owedAfter (c : Dev nD) (n : ℕ) : CellTallies nD τ sig Unit := owedFrom ((pays c).drop n)
abbrev O₀ (c : Dev nD) : CellTallies nD τ sig Unit := owedAfter c 0

/-! ## Levels -/

def L (g : GSem nD τ sig) : Finset Unit := if g.1.2 = .tc then {()} else ∅
/-- Barrier cells at 1, the staged arrivals at 2, the direct and the forwarded arrivals at 3, every other cell at 0. -/
def lv (g : GSem nD τ sig) (_ : Unit) : ℕ :=
  match g.2 with
  | .reg _ => 1
  | .dma i => if 10 ≤ i.val ∧ i.val < 14 then 2 else if (18 ≤ i.val ∧ i.val < 22) ∨ (26 ≤ i.val ∧ i.val < 30) ∨ 34 ≤ i.val then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells, indexed: the 38 DMA cells, then the barrier cell -/

def csem (i : Fin 39) : SemLoc sig := if h : i.val < 38 then .dma (dsem ⟨i.val, h⟩) else .reg barS
abbrev kcell (ck : Dev nD × Fin 39) : GSem nD τ sig := ((ck.1 : Thread nD τ), csem ck.2)
def di (i : Fin 38) : Fin 39 := ⟨i.val, by omega⟩
abbrev bi : Fin 39 := ⟨38, by omega⟩
theorem kcell_d (c : Dev nD) (i : Fin 38) : kcell (c, di i) = dcell c i := by
  unfold kcell csem di; simp only [i.isLt, dite_true]
theorem kcell_b (c : Dev nD) : kcell (c, bi) = bcell c := by
  unfold kcell csem; simp only [show ¬ (38 < 38) by decide, dite_false]

/-- What every device shares, under the names `K` the launch allocated the invariants at. -/
def records (K : Dev nD × Fin 39 → ℕ) : sProp 𝕄 :=
  iprop((bigSep Finset.univ fun ck : Dev nD × Fin 39 => cellInv ER (sched m) (K ck) (kcell ck))
    ∗ bigSep Finset.univ fun ck : Dev nD × Fin 39 => reached ER (kcell ck) 0)

instance records_persistent (K : Dev nD × Fin 39 → ℕ) : BI.Persistent (records m K) := by unfold records; infer_instance

theorem inv_at (K : Dev nD × Fin 39 → ℕ) (ck : Dev nD × Fin 39) :
    (bigSep Finset.univ fun ck : Dev nD × Fin 39 => (cellInv ER (sched m) (K ck) (kcell ck) : sProp 𝕄)) ⊢ cellInv ER (sched m) (K ck) (kcell ck) :=
  bigSep_elim (Finset.mem_univ ck)
omit [FloatOps F] in
theorem reached_at (ck : Dev nD × Fin 39) :
    (bigSep Finset.univ fun ck : Dev nD × Fin 39 => (reached ER (kcell ck) 0 : sProp 𝕄)) ⊢ reached ER (kcell ck) 0 :=
  bigSep_elim (Finset.mem_univ ck)

theorem inv_d (K : Dev nD × Fin 39 → ℕ) (c : Dev nD) (i : Fin 38) : records m K ⊢ cellInv ER (sched m) (K (c, di i)) (dcell c i) := by
  unfold records; rw [← kcell_d]; iintro ⟨HI, -⟩; iapply (inv_at m K (c, di i)); iexact HI
theorem inv_b (K : Dev nD × Fin 39 → ℕ) (c : Dev nD) : records m K ⊢ cellInv ER (sched m) (K (c, bi)) (bcell c) := by
  unfold records; rw [← kcell_b]; iintro ⟨HI, -⟩; iapply (inv_at m K (c, bi)); iexact HI
theorem reached_d (K : Dev nD × Fin 39 → ℕ) (c : Dev nD) (i : Fin 38) : records m K ⊢ reached ER (dcell c i) 0 := by
  unfold records; rw [← kcell_d]; iintro ⟨-, HR⟩; iapply (reached_at (F := F) (c, di i)); iexact HR
theorem reached_b (K : Dev nD × Fin 39 → ℕ) (c : Dev nD) : records m K ⊢ reached ER (bcell c) 0 := by
  unfold records; rw [← kcell_b]; iintro ⟨-, HR⟩; iapply (reached_at (F := F) (c, bi)); iexact HR

/-! ## A DMA cell's resources, stage by stage -/

/-- Before the copy it counts is issued (a copy this device issues): its position and the duty's token. -/
def fresh (c : Dev nD) (i : Fin 38) : sProp 𝕄 := iprop(atPos ER (dcell c i) 0 ∅ 0 ∗ dutyTok ER (dcell c i) 0 0)
/-- While the copy is in flight (or, for an arrival, from launch): its position and the credit for the amount. -/
def flying (c : Dev nD) (i : Fin 38) : sProp 𝕄 := iprop(atPos ER (dcell c i) 0 ∅ 0 ∗ cred (tallyAt (dcell c i) () (amt i)))
/-- The token with which device `c` pays the arrival counted on semaphore `i` of device `p`. -/
def arrTok (p : Dev nD) (i : Fin 38) : sProp 𝕄 := dutyTok ER (dcell p i) 0 0
/-- Once waited for and closed: the counter back at zero. -/
def done (c : Dev nD) (i : Fin 38) : sProp 𝕄 := semVal (dcell c i) 0

/-- The linear ghost state device `c` starts from. -/
def lin₀ (c : Dev nD) : sProp 𝕄 :=
  iprop(atPos ER (bcell c) 0 ∅ 0 ∗ cred (tallyAt (bcell c) () 3)
    ∗ dutyTok ER (bcell (yp c)) 0 0 ∗ dutyTok ER (bcell (xp c)) 0 1 ∗ dutyTok ER (bcell (zp c)) 0 2
    ∗ fresh c iLocal ∗ fresh c iStage
    ∗ sep4 (fun k => fresh c (iLand k)) ∗ sep4 (fun k => fresh c (iYs k)) ∗ sep4 (fun k => fresh c (iDs k))
    ∗ sep4 (fun k => fresh c (iXs k)) ∗ sep4 (fun k => fresh c (iZs k))
    ∗ sep4 (fun k => iprop(flying c (iYr k) ∗ arrTok (yp c) (iYr k))) ∗ sep4 (fun k => iprop(flying c (iDr k) ∗ arrTok (yp c) (iDr k)))
    ∗ sep4 (fun k => iprop(flying c (iXr k) ∗ arrTok (xp c) (iXr k))) ∗ sep4 (fun k => iprop(flying c (iZr k) ∗ arrTok (zp c) (iZr k))))

/-- What the core owes, at some record of its waits. -/
def owesAny (c : Dev nD) (O : CellTallies nD τ sig Unit) : sProp 𝕄 := iprop(∃ W : Waits sig Unit, owes (c : Thread nD τ) O W)

/-- Before the body: the records, the linear ghost state, the levels, and the four buffers — the argument rows as
    launched, the result and the two scratch buffers at any contents. -/
def Φ₀ (c : Dev nD) : sProp 𝕄 :=
  iprop((∃ K, records m K ∗ lin₀ c) ∗ levAts L lv
    ∗ pts c xM fullShare (Xc m c) ∗ (∃ f, pts c oM fullShare f) ∗ (∃ f, pts c sM fullShare f) ∗ (∃ f, pts c lM fullShare f))
/-- After it: the argument rows unchanged, the result at `OutF`, every DMA counter back at zero, the scratch buffers. -/
def Φ₁ (c : Dev nD) : sProp 𝕄 :=
  iprop(pts c xM fullShare (Xc m c) ∗ pts c oM fullShare (OutF m c) ∗ (bigSep Finset.univ fun i : Fin 38 => done c i)
    ∗ (∃ f, pts c sM fullShare f) ∗ (∃ f, pts c lM fullShare f))

abbrev 𝒱₀ : Variants := Variants.none

/-- The pipeline's proof data: no window; the invariant before and after the one point; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

end Cert.Kernel.A2A

end
-- ==== Proof.KA2A.Sched.lean ====
/-
  The schedule read at each kind of cell: which duties round 0 has, their amounts, what the round expects in all,
  each duty's payload, and what a wait for the whole round hands over. No cell has a duty after round 0.
-/
import proofs.«900624_g7700000000000625_dist_a2a_v7x_xyz2x2x2_y_m512_n512_f32_1_alg».proof.Proof.KA2A.Ghost

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

theorem duties_b : (sched m).duties (bcell c) 0 = Finset.univ := by dsimp only [sched]; exact if_pos ⟨rfl, rfl⟩
theorem duties_d (i : Fin 38) : (sched m).duties (dcell c i) 0 = {0} := by dsimp only [sched]; exact if_pos ⟨rfl, rfl⟩
theorem duties_later (g : GSem nD τ sig) : ∀ r, 1 ≤ r → (sched m).duties g r = ∅ :=
  fun r hr => by dsimp only [sched]; rw [if_neg fun h => by omega]
theorem not_unitless (g : GSem nD τ sig) : ¬ (sched m).unitless g := fun h => h

theorem amount_b (d : Fin 3) : (sched m).amount (bcell c) 0 d = 1 := rfl
theorem amount_d (i : Fin 38) (d : Fin 3) : (sched m).amount (dcell c i) 0 d = amt i := rfl
theorem payload_b (d : Fin 3) : (sched m).payload (bcell c) 0 d = barPay c d := rfl
theorem payload_d (i : Fin 38) (d : Fin 3) : (sched m).payload (dcell c i) 0 d = dmaPay m c i := rfl

theorem expect_b : (sched m).expect (bcell c) 0 = 3 := by
  unfold Schedule.expect Schedule.amountOf
  rw [duties_b, Finset.sum_congr rfl fun d _ => amount_b m c d, Finset.sum_const, Finset.card_univ, Fintype.card_fin, smul_eq_mul]
theorem expect_d (i : Fin 38) : (sched m).expect (dcell c i) 0 = amt i := by
  unfold Schedule.expect Schedule.amountOf; rw [duties_d, Finset.sum_singleton, amount_d]

/-- The whole of the barrier cell's round: the three neighbours' payloads. -/
theorem rest_b : bigSep ((sched m).duties (bcell c) 0 \ ∅) (fun d => (sched m).payload (bcell c) 0 d)
    = iprop(barPay c 0 ∗ barPay c 1 ∗ barPay c 2) := by
  rw [Finset.sdiff_empty, duties_b, bigSep_univ_eq_bigSepL [0, 1, 2] (by decide) (by decide), bigSepL_cons_cons, bigSepL_cons_cons, bigSepL_singleton]
  rfl
/-- The whole of a DMA cell's round: its one payload. -/
theorem rest_d (i : Fin 38) : bigSep ((sched m).duties (dcell c i) 0 \ ∅) (fun d => (sched m).payload (dcell c i) 0 d) = dmaPay m c i := by
  rw [Finset.sdiff_empty, duties_d, bigSep_singleton, payload_d]

end Sched

end Cert.Kernel.A2A

end
-- ==== Proof.KA2A.Steps.lean ====
/-
  The five kinds of step the body takes, each stated once over this protocol's cells: an entry signal to a
  neighbour (paying one duty of the neighbour's barrier cell, with the elements it hands over); the wait for the three
  entry signals (the three neighbours' payloads come with it); a local copy and an addressed send (the duty tokens
  spent, the source share lent, the destination's elements handed to the cell that will count the landing, the
  copy's credit received); and the wait for a copy's semaphore, which returns the cell's payload and closes the cell,
  its counter back at zero.
-/
import proofs.«900624_g7700000000000625_dist_a2a_v7x_xyz2x2x2_y_m512_n512_f32_1_alg».proof.Proof.KA2A.Sched

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × Fin 39 → ℕ) (c : Dev nD)

/-- An entry signal to neighbour `p`, paying duty `d` of its barrier cell. -/
theorem step_signal {α : Type} {Q : α → sProp 𝕄} (p : Dev nD) (d : Fin 3) (O : CellTallies nD τ sig Unit) (W : Waits sig Unit) {k' : ℕ} (hk' : 1 = k')
    {k : PUnit → Prog (TpuEff nD τ sig (Elt F) Λ₀ .tc) α} :
    iprop(records m K ∗ owes (c : Thread nD τ) (O + tallyAt (bcell p) () 1) W ∗ dutyTok ER (bcell p) 0 d ∗ barPay p d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS k') k) Q) := by
  subst hk'
  iintro ⟨#HR, HO, Ht, Hp⟩
  iapply (Rounds.wp_signal 𝒱₀ ER (sched m) (c : Thread nD τ) none (dst := (p : Thread nD τ)) (κ := K (p, bi)) (d := d)
      (by rw [duties_b]; exact Finset.mem_univ _) (amount_b m p d) () O rfl) $$ [HO Ht Hp]
  isplitr; · iapply (inv_b m K p); iexact HR
  isplitl [HO]; · iexact HO
  isplitl [Ht]; · iexact Ht
  isplitl [Hp]; · rw [payload_b]; iexact Hp
  iapply (reached_b m K p); iexact HR

/-- The wait for the three entry signals. -/
theorem step_barwait {α : Type} {Q : α → sProp 𝕄} (O : CellTallies nD τ sig Unit) (W : Waits sig Unit) {k' : ℕ} (hk' : 3 = k')
    {k : PUnit → Prog (TpuEff nD τ sig (Elt F) Λ₀ .tc) α} :
    iprop(records m K ∗ cred (tallyAt (bcell c) () 3) ∗ owes (c : Thread nD τ) O W ∗ MayWait (c : Thread nD τ) (.reg barS) () O ∗ atPos ER (bcell c) 0 ∅ 0)
      ⊢ iprop(((owes (c : Thread nD τ) O (insert (SemLoc.reg barS, ()) W) ∗ atPos ER (bcell c) 1 ∅ 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, Hc, HO, Hm, Ha⟩ Hk
  iapply (Rounds.wp_wait_rest_token 𝒱₀ ER (sched m) (c : Thread nD τ) none (κ := K (c, bi))
      (wpE_semWait_eq 𝒱₀ (c : Thread nD τ) none Set.univ) (Set.mem_univ _) () (O := O) (W := W) (R := 0) (m := 0) (T := ∅)
      (by rw [expect_b])) $$ [Hc HO Hm Ha]
  · isplitr; · iapply (inv_b m K c); iexact HR
    isplitl [Hc]; · iexact Hc
    isplitl [HO]; · iexact HO
    isplitl [Hm]; · iexact Hm
    iexact Ha
  iintro ⟨HO, Ha, -, Hpay⟩
  ihave Hp := (Entails.of_eq (rest_b m c)) $$ Hpay
  iapply Hk
  isplitl [HO]; · iexact HO
  isplitl [Ha]; · iexact Ha
  iexact Hp

/-- The wait for the copy counted on DMA semaphore `i`: the cell's payload, and the cell closed. -/
theorem step_wait {α : Type} {Q : α → sProp 𝕄} (i : Fin 38) (O : CellTallies nD τ sig Unit) (W : Waits sig Unit) {sp sp' : Space} {s : Shape}
    {src : Memref sig .tc sp s .f32} {dst : Memref sig .tc sp' s .f32} {hsrc : src.view.WordExact} {hdst : dst.view.WordExact}
    (hamt : dst.view.dmaCredit = amt i) {k : PUnit → Prog (TpuEff nD τ sig (Elt F) Λ₀ .tc) α} :
    iprop(records m K ∗ flying c i ∗ owes (c : Thread nD τ) O W ∗ MayWait (c : Thread nD τ) (.dma (dsem i)) () O)
      ⊢ iprop(((owes (c : Thread nD τ) O (insert (SemLoc.dma (dsem i), ()) W) ∗ dmaPay m c i ∗ done c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem i) src dst hsrc hdst) k) Q) := by
  unfold flying
  rw [← hamt]
  iintro ⟨#HR, ⟨Ha, Hc⟩, HO, Hm⟩ Hk
  iapply (Rounds.wp_wait_rest_token 𝒱₀ ER (sched m) (c : Thread nD τ) none (κ := K (c, di i))
      (wpE_waitDma2_eq 𝒱₀ (c : Thread nD τ) none Set.univ) (Set.mem_univ _) () (O := O) (W := W) (R := 0) (m := 0) (T := ∅)
      (by rw [Nat.zero_add, expect_d, hamt])) $$ [Hc HO Hm Ha]
  · isplitr; · iapply (inv_d m K c i); iexact HR
    isplitl [Hc]; · iexact Hc
    isplitl [HO]; · iexact HO
    isplitl [Hm]; · iexact Hm
    iexact Ha
  iintro ⟨HO, Ha, -, Hpay⟩
  ihave Hp := (Entails.of_eq (rest_d m c i)) $$ Hpay
  imod (Rounds.cell_close ER (sched m) (Set.mem_univ (K (c, di i))) (not_unitless m (dcell c i)) (R := 0 + 1) (duties_later m (dcell c i))) $$ [Ha] with Hz
  · isplitr; · iapply (inv_d m K c i); iexact HR
    iexact Ha
  iapply Hk
  isplitl [HO]; · iexact HO
  isplitl [Hp]; · iexact Hp
  unfold done; iexact Hz

/-- A local copy counted on DMA semaphore `i`. -/
theorem step_copy {α : Type} {Q : α → sProp 𝕄} (i : Fin 38) {sp sp' : Space} {s : Shape} {src : Memref sig .tc sp s .f32} {dst : Memref sig .tc sp' s .f32}
    {hsrc : src.view.WordExact} {hdst : dst.view.WordExact} {hsem : DmaTarget.Typed (nD := nD) sp (.dma (dsem i)) (DmaTarget.here dst : DmaTarget nD τ sig .tc sp' s .f32)}
    (q : PosShare TreeShare) (fs : Buf (Elt F) (src.view.loc (c : Thread nD τ))) (fd : Buf (Elt F) (dst.view.loc (c : Thread nD τ)))
    (hamt : dst.view.dmaCredit = amt i)
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ dmaPay m c i)
    {k : PUnit → Prog (TpuEff nD τ sig (Elt F) Λ₀ .tc) α} :
    iprop(records m K ∗ fresh c i ∗ (src.view.loc (c : Thread nD τ) ↦[src.view.set]{q} fs) ∗ (dst.view.loc (c : Thread nD τ) ↦[dst.view.set]{fullShare} fd))
      ⊢ iprop((flying c i -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (DmaTarget.here dst : DmaTarget nD τ sig .tc sp' s .f32) (.dma (dsem i)) hsrc hdst hsem) k) Q) := by
  unfold fresh flying
  iintro ⟨#HR, ⟨Ha, Ht⟩, Hs, Hd⟩ Hk
  iapply (Rounds.wp_copy_pointsTo 𝒱₀ ER (sched m) (c : Thread nD τ) none (κ := K (c, di i)) (r := 0) (d := 0) (src := src) (dst := dst) (q := q) (fs := fs) (fd := fd)
      (by rw [duties_d]; exact Finset.mem_singleton_self _) () (amt i) (show dst.view.amount (.dma (dsem i)) = amt i from hamt) (amount_d m c i 0) (by rw [payload_d]; exact hpay)) $$ [Hs Hd Ht]
  · isplitr; · iapply (inv_d m K c i); iexact HR
    isplitl [Hs]; · iexact Hs
    isplitl [Hd]; · iexact Hd
    isplitl [Ht]; · iexact Ht
    iapply (reached_d m K c i); iexact HR
  iintro Hc
  iapply Hk
  isplitl [Ha]; · iexact Ha
  iexact Hc

/-- An addressed send to device `p` (named `n` in the program), its departure counted on this device's semaphore `i`,
    its arrival on `p`'s semaphore `j`. -/
theorem step_send {α : Type} {Q : α → sProp 𝕄} (p n : Dev nD) (hn : n = p) (i j : Fin 38) (O : CellTallies nD τ sig Unit) (W : Waits sig Unit)
    {sp sp' : Space} {s : Shape} {src : Memref sig .tc sp s .f32} {dst : Memref sig .tc sp' s .f32}
    {hsc : dst.view.ref.isScScratch = false} {hsrc : src.view.WordExact} {hdst : dst.view.WordExact}
    {hsem : DmaTarget.Typed sp (.dma (dsem j)) (.remote (Dev.tc n : Thread nD τ) dst (.dma (dsem i)) hsc)}
    (q : PosShare TreeShare) (fs : Buf (Elt F) (src.view.loc (c : Thread nD τ))) (fd : Buf (Elt F) (dst.view.loc (p : Thread nD τ)))
    (hamt : dst.view.dmaCredit = amt i) (hamt' : amt j = amt i)
    (hpay₁ : (src.view.loc (c : Thread nD τ) ↦[src.view.set]{q} fs) ⊢ dmaPay m c i)
    (hpay₂ : (dst.view.loc (p : Thread nD τ) ↦[dst.view.set]{fullShare} (dst.view.write (Elt F) fd (src.view.read (Elt F) fs) Finset.univ)) ⊢ dmaPay m p j)
    {k : PUnit → Prog (TpuEff nD τ sig (Elt F) Λ₀ .tc) α} :
    iprop(records m K ∗ fresh c i ∗ arrTok p j ∗ (src.view.loc (c : Thread nD τ) ↦[src.view.set]{q} fs) ∗ (dst.view.loc (p : Thread nD τ) ↦[dst.view.set]{fullShare} fd)
        ∗ owes (c : Thread nD τ) (O + tallyAt (dcell p j) () (amt j)) W)
      ⊢ iprop(((flying c i ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (dsem i)) hsc) (.dma (dsem j)) hsrc hdst hsem) k) Q) := by
  subst hn
  unfold fresh flying arrTok
  iintro ⟨#HR, ⟨Ha, Ht⟩, Htj, Hs, Hd, HO⟩ Hk
  iapply (Rounds.wp_send_pointsTo 𝒱₀ ER (sched m) (c : Thread nD τ) none (κ₁ := K (c, di i)) (κ₂ := K (n, di j))
      (r₁ := 0) (r₂ := 0) (d₁ := 0) (d₂ := 0) (c' := (n : Thread nD τ)) (src := src) (dst := dst) (q := q) (fs := fs) (fd := fd)
      (by rw [duties_d]; exact Finset.mem_singleton_self _) (by rw [duties_d]; exact Finset.mem_singleton_self _)
      () () (amt i) (show dst.view.amount (.dma (dsem j)) = amt i from hamt) (amount_d m c i 0) ((amount_d m n j 0).trans hamt') (O₀ := O + tallyAt (dcell n j) () (amt j)) O (by rw [hamt']) (W := W)
      (by rw [payload_d]; exact hpay₁) (by rw [payload_d]; exact hpay₂)) $$ [Hs Hd HO Ht Htj]
  · isplitr; · iapply (inv_d m K c i); iexact HR
    isplitr; · iapply (inv_d m K n j); iexact HR
    isplitl [Hs]; · iexact Hs
    isplitl [Hd]; · iexact Hd
    isplitl [HO]; · iexact HO
    isplitl [Ht]; · iexact Ht
    isplitr; · iapply (reached_d m K c i); iexact HR
    isplitl [Htj]; · iexact Htj
    iapply (reached_d m K n j); iexact HR
  iintro ⟨Hc, HO⟩
  iapply Hk
  isplitl [Ha Hc]
  · isplitl [Ha]; · iexact Ha
    iexact Hc
  iexact HO

end Steps

end Cert.Kernel.A2A

end
-- ==== Proof.KA2A.Values.lean ====
/-
  What each copy writes. Every copy moves a rectangle of rows from one buffer to another; written through its
  destination view over ANY earlier contents, the elements under that view are the elements of the final contents
  (`StageF`, `LandF`, `OutF`): an index equation per copy kind, from the closed forms of the printed offsets. And the
  final result, when every device's rows are its row block of one whole array, is that device's column block of it.
-/
import proofs.«900624_g7700000000000625_dist_a2a_v7x_xyz2x2x2_y_m512_n512_f32_1_alg».proof.Proof.KA2A.Ghost
import Idealize.ShloMosaic.Lib.Pipeline.Value
import Idealize.ShloMosaic.Lib.Layout

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Written through a destination view on every index with what a source view reads, over any earlier contents, the
    destination's elements hold the contents `G` as soon as the source reads, index by index, what the destination reads
    of `G`. -/
private theorem pts_written {sp sp' : Space} {s : Shape} (c : Dev nD) (D : Memref sig .tc sp s .f32)
    (Sv : View sig .tc sp' s .f32) (fd G : Buf (Elt F) (D.view.loc (c : Thread nD τ))) (fs : Sv.ty.Contents (Elt F))
    (h : ∀ y : s.Idx, Sv.read (Elt F) fs y = D.view.read (Elt F) G y) :
    (pts c D fullShare (D.view.write (Elt F) fd (Sv.read (Elt F) fs) Finset.univ) : sProp 𝕄) = pts c D fullShare G := by
  unfold pts
  refine pointsTo_congr fun i hi => ?_
  obtain ⟨y, rfl⟩ := View.exists_emb_of_mem_set _ hi
  rw [View.write_emb_of_mem _ _ (Finset.mem_univ y), h y, View.read_apply, cast_cast, cast_eq]

/-- The result at an index with coordinates `i0`, `i1` of the half a device already holds: its own rows at row
    `i0 % 512`, column `512y + i1` (`j0`, `j1` the coordinates of that index). -/
private theorem OutF_near (c : Dev nD) (i : S1024x512.Idx) (j : S512x1024.Idx) (i0 i1 j0 j1 : ℕ)
    (hi0 : (i 0).val = i0) (hi1 : (i 1).val = i1) (hj0 : (j 0).val = j0) (hj1 : (j 1).val = j1)
    (h : i0 / 512 = (c.val / 2) % 2) (h0 : j0 = i0 % 512) (h1 : j1 = 512 * ((c.val / 2) % 2) + i1) :
    OutF m c i = Xc m c j := by
  subst hi0 hi1 hj0 hj1
  unfold OutF
  rw [if_pos h]
  exact congrArg (Xc m c) (Shape.idx_ext₂ h0.symm h1.symm)

/-- The result at an index of the other half: the rows of the device `srcQ` names for the quarter. -/
private theorem OutF_far (c d : Dev nD) (i : S1024x512.Idx) (j : S512x1024.Idx) (i0 i1 j0 j1 : ℕ)
    (hi0 : (i 0).val = i0) (hi1 : (i 1).val = i1) (hj0 : (j 0).val = j0) (hj1 : (j 1).val = j1)
    (h : i0 / 512 ≠ (c.val / 2) % 2) (hd : srcQ c (i0 % 512 / 128) = d)
    (h0 : j0 = i0 % 512) (h1 : j1 = 512 * ((c.val / 2) % 2) + i1) :
    OutF m c i = Xc m d j := by
  subst hi0 hi1 hj0 hj1
  unfold OutF
  rw [if_neg h, hd]
  exact congrArg (Xc m d) (Shape.idx_ext₂ h0.symm h1.symm)

/-- The staging copy fills the whole staging buffer with the staged quarter. -/
theorem stage_written (c : Dev nD) (fd : Buf (Elt F) ((sM : Memref sig .tc .vmem S128x512 .f32).view.loc (c : Thread nD τ))) :
    (pts c sM fullShare ((sM : Memref sig .tc .vmem S128x512 .f32).view.write (Elt F) fd ((xStage c).view.read (Elt F) (Xc m c)) Finset.univ) : sProp 𝕄)
      = pts c sM fullShare (StageF m c) :=
  pts_written c sM (xStage c).view fd (StageF m c) (Xc m c) fun _ => rfl

/-- The local half. -/
theorem local_written (c : Dev nD) (fd : Buf (Elt F) ((oLocal c).view.loc (c : Thread nD τ))) :
    (pts c (oLocal c) fullShare ((oLocal c).view.write (Elt F) fd ((xLocal c).view.read (Elt F) (Xc m c)) Finset.univ) : sProp 𝕄)
      = pts c (oLocal c) fullShare (OutF m c) := by
  refine pts_written c (oLocal c) (xLocal c).view fd (OutF m c) (Xc m c) fun y => ?_
  show Xc m c ((Rect.unit (s := S512x1024) (k0_off3 c) S512x512.size (k0_off3_inb c)).emb y)
    = OutF m c ((Rect.unit (s := S1024x512) (k0_off2 c) S512x512.size (k0_off2_inb c)).emb y)
  have hy0 : (y 0).val < 512 := (y 0).isLt
  have hy1 : (y 1).val < 512 := (y 1).isLt
  have hY : (c.val / 2) % 2 < 2 := Nat.mod_lt _ (by decide)
  refine (OutF_near m c _ _ (k0_off2 c 0 + 1 * (y 0).val) (k0_off2 c 1 + 1 * (y 1).val)
    (k0_off3 c 0 + 1 * (y 0).val) (k0_off3 c 1 + 1 * (y 1).val) rfl rfl rfl rfl ?_ ?_ ?_).symm
  · simp only [k0_off2_eq, Matrix.cons_val_zero]
    omega
  · simp only [k0_off2_eq, k0_off3_eq, Matrix.cons_val_zero]
    omega
  · simp only [k0_off2_eq, k0_off3_eq, Matrix.cons_val_zero, Matrix.cons_val_one, Matrix.cons_val_fin_one]
    omega

/-! The peers' coordinates, and which device's rows each far quarter comes from. -/

private theorem yp_coords (c : Dev nD) :
    (yp c).val / 4 = c.val / 4 ∧ ((yp c).val / 2) % 2 = 1 - (c.val / 2) % 2 ∧ (yp c).val % 2 = c.val % 2 := by
  revert c; decide +kernel
private theorem xp_coords (c : Dev nD) :
    (xp c).val / 4 = 1 - c.val / 4 ∧ ((xp c).val / 2) % 2 = (c.val / 2) % 2 ∧ (xp c).val % 2 = c.val % 2 := by
  revert c; decide +kernel
private theorem zp_coords (c : Dev nD) :
    (zp c).val / 4 = c.val / 4 ∧ ((zp c).val / 2) % 2 = (c.val / 2) % 2 ∧ (zp c).val % 2 = 1 - c.val % 2 := by
  revert c; decide +kernel

private theorem srcQ_own (c : Dev nD) : srcQ c (2 * (c.val / 4) + c.val % 2) = yp c := by revert c; decide +kernel
private theorem srcQ_direct (c : Dev nD) : srcQ (yp c) (3 - (2 * (c.val / 4) + c.val % 2)) = c := by revert c; decide +kernel
private theorem srcQ_x (c : Dev nD) : srcQ (xp c) (2 * (c.val / 4) + c.val % 2) = yp c := by revert c; decide +kernel
private theorem srcQ_z (c : Dev nD) : srcQ (zp c) (2 * (c.val / 4) + c.val % 2) = yp c := by revert c; decide +kernel

/-- A staged chunk sent across y lands as the y-peer's landed contents. -/
theorem y_written (c : Dev nD) (k : Fin 4) (fd : Buf (Elt F) ((lCh k).view.loc ((yp c : Dev nD) : Thread nD τ))) :
    (pts (yp c) (lCh k) fullShare ((lCh k).view.write (Elt F) fd ((sCh k).view.read (Elt F) (StageF m c)) Finset.univ) : sProp 𝕄)
      = yrPay m (yp c) k := by
  unfold yrPay LandF
  rw [yp_yp]
  exact pts_written (yp c) (lCh k) (sCh k).view fd (StageF m c) (StageF m c) fun _ => rfl

/-- Chunk `k` of what device `c` has landed, read at a local index, is the element of the result of any device `d`
    with `c`'s y-coordinate whose quarter `2x + z` (of `c`) comes from `c`'s y-peer, at `c`'s landing offset. -/
private theorem land_at (c d : Dev nD) (k : Fin 4) (hY : (d.val / 2) % 2 = (c.val / 2) % 2)
    (hs : srcQ d (2 * (c.val / 4) + c.val % 2) = yp c) (y : S32x512.Idx) :
    (lCh k).view.read (Elt F) (LandF m c) y = (oF c k).view.read (Elt F) (OutF m d) y := by
  show Xc m (yp c) ((Rect.unit (s := S512x1024) (k0_off1 (yp c)) S128x512.size (k0_off1_inb (yp c))).emb
      ((Rect.unit (s := S128x512) (chOff k) S32x512.size (chOff_inb k)).emb y))
    = OutF m d ((Rect.unit (s := S1024x512) (k0_off6 c (BitVec.ofNat 32 (32 * k.val))) S32x512.size (k0_off6_inb c k)).emb y)
  have hy0 : (y 0).val < 32 := (y 0).isLt
  have hy1 : (y 1).val < 512 := (y 1).isLt
  have hc : c.val < 8 := c.isLt
  have hk : k.val < 4 := k.isLt
  obtain ⟨p1, p2, p3⟩ := yp_coords c
  refine (OutF_far m d (yp c) _ _
    (k0_off6 c (BitVec.ofNat 32 (32 * k.val)) 0 + 1 * (y 0).val) (k0_off6 c (BitVec.ofNat 32 (32 * k.val)) 1 + 1 * (y 1).val)
    (k0_off1 (yp c) 0 + 1 * (chOff k 0 + 1 * (y 0).val)) (k0_off1 (yp c) 1 + 1 * (chOff k 1 + 1 * (y 1).val))
    rfl rfl rfl rfl ?_ ?_ ?_ ?_).symm
  · simp only [k0_off6_eq, Matrix.cons_val_zero]
    omega
  · refine Eq.trans (congrArg (srcQ d) ?_) hs
    simp only [k0_off6_eq, Matrix.cons_val_zero]
    omega
  · simp only [k0_off6_eq, k0_off1_eq, chOff, Matrix.cons_val_zero]
    omega
  · simp only [k0_off6_eq, k0_off1_eq, chOff, Matrix.cons_val_zero, Matrix.cons_val_one, Matrix.cons_val_fin_one]
    omega

/-- A landed chunk copied into this device's own result. -/
theorem land_written (c : Dev nD) (k : Fin 4) (fd : Buf (Elt F) ((oF c k).view.loc (c : Thread nD τ))) :
    (pts c (oF c k) fullShare ((oF c k).view.write (Elt F) fd ((lCh k).view.read (Elt F) (LandF m c)) Finset.univ) : sProp 𝕄)
      = pts c (oF c k) fullShare (OutF m c) :=
  pts_written c (oF c k) (lCh k).view fd (OutF m c) (LandF m c) (land_at m c c k rfl (srcQ_own c))

/-- A chunk sent directly across y lands in the y-peer's result. -/
theorem d_written (c : Dev nD) (k : Fin 4) (fd : Buf (Elt F) ((oD c k).view.loc ((yp c : Dev nD) : Thread nD τ))) :
    (pts (yp c) (oD c k) fullShare ((oD c k).view.write (Elt F) fd ((xD c k).view.read (Elt F) (Xc m c)) Finset.univ) : sProp 𝕄)
      = drPay m (yp c) k := by
  unfold drPay
  rw [yp_yp]
  refine pts_written (yp c) (oD c k) (xD c k).view fd (OutF m (yp c)) (Xc m c) fun y => ?_
  show Xc m c ((Rect.unit (s := S512x1024) (k0_off5 c (BitVec.ofNat 32 (32 * k.val))) S32x512.size (k0_off5_inb c k)).emb y)
    = OutF m (yp c) ((Rect.unit (s := S1024x512) (k0_off4 c (BitVec.ofNat 32 (32 * k.val))) S32x512.size (k0_off4_inb c k)).emb y)
  have hy0 : (y 0).val < 32 := (y 0).isLt
  have hy1 : (y 1).val < 512 := (y 1).isLt
  have hc : c.val < 8 := c.isLt
  have hk : k.val < 4 := k.isLt
  obtain ⟨p1, p2, p3⟩ := yp_coords c
  refine (OutF_far m (yp c) c _ _
    (k0_off4 c (BitVec.ofNat 32 (32 * k.val)) 0 + 1 * (y 0).val) (k0_off4 c (BitVec.ofNat 32 (32 * k.val)) 1 + 1 * (y 1).val)
    (k0_off5 c (BitVec.ofNat 32 (32 * k.val)) 0 + 1 * (y 0).val) (k0_off5 c (BitVec.ofNat 32 (32 * k.val)) 1 + 1 * (y 1).val)
    rfl rfl rfl rfl ?_ ?_ ?_ ?_).symm
  · simp only [k0_off4_eq, Matrix.cons_val_zero]
    omega
  · refine Eq.trans (congrArg (srcQ (yp c)) ?_) (srcQ_direct c)
    simp only [k0_off4_eq, Matrix.cons_val_zero]
    omega
  · simp only [k0_off4_eq, k0_off5_eq, Matrix.cons_val_zero]
    omega
  · simp only [k0_off4_eq, k0_off5_eq, Matrix.cons_val_zero, Matrix.cons_val_one, Matrix.cons_val_fin_one]
    omega

/-- A landed chunk forwarded across x, and across z. -/
theorem xf_written (c : Dev nD) (k : Fin 4) (fd : Buf (Elt F) ((oF c k).view.loc ((xp c : Dev nD) : Thread nD τ))) :
    (pts (xp c) (oF c k) fullShare ((oF c k).view.write (Elt F) fd ((lCh k).view.read (Elt F) (LandF m c)) Finset.univ) : sProp 𝕄)
      = xrPay m (xp c) k := by
  unfold xrPay
  rw [xp_xp]
  exact pts_written (xp c) (oF c k) (lCh k).view fd (OutF m (xp c)) (LandF m c) (land_at m c (xp c) k (xp_coords c).2.1 (srcQ_x c))
theorem zf_written (c : Dev nD) (k : Fin 4) (fd : Buf (Elt F) ((oF c k).view.loc ((zp c : Dev nD) : Thread nD τ))) :
    (pts (zp c) (oF c k) fullShare ((oF c k).view.write (Elt F) fd ((lCh k).view.read (Elt F) (LandF m c)) Finset.univ) : sProp 𝕄)
      = zrPay m (zp c) k := by
  unfold zrPay
  rw [zp_zp]
  exact pts_written (zp c) (oF c k) (lCh k).view fd (OutF m (zp c)) (LandF m c) (land_at m c (zp c) k (zp_coords c).2.1 (srcQ_z c))

/-- Every device a far quarter can come from sits across y. -/
private theorem srcQ_y (c : Dev nD) (qq : ℕ) : ((srcQ c qq).val / 2) % 2 = 1 - (c.val / 2) % 2 := by
  unfold srcQ
  split_ifs
  · exact (yp_coords c).2.1
  · rw [(yp_coords (xp c)).2.1, (xp_coords c).2.1]
  · rw [(yp_coords (zp c)).2.1, (zp_coords c).2.1]

/-- A device's block coordinate along a dimension cut along the mesh's y axis is its y-coordinate. -/
private theorem meshLin_y (n : ℕ) : Layout.meshLin [2, 2, 2] n [1] = (n / 2) % 2 := by
  simp [Layout.meshLin, Layout.meshCoord, Layout.cutSize]

/-- A device's rows, when they are its row block of `X`, at an index: `X` at row `512y` further. -/
private theorem Xc_at (X : (⟨2, ![1024, 1024]⟩ : Shape).Idx → Elt F .f32)
    (hX : ∀ c : Dev nD, Xc m c = Layout.blockN ⟨2, ![512, 1024]⟩ ⟨2, ![1024, 1024]⟩ (Layout.meshBlock [2, 2, 2] ![[1], []] c) X)
    (d : Dev nD) (j : S512x1024.Idx) (t : (⟨2, ![1024, 1024]⟩ : Shape).Idx)
    (h0 : (t 0).val = 512 * ((d.val / 2) % 2) + (j 0).val) (h1 : (t 1).val = (j 1).val) : Xc m d j = X t := by
  rw [hX d, Layout.blockN_apply]
  refine congrArg X (Shape.idx_ext₂ ?_ ?_)
  · rw [h0]
    show Layout.meshLin [2, 2, 2] d.val [1] * 512 + (j 0).val = _
    rw [meshLin_y]
    omega
  · rw [h1]
    show Layout.meshLin [2, 2, 2] d.val [] * 1024 + (j 1).val = _
    show 0 * 1024 + (j 1).val = _
    omega

/-- The value of the result: if every device's rows are its row block (along the mesh's y axis) of one whole
    1024 x 1024 array `X`, its result is its column block of `X`. -/
theorem OutF_block (X : (⟨2, ![1024, 1024]⟩ : Shape).Idx → Elt F .f32)
    (hX : ∀ c : Dev nD, Xc m c = Layout.blockN ⟨2, ![512, 1024]⟩ ⟨2, ![1024, 1024]⟩ (Layout.meshBlock [2, 2, 2] ![[1], []] c) X) (c : Dev nD) :
    OutF m c = Layout.blockN ⟨2, ![1024, 512]⟩ ⟨2, ![1024, 1024]⟩ (Layout.meshBlock [2, 2, 2] ![[], [1]] c) X := by
  funext i
  rw [Layout.blockN_apply]
  have hi0 : (i 0).val < 1024 := (i 0).isLt
  have hY : (c.val / 2) % 2 < 2 := Nat.mod_lt _ (by decide)
  have ht0 : ∀ h, ((Layout.TilesN.idx (S := ⟨2, ![1024, 512]⟩) (T := ⟨2, ![1024, 1024]⟩) h (Layout.meshBlock [2, 2, 2] ![[], [1]] c) i) 0).val = (i 0).val := by
    intro h
    show Layout.meshLin [2, 2, 2] c.val [] * 1024 + (i 0).val = _
    show 0 * 1024 + (i 0).val = _
    omega
  have ht1 : ∀ h, ((Layout.TilesN.idx (S := ⟨2, ![1024, 512]⟩) (T := ⟨2, ![1024, 1024]⟩) h (Layout.meshBlock [2, 2, 2] ![[], [1]] c) i) 1).val
      = 512 * ((c.val / 2) % 2) + (i 1).val := by
    intro h
    show Layout.meshLin [2, 2, 2] c.val [1] * 512 + (i 1).val = _
    rw [meshLin_y]
    omega
  unfold OutF
  split_ifs with h
  · refine Xc_at m X hX c _ _ ?_ ?_
    · rw [ht0]
      show (i 0).val = 512 * ((c.val / 2) % 2) + (i 0).val % 512
      omega
    · rw [ht1]
  · refine Xc_at m X hX _ _ _ ?_ ?_
    · rw [ht0, srcQ_y]
      show (i 0).val = 512 * (1 - (c.val / 2) % 2) + (i 0).val % 512
      omega
    · rw [ht1]

end Cert.Kernel.A2A

end
-- ==== Proof.KA2A.LaunchDefs.lean ====
/-
  The initial linear state of a device, in the two parts the launch delivers it in: the positions and duty tokens
  dealt with the cells' invariants, and the credit for what the other devices owe its cells.
-/
import proofs.«900624_g7700000000000625_dist_a2a_v7x_xyz2x2x2_y_m512_n512_f32_1_alg».proof.Proof.KA2A.Ghost

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Positions and tokens: the part of `lin₀` that is ghost state. -/
def ghostLin (c : Dev nD) : sProp 𝕄 :=
  iprop(atPos ER (bcell c) 0 ∅ 0
    ∗ dutyTok ER (bcell (yp c)) 0 0 ∗ dutyTok ER (bcell (xp c)) 0 1 ∗ dutyTok ER (bcell (zp c)) 0 2
    ∗ fresh c iLocal ∗ fresh c iStage
    ∗ sep4 (fun k => fresh c (iLand k)) ∗ sep4 (fun k => fresh c (iYs k)) ∗ sep4 (fun k => fresh c (iDs k))
    ∗ sep4 (fun k => fresh c (iXs k)) ∗ sep4 (fun k => fresh c (iZs k))
    ∗ sep4 (fun k => iprop(atPos ER (dcell c (iYr k)) 0 ∅ 0 ∗ arrTok (yp c) (iYr k))) ∗ sep4 (fun k => iprop(atPos ER (dcell c (iDr k)) 0 ∅ 0 ∗ arrTok (yp c) (iDr k)))
    ∗ sep4 (fun k => iprop(atPos ER (dcell c (iXr k)) 0 ∅ 0 ∗ arrTok (xp c) (iXr k))) ∗ sep4 (fun k => iprop(atPos ER (dcell c (iZr k)) 0 ∅ 0 ∗ arrTok (zp c) (iZr k))))

/-- The credit a device holds at launch: three units on its barrier cell, a chunk's credit on each arrival cell. -/
def credsOf (c : Dev nD) : sProp 𝕄 :=
  iprop(cred (tallyAt (bcell c) () 3)
    ∗ sep4 (fun k => cred (tallyAt (dcell c (iYr k)) () (amt (iYr k)))) ∗ sep4 (fun k => cred (tallyAt (dcell c (iDr k)) () (amt (iDr k))))
    ∗ sep4 (fun k => cred (tallyAt (dcell c (iXr k)) () (amt (iXr k)))) ∗ sep4 (fun k => cred (tallyAt (dcell c (iZr k)) () (amt (iZr k)))))

end Cert.Kernel.A2A

end
-- ==== Proof.KA2A.Credit.lean ====
/-
  What the levels allow and what the launch credits. A device waits on its barrier cell and on its staging copy while
  it still owes every arrival; on the staged arrival of chunk `k` while it still owes the forwards of chunks `k` and
  later; on everything else owing nothing. And summed over the devices that owe them, a device's barrier cell is
  credited three units and each of its arrival cells one chunk's credit.
-/
import proofs.«900624_g7700000000000625_dist_a2a_v7x_xyz2x2x2_y_m512_n512_f32_1_alg».proof.Proof.KA2A.LaunchDefs

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A positive tally of a list of payments is at one of the cells paid. -/
theorem owedFrom_pos (l : List (GSem nD τ sig × ℕ)) {g : GSem nD τ sig} {u : Unit} (h : 0 < owedFrom l g u) : ∃ p ∈ l, g = p.1 := by
  induction l with
  | nil =>
    rw [owedFrom_nil, Pi.zero_apply, Finsupp.zero_apply] at h
    exact absurd h (Nat.lt_irrefl 0)
  | cons p l ih =>
    rw [owedFrom_cons, Pi.add_apply, Finsupp.add_apply, tallyAt_apply] at h
    by_cases hg : g = p.1 ∧ u = ()
    · exact ⟨p, List.mem_cons_self, hg.1⟩
    · rw [if_neg hg, Nat.add_zero] at h
      obtain ⟨q, hq, e⟩ := ih h
      exact ⟨q, List.mem_cons_of_mem _ hq, e⟩

omit [FloatOps F] in
/-- A cut at level `b`: the cell waited on sits at or below it, every payment still to make goes to a TensorCore cell
    strictly above it. -/
private theorem mayWait_cut (c : Dev nD) (sm : SemLoc sig) (b : ℕ) (l : List (GSem nD τ sig × ℕ))
    (hW : lv ((c : Thread nD τ), sm) () ≤ b) (hl : ∀ p ∈ l, p.1.1.2 = .tc ∧ b < lv p.1 ()) :
    (levAts L lv : sProp 𝕄) ⊢ MayWait (c : Thread nD τ) sm () (owedFrom l) :=
  MayOwe.of_cut (L := L) (lev := lv) b
    (fun p hp => by rw [Finset.mem_singleton.mp hp, L_tc]; exact Finset.mem_singleton_self _)
    (fun g u hg => by
      obtain ⟨p, hp, rfl⟩ := owedFrom_pos l hg
      have hL : L p.1 = {()} := if_pos (hl p hp).1
      rw [hL]; exact Finset.mem_singleton_self _)
    (fun p hp => by rw [Finset.mem_singleton.mp hp]; exact hW)
    (fun g u hg => by
      obtain ⟨p, hp, rfl⟩ := owedFrom_pos l hg
      exact (hl p hp).2)

/-- Every entry of a literal tail of the payments is a TensorCore cell above the cut: entry by entry, the level read
    off the semaphore number. -/
local macro "pays_above" : tactic =>
  `(tactic| (
    intro p hp
    simp only [pays, List.drop_succ_cons, List.drop_zero, List.mem_cons, List.mem_nil_iff, _root_.or_false] at hp
    repeat (first
      | (rcases hp with h1 | hp
         subst h1
         first | exact ⟨rfl, (by decide : _ < 2)⟩ | exact ⟨rfl, (by decide : _ < 3)⟩)
      | (subst hp
         first | exact ⟨rfl, (by decide : _ < 2)⟩ | exact ⟨rfl, (by decide : _ < 3)⟩))))

omit [FloatOps F] in
/-- At its barrier wait a device owes the sixteen arrivals: all above the barrier cells. -/
theorem mayWait_bar (c : Dev nD) : (levAts L lv : sProp 𝕄) ⊢ MayWait (c : Thread nD τ) (.reg barS) () (owedAfter c 3) :=
  mayWait_cut c (.reg barS) 1 ((pays c).drop 3) (Nat.le_refl 1) (by pays_above)
omit [FloatOps F] in
/-- The same at the wait for its staging copy. -/
theorem mayWait_stage (c : Dev nD) : (levAts L lv : sProp 𝕄) ⊢ MayWait (c : Thread nD τ) (.dma (dsem iStage)) () (owedAfter c 3) :=
  mayWait_cut c (.dma (dsem iStage)) 0 ((pays c).drop 3) (Nat.le_refl 0) (by pays_above)
omit [FloatOps F] in
/-- At the wait for the staged arrival of chunk `k` it owes the forwards of chunks `k` and later: above the staged arrivals. -/
theorem mayWait_yr (c : Dev nD) (k : Fin 4) : (levAts L lv : sProp 𝕄) ⊢ MayWait (c : Thread nD τ) (.dma (dsem (iYr k))) () (owedAfter c (11 + 2 * k.val)) := by
  fin_cases k
  · exact mayWait_cut c (.dma (dsem (iYr 0))) 2 ((pays c).drop 11) (Nat.le_refl 2) (by pays_above)
  · exact mayWait_cut c (.dma (dsem (iYr 1))) 2 ((pays c).drop 13) (Nat.le_refl 2) (by pays_above)
  · exact mayWait_cut c (.dma (dsem (iYr 2))) 2 ((pays c).drop 15) (Nat.le_refl 2) (by pays_above)
  · exact mayWait_cut c (.dma (dsem (iYr 3))) 2 ((pays c).drop 17) (Nat.le_refl 2) (by pays_above)
/-- After its nineteen payments it owes nothing. -/
theorem owedAfter_all (c : Dev nD) : owedAfter c 19 = 0 := rfl

omit [FloatOps F] in
/-- Three units on one cell are one credit of three. -/
private theorem cred_three (g : GSem nD τ sig) :
    iprop(cred (tallyAt g () 1) ∗ cred (tallyAt g () 1) ∗ cred (tallyAt g () 1)) ⊢ (cred (tallyAt g () 3) : sProp 𝕄) :=
  (sep_mono_right (cred_add _ _).2).trans (((cred_add _ _).2).trans (Entails.of_eq (by rw [tallyAt_add, tallyAt_add])))

omit [FloatOps F] in
/-- When every device's first payment goes to semaphore `sm` of its neighbour under an involution `f`, device `c` is
    credited that payment on its own `sm` (by `f c`), beside the credit for the payments that follow. -/
private theorem launchCred_peel (f : Dev nD → Dev nD) (hf : ∀ c, f (f c) = c) (sm : SemLoc sig) (n : ℕ)
    (l : Dev nD → List (GSem nD τ sig × ℕ)) (c : Dev nD) (R : sProp 𝕄) :
    iprop(Pipeline.launchCred (fun d => owedFrom ((((f d : Thread nD τ), sm), n) :: l d)) c ∗ R)
      ⊢ iprop(Pipeline.launchCred (fun d => owedFrom (l d)) c ∗ cred (tallyAt ((c : Thread nD τ), sm) () n) ∗ R) := by
  have h : (Pipeline.launchCred (fun d => owedFrom (l d) + tallyAt ((f d : Thread nD τ), sm) () n) c : sProp 𝕄)
      = iprop(Pipeline.launchCred (fun d => owedFrom (l d)) c ∗ Pipeline.launchCred (fun d => tallyAt ((f d : Thread nD τ), sm) () n) c) :=
    Pipeline.launchCred_add _ _ c
  have h' : (Pipeline.launchCred (fun d => owedFrom ((((f d : Thread nD τ), sm), n) :: l d)) c : sProp 𝕄)
      ⊢ iprop(Pipeline.launchCred (fun d => owedFrom (l d)) c ∗ cred (tallyAt ((c : Thread nD τ), sm) () n)) :=
    (Entails.of_eq h).trans (sep_mono_right (Pipeline.launchCred_tallyAt sm f f hf hf () n c))
  refine (sep_mono_left h').trans ?_
  iintro ⟨⟨HA, HB⟩, HR⟩
  isplitl [HA]; · iexact HA
  isplitl [HB]; · iexact HB
  iexact HR

private theorem amt_yr (k : Fin 4) : amt (iYr k) = AL := by fin_cases k <;> rfl
private theorem amt_dr (k : Fin 4) : amt (iDr k) = AO := by fin_cases k <;> rfl
private theorem amt_xr (k : Fin 4) : amt (iXr k) = AO := by fin_cases k <;> rfl
private theorem amt_zr (k : Fin 4) : amt (iZr k) = AO := by fin_cases k <;> rfl

omit [FloatOps F] in
/-- The launch credit of device `c`, from what every device owes at launch. -/
theorem creds (c : Dev nD) : (Pipeline.launchCred O₀ c : sProp 𝕄) ⊢ credsOf c := by
  have h0 : (Pipeline.launchCred O₀ c : sProp 𝕄) ⊢ iprop(Pipeline.launchCred (fun d => owedFrom (pays d)) c ∗ emp) := by
    show (Pipeline.launchCred (fun d => owedFrom (pays d)) c : sProp 𝕄) ⊢ _
    iintro H; isplitl; · iexact H
    iempintro
  refine h0.trans ?_
  simp only [pays]
  -- the three entry signals
  refine (launchCred_peel yp yp_yp _ _ _ c _).trans ?_
  refine (launchCred_peel xp xp_xp _ _ _ c _).trans ?_
  refine (launchCred_peel zp zp_zp _ _ _ c _).trans ?_
  -- the staged and the direct chunks across y
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  refine (launchCred_peel yp yp_yp _ _ _ c _).trans ?_
  -- per landed chunk a forward across x and one across z
  refine (launchCred_peel xp xp_xp _ _ _ c _).trans ?_
  refine (launchCred_peel zp zp_zp _ _ _ c _).trans ?_
  refine (launchCred_peel xp xp_xp _ _ _ c _).trans ?_
  refine (launchCred_peel zp zp_zp _ _ _ c _).trans ?_
  refine (launchCred_peel xp xp_xp _ _ _ c _).trans ?_
  refine (launchCred_peel zp zp_zp _ _ _ c _).trans ?_
  refine (launchCred_peel xp xp_xp _ _ _ c _).trans ?_
  refine (launchCred_peel zp zp_zp _ _ _ c _).trans ?_
  unfold credsOf sep4
  simp only [amt_yr, amt_dr, amt_xr, amt_zr]
  iintro ⟨-, Z3, X3, Z2, X2, Z1, X1, Z0, X0, D3, D2, D1, D0, Y3, Y2, Y1, Y0, Bz, Bx, By, -⟩
  isplitl [Bz Bx By]
  · iapply (cred_three (F := F) (bcell c))
    isplitl [Bz]; · iexact Bz
    isplitl [Bx]; · iexact Bx
    iexact By
  isplitl [Y0 Y1 Y2 Y3]
  · isplitl [Y0]; · iexact Y0
    isplitl [Y1]; · iexact Y1
    isplitl [Y2]; · iexact Y2
    iexact Y3
  isplitl [D0 D1 D2 D3]
  · isplitl [D0]; · iexact D0
    isplitl [D1]; · iexact D1
    isplitl [D2]; · iexact D2
    iexact D3
  isplitl [X0 X1 X2 X3]
  · isplitl [X0]; · iexact X0
    isplitl [X1]; · iexact X1
    isplitl [X2]; · iexact X2
    iexact X3
  · isplitl [Z0]; · iexact Z0
    isplitl [Z1]; · iexact Z1
    isplitl [Z2]; · iexact Z2
    iexact Z3

end Cert.Kernel.A2A

end
-- ==== Proof.KA2A.BodySteps.lean ====
/-
  The body's steps at this protocol's copies: for each kind of copy — the staging copy, the local half, a staged chunk
  across y, a direct chunk across y, a landed chunk forwarded across x or z or copied into the result — what is spent
  and what is received, over the chunk index `k`; and what a device still owes before and after each payment.
-/
import proofs.«900624_g7700000000000625_dist_a2a_v7x_xyz2x2x2_y_m512_n512_f32_1_alg».proof.Proof.Gen.Kernel.Skeleton
import proofs.«900624_g7700000000000625_dist_a2a_v7x_xyz2x2x2_y_m512_n512_f32_1_alg».proof.Proof.KA2A.Steps
import proofs.«900624_g7700000000000625_dist_a2a_v7x_xyz2x2x2_y_m512_n512_f32_1_alg».proof.Proof.KA2A.Values
import proofs.«900624_g7700000000000625_dist_a2a_v7x_xyz2x2x2_y_m512_n512_f32_1_alg».proof.Proof.KA2A.Credit

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section
variable (K : Dev nD × Fin 39 → ℕ) (c : Dev nD)

/-! ## The tables at a chunk -/

theorem amt_land (k : Fin 4) : amt (iLand k) = AO := by fin_cases k <;> rfl
theorem dmaPay_land (k : Fin 4) : dmaPay m c (iLand k) = landPay m c k := by fin_cases k <;> rfl
theorem amt_ys (k : Fin 4) : amt (iYs k) = AL := by fin_cases k <;> rfl
theorem dmaPay_ys (k : Fin 4) : dmaPay m c (iYs k) = ysPay m c k := by fin_cases k <;> rfl
theorem amt_yr (k : Fin 4) : amt (iYr k) = AL := by fin_cases k <;> rfl
theorem dmaPay_yr (k : Fin 4) : dmaPay m c (iYr k) = yrPay m c k := by fin_cases k <;> rfl
theorem amt_ds (k : Fin 4) : amt (iDs k) = AO := by fin_cases k <;> rfl
theorem dmaPay_ds (k : Fin 4) : dmaPay m c (iDs k) = dsPay m c k := by fin_cases k <;> rfl
theorem amt_dr (k : Fin 4) : amt (iDr k) = AO := by fin_cases k <;> rfl
theorem dmaPay_dr (k : Fin 4) : dmaPay m c (iDr k) = drPay m c k := by fin_cases k <;> rfl
theorem amt_xs (k : Fin 4) : amt (iXs k) = AO := by fin_cases k <;> rfl
theorem dmaPay_xs (k : Fin 4) : dmaPay m c (iXs k) = xsPay m c k := by fin_cases k <;> rfl
theorem amt_xr (k : Fin 4) : amt (iXr k) = AO := by fin_cases k <;> rfl
theorem dmaPay_xr (k : Fin 4) : dmaPay m c (iXr k) = xrPay m c k := by fin_cases k <;> rfl
theorem amt_zs (k : Fin 4) : amt (iZs k) = AO := by fin_cases k <;> rfl
theorem dmaPay_zs (k : Fin 4) : dmaPay m c (iZs k) = zsPay m c k := by fin_cases k <;> rfl
theorem amt_zr (k : Fin 4) : amt (iZr k) = AO := by fin_cases k <;> rfl
theorem dmaPay_zr (k : Fin 4) : dmaPay m c (iZr k) = zrPay m c k := by fin_cases k <;> rfl
theorem amt_local : amt iLocal = A512 := rfl
theorem amt_stage : amt iStage = A128 := rfl
theorem dmaPay_local : dmaPay m c iLocal = localPay m c := rfl
theorem dmaPay_stage : dmaPay m c iStage = stagePay m c := rfl

/-! ## What is owed, payment by payment -/

omit [FloatOps F] in
theorem owed_0 : owedAfter c 0 = owedAfter c 1 + tallyAt (bcell (yp c)) () 1 := rfl
omit [FloatOps F] in
theorem owed_1 : owedAfter c 1 = owedAfter c 2 + tallyAt (bcell (xp c)) () 1 := rfl
omit [FloatOps F] in
theorem owed_2 : owedAfter c 2 = owedAfter c 3 + tallyAt (bcell (zp c)) () 1 := rfl
omit [FloatOps F] in
theorem owed_y (k : Fin 4) : owedAfter c (3 + k.val) = owedAfter c (4 + k.val) + tallyAt (dcell (yp c) (iYr k)) () AL := by fin_cases k <;> rfl
omit [FloatOps F] in
theorem owed_d (k : Fin 4) : owedAfter c (7 + k.val) = owedAfter c (8 + k.val) + tallyAt (dcell (yp c) (iDr k)) () AO := by fin_cases k <;> rfl
omit [FloatOps F] in
theorem owed_x (k : Fin 4) : owedAfter c (11 + 2 * k.val) = owedAfter c (12 + 2 * k.val) + tallyAt (dcell (xp c) (iXr k)) () AO := by fin_cases k <;> rfl
omit [FloatOps F] in
theorem owed_z (k : Fin 4) : owedAfter c (12 + 2 * k.val) = owedAfter c (13 + 2 * k.val) + tallyAt (dcell (zp c) (iZr k)) () AO := by fin_cases k <;> rfl

/-! ## The sends -/

/-- A staged chunk sent across y. -/
theorem ysend_step {α : Type} {Q : α → sProp 𝕄} (k : Fin 4) (n : Dev nD) (hn : n = yp c) (O₀ O : CellTallies nD τ sig Unit)
    (hO : O₀ = O + tallyAt (dcell (yp c) (iYr k)) () AL) (W : Waits sig Unit)
    (fd : Buf (Elt F) ((lCh k).view.loc ((yp c : Dev nD) : Thread nD τ)))
    {hsc : (lCh k).view.ref.isScScratch = false} {hsrc : (sCh k).view.WordExact} {hdst : (lCh k).view.WordExact}
    {hsem : DmaTarget.Typed _ (.dma (dsem (iYr k))) (.remote (Dev.tc n : Thread nD τ) (lCh k) (.dma (dsem (iYs k))) hsc)} {kont : PUnit → Prog (TpuEff nD τ sig (Elt F) Λ₀ .tc) α} :
    iprop(records m K ∗ fresh c (iYs k) ∗ arrTok (yp c) (iYr k) ∗ pts c (sCh k) (q4 k) (StageF m c) ∗ pts (yp c) (lCh k) fullShare fd
        ∗ owes (c : Thread nD τ) O₀ W)
      ⊢ iprop(((flying c (iYs k) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sCh k) (.remote (Dev.tc n : Thread nD τ) (lCh k) (.dma (dsem (iYs k))) hsc) (.dma (dsem (iYr k))) hsrc hdst hsem) kont) Q) := by
  subst hO
  rw [← amt_yr k]
  unfold pts
  exact step_send m K c (yp c) n hn (iYs k) (iYr k) O W (src := sCh k) (dst := lCh k) (q4 k) (StageF m c) fd
    ((show (lCh k).view.dmaCredit = AL from rfl).trans (amt_ys k).symm) ((amt_yr k).trans (amt_ys k).symm)
    (by rw [dmaPay_ys]; unfold ysPay pts; exact Entails.refl _)
    (by rw [dmaPay_yr]; exact Entails.of_eq (by have h := y_written m c k fd; unfold pts at h; exact h))

/-- A chunk of the opposite quarter sent directly across y. -/
theorem dsend_step {α : Type} {Q : α → sProp 𝕄} (k : Fin 4) (n : Dev nD) (hn : n = yp c) (O₀ O : CellTallies nD τ sig Unit)
    (hO : O₀ = O + tallyAt (dcell (yp c) (iDr k)) () AO) (W : Waits sig Unit)
    (fd : Buf (Elt F) ((oD c k).view.loc ((yp c : Dev nD) : Thread nD τ)))
    {hsc : (oD c k).view.ref.isScScratch = false} {hsrc : (xD c k).view.WordExact} {hdst : (oD c k).view.WordExact}
    {hsem : DmaTarget.Typed _ (.dma (dsem (iDr k))) (.remote (Dev.tc n : Thread nD τ) (oD c k) (.dma (dsem (iDs k))) hsc)} {kont : PUnit → Prog (TpuEff nD τ sig (Elt F) Λ₀ .tc) α} :
    iprop(records m K ∗ fresh c (iDs k) ∗ arrTok (yp c) (iDr k) ∗ pts c (xD c k) (qXD k) (Xc m c) ∗ pts (yp c) (oD c k) fullShare fd
        ∗ owes (c : Thread nD τ) O₀ W)
      ⊢ iprop(((flying c (iDs k) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xD c k) (.remote (Dev.tc n : Thread nD τ) (oD c k) (.dma (dsem (iDs k))) hsc) (.dma (dsem (iDr k))) hsrc hdst hsem) kont) Q) := by
  subst hO
  rw [← amt_dr k]
  unfold pts
  exact step_send m K c (yp c) n hn (iDs k) (iDr k) O W (src := xD c k) (dst := oD c k) (qXD k) (Xc m c) fd
    ((show (oD c k).view.dmaCredit = AO from rfl).trans (amt_ds k).symm) ((amt_dr k).trans (amt_ds k).symm)
    (by rw [dmaPay_ds]; unfold dsPay pts; exact Entails.refl _)
    (by rw [dmaPay_dr]; exact Entails.of_eq (by have h := d_written m c k fd; unfold pts at h; exact h))

/-- A landed chunk forwarded across x. -/
theorem xfwd_step {α : Type} {Q : α → sProp 𝕄} (k : Fin 4) (n : Dev nD) (hn : n = xp c) (O₀ O : CellTallies nD τ sig Unit)
    (hO : O₀ = O + tallyAt (dcell (xp c) (iXr k)) () AO) (W : Waits sig Unit)
    (fd : Buf (Elt F) ((oF c k).view.loc ((xp c : Dev nD) : Thread nD τ)))
    {hsc : (oF c k).view.ref.isScScratch = false} {hsrc : (lCh k).view.WordExact} {hdst : (oF c k).view.WordExact}
    {hsem : DmaTarget.Typed _ (.dma (dsem (iXr k))) (.remote (Dev.tc n : Thread nD τ) (oF c k) (.dma (dsem (iXs k))) hsc)} {kont : PUnit → Prog (TpuEff nD τ sig (Elt F) Λ₀ .tc) α} :
    iprop(records m K ∗ fresh c (iXs k) ∗ arrTok (xp c) (iXr k) ∗ pts c (lCh k) (qX) (LandF m c) ∗ pts (xp c) (oF c k) fullShare fd
        ∗ owes (c : Thread nD τ) O₀ W)
      ⊢ iprop(((flying c (iXs k) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (lCh k) (.remote (Dev.tc n : Thread nD τ) (oF c k) (.dma (dsem (iXs k))) hsc) (.dma (dsem (iXr k))) hsrc hdst hsem) kont) Q) := by
  subst hO
  rw [← amt_xr k]
  unfold pts
  exact step_send m K c (xp c) n hn (iXs k) (iXr k) O W (src := lCh k) (dst := oF c k) (qX) (LandF m c) fd
    ((show (oF c k).view.dmaCredit = AO from rfl).trans (amt_xs k).symm) ((amt_xr k).trans (amt_xs k).symm)
    (by rw [dmaPay_xs]; unfold xsPay pts; exact Entails.refl _)
    (by rw [dmaPay_xr]; exact Entails.of_eq (by have h := xf_written m c k fd; unfold pts at h; exact h))

/-- A landed chunk forwarded across z. -/
theorem zfwd_step {α : Type} {Q : α → sProp 𝕄} (k : Fin 4) (n : Dev nD) (hn : n = zp c) (O₀ O : CellTallies nD τ sig Unit)
    (hO : O₀ = O + tallyAt (dcell (zp c) (iZr k)) () AO) (W : Waits sig Unit)
    (fd : Buf (Elt F) ((oF c k).view.loc ((zp c : Dev nD) : Thread nD τ)))
    {hsc : (oF c k).view.ref.isScScratch = false} {hsrc : (lCh k).view.WordExact} {hdst : (oF c k).view.WordExact}
    {hsem : DmaTarget.Typed _ (.dma (dsem (iZr k))) (.remote (Dev.tc n : Thread nD τ) (oF c k) (.dma (dsem (iZs k))) hsc)} {kont : PUnit → Prog (TpuEff nD τ sig (Elt F) Λ₀ .tc) α} :
    iprop(records m K ∗ fresh c (iZs k) ∗ arrTok (zp c) (iZr k) ∗ pts c (lCh k) (qZ) (LandF m c) ∗ pts (zp c) (oF c k) fullShare fd
        ∗ owes (c : Thread nD τ) O₀ W)
      ⊢ iprop(((flying c (iZs k) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (lCh k) (.remote (Dev.tc n : Thread nD τ) (oF c k) (.dma (dsem (iZs k))) hsc) (.dma (dsem (iZr k))) hsrc hdst hsem) kont) Q) := by
  subst hO
  rw [← amt_zr k]
  unfold pts
  exact step_send m K c (zp c) n hn (iZs k) (iZr k) O W (src := lCh k) (dst := oF c k) (qZ) (LandF m c) fd
    ((show (oF c k).view.dmaCredit = AO from rfl).trans (amt_zs k).symm) ((amt_zr k).trans (amt_zs k).symm)
    (by rw [dmaPay_zs]; unfold zsPay pts; exact Entails.refl _)
    (by rw [dmaPay_zr]; exact Entails.of_eq (by have h := zf_written m c k fd; unfold pts at h; exact h))

/-! ## The local copies -/

/-- A landed chunk copied into this device's result. -/
theorem landcp_step {α : Type} {Q : α → sProp 𝕄} (k : Fin 4) (fd : Buf (Elt F) ((oF c k).view.loc (c : Thread nD τ)))
    {hsrc : (lCh k).view.WordExact} {hdst : (oF c k).view.WordExact}
    {hsem : DmaTarget.Typed (nD := nD) _ (.dma (dsem (iLand k))) (DmaTarget.here (oF c k) : DmaTarget nD τ sig .tc _ _ .f32)} {kont : PUnit → Prog (TpuEff nD τ sig (Elt F) Λ₀ .tc) α} :
    iprop(records m K ∗ fresh c (iLand k) ∗ pts c (lCh k) qL (LandF m c) ∗ pts c (oF c k) fullShare fd)
      ⊢ iprop((flying c (iLand k) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (lCh k) (DmaTarget.here (oF c k) : DmaTarget nD τ sig .tc _ _ .f32) (.dma (dsem (iLand k))) hsrc hdst hsem) kont) Q) := by
  unfold pts
  exact step_copy m K c (iLand k) (src := lCh k) (dst := oF c k) qL (LandF m c) fd ((show (oF c k).view.dmaCredit = AO from rfl).trans (amt_land k).symm)
    (by rw [dmaPay_land]; unfold landPay
        have h := land_written m c k fd
        unfold pts at h ⊢
        rw [h])

/-- The staging copy. -/
theorem stagecp_step {α : Type} {Q : α → sProp 𝕄} (fd : Buf (Elt F) ((sM : Memref sig .tc .vmem S128x512 .f32).view.loc (c : Thread nD τ)))
    {hsrc : (xStage c).view.WordExact} {hdst : (sM : Memref sig .tc .vmem S128x512 .f32).view.WordExact}
    {hsem : DmaTarget.Typed (nD := nD) _ (.dma (dsem iStage)) (DmaTarget.here (sM : Memref sig .tc .vmem S128x512 .f32) : DmaTarget nD τ sig .tc _ _ .f32)} {kont : PUnit → Prog (TpuEff nD τ sig (Elt F) Λ₀ .tc) α} :
    iprop(records m K ∗ fresh c iStage ∗ pts c (xStage c) qXS (Xc m c) ∗ pts c sM fullShare fd)
      ⊢ iprop((flying c iStage -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (xStage c) (DmaTarget.here (sM : Memref sig .tc .vmem S128x512 .f32) : DmaTarget nD τ sig .tc _ _ .f32) (.dma (dsem iStage)) hsrc hdst hsem) kont) Q) := by
  unfold pts
  exact step_copy m K c iStage (src := xStage c) (dst := (sM : Memref sig .tc .vmem S128x512 .f32)) qXS (Xc m c) fd rfl
    (by rw [dmaPay_stage]; unfold stagePay
        have h := stage_written m c fd
        unfold pts at h ⊢
        rw [h])

/-- The local half. -/
theorem localcp_step {α : Type} {Q : α → sProp 𝕄} (fd : Buf (Elt F) ((oLocal c).view.loc (c : Thread nD τ)))
    {hsrc : (xLocal c).view.WordExact} {hdst : (oLocal c).view.WordExact}
    {hsem : DmaTarget.Typed (nD := nD) _ (.dma (dsem iLocal)) (DmaTarget.here (oLocal c) : DmaTarget nD τ sig .tc _ _ .f32)} {kont : PUnit → Prog (TpuEff nD τ sig (Elt F) Λ₀ .tc) α} :
    iprop(records m K ∗ fresh c iLocal ∗ pts c (xLocal c) qXL (Xc m c) ∗ pts c (oLocal c) fullShare fd)
      ⊢ iprop((flying c iLocal -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (xLocal c) (DmaTarget.here (oLocal c) : DmaTarget nD τ sig .tc _ _ .f32) (.dma (dsem iLocal)) hsrc hdst hsem) kont) Q) := by
  unfold pts
  exact step_copy m K c iLocal (src := xLocal c) (dst := oLocal c) qXL (Xc m c) fd rfl
    (by rw [dmaPay_local]; unfold localPay
        have h := local_written m c fd
        unfold pts at h ⊢
        rw [h])

end

end Cert.Kernel.A2A

end
-- ==== Proof.KA2A.Regions.lean ====
/-
  Cutting the buffers up and putting them back. The result buffer is the disjoint union of seventeen row ranges:
  the local half, and in the other half four quarters of four chunks each — the landed quarter, the quarter the
  y-peer sends directly, the quarters the x-peer and the z-peer forward. The landing buffer is four chunks. A source
  read by several copies at once is shared among them by shares of ALL its elements, each reader carving the elements
  of its own view out of its share and keeping the rest to put back.
-/
import proofs.«900624_g7700000000000625_dist_a2a_v7x_xyz2x2x2_y_m512_n512_f32_1_alg».proof.Proof.KA2A.Ghost
import Idealize.ShloMosaic.Lib.Pipeline.Value

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Points-to identities, as equalities -/

/-- A share of a set of elements is its left half beside its right half. -/
private theorem pt_halves {ℓ : Loc nD τ sig} (S : Finset (Idx ℓ)) (q : PosShare TreeShare) (f : Buf (Elt F) ℓ) :
    (ℓ ↦[S]{q} f : sProp 𝕄) = iprop((ℓ ↦[S]{q.left} f) ∗ ℓ ↦[S]{q.right} f) := by
  have h : (ℓ ↦[S]{q} f : sProp 𝕄) ⊣⊢ iprop((ℓ ↦[S]{q.left} f) ∗ ℓ ↦[S]{q.right} f) :=
    pointsTo_share (PosShare.mem_left_op_right q)
  exact BI.equiv_iff.mp ⟨h.1, h.2⟩

/-- A subset of the elements beside the rest. -/
private theorem pt_carve {ℓ : Loc nD τ sig} {I S : Finset (Idx ℓ)} (h : I ⊆ S) (q : PosShare TreeShare) (f : Buf (Elt F) ℓ) :
    (ℓ ↦[S]{q} f : sProp 𝕄) = iprop((ℓ ↦[I]{q} f) ∗ ℓ ↦[S \ I]{q} f) := by
  have h' : (ℓ ↦[S]{q} f : sProp 𝕄) ⊣⊢ iprop((ℓ ↦[I]{q} f) ∗ ℓ ↦[S \ I]{q} f) := pointsTo_split_subset h
  exact BI.equiv_iff.mp ⟨h'.1, h'.2⟩

private theorem sep_assoc_eq (P Q R : sProp 𝕄) : iprop((P ∗ Q) ∗ R) = iprop(P ∗ Q ∗ R) :=
  BI.equiv_iff.mp ⟨Idealize.SL.BI.sep_assoc, Idealize.SL.BI.sep_assoc'⟩

private theorem bigSep_fin4 (Φ : Fin 4 → sProp 𝕄) : bigSep Finset.univ Φ = sep4 Φ :=
  bigSep_univ_eq_bigSepL [0, 1, 2, 3] (by decide) (by decide) Φ

/-- A set of elements that is the union of pairwise disjoint pieces is its pieces side by side. -/
private theorem pt_pieces {T : Type} [Fintype T] [DecidableEq T] {ℓ : Loc nD τ sig} (S : Finset (Idx ℓ)) (K : T → Finset (Idx ℓ))
    (hd : ∀ t t', t ≠ t' → Disjoint (K t) (K t')) (hsub : ∀ t, K t ⊆ S) (hcov : ∀ i ∈ S, ∃ t, i ∈ K t)
    (q : PosShare TreeShare) (f : Buf (Elt F) ℓ) :
    (ℓ ↦[S]{q} f : sProp 𝕄) = bigSep Finset.univ fun t => ℓ ↦[K t]{q} f := by
  have e : S = Finset.univ.biUnion K := by
    ext i
    simp only [Finset.mem_biUnion, Finset.mem_univ, true_and]
    exact ⟨hcov i, fun ⟨t, ht⟩ => hsub t ht⟩
  rw [e]
  exact pointsTo_biUnion _ K fun t _ t' _ h => hd t t' h

/-! ## The result buffer: the local half and sixteen chunks of 32 rows

The sixteen chunks of the far half, by family — what this device landed, what the y-peer sends directly, what the
x-peer and the z-peer forward — and by chunk number. Every chunk starts at a multiple of 32 rows inside the far
half; two different chunks start at different rows; every multiple of 32 in the far half starts one. -/

private def localSet (c : Dev nD) : Finset S1024x512.Idx := (oLocal c).view.set

private def chunkSet (c : Dev nD) (t : Fin 4 × Fin 4) : Finset S1024x512.Idx :=
  match t.1 with
  | ⟨0, _⟩ => (oF c t.2).view.set
  | ⟨1, _⟩ => (oD (yp c) t.2).view.set
  | ⟨2, _⟩ => (oF (xp c) t.2).view.set
  | ⟨_ + 3, _⟩ => (oF (zp c) t.2).view.set

/-- The printed offsets of the chunks. -/
private def offOf (c : Dev nD) (t : Fin 4 × Fin 4) : Fin 2 → ℕ :=
  match t.1 with
  | ⟨0, _⟩ => k0_off6 c (BitVec.ofNat 32 (32 * t.2.val))
  | ⟨1, _⟩ => k0_off4 (yp c) (BitVec.ofNat 32 (32 * t.2.val))
  | ⟨2, _⟩ => k0_off6 (xp c) (BitVec.ofNat 32 (32 * t.2.val))
  | ⟨_ + 3, _⟩ => k0_off6 (zp c) (BitVec.ofNat 32 (32 * t.2.val))

private theorem offOf_inb : ∀ (c : Dev nD) (j k : Fin 4) (a : Fin 2), offOf c (j, k) a + S32x512.size a ≤ S1024x512.size a := by
  decide +kernel

private theorem offOf_facts : ∀ (c : Dev nD) (j k : Fin 4),
    offOf c (j, k) 1 = 0 ∧ offOf c (j, k) 0 % 32 = 0 ∧ offOf c (j, k) 0 / 512 = 1 - (c.val / 2) % 2 := by
  decide +kernel

private theorem offOf_inj : ∀ (c : Dev nD) (j k j' k' : Fin 4), offOf c (j, k) 0 = offOf c (j', k') 0 → j = j' ∧ k = k' := by
  decide +kernel

private theorem offOf_surj : ∀ (c : Dev nD) (b : Fin 16), ∃ j k : Fin 4, offOf c (j, k) 0 = 512 * (1 - (c.val / 2) % 2) + 32 * b.val := by
  decide +kernel

private theorem off2_facts : ∀ c : Dev nD, k0_off2 c 0 = 512 * ((c.val / 2) % 2) ∧ k0_off2 c 1 = 0 := by
  decide +kernel

private theorem chunkSet_eq (c : Dev nD) (j k : Fin 4) :
    chunkSet c (j, k) = (Rect.unit (s := S1024x512) (offOf c (j, k)) S32x512.size (offOf_inb c j k)).set := by
  match j with
  | ⟨0, _⟩ => exact View.set_slice_whole _ _
  | ⟨1, _⟩ => exact View.set_slice_whole _ _
  | ⟨2, _⟩ => exact View.set_slice_whole _ _
  | ⟨_ + 3, _⟩ => exact View.set_slice_whole _ _

/-- A row lies in the chunk that starts at its multiple of 32. -/
private theorem mem_chunk (c : Dev nD) (j k : Fin 4) (i : S1024x512.Idx) :
    i ∈ chunkSet c (j, k) ↔ (i 0).val / 32 = offOf c (j, k) 0 / 32 := by
  rw [chunkSet_eq, Rect.mem_set_unit, Fin.forall_fin_two]
  obtain ⟨h1, h2, -⟩ := offOf_facts c j k
  have hi : (i 1).val < 512 := (i 1).isLt
  show (offOf c (j, k) 0 ≤ (i 0).val ∧ (i 0).val < offOf c (j, k) 0 + 32)
    ∧ (offOf c (j, k) 1 ≤ (i 1).val ∧ (i 1).val < offOf c (j, k) 1 + 512) ↔ _
  rw [h1]
  omega

/-- A row lies in the local half when it is on this device's side. -/
private theorem mem_local (c : Dev nD) (i : S1024x512.Idx) : i ∈ localSet c ↔ (i 0).val / 512 = (c.val / 2) % 2 := by
  have e : localSet c = (Rect.unit (s := S1024x512) (k0_off2 c) S512x512.size (k0_off2_inb c)).set := View.set_slice_whole _ _
  rw [e, Rect.mem_set_unit, Fin.forall_fin_two]
  obtain ⟨h0, h1⟩ := off2_facts c
  have hi : (i 1).val < 512 := (i 1).isLt
  have hr : (i 0).val < 1024 := (i 0).isLt
  show (k0_off2 c 0 ≤ (i 0).val ∧ (i 0).val < k0_off2 c 0 + 512) ∧ (k0_off2 c 1 ≤ (i 1).val ∧ (i 1).val < k0_off2 c 1 + 512) ↔ _
  rw [h0, h1]
  omega

private theorem chunk_not_local (c : Dev nD) (j k : Fin 4) (i : S1024x512.Idx) (hi : i ∈ chunkSet c (j, k)) : i ∉ localSet c := by
  intro hl
  have h1 := (mem_local c i).mp hl
  have h2 := (mem_chunk c j k i).mp hi
  obtain ⟨-, h3, h4⟩ := offOf_facts c j k
  omega

private theorem chunk_disjoint (c : Dev nD) : ∀ t t' : Fin 4 × Fin 4, t ≠ t' → Disjoint (chunkSet c t) (chunkSet c t') := by
  rintro ⟨j, k⟩ ⟨j', k'⟩ hne
  rw [Finset.disjoint_left]
  intro i hi hi'
  have h1 := (mem_chunk c j k i).mp hi
  have h2 := (mem_chunk c j' k' i).mp hi'
  obtain ⟨-, h3, -⟩ := offOf_facts c j k
  obtain ⟨-, h4, -⟩ := offOf_facts c j' k'
  have e : offOf c (j, k) 0 = offOf c (j', k') 0 := by omega
  obtain ⟨rfl, rfl⟩ := offOf_inj c j k j' k' e
  exact hne rfl

private theorem chunk_cover (c : Dev nD) (i : S1024x512.Idx) (h : i ∉ localSet c) : ∃ t, i ∈ chunkSet c t := by
  have h' : ¬ (i 0).val / 512 = (c.val / 2) % 2 := fun e => h ((mem_local c i).mpr e)
  have hr : (i 0).val < 1024 := (i 0).isLt
  obtain ⟨j, k, hjk⟩ := offOf_surj c ⟨((i 0).val - 512 * (1 - (c.val / 2) % 2)) / 32, by omega⟩
  have hjk' : offOf c (j, k) 0 = 512 * (1 - (c.val / 2) % 2) + 32 * (((i 0).val - 512 * (1 - (c.val / 2) % 2)) / 32) := hjk
  exact ⟨(j, k), (mem_chunk c j k i).mpr (by omega)⟩

/-- The result buffer by the row ranges its writers fill. -/
theorem out_split (c : Dev nD) (f : Buf (Elt F) ((oM : Memref sig .tc .hbm S1024x512 .f32).view.loc (c : Thread nD τ))) :
    (pts c oM fullShare f : sProp 𝕄)
      = iprop(pts c (oLocal c) fullShare f ∗ sep4 (fun k => pts c (oF c k) fullShare f) ∗ sep4 (fun k => pts c (oD (yp c) k) fullShare f)
          ∗ sep4 (fun k => pts c (oF (xp c) k) fullShare f) ∗ sep4 (fun k => pts c (oF (zp c) k) fullShare f)) := by
  have hM : (oM : Memref sig .tc .hbm S1024x512 .f32).view.set = (Finset.univ : Finset S1024x512.Idx) := View.set_whole _
  have h0 : (pts c oM fullShare f : sProp 𝕄)
      = ((oM : Memref sig .tc .hbm S1024x512 .f32).view.loc (c : Thread nD τ) ↦[(Finset.univ : Finset S1024x512.Idx)]{fullShare} f) := by
    unfold pts; rw [hM]
  have h1 := pt_carve (F := F) (ℓ := (oM : Memref sig .tc .hbm S1024x512 .f32).view.loc (c : Thread nD τ))
    (Finset.subset_univ (localSet c)) fullShare f
  have h2 := pt_pieces (F := F) (ℓ := (oM : Memref sig .tc .hbm S1024x512 .f32).view.loc (c : Thread nD τ))
    ((Finset.univ : Finset S1024x512.Idx) \ localSet c) (chunkSet c) (chunk_disjoint c)
    (fun t i hi => Finset.mem_sdiff.mpr ⟨Finset.mem_univ i, chunk_not_local c t.1 t.2 i hi⟩)
    (fun i hi => chunk_cover c i (Finset.mem_sdiff.mp hi).2) fullShare f
  rw [bigSep_univ_prod, bigSep_fin4] at h2
  simp only [bigSep_fin4] at h2
  rw [h0, h1, h2]
  rfl

/-! ## The landing buffer: four chunks of 32 rows -/

private def lSet (k : Fin 4) : Finset S128x512.Idx := (lCh k).view.set

/-- Row `r` of a 128-row buffer lies in chunk `r / 32`. -/
private theorem mem_lSet (k : Fin 4) (i : S128x512.Idx) : i ∈ lSet k ↔ (i 0).val / 32 = k.val := by
  have e : lSet k = (Rect.unit (s := S128x512) (chOff k) S32x512.size (chOff_inb k)).set := View.set_slice_whole _ _
  rw [e, Rect.mem_set_unit, Fin.forall_fin_two]
  have h1 : (i 1).val < 512 := (i 1).isLt
  show (32 * k.val ≤ (i 0).val ∧ (i 0).val < 32 * k.val + 32) ∧ (0 ≤ (i 1).val ∧ (i 1).val < 0 + 512) ↔ _
  omega

/-- The landing buffer by chunks. -/
theorem land_split (c : Dev nD) (f : Buf (Elt F) ((lM : Memref sig .tc .vmem S128x512 .f32).view.loc (c : Thread nD τ))) :
    (pts c lM fullShare f : sProp 𝕄) = sep4 (fun k => pts c (lCh k) fullShare f) := by
  have hd : ∀ t t' : Fin 4, t ≠ t' → Disjoint (lSet t) (lSet t') := by
    intro t t' hne
    rw [Finset.disjoint_left]
    intro i hi hi'
    exact hne (Fin.ext (((mem_lSet t i).mp hi).symm.trans ((mem_lSet t' i).mp hi')))
  have hcov : ∀ i : S128x512.Idx, ∃ k : Fin 4, i ∈ lSet k := fun i =>
    ⟨⟨(i 0).val / 32, by have h0 : (i 0).val < 128 := (i 0).isLt; omega⟩, (mem_lSet _ i).mpr rfl⟩
  have h := pt_pieces (F := F) (ℓ := (lM : Memref sig .tc .vmem S128x512 .f32).view.loc (c : Thread nD τ))
    (lM : Memref sig .tc .vmem S128x512 .f32).view.set lSet hd (fun t => View.set_slice_subset _ _) (fun i _ => hcov i) fullShare f
  rw [bigSep_fin4] at h
  exact h

/-- A landed chunk among its three readers. -/
theorem lch_share (c : Dev nD) (k : Fin 4) (f : Buf (Elt F) ((lCh k).view.loc (c : Thread nD τ))) :
    (pts c (lCh k) fullShare f : sProp 𝕄) = iprop(pts c (lCh k) qX f ∗ pts c (lCh k) qZ f ∗ pts c (lCh k) qL f) := by
  unfold pts
  rw [pt_halves _ fullShare f, pt_halves _ fullShare.right f]

/-- What is left of share `q` of a whole buffer `M` once the elements of its slice `M'` are carved out. -/
def remOf {sp : Space} {s s' : Shape} (c : Dev nD) (M : Memref sig .tc sp s .f32) (M' : Memref sig .tc sp s' .f32)
    (h : M'.view.loc (c : Thread nD τ) = M.view.loc (c : Thread nD τ)) (q : PosShare TreeShare)
    (f : Buf (Elt F) (M.view.loc (c : Thread nD τ))) : sProp 𝕄 :=
  M.view.loc (c : Thread nD τ) ↦[M.view.set \ (h ▸ M'.view.set)]{q} f

/-- A share of a buffer is the same share of a slice of it beside what is left. -/
private theorem carve_slice {sp : Space} {s : Shape} (c : Dev nD) (M : Memref sig .tc sp s .f32) (r : Rect s) (hr : ∀ a, r.stride a = 1)
    (q : PosShare TreeShare) (f : Buf (Elt F) (M.view.loc (c : Thread nD τ))) :
    (pts c M q f : sProp 𝕄) = iprop(pts c (M.slice r hr) q f ∗ remOf c M (M.slice r hr) rfl q f) :=
  pt_carve (ℓ := M.view.loc (c : Thread nD τ)) (I := (M.slice r hr).view.set) (S := M.view.set) (View.set_slice_subset _ _) q f

/-- The staging buffer among its four chunked readers, each holding a share of all of it: its own chunk and the rest. -/
theorem stage_share (c : Dev nD) (f : Buf (Elt F) ((sM : Memref sig .tc .vmem S128x512 .f32).view.loc (c : Thread nD τ))) :
    (pts c sM fullShare f : sProp 𝕄) = sep4 (fun k => iprop(pts c (sCh k) (q4 k) f ∗ remOf c sM (sCh k) rfl (q4 k) f)) := by
  have hs (k : Fin 4) (q : PosShare TreeShare) :
      iprop(pts c (sCh k) q f ∗ remOf c sM (sCh k) rfl q f) = (pts c sM q f : sProp 𝕄) := (carve_slice c sM _ (fun _ => rfl) q f).symm
  unfold sep4
  beta_reduce
  rw [hs 0, hs 1, hs 2, hs 3]
  rw [show q4 0 = fullShare.left.left from rfl, show q4 1 = fullShare.left.right from rfl,
    show q4 2 = fullShare.right.left from rfl, show q4 3 = fullShare.right.right from rfl]
  unfold pts
  rw [pt_halves _ fullShare f, pt_halves _ fullShare.left f, pt_halves _ fullShare.right f]
  exact sep_assoc_eq _ _ _

/-- The argument rows among their six readers: the local half, the staging copy, the four direct chunks. -/
theorem x_share (c : Dev nD) (f : Buf (Elt F) ((xM : Memref sig .tc .hbm S512x1024 .f32).view.loc (c : Thread nD τ))) :
    (pts c xM fullShare f : sProp 𝕄)
      = iprop((pts c (xLocal c) qXL f ∗ remOf c xM (xLocal c) rfl qXL f) ∗ (pts c (xStage c) qXS f ∗ remOf c xM (xStage c) rfl qXS f)
          ∗ sep4 (fun k => iprop(pts c (xD c k) (qXD k) f ∗ remOf c xM (xD c k) rfl (qXD k) f))) := by
  have hL (q : PosShare TreeShare) :
      iprop(pts c (xLocal c) q f ∗ remOf c xM (xLocal c) rfl q f) = (pts c xM q f : sProp 𝕄) := (carve_slice c xM _ (fun _ => rfl) q f).symm
  have hS (q : PosShare TreeShare) :
      iprop(pts c (xStage c) q f ∗ remOf c xM (xStage c) rfl q f) = (pts c xM q f : sProp 𝕄) := (carve_slice c xM _ (fun _ => rfl) q f).symm
  have hD (k : Fin 4) (q : PosShare TreeShare) :
      iprop(pts c (xD c k) q f ∗ remOf c xM (xD c k) rfl q f) = (pts c xM q f : sProp 𝕄) := (carve_slice c xM _ (fun _ => rfl) q f).symm
  unfold sep4
  beta_reduce
  rw [hL, hS, hD 0, hD 1, hD 2, hD 3]
  rw [show qXD 0 = fullShare.right.right.left.left from rfl, show qXD 1 = fullShare.right.right.left.right from rfl,
    show qXD 2 = fullShare.right.right.right.left from rfl, show qXD 3 = fullShare.right.right.right.right from rfl]
  unfold pts
  rw [pt_halves _ fullShare f, pt_halves _ fullShare.right f, pt_halves _ fullShare.right.right f,
    pt_halves _ fullShare.right.right.left f, pt_halves _ fullShare.right.right.right f]
  rw [sep_assoc_eq]

end Cert.Kernel.A2A

end
-- ==== Proof.KA2A.Body.lean ====
/-
  One device's body, step by step. The buffers are first cut up: the argument rows shared among their six readers,
  the result cut into its seventeen row ranges, the landing buffer into its four chunks. The staging copy and the
  local half are issued; the three entry signals hand each neighbour the elements of this device's buffers it will
  write; the wait for the neighbours' signals returns theirs. Then the eight chunks across y are sent; as each staged
  chunk lands it is forwarded across x and z and copied into the result; and every copy is waited for, each wait
  returning the elements its copy wrote at their final contents, or the share its copy read. Put back together these
  are the result at its final contents, the argument rows unchanged, and both scratch buffers whole.
-/
import proofs.«900624_g7700000000000625_dist_a2a_v7x_xyz2x2x2_y_m512_n512_f32_1_alg».proof.Proof.Gen.Kernel.Skeleton
import proofs.«900624_g7700000000000625_dist_a2a_v7x_xyz2x2x2_y_m512_n512_f32_1_alg».proof.Proof.KA2A.BodySteps
import proofs.«900624_g7700000000000625_dist_a2a_v7x_xyz2x2x2_y_m512_n512_f32_1_alg».proof.Proof.KA2A.Regions

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem barPay_0 (c : Dev nD) : (barPay (F := F) c 0)
    = iprop(sep4 (fun k => iprop(∃ f, pts (yp c) (lCh k) fullShare f)) ∗ sep4 (fun k => iprop(∃ f, pts (yp c) (oD c k) fullShare f))) := rfl
omit [FloatOps F] in
theorem barPay_1 (c : Dev nD) : (barPay (F := F) c 1) = sep4 (fun k => iprop(∃ f, pts (xp c) (oF c k) fullShare f)) := rfl
omit [FloatOps F] in
theorem barPay_2 (c : Dev nD) : (barPay (F := F) c 2) = sep4 (fun k => iprop(∃ f, pts (zp c) (oF c k) fullShare f)) := rfl

omit [FloatOps F] in
/-- The thirty-eight DMA counters at zero, one by one, are the family of them. -/
theorem dones_intro (c : Dev nD) :
    iprop(done c (iLocal) ∗ done c (iStage) ∗ done c (iLand 0) ∗ done c (iLand 1) ∗ done c (iLand 2) ∗ done c (iLand 3) ∗ done c (iYs 0) ∗ done c (iYs 1) ∗ done c (iYs 2) ∗ done c (iYs 3) ∗ done c (iYr 0) ∗ done c (iYr 1) ∗ done c (iYr 2) ∗ done c (iYr 3) ∗ done c (iDs 0) ∗ done c (iDs 1) ∗ done c (iDs 2) ∗ done c (iDs 3) ∗ done c (iDr 0) ∗ done c (iDr 1) ∗ done c (iDr 2) ∗ done c (iDr 3) ∗ done c (iXs 0) ∗ done c (iXs 1) ∗ done c (iXs 2) ∗ done c (iXs 3) ∗ done c (iXr 0) ∗ done c (iXr 1) ∗ done c (iXr 2) ∗ done c (iXr 3) ∗ done c (iZs 0) ∗ done c (iZs 1) ∗ done c (iZs 2) ∗ done c (iZs 3) ∗ done c (iZr 0) ∗ done c (iZr 1) ∗ done c (iZr 2) ∗ done c (iZr 3))
      ⊢ (bigSep Finset.univ (fun i : Fin 38 => done c i) : sProp 𝕄) := by
  rw [bigSep_univ_eq_bigSepL [(iLocal : Fin 38), (iStage : Fin 38), (iLand 0 : Fin 38), (iLand 1 : Fin 38), (iLand 2 : Fin 38), (iLand 3 : Fin 38), (iYs 0 : Fin 38), (iYs 1 : Fin 38), (iYs 2 : Fin 38), (iYs 3 : Fin 38), (iYr 0 : Fin 38), (iYr 1 : Fin 38), (iYr 2 : Fin 38), (iYr 3 : Fin 38), (iDs 0 : Fin 38), (iDs 1 : Fin 38), (iDs 2 : Fin 38), (iDs 3 : Fin 38), (iDr 0 : Fin 38), (iDr 1 : Fin 38), (iDr 2 : Fin 38), (iDr 3 : Fin 38), (iXs 0 : Fin 38), (iXs 1 : Fin 38), (iXs 2 : Fin 38), (iXs 3 : Fin 38), (iXr 0 : Fin 38), (iXr 1 : Fin 38), (iXr 2 : Fin 38), (iXr 3 : Fin 38), (iZs 0 : Fin 38), (iZs 1 : Fin 38), (iZs 2 : Fin 38), (iZs 3 : Fin 38), (iZr 0 : Fin 38), (iZr 1 : Fin 38), (iZr 2 : Fin 38), (iZr 3 : Fin 38)] (by decide) (by decide)]
  simp only [bigSepL_cons_cons, bigSepL_singleton]
  exact Entails.refl _

set_option maxRecDepth 65536 in
set_option maxHeartbeats 16000000 in
/-- One device's kernel body: from the records, its initial linear ghost state, the levels and its four buffers,
    owing what it owes at launch, to its rows unchanged, its result at `OutF`, every DMA counter back at zero, owing
    nothing. -/
theorem body_spec (c : Dev nD) (Kt : PUnit → sProp 𝕄) :
    iprop(Φ₀ m c ∗ owesAny c (O₀ c) ∗ (iprop(Φ₁ m c ∗ owesAny c 0) -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9 cc0_scratch10 cc0_scratch11 cc0_scratch12) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold Φ₀ owesAny lin₀ sep4
  iintro ⟨⟨⟨%K, #HR, HaB, HcB, TbY, TbX, TbZ, FLoc, FStg, ⟨FL0, FL1, FL2, FL3⟩, ⟨FYs0, FYs1, FYs2, FYs3⟩, ⟨FDs0, FDs1, FDs2, FDs3⟩, ⟨FXs0, FXs1, FXs2, FXs3⟩, ⟨FZs0, FZs1, FZs2, FZs3⟩, ⟨⟨GYr0, TYr0⟩, ⟨GYr1, TYr1⟩, ⟨GYr2, TYr2⟩, ⟨GYr3, TYr3⟩⟩, ⟨⟨GDr0, TDr0⟩, ⟨GDr1, TDr1⟩, ⟨GDr2, TDr2⟩, ⟨GDr3, TDr3⟩⟩, ⟨⟨GXr0, TXr0⟩, ⟨GXr1, TXr1⟩, ⟨GXr2, TXr2⟩, ⟨GXr3, TXr3⟩⟩, ⟨⟨GZr0, TZr0⟩, ⟨GZr1, TZr1⟩, ⟨GZr2, TZr2⟩, ⟨GZr3, TZr3⟩⟩⟩, #Hlev, Hx, ⟨%fo, Ho⟩, ⟨%fs0, Hs⟩, ⟨%fl, Hl⟩⟩, ⟨%W, HO⟩, Hk⟩
  -- the argument rows among their six readers; the result by row ranges; the landing buffer by chunks
  ihave Hx' := (Entails.of_eq (x_share c (Xc m c))) $$ Hx
  unfold sep4
  icases Hx' with ⟨⟨HxL, RxL⟩, ⟨HxS, RxS⟩, ⟨⟨HxD0, RxD0⟩, ⟨HxD1, RxD1⟩, ⟨HxD2, RxD2⟩, ⟨HxD3, RxD3⟩⟩⟩
  ihave Ho' := (Entails.of_eq (out_split c fo)) $$ Ho
  unfold sep4
  icases Ho' with ⟨HoL, ⟨HoF0, HoF1, HoF2, HoF3⟩, ⟨HoD0, HoD1, HoD2, HoD3⟩, ⟨HoX0, HoX1, HoX2, HoX3⟩, ⟨HoZ0, HoZ1, HoZ2, HoZ3⟩⟩
  ihave Hl' := (Entails.of_eq (land_split c fl)) $$ Hl
  unfold sep4
  icases Hl' with ⟨Hl0, Hl1, Hl2, Hl3⟩
  -- the staging copy and the local half are issued
  iapply (stagecp_step m K c fs0) $$ [FStg HxS Hs]
  · isplitr; · iexact HR
    isplitl [FStg]; · iexact FStg
    isplitl [HxS]; · iexact HxS
    iexact Hs
  iintro GStg
  iapply (localcp_step m K c fo) $$ [FLoc HxL HoL]
  · isplitr; · iexact HR
    isplitl [FLoc]; · iexact FLoc
    isplitl [HxL]; · iexact HxL
    iexact HoL
  iintro GLoc
  -- the three entry signals: to the y-peer this device's landing buffer and the quarter of its result the y-peer sends directly; to the x-peer and the z-peer the quarters they forward into
  iapply (step_signal m K c (yp c) 0 (owedAfter c 1) W (k' := (1#32).toNat) rfl) $$ [HO TbY Hl0 Hl1 Hl2 Hl3 HoD0 HoD1 HoD2 HoD3]
  · isplitr; · iexact HR
    isplitl [HO]; · iexact HO
    isplitl [TbY]; · iexact TbY
    rw [barPay_0, yp_yp]; unfold sep4
    isplitl [Hl0 Hl1 Hl2 Hl3]
    · isplitl [Hl0]; · (iexists fl; iexact Hl0)
      isplitl [Hl1]; · (iexists fl; iexact Hl1)
      isplitl [Hl2]; · (iexists fl; iexact Hl2)
      iexists fl; iexact Hl3
    · isplitl [HoD0]; · (iexists fo; iexact HoD0)
      isplitl [HoD1]; · (iexists fo; iexact HoD1)
      isplitl [HoD2]; · (iexists fo; iexact HoD2)
      iexists fo; iexact HoD3
  iintro HO
  iapply (step_signal m K c (xp c) 1 (owedAfter c 2) W (k' := (1#32).toNat) rfl) $$ [HO TbX HoX0 HoX1 HoX2 HoX3]
  · isplitr; · iexact HR
    isplitl [HO]; · iexact HO
    isplitl [TbX]; · iexact TbX
    rw [barPay_1, xp_xp]; unfold sep4
    isplitl [HoX0]; · (iexists fo; iexact HoX0)
    isplitl [HoX1]; · (iexists fo; iexact HoX1)
    isplitl [HoX2]; · (iexists fo; iexact HoX2)
    iexists fo; iexact HoX3
  iintro HO
  iapply (step_signal m K c (zp c) 2 (owedAfter c 3) W (k' := (1#32).toNat) rfl) $$ [HO TbZ HoZ0 HoZ1 HoZ2 HoZ3]
  · isplitr; · iexact HR
    isplitl [HO]; · iexact HO
    isplitl [TbZ]; · iexact TbZ
    rw [barPay_2, zp_zp]; unfold sep4
    isplitl [HoZ0]; · (iexists fo; iexact HoZ0)
    isplitl [HoZ1]; · (iexists fo; iexact HoZ1)
    isplitl [HoZ2]; · (iexists fo; iexact HoZ2)
    iexists fo; iexact HoZ3
  iintro HO
  -- the wait for the three neighbours: their buffers' elements this device will write
  iapply (step_barwait m K c (owedAfter c 3) W (k' := (3#32).toNat) rfl) $$ [HcB HO HaB]
  · isplitr; · iexact HR
    isplitl [HcB]; · iexact HcB
    isplitl [HO]; · iexact HO
    isplitr; · (iapply (mayWait_bar c); iexact Hlev)
    iexact HaB
  iintro ⟨HO, HaB, HpY, HpX, HpZ⟩
  ihave HpY := (Entails.of_eq (barPay_0 (F := F) c)) $$ HpY
  ihave HpX := (Entails.of_eq (barPay_1 (F := F) c)) $$ HpX
  ihave HpZ := (Entails.of_eq (barPay_2 (F := F) c)) $$ HpZ
  unfold sep4
  icases HpY with ⟨⟨⟨%fy0, PL0⟩, ⟨%fy1, PL1⟩, ⟨%fy2, PL2⟩, ⟨%fy3, PL3⟩⟩, ⟨⟨%gd0, PD0⟩, ⟨%gd1, PD1⟩, ⟨%gd2, PD2⟩, ⟨%gd3, PD3⟩⟩⟩
  icases HpX with ⟨⟨%gx0, PX0⟩, ⟨%gx1, PX1⟩, ⟨%gx2, PX2⟩, ⟨%gx3, PX3⟩⟩
  icases HpZ with ⟨⟨%gz0, PZ0⟩, ⟨%gz1, PZ1⟩, ⟨%gz2, PZ2⟩, ⟨%gz3, PZ3⟩⟩
  -- the staging copy is waited for; the staged quarter is shared among its four chunked sends
  iapply (step_wait m K c (iStage) (owedAfter c 3) _ (dst := (sM : Memref sig .tc .vmem S128x512 .f32)) rfl) $$ [GStg HO]
  · isplitr; · iexact HR
    isplitl [GStg]; · iexact GStg
    isplitl [HO]; · iexact HO
    iapply (mayWait_stage c); iexact Hlev
  iintro ⟨HO, Hp, DStg⟩
  ihave Hp' := (Entails.of_eq (dmaPay_stage m c)) $$ Hp
  unfold stagePay
  icases Hp' with ⟨Hs, HxS⟩
  ihave Hs' := (Entails.of_eq (stage_share c (StageF m c))) $$ Hs
  unfold sep4
  icases Hs' with ⟨⟨HS0, RS0⟩, ⟨HS1, RS1⟩, ⟨HS2, RS2⟩, ⟨HS3, RS3⟩⟩
  -- the four staged chunks, then the four direct chunks, are sent across y
  iapply (ysend_step m K c 0 _ (dev_y c).1 (owedAfter c 3) (owedAfter c 4) rfl _ fy0) $$ [FYs0 TYr0 HS0 PL0 HO]
  · isplitr; · iexact HR
    isplitl [FYs0]; · iexact FYs0
    isplitl [TYr0]; · iexact TYr0
    isplitl [HS0]; · iexact HS0
    isplitl [PL0]; · iexact PL0
    iexact HO
  iintro ⟨GYs0, HO⟩
  iapply (ysend_step m K c 1 _ (dev_y c).2.1 (owedAfter c 4) (owedAfter c 5) rfl _ fy1) $$ [FYs1 TYr1 HS1 PL1 HO]
  · isplitr; · iexact HR
    isplitl [FYs1]; · iexact FYs1
    isplitl [TYr1]; · iexact TYr1
    isplitl [HS1]; · iexact HS1
    isplitl [PL1]; · iexact PL1
    iexact HO
  iintro ⟨GYs1, HO⟩
  iapply (ysend_step m K c 2 _ (dev_y c).2.2.1 (owedAfter c 5) (owedAfter c 6) rfl _ fy2) $$ [FYs2 TYr2 HS2 PL2 HO]
  · isplitr; · iexact HR
    isplitl [FYs2]; · iexact FYs2
    isplitl [TYr2]; · iexact TYr2
    isplitl [HS2]; · iexact HS2
    isplitl [PL2]; · iexact PL2
    iexact HO
  iintro ⟨GYs2, HO⟩
  iapply (ysend_step m K c 3 _ (dev_y c).2.2.2.1 (owedAfter c 6) (owedAfter c 7) rfl _ fy3) $$ [FYs3 TYr3 HS3 PL3 HO]
  · isplitr; · iexact HR
    isplitl [FYs3]; · iexact FYs3
    isplitl [TYr3]; · iexact TYr3
    isplitl [HS3]; · iexact HS3
    isplitl [PL3]; · iexact PL3
    iexact HO
  iintro ⟨GYs3, HO⟩
  iapply (dsend_step m K c 0 _ (dev_y c).2.2.2.2.1 (owedAfter c 7) (owedAfter c 8) rfl _ gd0) $$ [FDs0 TDr0 HxD0 PD0 HO]
  · isplitr; · iexact HR
    isplitl [FDs0]; · iexact FDs0
    isplitl [TDr0]; · iexact TDr0
    isplitl [HxD0]; · iexact HxD0
    isplitl [PD0]; · iexact PD0
    iexact HO
  iintro ⟨GDs0, HO⟩
  iapply (dsend_step m K c 1 _ (dev_y c).2.2.2.2.2.1 (owedAfter c 8) (owedAfter c 9) rfl _ gd1) $$ [FDs1 TDr1 HxD1 PD1 HO]
  · isplitr; · iexact HR
    isplitl [FDs1]; · iexact FDs1
    isplitl [TDr1]; · iexact TDr1
    isplitl [HxD1]; · iexact HxD1
    isplitl [PD1]; · iexact PD1
    iexact HO
  iintro ⟨GDs1, HO⟩
  iapply (dsend_step m K c 2 _ (dev_y c).2.2.2.2.2.2.1 (owedAfter c 9) (owedAfter c 10) rfl _ gd2) $$ [FDs2 TDr2 HxD2 PD2 HO]
  · isplitr; · iexact HR
    isplitl [FDs2]; · iexact FDs2
    isplitl [TDr2]; · iexact TDr2
    isplitl [HxD2]; · iexact HxD2
    isplitl [PD2]; · iexact PD2
    iexact HO
  iintro ⟨GDs2, HO⟩
  iapply (dsend_step m K c 3 _ (dev_y c).2.2.2.2.2.2.2 (owedAfter c 10) (owedAfter c 11) rfl _ gd3) $$ [FDs3 TDr3 HxD3 PD3 HO]
  · isplitr; · iexact HR
    isplitl [FDs3]; · iexact FDs3
    isplitl [TDr3]; · iexact TDr3
    isplitl [HxD3]; · iexact HxD3
    isplitl [PD3]; · iexact PD3
    iexact HO
  iintro ⟨GDs3, HO⟩
  -- chunk 0 has landed: forwarded across x and across z, and copied into the result
  iapply (step_wait m K c (iYr 0) (owedAfter c 11) _ (dst := lCh 0) rfl) $$ [GYr0 HO]
  · isplitr; · iexact HR
    isplitl [GYr0]; · iexact GYr0
    isplitl [HO]; · iexact HO
    iapply (mayWait_yr c 0); iexact Hlev
  iintro ⟨HO, Hp, DYr0⟩
  ihave Hp' := (Entails.of_eq ((dmaPay_yr m c 0).trans (lch_share c 0 (LandF m c)))) $$ Hp
  icases Hp' with ⟨HlX0, HlZ0, HlL0⟩
  iapply (xfwd_step m K c 0 _ (dev_x c).1 (owedAfter c 11) (owedAfter c 12) rfl _ gx0) $$ [FXs0 TXr0 HlX0 PX0 HO]
  · isplitr; · iexact HR
    isplitl [FXs0]; · iexact FXs0
    isplitl [TXr0]; · iexact TXr0
    isplitl [HlX0]; · iexact HlX0
    isplitl [PX0]; · iexact PX0
    iexact HO
  iintro ⟨GXs0, HO⟩
  iapply (zfwd_step m K c 0 _ (dev_z c).1 (owedAfter c 12) (owedAfter c 13) rfl _ gz0) $$ [FZs0 TZr0 HlZ0 PZ0 HO]
  · isplitr; · iexact HR
    isplitl [FZs0]; · iexact FZs0
    isplitl [TZr0]; · iexact TZr0
    isplitl [HlZ0]; · iexact HlZ0
    isplitl [PZ0]; · iexact PZ0
    iexact HO
  iintro ⟨GZs0, HO⟩
  iapply (landcp_step m K c 0 fo) $$ [FL0 HlL0 HoF0]
  · isplitr; · iexact HR
    isplitl [FL0]; · iexact FL0
    isplitl [HlL0]; · iexact HlL0
    iexact HoF0
  iintro GL0
  -- chunk 1 has landed: forwarded across x and across z, and copied into the result
  iapply (step_wait m K c (iYr 1) (owedAfter c 13) _ (dst := lCh 1) rfl) $$ [GYr1 HO]
  · isplitr; · iexact HR
    isplitl [GYr1]; · iexact GYr1
    isplitl [HO]; · iexact HO
    iapply (mayWait_yr c 1); iexact Hlev
  iintro ⟨HO, Hp, DYr1⟩
  ihave Hp' := (Entails.of_eq ((dmaPay_yr m c 1).trans (lch_share c 1 (LandF m c)))) $$ Hp
  icases Hp' with ⟨HlX1, HlZ1, HlL1⟩
  iapply (xfwd_step m K c 1 _ (dev_x c).2.1 (owedAfter c 13) (owedAfter c 14) rfl _ gx1) $$ [FXs1 TXr1 HlX1 PX1 HO]
  · isplitr; · iexact HR
    isplitl [FXs1]; · iexact FXs1
    isplitl [TXr1]; · iexact TXr1
    isplitl [HlX1]; · iexact HlX1
    isplitl [PX1]; · iexact PX1
    iexact HO
  iintro ⟨GXs1, HO⟩
  iapply (zfwd_step m K c 1 _ (dev_z c).2.1 (owedAfter c 14) (owedAfter c 15) rfl _ gz1) $$ [FZs1 TZr1 HlZ1 PZ1 HO]
  · isplitr; · iexact HR
    isplitl [FZs1]; · iexact FZs1
    isplitl [TZr1]; · iexact TZr1
    isplitl [HlZ1]; · iexact HlZ1
    isplitl [PZ1]; · iexact PZ1
    iexact HO
  iintro ⟨GZs1, HO⟩
  iapply (landcp_step m K c 1 fo) $$ [FL1 HlL1 HoF1]
  · isplitr; · iexact HR
    isplitl [FL1]; · iexact FL1
    isplitl [HlL1]; · iexact HlL1
    iexact HoF1
  iintro GL1
  -- chunk 2 has landed: forwarded across x and across z, and copied into the result
  iapply (step_wait m K c (iYr 2) (owedAfter c 15) _ (dst := lCh 2) rfl) $$ [GYr2 HO]
  · isplitr; · iexact HR
    isplitl [GYr2]; · iexact GYr2
    isplitl [HO]; · iexact HO
    iapply (mayWait_yr c 2); iexact Hlev
  iintro ⟨HO, Hp, DYr2⟩
  ihave Hp' := (Entails.of_eq ((dmaPay_yr m c 2).trans (lch_share c 2 (LandF m c)))) $$ Hp
  icases Hp' with ⟨HlX2, HlZ2, HlL2⟩
  iapply (xfwd_step m K c 2 _ (dev_x c).2.2.1 (owedAfter c 15) (owedAfter c 16) rfl _ gx2) $$ [FXs2 TXr2 HlX2 PX2 HO]
  · isplitr; · iexact HR
    isplitl [FXs2]; · iexact FXs2
    isplitl [TXr2]; · iexact TXr2
    isplitl [HlX2]; · iexact HlX2
    isplitl [PX2]; · iexact PX2
    iexact HO
  iintro ⟨GXs2, HO⟩
  iapply (zfwd_step m K c 2 _ (dev_z c).2.2.1 (owedAfter c 16) (owedAfter c 17) rfl _ gz2) $$ [FZs2 TZr2 HlZ2 PZ2 HO]
  · isplitr; · iexact HR
    isplitl [FZs2]; · iexact FZs2
    isplitl [TZr2]; · iexact TZr2
    isplitl [HlZ2]; · iexact HlZ2
    isplitl [PZ2]; · iexact PZ2
    iexact HO
  iintro ⟨GZs2, HO⟩
  iapply (landcp_step m K c 2 fo) $$ [FL2 HlL2 HoF2]
  · isplitr; · iexact HR
    isplitl [FL2]; · iexact FL2
    isplitl [HlL2]; · iexact HlL2
    iexact HoF2
  iintro GL2
  -- chunk 3 has landed: forwarded across x and across z, and copied into the result
  iapply (step_wait m K c (iYr 3) (owedAfter c 17) _ (dst := lCh 3) rfl) $$ [GYr3 HO]
  · isplitr; · iexact HR
    isplitl [GYr3]; · iexact GYr3
    isplitl [HO]; · iexact HO
    iapply (mayWait_yr c 3); iexact Hlev
  iintro ⟨HO, Hp, DYr3⟩
  ihave Hp' := (Entails.of_eq ((dmaPay_yr m c 3).trans (lch_share c 3 (LandF m c)))) $$ Hp
  icases Hp' with ⟨HlX3, HlZ3, HlL3⟩
  iapply (xfwd_step m K c 3 _ (dev_x c).2.2.2 (owedAfter c 17) (owedAfter c 18) rfl _ gx3) $$ [FXs3 TXr3 HlX3 PX3 HO]
  · isplitr; · iexact HR
    isplitl [FXs3]; · iexact FXs3
    isplitl [TXr3]; · iexact TXr3
    isplitl [HlX3]; · iexact HlX3
    isplitl [PX3]; · iexact PX3
    iexact HO
  iintro ⟨GXs3, HO⟩
  iapply (zfwd_step m K c 3 _ (dev_z c).2.2.2 (owedAfter c 18) (owedAfter c 19) rfl _ gz3) $$ [FZs3 TZr3 HlZ3 PZ3 HO]
  · isplitr; · iexact HR
    isplitl [FZs3]; · iexact FZs3
    isplitl [TZr3]; · iexact TZr3
    isplitl [HlZ3]; · iexact HlZ3
    isplitl [PZ3]; · iexact PZ3
    iexact HO
  iintro ⟨GZs3, HO⟩
  iapply (landcp_step m K c 3 fo) $$ [FL3 HlL3 HoF3]
  · isplitr; · iexact HR
    isplitl [FL3]; · iexact FL3
    isplitl [HlL3]; · iexact HlL3
    iexact HoF3
  iintro GL3
  -- every payment made: nothing is owed, and every remaining wait is free
  ihave HO := (show owes (c : Thread nD τ) (owedAfter c 19) _ ⊢ (owes (c : Thread nD τ) 0 _ : sProp 𝕄) from Entails.of_eq (by rw [owedAfter_all c])) $$ HO
  iapply (step_wait m K c (iXr 0) 0 _ (dst := oF c 0) rfl) $$ [GXr0 HO]
  · isplitr; · iexact HR
    isplitl [GXr0]; · iexact GXr0
    isplitl [HO]; · iexact HO
    rw [MayWait_zero]; iempintro
  iintro ⟨HO, PXr0, DXr0⟩
  iapply (step_wait m K c (iZr 0) 0 _ (dst := oF c 0) rfl) $$ [GZr0 HO]
  · isplitr; · iexact HR
    isplitl [GZr0]; · iexact GZr0
    isplitl [HO]; · iexact HO
    rw [MayWait_zero]; iempintro
  iintro ⟨HO, PZr0, DZr0⟩
  iapply (step_wait m K c (iXr 1) 0 _ (dst := oF c 1) rfl) $$ [GXr1 HO]
  · isplitr; · iexact HR
    isplitl [GXr1]; · iexact GXr1
    isplitl [HO]; · iexact HO
    rw [MayWait_zero]; iempintro
  iintro ⟨HO, PXr1, DXr1⟩
  iapply (step_wait m K c (iZr 1) 0 _ (dst := oF c 1) rfl) $$ [GZr1 HO]
  · isplitr; · iexact HR
    isplitl [GZr1]; · iexact GZr1
    isplitl [HO]; · iexact HO
    rw [MayWait_zero]; iempintro
  iintro ⟨HO, PZr1, DZr1⟩
  iapply (step_wait m K c (iXr 2) 0 _ (dst := oF c 2) rfl) $$ [GXr2 HO]
  · isplitr; · iexact HR
    isplitl [GXr2]; · iexact GXr2
    isplitl [HO]; · iexact HO
    rw [MayWait_zero]; iempintro
  iintro ⟨HO, PXr2, DXr2⟩
  iapply (step_wait m K c (iZr 2) 0 _ (dst := oF c 2) rfl) $$ [GZr2 HO]
  · isplitr; · iexact HR
    isplitl [GZr2]; · iexact GZr2
    isplitl [HO]; · iexact HO
    rw [MayWait_zero]; iempintro
  iintro ⟨HO, PZr2, DZr2⟩
  iapply (step_wait m K c (iXr 3) 0 _ (dst := oF c 3) rfl) $$ [GXr3 HO]
  · isplitr; · iexact HR
    isplitl [GXr3]; · iexact GXr3
    isplitl [HO]; · iexact HO
    rw [MayWait_zero]; iempintro
  iintro ⟨HO, PXr3, DXr3⟩
  iapply (step_wait m K c (iZr 3) 0 _ (dst := oF c 3) rfl) $$ [GZr3 HO]
  · isplitr; · iexact HR
    isplitl [GZr3]; · iexact GZr3
    isplitl [HO]; · iexact HO
    rw [MayWait_zero]; iempintro
  iintro ⟨HO, PZr3, DZr3⟩
  iapply (step_wait m K c (iDr 0) 0 _ (dst := oD c 0) rfl) $$ [GDr0 HO]
  · isplitr; · iexact HR
    isplitl [GDr0]; · iexact GDr0
    isplitl [HO]; · iexact HO
    rw [MayWait_zero]; iempintro
  iintro ⟨HO, PDr0, DDr0⟩
  iapply (step_wait m K c (iDr 1) 0 _ (dst := oD c 1) rfl) $$ [GDr1 HO]
  · isplitr; · iexact HR
    isplitl [GDr1]; · iexact GDr1
    isplitl [HO]; · iexact HO
    rw [MayWait_zero]; iempintro
  iintro ⟨HO, PDr1, DDr1⟩
  iapply (step_wait m K c (iDr 2) 0 _ (dst := oD c 2) rfl) $$ [GDr2 HO]
  · isplitr; · iexact HR
    isplitl [GDr2]; · iexact GDr2
    isplitl [HO]; · iexact HO
    rw [MayWait_zero]; iempintro
  iintro ⟨HO, PDr2, DDr2⟩
  iapply (step_wait m K c (iDr 3) 0 _ (dst := oD c 3) rfl) $$ [GDr3 HO]
  · isplitr; · iexact HR
    isplitl [GDr3]; · iexact GDr3
    isplitl [HO]; · iexact HO
    rw [MayWait_zero]; iempintro
  iintro ⟨HO, PDr3, DDr3⟩
  iapply (step_wait m K c (iXs 0) 0 _ (dst := lCh 0) rfl) $$ [GXs0 HO]
  · isplitr; · iexact HR
    isplitl [GXs0]; · iexact GXs0
    isplitl [HO]; · iexact HO
    rw [MayWait_zero]; iempintro
  iintro ⟨HO, PXs0, DXs0⟩
  iapply (step_wait m K c (iZs 0) 0 _ (dst := lCh 0) rfl) $$ [GZs0 HO]
  · isplitr; · iexact HR
    isplitl [GZs0]; · iexact GZs0
    isplitl [HO]; · iexact HO
    rw [MayWait_zero]; iempintro
  iintro ⟨HO, PZs0, DZs0⟩
  iapply (step_wait m K c (iXs 1) 0 _ (dst := lCh 1) rfl) $$ [GXs1 HO]
  · isplitr; · iexact HR
    isplitl [GXs1]; · iexact GXs1
    isplitl [HO]; · iexact HO
    rw [MayWait_zero]; iempintro
  iintro ⟨HO, PXs1, DXs1⟩
  iapply (step_wait m K c (iZs 1) 0 _ (dst := lCh 1) rfl) $$ [GZs1 HO]
  · isplitr; · iexact HR
    isplitl [GZs1]; · iexact GZs1
    isplitl [HO]; · iexact HO
    rw [MayWait_zero]; iempintro
  iintro ⟨HO, PZs1, DZs1⟩
  iapply (step_wait m K c (iXs 2) 0 _ (dst := lCh 2) rfl) $$ [GXs2 HO]
  · isplitr; · iexact HR
    isplitl [GXs2]; · iexact GXs2
    isplitl [HO]; · iexact HO
    rw [MayWait_zero]; iempintro
  iintro ⟨HO, PXs2, DXs2⟩
  iapply (step_wait m K c (iZs 2) 0 _ (dst := lCh 2) rfl) $$ [GZs2 HO]
  · isplitr; · iexact HR
    isplitl [GZs2]; · iexact GZs2
    isplitl [HO]; · iexact HO
    rw [MayWait_zero]; iempintro
  iintro ⟨HO, PZs2, DZs2⟩
  iapply (step_wait m K c (iXs 3) 0 _ (dst := lCh 3) rfl) $$ [GXs3 HO]
  · isplitr; · iexact HR
    isplitl [GXs3]; · iexact GXs3
    isplitl [HO]; · iexact HO
    rw [MayWait_zero]; iempintro
  iintro ⟨HO, PXs3, DXs3⟩
  iapply (step_wait m K c (iZs 3) 0 _ (dst := lCh 3) rfl) $$ [GZs3 HO]
  · isplitr; · iexact HR
    isplitl [GZs3]; · iexact GZs3
    isplitl [HO]; · iexact HO
    rw [MayWait_zero]; iempintro
  iintro ⟨HO, PZs3, DZs3⟩
  iapply (step_wait m K c (iYs 0) 0 _ (dst := sCh 0) rfl) $$ [GYs0 HO]
  · isplitr; · iexact HR
    isplitl [GYs0]; · iexact GYs0
    isplitl [HO]; · iexact HO
    rw [MayWait_zero]; iempintro
  iintro ⟨HO, PYs0, DYs0⟩
  iapply (step_wait m K c (iDs 0) 0 _ (dst := xD c 0) rfl) $$ [GDs0 HO]
  · isplitr; · iexact HR
    isplitl [GDs0]; · iexact GDs0
    isplitl [HO]; · iexact HO
    rw [MayWait_zero]; iempintro
  iintro ⟨HO, PDs0, DDs0⟩
  iapply (step_wait m K c (iLand 0) 0 _ (dst := oF c 0) rfl) $$ [GL0 HO]
  · isplitr; · iexact HR
    isplitl [GL0]; · iexact GL0
    isplitl [HO]; · iexact HO
    rw [MayWait_zero]; iempintro
  iintro ⟨HO, PLd0, DL0⟩
  iapply (step_wait m K c (iYs 1) 0 _ (dst := sCh 1) rfl) $$ [GYs1 HO]
  · isplitr; · iexact HR
    isplitl [GYs1]; · iexact GYs1
    isplitl [HO]; · iexact HO
    rw [MayWait_zero]; iempintro
  iintro ⟨HO, PYs1, DYs1⟩
  iapply (step_wait m K c (iDs 1) 0 _ (dst := xD c 1) rfl) $$ [GDs1 HO]
  · isplitr; · iexact HR
    isplitl [GDs1]; · iexact GDs1
    isplitl [HO]; · iexact HO
    rw [MayWait_zero]; iempintro
  iintro ⟨HO, PDs1, DDs1⟩
  iapply (step_wait m K c (iLand 1) 0 _ (dst := oF c 1) rfl) $$ [GL1 HO]
  · isplitr; · iexact HR
    isplitl [GL1]; · iexact GL1
    isplitl [HO]; · iexact HO
    rw [MayWait_zero]; iempintro
  iintro ⟨HO, PLd1, DL1⟩
  iapply (step_wait m K c (iYs 2) 0 _ (dst := sCh 2) rfl) $$ [GYs2 HO]
  · isplitr; · iexact HR
    isplitl [GYs2]; · iexact GYs2
    isplitl [HO]; · iexact HO
    rw [MayWait_zero]; iempintro
  iintro ⟨HO, PYs2, DYs2⟩
  iapply (step_wait m K c (iDs 2) 0 _ (dst := xD c 2) rfl) $$ [GDs2 HO]
  · isplitr; · iexact HR
    isplitl [GDs2]; · iexact GDs2
    isplitl [HO]; · iexact HO
    rw [MayWait_zero]; iempintro
  iintro ⟨HO, PDs2, DDs2⟩
  iapply (step_wait m K c (iLand 2) 0 _ (dst := oF c 2) rfl) $$ [GL2 HO]
  · isplitr; · iexact HR
    isplitl [GL2]; · iexact GL2
    isplitl [HO]; · iexact HO
    rw [MayWait_zero]; iempintro
  iintro ⟨HO, PLd2, DL2⟩
  iapply (step_wait m K c (iYs 3) 0 _ (dst := sCh 3) rfl) $$ [GYs3 HO]
  · isplitr; · iexact HR
    isplitl [GYs3]; · iexact GYs3
    isplitl [HO]; · iexact HO
    rw [MayWait_zero]; iempintro
  iintro ⟨HO, PYs3, DYs3⟩
  iapply (step_wait m K c (iDs 3) 0 _ (dst := xD c 3) rfl) $$ [GDs3 HO]
  · isplitr; · iexact HR
    isplitl [GDs3]; · iexact GDs3
    isplitl [HO]; · iexact HO
    rw [MayWait_zero]; iempintro
  iintro ⟨HO, PDs3, DDs3⟩
  iapply (step_wait m K c (iLand 3) 0 _ (dst := oF c 3) rfl) $$ [GL3 HO]
  · isplitr; · iexact HR
    isplitl [GL3]; · iexact GL3
    isplitl [HO]; · iexact HO
    rw [MayWait_zero]; iempintro
  iintro ⟨HO, PLd3, DL3⟩
  iapply (step_wait m K c (iLocal) 0 _ (dst := oLocal c) rfl) $$ [GLoc HO]
  · isplitr; · iexact HR
    isplitl [GLoc]; · iexact GLoc
    isplitl [HO]; · iexact HO
    rw [MayWait_zero]; iempintro
  iintro ⟨HO, PLoc, DLoc⟩
  rw [wp_ret]; imodintro
  iapply Hk
  -- what the waits returned, by kind
  ihave PLoc' := (Entails.of_eq (dmaPay_local m c)) $$ PLoc
  ihave PLd0' := (Entails.of_eq (dmaPay_land m c 0)) $$ PLd0
  ihave PLd1' := (Entails.of_eq (dmaPay_land m c 1)) $$ PLd1
  ihave PLd2' := (Entails.of_eq (dmaPay_land m c 2)) $$ PLd2
  ihave PLd3' := (Entails.of_eq (dmaPay_land m c 3)) $$ PLd3
  ihave PXr0' := (Entails.of_eq (dmaPay_xr m c 0)) $$ PXr0
  ihave PXr1' := (Entails.of_eq (dmaPay_xr m c 1)) $$ PXr1
  ihave PXr2' := (Entails.of_eq (dmaPay_xr m c 2)) $$ PXr2
  ihave PXr3' := (Entails.of_eq (dmaPay_xr m c 3)) $$ PXr3
  ihave PZr0' := (Entails.of_eq (dmaPay_zr m c 0)) $$ PZr0
  ihave PZr1' := (Entails.of_eq (dmaPay_zr m c 1)) $$ PZr1
  ihave PZr2' := (Entails.of_eq (dmaPay_zr m c 2)) $$ PZr2
  ihave PZr3' := (Entails.of_eq (dmaPay_zr m c 3)) $$ PZr3
  ihave PDr0' := (Entails.of_eq (dmaPay_dr m c 0)) $$ PDr0
  ihave PDr1' := (Entails.of_eq (dmaPay_dr m c 1)) $$ PDr1
  ihave PDr2' := (Entails.of_eq (dmaPay_dr m c 2)) $$ PDr2
  ihave PDr3' := (Entails.of_eq (dmaPay_dr m c 3)) $$ PDr3
  ihave PXs0' := (Entails.of_eq (dmaPay_xs m c 0)) $$ PXs0
  ihave PXs1' := (Entails.of_eq (dmaPay_xs m c 1)) $$ PXs1
  ihave PXs2' := (Entails.of_eq (dmaPay_xs m c 2)) $$ PXs2
  ihave PXs3' := (Entails.of_eq (dmaPay_xs m c 3)) $$ PXs3
  ihave PZs0' := (Entails.of_eq (dmaPay_zs m c 0)) $$ PZs0
  ihave PZs1' := (Entails.of_eq (dmaPay_zs m c 1)) $$ PZs1
  ihave PZs2' := (Entails.of_eq (dmaPay_zs m c 2)) $$ PZs2
  ihave PZs3' := (Entails.of_eq (dmaPay_zs m c 3)) $$ PZs3
  ihave PYs0' := (Entails.of_eq (dmaPay_ys m c 0)) $$ PYs0
  ihave PYs1' := (Entails.of_eq (dmaPay_ys m c 1)) $$ PYs1
  ihave PYs2' := (Entails.of_eq (dmaPay_ys m c 2)) $$ PYs2
  ihave PYs3' := (Entails.of_eq (dmaPay_ys m c 3)) $$ PYs3
  ihave PDs0' := (Entails.of_eq (dmaPay_ds m c 0)) $$ PDs0
  ihave PDs1' := (Entails.of_eq (dmaPay_ds m c 1)) $$ PDs1
  ihave PDs2' := (Entails.of_eq (dmaPay_ds m c 2)) $$ PDs2
  ihave PDs3' := (Entails.of_eq (dmaPay_ds m c 3)) $$ PDs3
  unfold localPay landPay xrPay zrPay drPay xsPay zsPay ysPay dsPay
  icases PLoc' with ⟨PoL, PxL⟩
  icases PLd0' with ⟨PoF0, PlL0⟩
  icases PLd1' with ⟨PoF1, PlL1⟩
  icases PLd2' with ⟨PoF2, PlL2⟩
  icases PLd3' with ⟨PoF3, PlL3⟩
  unfold Φ₁
  isplitr [HO]
  rotate_left
  · iexists _; iexact HO
  -- the argument rows, every reader's share back
  isplitl [PxL RxL HxS RxS PDs0' RxD0 PDs1' RxD1 PDs2' RxD2 PDs3' RxD3]
  · iapply (Entails.of_eq (x_share c (Xc m c)).symm)
    unfold sep4
    isplitl [PxL RxL]
    · isplitl [PxL]
      · iexact PxL
      · iexact RxL
    isplitl [HxS RxS]
    · isplitl [HxS]
      · iexact HxS
      · iexact RxS
    isplitl [PDs0' RxD0]
    · isplitl [PDs0']
      · iexact PDs0'
      · iexact RxD0
    isplitl [PDs1' RxD1]
    · isplitl [PDs1']
      · iexact PDs1'
      · iexact RxD1
    isplitl [PDs2' RxD2]
    · isplitl [PDs2']
      · iexact PDs2'
      · iexact RxD2
    isplitl [PDs3']
    · iexact PDs3'
    · iexact RxD3
  -- the result, its seventeen row ranges at their final contents
  isplitl [PoL PoF0 PoF1 PoF2 PoF3 PDr0' PDr1' PDr2' PDr3' PXr0' PXr1' PXr2' PXr3' PZr0' PZr1' PZr2' PZr3']
  · iapply (Entails.of_eq (out_split c (OutF m c)).symm)
    unfold sep4
    isplitl [PoL]; · iexact PoL
    isplitl [PoF0 PoF1 PoF2 PoF3]
    · isplitl [PoF0]; · iexact PoF0
      isplitl [PoF1]; · iexact PoF1
      isplitl [PoF2]; · iexact PoF2
      iexact PoF3
    isplitl [PDr0' PDr1' PDr2' PDr3']
    · isplitl [PDr0']; · iexact PDr0'
      isplitl [PDr1']; · iexact PDr1'
      isplitl [PDr2']; · iexact PDr2'
      iexact PDr3'
    isplitl [PXr0' PXr1' PXr2' PXr3']
    · isplitl [PXr0']; · iexact PXr0'
      isplitl [PXr1']; · iexact PXr1'
      isplitl [PXr2']; · iexact PXr2'
      iexact PXr3'
    isplitl [PZr0']; · iexact PZr0'
    isplitl [PZr1']; · iexact PZr1'
    isplitl [PZr2']; · iexact PZr2'
    iexact PZr3'
  -- every DMA counter back at zero
  isplitl [DLoc DStg DL0 DL1 DL2 DL3 DYs0 DYs1 DYs2 DYs3 DYr0 DYr1 DYr2 DYr3 DDs0 DDs1 DDs2 DDs3 DDr0 DDr1 DDr2 DDr3 DXs0 DXs1 DXs2 DXs3 DXr0 DXr1 DXr2 DXr3 DZs0 DZs1 DZs2 DZs3 DZr0 DZr1 DZr2 DZr3]
  · iapply (dones_intro c)
    isplitl [DLoc]; · iexact DLoc
    isplitl [DStg]; · iexact DStg
    isplitl [DL0]; · iexact DL0
    isplitl [DL1]; · iexact DL1
    isplitl [DL2]; · iexact DL2
    isplitl [DL3]; · iexact DL3
    isplitl [DYs0]; · iexact DYs0
    isplitl [DYs1]; · iexact DYs1
    isplitl [DYs2]; · iexact DYs2
    isplitl [DYs3]; · iexact DYs3
    isplitl [DYr0]; · iexact DYr0
    isplitl [DYr1]; · iexact DYr1
    isplitl [DYr2]; · iexact DYr2
    isplitl [DYr3]; · iexact DYr3
    isplitl [DDs0]; · iexact DDs0
    isplitl [DDs1]; · iexact DDs1
    isplitl [DDs2]; · iexact DDs2
    isplitl [DDs3]; · iexact DDs3
    isplitl [DDr0]; · iexact DDr0
    isplitl [DDr1]; · iexact DDr1
    isplitl [DDr2]; · iexact DDr2
    isplitl [DDr3]; · iexact DDr3
    isplitl [DXs0]; · iexact DXs0
    isplitl [DXs1]; · iexact DXs1
    isplitl [DXs2]; · iexact DXs2
    isplitl [DXs3]; · iexact DXs3
    isplitl [DXr0]; · iexact DXr0
    isplitl [DXr1]; · iexact DXr1
    isplitl [DXr2]; · iexact DXr2
    isplitl [DXr3]; · iexact DXr3
    isplitl [DZs0]; · iexact DZs0
    isplitl [DZs1]; · iexact DZs1
    isplitl [DZs2]; · iexact DZs2
    isplitl [DZs3]; · iexact DZs3
    isplitl [DZr0]; · iexact DZr0
    isplitl [DZr1]; · iexact DZr1
    isplitl [DZr2]; · iexact DZr2
    iexact DZr3
  -- the staging buffer and the landing buffer whole again
  isplitl [PYs0' RS0 PYs1' RS1 PYs2' RS2 PYs3' RS3]
  · iexists (StageF m c)
    iapply (Entails.of_eq (stage_share c (StageF m c)).symm)
    unfold sep4
    isplitl [PYs0' RS0]
    · isplitl [PYs0']
      · iexact PYs0'
      · iexact RS0
    isplitl [PYs1' RS1]
    · isplitl [PYs1']
      · iexact PYs1'
      · iexact RS1
    isplitl [PYs2' RS2]
    · isplitl [PYs2']
      · iexact PYs2'
      · iexact RS2
    isplitl [PYs3']
    · iexact PYs3'
    · iexact RS3
  · iexists (LandF m c)
    iapply (Entails.of_eq (land_split c (LandF m c)).symm)
    unfold sep4
    isplitl [PXs0' PZs0' PlL0]
    · iapply (Entails.of_eq (lch_share c 0 (LandF m c)).symm)
      isplitl [PXs0']; · iexact PXs0'
      isplitl [PZs0']; · iexact PZs0'
      iexact PlL0
    isplitl [PXs1' PZs1' PlL1]
    · iapply (Entails.of_eq (lch_share c 1 (LandF m c)).symm)
      isplitl [PXs1']; · iexact PXs1'
      isplitl [PZs1']; · iexact PZs1'
      iexact PlL1
    isplitl [PXs2' PZs2' PlL2]
    · iapply (Entails.of_eq (lch_share c 2 (LandF m c)).symm)
      isplitl [PXs2']; · iexact PXs2'
      isplitl [PZs2']; · iexact PZs2'
      iexact PlL2
    iapply (Entails.of_eq (lch_share c 3 (LandF m c)).symm)
    isplitl [PXs3']; · iexact PXs3'
    isplitl [PZs3']; · iexact PZs3'
    iexact PlL3

end Cert.Kernel.A2A

end
-- ==== Proof.KA2A.Launch.lean ====
/-
  The launch: from "each device's body is proved" to the run of the whole program on the eight devices. The cells'
  invariants are allocated for all devices at once (every device pays into three neighbours' cells), the duty tokens
  dealt to the devices that pay them, the launch credit dealt to the cells' owners; at the end each device's rows and
  result are read back from its points-tos.
-/
import proofs.«900624_g7700000000000625_dist_a2a_v7x_xyz2x2x2_y_m512_n512_f32_1_alg».proof.Proof.KA2A.Body
import proofs.«900624_g7700000000000625_dist_a2a_v7x_xyz2x2x2_y_m512_n512_f32_1_alg».proof.Proof.KA2A.Credit
import Idealize.ShloMosaic.Lib.Pipeline.Launch
import Idealize.ShloMosaic.Lib.Pipeline.Kit

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the run ends in: on every device the result at `OutF` and the argument rows as launched. -/
def QC : PUnit × MemSt nD τ sig (Elt F) → Prop := fun r => ∀ c : Dev nD,
  r.2.mem ((c : Thread nD τ).loc main_v1) = OutF m c ∧ r.2.mem ((c : Thread nD τ).loc main_arg0) = m ((c : Thread nD τ).loc main_arg0)

/-! ## The initial linear state from its two parts -/

omit [FloatOps F] in
/-- Four arrival cells: each position and payer's token, with the cell's credit beside it. -/
private theorem fly4 (c p : Dev nD) (ix : Fin 4 → Fin 38) :
    iprop(sep4 (fun k => iprop(atPos ER (dcell c (ix k)) 0 ∅ 0 ∗ arrTok p (ix k))) ∗ sep4 (fun k => cred (tallyAt (dcell c (ix k)) () (amt (ix k)))))
      ⊢ (sep4 (fun k => iprop(flying c (ix k) ∗ arrTok p (ix k))) : sProp 𝕄) := by
  unfold sep4 flying
  iintro ⟨⟨⟨a0, t0⟩, ⟨a1, t1⟩, ⟨a2, t2⟩, a3, t3⟩, c0, c1, c2, c3⟩
  isplitl [a0 t0 c0]
  · isplitr [t0]
    · isplitl [a0] <;> iassumption
    · iexact t0
  isplitl [a1 t1 c1]
  · isplitr [t1]
    · isplitl [a1] <;> iassumption
    · iexact t1
  isplitl [a2 t2 c2]
  · isplitr [t2]
    · isplitl [a2] <;> iassumption
    · iexact t2
  isplitr [t3]
  · isplitl [a3] <;> iassumption
  · iexact t3

omit [FloatOps F] in
theorem lin₀_intro (c : Dev nD) : iprop(ghostLin c ∗ credsOf c) ⊢ (lin₀ c : sProp 𝕄) := by
  unfold ghostLin credsOf lin₀
  iintro ⟨⟨A, T0, T1, T2, F0, F1, S1, S2, S3, S4, S5, R1, R2, R3, R4⟩, C, Q1, Q2, Q3, Q4⟩
  isplitl [A]; · iexact A
  isplitl [C]; · iexact C
  isplitl [T0]; · iexact T0
  isplitl [T1]; · iexact T1
  isplitl [T2]; · iexact T2
  isplitl [F0]; · iexact F0
  isplitl [F1]; · iexact F1
  isplitl [S1]; · iexact S1
  isplitl [S2]; · iexact S2
  isplitl [S3]; · iexact S3
  isplitl [S4]; · iexact S4
  isplitl [S5]; · iexact S5
  isplitl [R1 Q1]
  · iapply (fly4 (F := F) c (yp c) iYr); isplitl [R1] <;> iassumption
  isplitl [R2 Q2]
  · iapply (fly4 (F := F) c (yp c) iDr); isplitl [R2] <;> iassumption
  isplitl [R3 Q3]
  · iapply (fly4 (F := F) c (xp c) iXr); isplitl [R3] <;> iassumption
  iapply (fly4 (F := F) c (zp c) iZr); isplitl [R4] <;> iassumption

/-! ## The kernel's own semaphores, the cells, the tokens -/

abbrev osem : Fin 38 → SemLoc sig := fun i => .dma (dsem i)

theorem ownSemFacts : Pipeline.OwnSemFacts cfg0.spec osem := by decide

private theorem share_eq (c : Dev nD) (w : Fin cfg0.W) : (dats m 0 c).share w = fullShare := w.elim0

private theorem kcell_injective : Function.Injective (kcell : Dev nD × Fin 39 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by
    unfold csem at h2
    by_cases hk : k.val < 38 <;> by_cases hk' : k'.val < 38
    · rw [dif_pos hk, dif_pos hk'] at h2
      have h3 : (⟨k.val, hk⟩ : Fin 38) = ⟨k'.val, hk'⟩ := SemLoc.dma.inj h2
      exact Fin.ext (Fin.mk.inj h3)
    · rw [dif_pos hk, dif_neg hk'] at h2; cases h2
    · rw [dif_neg hk, dif_pos hk'] at h2; cases h2
    · exact Fin.ext (by have := k.isLt; have := k'.isLt; omega)
  subst this; rfl
private def allCells : Finset (GSem nD τ sig) := Finset.univ.map ⟨kcell, kcell_injective⟩

/-- The duty tokens as minted, by device: its barrier cell's three, and one for each of its DMA cells. -/
private def tokOf (cj : Dev nD × (Fin 3 ⊕ Fin 38)) : GSem nD τ sig × ℕ × Fin 3 :=
  match cj.2 with
  | .inl d => (bcell cj.1, 0, d)
  | .inr i => (dcell cj.1 i, 0, 0)
private theorem tokOf_injective : Function.Injective (tokOf : Dev nD × (Fin 3 ⊕ Fin 38) → GSem nD τ sig × ℕ × Fin 3) := by
  rintro ⟨c, j⟩ ⟨c', j'⟩ h
  have h1 : c = c' := by
    have := congrArg (fun x : GSem nD τ sig × ℕ × Fin 3 => x.1.1.1) h
    rcases j with d | i <;> rcases j' with d' | i' <;> exact this
  subst h1
  rcases j with d | i <;> rcases j' with d' | i'
  · have : d = d' := congrArg (fun x : GSem nD τ sig × ℕ × Fin 3 => x.2.2) h
    subst this; rfl
  · exact absurd (congrArg (fun x : GSem nD τ sig × ℕ × Fin 3 => x.1.2) h) (fun h' => by cases h')
  · exact absurd (congrArg (fun x : GSem nD τ sig × ℕ × Fin 3 => x.1.2) h) (fun h' => by cases h')
  · have : i = i' := SemLoc.dma.inj (congrArg (fun x : GSem nD τ sig × ℕ × Fin 3 => x.1.2) h)
    subst this; rfl
private def allToks : Finset (GSem nD τ sig × ℕ × Fin 3) := Finset.univ.map ⟨tokOf, tokOf_injective⟩

private def u₀ : UU :=
  (initOf (Pipeline.cells cfgs cellOf_inj) (Pipeline.launchToks cfgs cellOf_inj), initOf allCells allToks)

/-- The duty tokens of device `c`'s own cells. -/
private def toks (c : Dev nD) : sProp 𝕄 :=
  iprop((bigSep Finset.univ fun d : Fin 3 => dutyTok ER (bcell c) 0 d) ∗ bigSep Finset.univ fun i : Fin 38 => dutyTok ER (dcell c i) 0 0)

/-- What the launch element deals device `c`. -/
private def G (c : Dev nD) : sProp 𝕄 :=
  iprop((bigSep Finset.univ fun k : Fin 39 => roundState ER (sched m) (kcell (c, k)) 0)
    ∗ (bigSep Finset.univ fun k : Fin 39 => iprop(atPos ER (kcell (c, k)) 0 ∅ 0 ∗ reached ER (kcell (c, k)) 0)) ∗ toks c)

/-- What the global step makes of it. -/
private def G' (c : Dev nD) : sProp 𝕄 := iprop(∃ K, records m K ∗ ghostLin c)

omit [FloatOps F] in
private theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The 39 cells of a device: its 38 DMA cells, then its barrier cell. -/
private theorem bigSep_fin39 (Φ : Fin 39 → sProp 𝕄) : bigSep Finset.univ Φ = iprop((bigSep Finset.univ fun i : Fin 38 => Φ (di i)) ∗ Φ bi) := by
  rw [bigSep_univ_equiv (finSumFinEquiv : Fin 38 ⊕ Fin 1 ≃ Fin 39) Φ, bigSep_univ_sum, bigSep_univ_of_subsingleton (0 : Fin 1)]
  rfl

private theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 39 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to the devices that pay them -/

omit [FloatOps F] in
/-- The 38 DMA semaphores are the kernel's own; -/
private theorem ownSems0_eq (c : Dev nD) : (Pipeline.ownSems0 (Ix := Unit) (Name := ℕ) (U := UU) (Lvl := ℕ) (Val := Elt F) (τ := τ) osem c : sProp 𝕄)
    = bigSep Finset.univ fun i : Fin 38 => semVal (dcell c i) 0 := rfl
omit [FloatOps F] in
/-- the barrier semaphore the launch's one unscoped semaphore. -/
private theorem unscopedSems0_eq (c : Dev nD) : (unscopedSems0 c : sProp 𝕄) = semVal (bcell c) 0 := by
  unfold unscopedSems0; rw [bigSep_eq_bigSepL_of_eq [SemLoc.reg barS] (by decide) (by decide)]; rfl

omit [FloatOps F] in
private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 39 => semVal (kcell (c, k)) 0 : sProp 𝕄) := by
  rw [ownSems0_eq, unscopedSems0_eq, bigSep_fin39]
  simp only [kcell_d, kcell_b]
  exact .rfl

private theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 39 => semVal (kcell (c, k)) 0) ∗ bigSep Finset.univ fun k : Fin 39 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Who pays a barrier duty: duty 0 the y-neighbour, duty 1 the x-neighbour, duty 2 the z-neighbour. -/
private def bpi (d : Fin 3) : Dev nD → Dev nD :=
  match d with
  | ⟨0, _⟩ => yp
  | ⟨1, _⟩ => xp
  | ⟨_ + 2, _⟩ => zp
private theorem bpi_bpi (d : Fin 3) (c : Dev nD) : bpi d (bpi d c) = c := by
  unfold bpi; split
  · exact yp_yp c
  · exact xp_xp c
  · exact zp_zp c
private def bpie (d : Fin 3) : Dev nD ≃ Dev nD := ⟨bpi d, bpi d, bpi_bpi d, bpi_bpi d⟩

/-- Who pays a DMA cell's duty: the y-neighbour the staged and the direct arrivals, the x-neighbour and the z-neighbour
    the arrivals of their forwards, the device itself every other. -/
private def dpi (i : Fin 38) : Dev nD → Dev nD :=
  if (10 ≤ i.val ∧ i.val < 14) ∨ (18 ≤ i.val ∧ i.val < 22) then yp
  else if 26 ≤ i.val ∧ i.val < 30 then xp
  else if 34 ≤ i.val then zp
  else id
private theorem dpi_dpi (i : Fin 38) (c : Dev nD) : dpi i (dpi i c) = c := by
  unfold dpi; split_ifs
  · exact yp_yp c
  · exact xp_xp c
  · exact zp_zp c
  · rfl
private def dpie (i : Fin 38) : Dev nD ≃ Dev nD := ⟨dpi i, dpi i, dpi_dpi i, dpi_dpi i⟩

/-- The tokens device `c` pays with. -/
private def payToks (c : Dev nD) : sProp 𝕄 :=
  iprop((bigSep Finset.univ fun d : Fin 3 => dutyTok ER (bcell (bpi d c)) 0 d) ∗ bigSep Finset.univ fun i : Fin 38 => dutyTok ER (dcell (dpi i c) i) 0 0)
/-- What stays with device `c`: its positions, and those tokens. -/
private def linear (c : Dev nD) : sProp 𝕄 :=
  iprop((bigSep Finset.univ fun k : Fin 39 => atPos ER (kcell (c, k)) 0 ∅ 0) ∗ payToks c)

omit [FloatOps F] in
/-- The tokens dealt along the three axes: each neighbour relation is an involution of the devices. -/
private theorem toks_around : (bigSep Finset.univ fun c : Dev nD => (toks c : sProp 𝕄)) ⊢ bigSep Finset.univ fun c : Dev nD => payToks c := by
  have hB : (bigSep Finset.univ fun c : Dev nD => bigSep Finset.univ fun d : Fin 3 => (dutyTok ER (bcell c) 0 d : sProp 𝕄))
      = bigSep Finset.univ fun c : Dev nD => bigSep Finset.univ fun d : Fin 3 => (dutyTok ER (bcell (bpi d c)) 0 d : sProp 𝕄) := by
    rw [BI.bigSep_univ_comm (fun (c : Dev nD) (d : Fin 3) => (dutyTok ER (bcell c) 0 d : sProp 𝕄)),
      BI.bigSep_univ_comm (fun (c : Dev nD) (d : Fin 3) => (dutyTok ER (bcell (bpi d c)) 0 d : sProp 𝕄))]
    exact bigSep_congr fun d _ => bigSep_univ_equiv (bpie d) (fun c : Dev nD => (dutyTok ER (bcell c) 0 d : sProp 𝕄))
  have hD : (bigSep Finset.univ fun c : Dev nD => bigSep Finset.univ fun i : Fin 38 => (dutyTok ER (dcell c i) 0 0 : sProp 𝕄))
      = bigSep Finset.univ fun c : Dev nD => bigSep Finset.univ fun i : Fin 38 => (dutyTok ER (dcell (dpi i c) i) 0 0 : sProp 𝕄) := by
    rw [BI.bigSep_univ_comm (fun (c : Dev nD) (i : Fin 38) => (dutyTok ER (dcell c i) 0 0 : sProp 𝕄)),
      BI.bigSep_univ_comm (fun (c : Dev nD) (i : Fin 38) => (dutyTok ER (dcell (dpi i c) i) 0 0 : sProp 𝕄))]
    exact bigSep_congr fun i _ => bigSep_univ_equiv (dpie i) (fun c : Dev nD => (dutyTok ER (dcell c i) 0 0 : sProp 𝕄))
  unfold toks payToks
  rw [bigSep_sep', bigSep_sep', hB, hD]

omit [FloatOps F] in
private theorem bigSep_fin38 (Φ : Fin 38 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37) :=
  bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37] : List (Fin 38)) (by decide) (by decide) Φ

/-- One DMA cell's share of a device's linear state: the cell's position, and the token of the cell this device pays
    at that index. -/
private def cellLin (c : Dev nD) (i : Fin 38) : sProp 𝕄 := iprop(atPos ER (dcell c i) 0 ∅ 0 ∗ dutyTok ER (dcell (dpi i c) i) 0 0)

omit [FloatOps F] in
private theorem lin_list (c : Dev nD) :
    iprop((bigSep Finset.univ fun i : Fin 38 => (atPos ER (dcell c i) 0 ∅ 0 : sProp 𝕄)) ∗ bigSep Finset.univ fun i : Fin 38 => (dutyTok ER (dcell (dpi i c) i) 0 0 : sProp 𝕄))
      ⊢ iprop(cellLin c 0 ∗ cellLin c 1 ∗ cellLin c 2 ∗ cellLin c 3 ∗ cellLin c 4 ∗ cellLin c 5 ∗ cellLin c 6 ∗ cellLin c 7 ∗ cellLin c 8 ∗ cellLin c 9 ∗ cellLin c 10 ∗ cellLin c 11 ∗ cellLin c 12 ∗ cellLin c 13 ∗ cellLin c 14 ∗ cellLin c 15 ∗ cellLin c 16 ∗ cellLin c 17 ∗ cellLin c 18 ∗ cellLin c 19 ∗ cellLin c 20 ∗ cellLin c 21 ∗ cellLin c 22 ∗ cellLin c 23 ∗ cellLin c 24 ∗ cellLin c 25 ∗ cellLin c 26 ∗ cellLin c 27 ∗ cellLin c 28 ∗ cellLin c 29 ∗ cellLin c 30 ∗ cellLin c 31 ∗ cellLin c 32 ∗ cellLin c 33 ∗ cellLin c 34 ∗ cellLin c 35 ∗ cellLin c 36 ∗ cellLin c 37) := by
  rw [← bigSep_sep']; exact Entails.of_eq (bigSep_fin38 (cellLin c))

omit [FloatOps F] in
/-- A device's positions and the tokens it pays with, cell by cell, are its linear ghost state. -/
private theorem lin_intro (c : Dev nD) : linear c ⊢ (ghostLin c : sProp 𝕄) := by
  unfold linear payToks
  rw [bigSep_fin39, bigSep_fin3]
  simp only [kcell_d, kcell_b]
  iintro ⟨⟨HA, HB⟩, ⟨T0, T1, T2⟩, HT⟩
  ihave H := (lin_list (F := F) c) $$ [HA HT]
  · isplitl [HA] <;> iassumption
  icases H with ⟨P0, P1, P2, P3, P4, P5, P6, P7, P8, P9, P10, P11, P12, P13, P14, P15, P16, P17, P18, P19, P20, P21, P22, P23, P24, P25, P26, P27, P28, P29, P30, P31, P32, P33, P34, P35, P36, P37⟩
  unfold ghostLin fresh arrTok sep4 cellLin
  isplitl [HB]; · iexact HB
  isplitl [T0]; · iexact T0
  isplitl [T1]; · iexact T1
  isplitl [T2]; · iexact T2
  isplitl [P0]; · iexact P0
  isplitl [P1]; · iexact P1
  isplitl [P2 P3 P4 P5]
  · isplitl [P2]; · iexact P2
    isplitl [P3]; · iexact P3
    isplitl [P4]; · iexact P4
    iexact P5
  isplitl [P6 P7 P8 P9]
  · isplitl [P6]; · iexact P6
    isplitl [P7]; · iexact P7
    isplitl [P8]; · iexact P8
    iexact P9
  isplitl [P14 P15 P16 P17]
  · isplitl [P14]; · iexact P14
    isplitl [P15]; · iexact P15
    isplitl [P16]; · iexact P16
    iexact P17
  isplitl [P22 P23 P24 P25]
  · isplitl [P22]; · iexact P22
    isplitl [P23]; · iexact P23
    isplitl [P24]; · iexact P24
    iexact P25
  isplitl [P30 P31 P32 P33]
  · isplitl [P30]; · iexact P30
    isplitl [P31]; · iexact P31
    isplitl [P32]; · iexact P32
    iexact P33
  isplitl [P10 P11 P12 P13]
  · isplitl [P10]; · iexact P10
    isplitl [P11]; · iexact P11
    isplitl [P12]; · iexact P12
    iexact P13
  isplitl [P18 P19 P20 P21]
  · isplitl [P18]; · iexact P18
    isplitl [P19]; · iexact P19
    isplitl [P20]; · iexact P20
    iexact P21
  isplitl [P26 P27 P28 P29]
  · isplitl [P26]; · iexact P26
    isplitl [P27]; · iexact P27
    isplitl [P28]; · iexact P28
    iexact P29
  isplitl [P34]; · iexact P34
  isplitl [P35]; · iexact P35
  isplitl [P36]; · iexact P36
  iexact P37

private theorem ghost_intro (K : Dev nD × Fin 39 → ℕ) (c : Dev nD) : iprop(records m K ∗ linear c) ⊢ G' m c := by
  unfold G'
  iintro ⟨#HR, Hl⟩
  iexists K
  isplitr; · iexact HR
  iapply (lin_intro (F := F) c); iexact Hl

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 39 => iprop(∃ κ : ℕ, cellInv ER (sched m) κ (kcell ck))),
    bigSep_congr (s := Finset.univ) (fun (c : Dev nD) _ => bigSep_sep' Finset.univ (fun k : Fin 39 => (atPos ER (kcell (c, k)) 0 ∅ 0 : sProp 𝕄)) (fun k => reached ER (kcell (c, k)) 0)),
    bigSep_sep', ← bigSep_univ_prod (fun ck : Dev nD × Fin 39 => (reached ER (kcell ck) 0 : sProp 𝕄))]
  iintro ⟨HI, ⟨Hat, #HR⟩, Htok⟩
  ihave HK := (BI.bigSep_exists_pi Finset.univ (fun (ck : Dev nD × Fin 39) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 39 => (atPos ER (kcell (c, k)) 0 ∅ 0 : sProp 𝕄)) payToks).symm)
    isplitl [Hat]; · iexact Hat
    iexact Htk

/-- The global step: own and unscoped semaphores of every device at once. -/
private theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

omit [FloatOps F] in
/-- A points-to through the whole of a buffer is the points-to of the buffer. -/
private theorem pts_x (c : Dev nD) (q : PosShare TreeShare) (f : Buf (Elt F) ((c : Thread nD τ).loc main_arg0)) :
    pts c xM q f = (((c : Thread nD τ).loc main_arg0) ↦{q} f : sProp 𝕄) := by
  unfold pts; rw [show (xM : Memref sig .tc .hbm S512x1024 .f32).view.set = Finset.univ from View.set_whole _]
omit [FloatOps F] in
private theorem pts_o (c : Dev nD) (q : PosShare TreeShare) (f : Buf (Elt F) ((c : Thread nD τ).loc main_v1)) :
    pts c oM q f = (((c : Thread nD τ).loc main_v1) ↦{q} f : sProp 𝕄) := by
  unfold pts; rw [show (oM : Memref sig .tc .hbm S1024x512 .f32).view.set = Finset.univ from View.set_whole _]
omit [FloatOps F] in
private theorem pts_s (c : Dev nD) (q : PosShare TreeShare) (f : Buf (Elt F) ((c : Thread nD τ).loc cc0_scratch0)) :
    pts c sM q f = (((c : Thread nD τ).loc cc0_scratch0) ↦{q} f : sProp 𝕄) := by
  unfold pts; rw [show (sM : Memref sig .tc .vmem S128x512 .f32).view.set = Finset.univ from View.set_whole _]
omit [FloatOps F] in
private theorem pts_l (c : Dev nD) (q : PosShare TreeShare) (f : Buf (Elt F) ((c : Thread nD τ).loc cc0_scratch1)) :
    pts c lM q f = (((c : Thread nD τ).loc cc0_scratch1) ↦{q} f : sProp 𝕄) := by
  unfold pts; rw [show (lM : Memref sig .tc .vmem S128x512 .f32).view.set = Finset.univ from View.set_whole _]

/-- What a device enters the region with, besides its scratch buffers. -/
private def start (c : Dev nD) : sProp 𝕄 :=
  iprop((∃ K, records m K ∗ lin₀ c) ∗ levAts L lv ∗ pts c xM fullShare (Xc m c) ∗ (∃ f, pts c oM fullShare f))
/-- What it leaves it with, besides its counters and its scratch buffers. -/
private def fin (c : Dev nD) : sProp 𝕄 := iprop(pts c xM fullShare (Xc m c) ∗ pts c oM fullShare (OutF m c))

private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Ho⟩, Hlev, Hcr, -, ⟨%K, HR, Hg⟩⟩
  ihave Hc := (creds (F := F) c) $$ Hcr
  imodintro
  unfold start
  isplitl
  · isplitl [HR Hg Hc]
    · iexists K
      isplitl [HR]; · iexact HR
      iapply (lin₀_intro (F := F) c); isplitl [Hg] <;> iassumption
    isplitl [Hlev]; · iexact Hlev
    isplitl [Hx]
    · iapply (Entails.of_eq (pts_x c fullShare (Xc m c)).symm); iexact Hx
    iexists (m ((c : Thread nD τ).loc main_v1))
    iapply (Entails.of_eq (pts_o c fullShare (m ((c : Thread nD τ).loc main_v1))).symm); iexact Ho
  · iempintro

private theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨⟨Hg, Hlev, Hx, Ho⟩, -, ⟨%fs, Hs⟩, ⟨%fl, Hl⟩⟩
  isplitl [Hg]; · iexact Hg
  isplitl [Hlev]; · iexact Hlev
  isplitl [Hx]; · iexact Hx
  isplitl [Ho]; · iexact Ho
  isplitl [Hs]
  · iexists fs; iapply (Entails.of_eq (pts_s c fullShare fs).symm); iexact Hs
  iexists fl; iapply (Entails.of_eq (pts_l c fullShare fl).symm); iexact Hl

private theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl, scopedRest0_eq, ownSems0_eq]
  unfold Φ₁ fin
  iintro ⟨Hx, Ho, Hd, ⟨%fs, Hs⟩, ⟨%fl, Hl⟩⟩
  isplitl [Hx Ho]
  · isplitl [Hx] <;> iassumption
  isplitl [Hd]; · iexact Hd
  isplitl [Hs]
  · iexists fs; iapply (Entails.of_eq (pts_s c fullShare fs)); iexact Hs
  iexists fl; iapply (Entails.of_eq (pts_l c fullShare fl)); iexact Hl

private theorem waits (c : Dev nD) : (levAts L lv : sProp 𝕄) ⊢ Pipeline.cellsWaits cfgs (dats m) () 0 c :=
  Pipeline.cellsWaits_intro cfgs (dats m) () 0 c fun w s t => w.elim0

private theorem cfg0_N : cfg0.N = 1 := by decide
private def t₀ : Fin cfg0.N := ⟨0, by rw [cfg0_N]; decide⟩
private theorem fin_N (t : Fin cfg0.N) : t = t₀ := by
  obtain ⟨t, ht⟩ := t; have := cfg0_N; exact Fin.ext (by simp only [t₀]; omega)

omit [FloatOps F] in
/-- No window: a `bigSep` over the windows is empty. -/
private theorem bigSep_W (Φ : Fin cfg0.W → sProp 𝕄) : bigSep Finset.univ Φ = iprop(emp) := by
  rw [Finset.univ_eq_empty, BI.bigSep_empty]; rfl

/-- The body obligation on device `c`: the body from the invariant before the one point to the invariant after it. -/
private theorem body_obligation (c : Dev nD) : BodyObligation (dats (F := F) m 0 c) (defs₀ (F := F)) 𝒱₀ () Set.univ := fun t => by
  rw [fin_N t]
  rw [bigSep_W, bigSep_W]
  show iprop(Φ₀ m c ∗ (dats m 0 c).owesAt () t₀.castSucc ∗ emp) ⊢ wp frame (wpE (defs₀ (F := F)) 𝒱₀ c none) Set.univ (bodyAt0 t₀)
    (fun _ => iprop(Φ₁ m c ∗ (dats m 0 c).owesAt () t₀.succ ∗ emp))
  unfold Dat.owesAt Pipeline.owesWithin
  rw [show (dats m 0 c).owed t₀.castSucc = O₀ c from rfl, show (dats m 0 c).owed t₀.succ = 0 from rfl]
  iintro ⟨HΦ, ⟨%W, -, HO⟩, -⟩
  iapply (body_spec m c fun _ => iprop(Φ₁ m c ∗ (∃ W : Waits sig Unit, ⌜(↑W : Set (SemLoc sig × Unit)) ⊆ (dats m 0 c).bound () t₀.succ⌝ ∗ owes (c : Thread nD τ) 0 W) ∗ emp))
  isplitl [HΦ]; · iexact HΦ
  isplitl [HO]
  · unfold owesAny; iexists W; iexact HO
  unfold owesAny
  iintro ⟨H1, %W', HO'⟩
  isplitl [H1]; · iexact H1
  isplitl [HO']
  · iexists W'
    isplitr; · ipureintro; exact fun _ _ => Or.inl trivial
    iexact HO'
  iempintro

/-- What is read off a device's final points-tos. -/
private def QY (c : Dev nD) (s : MemSt nD τ sig (Elt F)) : Prop :=
  s.mem ((c : Thread nD τ).loc main_v1) = OutF m c ∧ s.mem ((c : Thread nD τ).loc main_arg0) = m ((c : Thread nD τ).loc main_arg0)

private theorem read_fin (c : Dev nD) (s' : Phys nD τ sig (Elt F)) :
    iprop(fin m c ∗ (emp : sProp 𝕄) ∗ SI s') ⊢ |={Set.univ}=> iprop(⌜QY m c s'.mem⌝ ∗ SI s') := by
  unfold fin
  rw [pts_x, pts_o]
  iintro ⟨⟨Hx, Ho⟩, -, HSI⟩
  icombine HSI Hx gives %hx
  icombine HSI Ho gives %ho
  imodintro
  isplitr; · ipureintro; exact ⟨Buf.eq_of_forall_mem_univ ho, Buf.eq_of_forall_mem_univ hx⟩
  iexact HSI

/-! ## The run -/

set_option maxRecDepth 8000 in
/-- At the compiled mesh of eight devices, for any float values, from any memory with zero counters: every weakly fair
    execution of @main terminates, nothing faulting, every device's result at `OutF` and its rows unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fin m) (Z := fun _ => iprop(emp))
    (hX := start_intro m ρ) (hin := phi0_intro m) (hout := phi1_exit m)
    (QY := QY m)
    (hY := read_fin m)
    (hQ := fun s h c => (h c).2.2)

end Cert.Kernel.A2A

end
-- ==== Proof.A2A.Claim.lean ====
/-
  The claim from the kernel's run. The reference does nothing: its result is its argument. So the claim over the
  reals is that every device's result is its column block of the whole array of which the devices' rows are the row
  blocks — what the kernel's run ends in (`OutF`), read at such a memory (`OutF_block`).
-/
import proofs.«900624_g7700000000000625_dist_a2a_v7x_xyz2x2x2_y_m512_n512_f32_1_alg».proof.Defs
import proofs.«900624_g7700000000000625_dist_a2a_v7x_xyz2x2x2_y_m512_n512_f32_1_alg».proof.Proof.Gen.ReferenceIdeal
import proofs.«900624_g7700000000000625_dist_a2a_v7x_xyz2x2x2_y_m512_n512_f32_1_alg».proof.Proof.Gen.Pre_finite_inputs_Kernel
import proofs.«900624_g7700000000000625_dist_a2a_v7x_xyz2x2x2_y_m512_n512_f32_1_alg».proof.Proof.Gen.Pre_finite_inputs_ReferenceIdeal
import proofs.«900624_g7700000000000625_dist_a2a_v7x_xyz2x2x2_y_m512_n512_f32_1_alg».proof.Proof.A2A.Values
import Idealize.ShloMosaic.Adequacy
import Idealize.ShloMosaic.Init

noncomputable section

namespace Cert.Proof.A2AClaim

open Idealize.ShloMosaic Idealize.ShloMosaic.TcCoe Idealize.SL.Sem
open Cert.KernelIdeal.A2A

/-- The reference's signature scopes nothing. -/
private theorem scopedRefs_eq : (Finset.univ.filter fun b : Ref Cert.ReferenceIdeal.sig .tc => b.isScoped) = ∅ := by decide
private theorem scopedSems_eq : (Finset.univ.filter fun sm : SemLoc Cert.ReferenceIdeal.sig => sm.isScoped .tc) = ∅ := by decide

/-- The reference's machine has one location: its one device's one HBM buffer, the argument. -/
private theorem loc_all (P : Loc Cert.ReferenceIdeal.nD Cert.ReferenceIdeal.τ Cert.ReferenceIdeal.sig → Prop)
    (h : P (((0 : Dev Cert.ReferenceIdeal.nD).tc : Thread Cert.ReferenceIdeal.nD Cert.ReferenceIdeal.τ).loc Cert.ReferenceIdeal.main_arg0)) :
    ∀ ℓ, P ℓ := by
  rintro ⟨d, ⟨tb, i, u⟩⟩
  have hd : d = 0 := Fin.ext (by have h1 : d.val < 1 := d.isLt; show d.val = 0; omega)
  subst hd
  rcases tb with _ | _ | _ | ⟨κ, cs⟩
  · have hi : i = ⟨0, Nat.one_pos⟩ := Fin.ext (by have h1 : i.val < 1 := i.isLt; show i.val = 0; omega)
    subst hi
    exact h
  · exact i.elim0
  · exact i.elim0
  · cases κ <;> cases cs <;> exact i.elim0

/-- The reference's run: @main returns its argument untouched, so every fair execution ends at once with the memory
    as it was. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => r.2.mem = m') :=
  -- @main is the empty straight line: every buffer ends at the fold of no operation over its launch contents
  (θ_run (Cert.ReferenceIdeal.defs (F := Ideal)) _ _).mono
    (fun r h => funext (loc_all (fun ℓ => r.2.mem ℓ = m' ℓ) (h 0 Cert.ReferenceIdeal.main_arg0)))
    (StableHlo.run_seq scopedRefs_eq scopedSems_eq (Cert.ReferenceIdeal.defs (F := Ideal)) (Cert.ReferenceIdeal.main (F := Ideal))
      (fun _ => []) (fun _ => rfl) (fun _ => trivial) m' g')

theorem frame_ri : Cert.frame_ReferenceIdeal := by
  intro m g _
  exact (θ_run (Cert.ReferenceIdeal.defs (F := Ideal)) _ _).mono (fun r h c => by rw [h]) (ref_run m g)

/-- The idealized kernel's frame from its run. -/
theorem frame_ki_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c : Thread Cert.KernelIdeal.nD Cert.KernelIdeal.τ).loc Cert.KernelIdeal.main_v1) = OutF m c
          ∧ r.2.mem ((c : Thread Cert.KernelIdeal.nD Cert.KernelIdeal.τ).loc Cert.KernelIdeal.main_arg0) = m ((c : Thread Cert.KernelIdeal.nD Cert.KernelIdeal.τ).loc Cert.KernelIdeal.main_arg0))) :
    Cert.frame_KernelIdeal := by
  intro m g _
  exact (θ_run (Cert.KernelIdeal.defs (F := Ideal)) _ _).mono (fun r h c => (h c).2) (hrun m g)

/-- Equivalence over the reals from the idealized kernel's run. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c : Thread Cert.KernelIdeal.nD Cert.KernelIdeal.τ).loc Cert.KernelIdeal.main_v1) = OutF m c
          ∧ r.2.mem ((c : Thread Cert.KernelIdeal.nD Cert.KernelIdeal.τ).loc Cert.KernelIdeal.main_arg0) = m ((c : Thread Cert.KernelIdeal.nD Cert.KernelIdeal.τ).loc Cert.KernelIdeal.main_arg0))) :
    Cert.algebraic_KernelIdeal_ReferenceIdeal := by
  intro m g m' g' hpre hagree
  -- the whole array is the reference's argument, which is also its result
  refine ⟨m' (((0 : Dev Cert.ReferenceIdeal.nD).tc : Thread Cert.ReferenceIdeal.nD Cert.ReferenceIdeal.τ).loc Cert.ReferenceIdeal.main_arg0), ?_, ?_⟩
  · -- every device's rows are its row block of that array, so its result is its column block of it
    exact (θ_run (Cert.KernelIdeal.defs (F := Ideal)) _ _).mono
      (fun r h c => ⟨(h c).1.trans (OutF_block m _ (fun d => hagree d) c), (h c).2⟩) (hrun m g)
  · exact (θ_run (Cert.ReferenceIdeal.defs (F := Ideal)) _ _).mono (fun r h => by rw [h]; exact ⟨rfl, rfl⟩) (ref_run m' g')

end Cert.Proof.A2AClaim

end
-- ==== Proof.lean ====
/-
  An all-to-all over a 2 x 2 x 2 mesh against the identity: each of the eight devices holds a row half of a
  1024 x 1024 array and must end with a column half of it. Half of what a device needs it already has (one local
  copy); the other half is held across the y axis and reaches it in four quarters: one staged by its y-peer and sent
  in chunks into a landing buffer, from which each chunk is copied into the result and forwarded across x and across z;
  one sent by the y-peer directly; and the two its x-peer and its z-peer forward. The devices first exchange entry
  signals, each handing its neighbours the elements of its buffers they will write; every copy's completion hands
  the device that waits for it the elements written, at their final contents. So every fair execution terminates, the
  argument rows end unchanged, and each device's result ends as a pure function of the devices' rows (Proof/A2A/, at
  any float instance; Proof/KA2A/ the same text for the word-level program). The reference returns its argument: so over
  the reals the claim is that this function, at rows that are the row blocks of one array, is that array's column
  block (Proof/A2A/Values.lean, Proof/A2A/Claim.lean). The ideal pass rewrote nothing: `preserves` is `True`.
-/
import proofs.«900624_g7700000000000625_dist_a2a_v7x_xyz2x2x2_y_m512_n512_f32_1_alg».proof.Defs
import proofs.«900624_g7700000000000625_dist_a2a_v7x_xyz2x2x2_y_m512_n512_f32_1_alg».proof.Proof.Gen.Kernel
import proofs.«900624_g7700000000000625_dist_a2a_v7x_xyz2x2x2_y_m512_n512_f32_1_alg».proof.Proof.Gen.Kernel.Skeleton
import proofs.«900624_g7700000000000625_dist_a2a_v7x_xyz2x2x2_y_m512_n512_f32_1_alg».proof.Proof.Gen.Kernel.Launch
import proofs.«900624_g7700000000000625_dist_a2a_v7x_xyz2x2x2_y_m512_n512_f32_1_alg».proof.Proof.Gen.Kernel.Points
import proofs.«900624_g7700000000000625_dist_a2a_v7x_xyz2x2x2_y_m512_n512_f32_1_alg».proof.Proof.Gen.Kernel.Frame
import proofs.«900624_g7700000000000625_dist_a2a_v7x_xyz2x2x2_y_m512_n512_f32_1_alg».proof.Proof.Gen.KernelIdeal
import proofs.«900624_g7700000000000625_dist_a2a_v7x_xyz2x2x2_y_m512_n512_f32_1_alg».proof.Proof.Gen.KernelIdeal.Skeleton
import proofs.«900624_g7700000000000625_dist_a2a_v7x_xyz2x2x2_y_m512_n512_f32_1_alg».proof.Proof.Gen.KernelIdeal.Launch
import proofs.«900624_g7700000000000625_dist_a2a_v7x_xyz2x2x2_y_m512_n512_f32_1_alg».proof.Proof.Gen.KernelIdeal.Points
import proofs.«900624_g7700000000000625_dist_a2a_v7x_xyz2x2x2_y_m512_n512_f32_1_alg».proof.Proof.Gen.KernelIdeal.Frame
import proofs.«900624_g7700000000000625_dist_a2a_v7x_xyz2x2x2_y_m512_n512_f32_1_alg».proof.Proof.Gen.ReferenceIdeal
import proofs.«900624_g7700000000000625_dist_a2a_v7x_xyz2x2x2_y_m512_n512_f32_1_alg».proof.Proof.Gen.Pre_finite_inputs_Kernel
import proofs.«900624_g7700000000000625_dist_a2a_v7x_xyz2x2x2_y_m512_n512_f32_1_alg».proof.Proof.Gen.Pre_finite_inputs_ReferenceIdeal
import proofs.«900624_g7700000000000625_dist_a2a_v7x_xyz2x2x2_y_m512_n512_f32_1_alg».proof.Proof.A2A.Launch
import proofs.«900624_g7700000000000625_dist_a2a_v7x_xyz2x2x2_y_m512_n512_f32_1_alg».proof.Proof.KA2A.Launch
import proofs.«900624_g7700000000000625_dist_a2a_v7x_xyz2x2x2_y_m512_n512_f32_1_alg».proof.Proof.A2A.Claim
import Idealize.ShloMosaic.Adequacy
import Idealize.ShloMosaic.Init

noncomputable section

namespace Cert.Proof

open Idealize.ShloMosaic Idealize.SL.Sem Cert.Kernel

/-- The word-level program runs and leaves its argument rows unchanged: its run with the result's value dropped. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2) (Cert.Kernel.A2A.run_main (F := Bits) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k,
  Cert.Proof.A2AClaim.frame_ki_of (fun m ρ => Cert.KernelIdeal.A2A.run_main (F := Ideal) m ρ),
  Cert.Proof.A2AClaim.frame_ri,
  trivial,
  Cert.Proof.A2AClaim.algebraic_of (fun m ρ => Cert.KernelIdeal.A2A.run_main (F := Ideal) m ρ)⟩

end Cert.Proof

end
